-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x400000 : Shape := ⟨2, ![2, 400000]⟩
abbrev S400000x4 : Shape := ⟨2, ![400000, 4]⟩
abbrev S50000x3 : Shape := ⟨2, ![50000, 3]⟩
abbrev S4x32 : Shape := ⟨2, ![4, 32]⟩
abbrev S32 : Shape := ⟨1, ![32]⟩
abbrev S32x32 : Shape := ⟨2, ![32, 32]⟩
abbrev S100x32 : Shape := ⟨2, ![100, 32]⟩
abbrev S192x32 : Shape := ⟨2, ![192, 32]⟩
abbrev S32x4 : Shape := ⟨2, ![32, 4]⟩
abbrev S4 : Shape := ⟨1, ![4]⟩
abbrev S32x1 : Shape := ⟨2, ![32, 1]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S400000x4 : S_.BroadcastsInDim S400000x4 (![] : Fin 0 → Fin S400000x4.rank)
  reducesTo_S400000x4_S_d0_1 : S400000x4.ReducesTo [0, 1] S_
  bcast_S_S50000x3 : S_.BroadcastsInDim S50000x3 (![] : Fin 0 → Fin S50000x3.rank)
  reducesTo_S50000x3_S_d0_1 : S50000x3.ReducesTo [0, 1] S_
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S100x32 : S_.BroadcastsInDim S100x32 (![] : Fin 0 → Fin S100x32.rank)
  reducesTo_S100x32_S_d0_1 : S100x32.ReducesTo [0, 1] S_
  bcast_S_S192x32 : S_.BroadcastsInDim S192x32 (![] : Fin 0 → Fin S192x32.rank)
  reducesTo_S192x32_S_d0_1 : S192x32.ReducesTo [0, 1] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x400000 : S_.BroadcastsInDim S2x400000 (![] : Fin 0 → Fin S2x400000.rank)
  reducesTo_S2x400000_S_d0_1 : S2x400000.ReducesTo [0, 1] S_

variable [Facts]

def fn_part8 {F : FTy → Type} [FloatOps F] (main_arg1 : IVec S2x400000 32) (main_v133 : IVec S_ 1) (main_v135 : IVec S2x400000 1) (main_c_53 : IVec S_ 32) : IVec S_ 1 :=
  let main_v136 : IVec S2x400000 32 := broadcastInDim S2x400000 ![] bcast_S_S2x400000 main_c_53
  let main_v137 : IVec S2x400000 1 := cmpi .slt main_arg1 main_v136
  let main_v138 : IVec S2x400000 1 := andi main_v135 main_v137
  let main_c_54 : IVec S_ 1 := constantI S_ 1 1#1
  let main_v139 : IVec S_ 1 := (fun x v => Host.reduce IntOp.andi x v reducesTo_S2x400000_S_d0_1 h_S_) main_v138 main_c_54
  let main_v140 : IVec S_ 1 := andi main_v133 main_v139
  main_v140

def fn_part7 {F : FTy → Type} [FloatOps F] (main_arg1 : IVec S2x400000 32) (main_arg26 : FVec F S32x1 .f32) (main_arg27 : FVec F S1 .f32) (main_v118 : IVec S_ 1) (main_v119 : FVec F S4 .f32) : IVec S_ 1 :=
  let main_cst_46 : FVec F S_ .f32 := constant S_ .f32 0x7F800000#32
  let main_v120 : FVec F S4 .f32 := broadcastInDim S4 ![] bcast_S_S4 main_cst_46
  let main_v121 : IVec S4 1 := cmpf .olt main_v119 main_v120
  let main_c_47 : IVec S_ 1 := constantI S_ 1 1#1
  let main_v122 : IVec S_ 1 := (fun x v => Host.reduce IntOp.andi x v reducesTo_S4_S_d0 h_S_) main_v121 main_c_47
  let main_v123 : IVec S_ 1 := andi main_v118 main_v122
  let main_v124 : FVec F S32x1 .f32 := Host.absf main_arg26
  let main_cst_48 : FVec F S_ .f32 := constant S_ .f32 0x7F800000#32
  let main_v125 : FVec F S32x1 .f32 := broadcastInDim S32x1 ![] bcast_S_S32x1 main_cst_48
  let main_v126 : IVec S32x1 1 := cmpf .olt main_v124 main_v125
  let main_c_49 : IVec S_ 1 := constantI S_ 1 1#1
  let main_v127 : IVec S_ 1 := (fun x v => Host.reduce IntOp.andi x v reducesTo_S32x1_S_d0_1 h_S_) main_v126 main_c_49
  let main_v128 : IVec S_ 1 := andi main_v123 main_v127
  let main_v129 : FVec F S1 .f32 := Host.absf main_arg27
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  let main_c_52 : IVec S_ 32 := constantI S_ 32 0#32
  let main_v134 : IVec S2x400000 32 := broadcastInDim S2x400000 ![] bcast_S_S2x400000 main_c_52
  let main_v135 : IVec S2x400000 1 := cmpi .sge main_arg1 main_v134
  let main_c_53 : IVec S_ 32 := constantI S_ 32 50000#32
  fn_part8 (F := F) main_arg1 main_v133 main_v135 main_c_53

def fn_part6 {F : FTy → Type} [FloatOps F] (main_arg1 : IVec S2x400000 32) (main_arg22 : FVec F S32x32 .f32) (main_arg23 : FVec F S32 .f32) (main_arg24 : FVec F S32x4 .f32) (main_arg25 : FVec F S4 .f32) (main_arg26 : FVec F S32x1 .f32) (main_arg27 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x32 .f32 := Host.absf main_arg22
  let main_cst_40 : FVec F S_ .f32 := constant S_ .f32 0x7F800000#32
  let main_v105 : FVec F S32x32 .f32 := broadcastInDim S32x32 ![] bcast_S_S32x32 main_cst_40
  let main_v106 : IVec S32x32 1 := cmpf .olt main_v104 main_v105
  let main_c_41 : IVec S_ 1 := constantI S_ 1 1#1
  let main_v107 : IVec S_ 1 := (fun x v => Host.reduce IntOp.andi x v reducesTo_S32x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x4 .f32 := Host.absf main_arg24
  let main_cst_44 : FVec F S_ .f32 := constant S_ .f32 0x7F800000#32
  let main_v115 : FVec F S32x4 .f32 := broadcastInDim S32x4 ![] bcast_S_S32x4 main_cst_44
  let main_v116 : IVec S32x4 1 := cmpf .olt main_v114 main_v115
  let main_c_45 : IVec S_ 1 := constantI S_ 1 1#1
  let main_v117 : IVec S_ 1 := (fun x v => Host.reduce IntOp.andi x v reducesTo_S32x4_S_d0_1 h_S_) main_v116 main_c_45
  let main_v118 : IVec S_ 1 := andi main_v113 main_v117
  let main_v119 : FVec F S4 .f32 := Host.absf main_arg25
  fn_part7 (F := F) main_arg1 main_arg26 main_arg27 main_v118 main_v119

def fn_part5 {F : FTy → Type} [FloatOps F] (main_arg1 : IVec S2x400000 32) (main_arg19 : FVec F S32 .f32) (main_arg20 : FVec F S32x32 .f32) (main_arg21 : FVec F S32 .f32) (main_arg22 : FVec F S32x32 .f32) (main_arg23 : FVec F S32 .f32) (main_arg24 : FVec F S32x4 .f32) (main_arg25 : FVec F S4 .f32) (main_arg26 : FVec F S32x1 .f32) (main_arg27 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg20
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg1 main_arg22 main_arg23 main_arg24 main_arg25 main_arg26 main_arg27 main_v98 main_v101 main_c_39

def fn_part4 {F : FTy → Type} [FloatOps F] (main_arg1 : IVec S2x400000 32) (main_arg15 : FVec F S32 .f32) (main_arg16 : FVec F S192x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x4 .f32) (main_arg25 : FVec F S4 .f32) (main_arg26 : FVec F S32x1 .f32) (main_arg27 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S192x32 .f32 := Host.absf main_arg16
  let main_cst_28 : FVec F S_ .f32 := constant S_ .f32 0x7F800000#32
  let main_v75 : FVec F S192x32 .f32 := broadcastInDim S192x32 ![] bcast_S_S192x32 main_cst_28
  let main_v76 : IVec S192x32 1 := cmpf .olt main_v74 main_v75
  let main_c_29 : IVec S_ 1 := constantI S_ 1 1#1
  let main_v77 : IVec S_ 1 := (fun x v => Host.reduce IntOp.andi x v reducesTo_S192x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_arg27 main_v83 main_v84 main_cst_32

def fn_part3 {F : FTy → Type} [FloatOps F] (main_arg1 : IVec S2x400000 32) (main_arg12 : FVec F S192x32 .f32) (main_arg13 : FVec F S32 .f32) (main_arg14 : FVec F S32x32 .f32) (main_arg15 : FVec F S32 .f32) (main_arg16 : FVec F S192x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x4 .f32) (main_arg25 : FVec F S4 .f32) (main_arg26 : FVec F S32x1 .f32) (main_arg27 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S192x32 .f32 := Host.absf main_arg12
  let main_cst_20 : FVec F S_ .f32 := constant S_ .f32 0x7F800000#32
  let main_v55 : FVec F S192x32 .f32 := broadcastInDim S192x32 ![] bcast_S_S192x32 main_cst_20
  let main_v56 : IVec S192x32 1 := cmpf .olt main_v54 main_v55
  let main_c_21 : IVec S_ 1 := constantI S_ 1 1#1
  let main_v57 : IVec S_ 1 := (fun x v => Host.reduce IntOp.andi x v reducesTo_S192x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg1 main_arg15 main_arg16 main_arg17 main_arg18 main_arg19 main_arg20 main_arg21 main_arg22 main_arg23 main_arg24 main_arg25 main_arg26 main_arg27 main_v63 main_v67

def fn_part2 {F : FTy → Type} [FloatOps F] (main_arg1 : IVec S2x400000 32) (main_arg8 : FVec F S100x32 .f32) (main_arg9 : FVec F S32 .f32) (main_arg10 : FVec F S32x32 .f32) (main_arg11 : FVec F S32 .f32) (main_arg12 : FVec F S192x32 .f32) (main_arg13 : FVec F S32 .f32) (main_arg14 : FVec F S32x32 .f32) (main_arg15 : FVec F S32 .f32) (main_arg16 : FVec F S192x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x4 .f32) (main_arg25 : FVec F S4 .f32) (main_arg26 : FVec F S32x1 .f32) (main_arg27 : FVec F S1 .f32) (main_v33 : IVec S_ 1) : IVec S_ 1 :=
  let main_v34 : FVec F S100x32 .f32 := Host.absf main_arg8
  let main_cst_12 : FVec F S_ .f32 := constant S_ .f32 0x7F800000#32
  let main_v35 : FVec F S100x32 .f32 := broadcastInDim S100x32 ![] bcast_S_S100x32 main_cst_12
  let main_v36 : IVec S100x32 1 := cmpf .olt main_v34 main_v35
  let main_c_13 : IVec S_ 1 := constantI S_ 1 1#1
  let main_v37 : IVec S_ 1 := (fun x v => Host.reduce IntOp.andi x v reducesTo_S100x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg1 : IVec S2x400000 32) (main_arg5 : FVec F S32 .f32) (main_arg6 : FVec F S32x32 .f32) (main_arg7 : FVec F S32 .f32) (main_arg8 : FVec F S100x32 .f32) (main_arg9 : FVec F S32 .f32) (main_arg10 : FVec F S32x32 .f32) (main_arg11 : FVec F S32 .f32) (main_arg12 : FVec F S192x32 .f32) (main_arg13 : FVec F S32 .f32) (main_arg14 : FVec F S32x32 .f32) (main_arg15 : FVec F S32 .f32) (main_arg16 : FVec F S192x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x4 .f32) (main_arg25 : FVec F S4 .f32) (main_arg26 : FVec F S32x1 .f32) (main_arg27 : FVec F S1 .f32) (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x4 .f32) (main_arg1 : IVec S2x400000 32) (main_arg2 : FVec F S400000x4 .f32) (main_arg3 : FVec F S50000x3 .f32) (main_arg4 : FVec F S4x32 .f32) (main_arg5 : FVec F S32 .f32) (main_arg6 : FVec F S32x32 .f32) (main_arg7 : FVec F S32 .f32) (main_arg8 : FVec F S100x32 .f32) (main_arg9 : FVec F S32 .f32) (main_arg10 : FVec F S32x32 .f32) (main_arg11 : FVec F S32 .f32) (main_arg12 : FVec F S192x32 .f32) (main_arg13 : FVec F S32 .f32) (main_arg14 : FVec F S32x32 .f32) (main_arg15 : FVec F S32 .f32) (main_arg16 : FVec F S192x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x4 .f32) (main_arg25 : FVec F S4 .f32) (main_arg26 : FVec F S32x1 .f32) (main_arg27 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S400000x4 .f32 := Host.absf main_arg2
  let main_cst_0 : FVec F S_ .f32 := constant S_ .f32 0x7F800000#32
  let main_v5 : FVec F S400000x4 .f32 := broadcastInDim S400000x4 ![] bcast_S_S400000x4 main_cst_0
  let main_v6 : IVec S400000x4 1 := cmpf .olt main_v4 main_v5
  let main_c_1 : IVec S_ 1 := constantI S_ 1 1#1
  let main_v7 : IVec S_ 1 := (fun x v => Host.reduce IntOp.andi x v reducesTo_S400000x4_S_d0_1 h_S_) main_v6 main_c_1
  let main_v8 : IVec S_ 1 := andi main_v3 main_v7
  let main_v9 : FVec F S50000x3 .f32 := Host.absf main_arg3
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S4x32 .f32 := Host.absf main_arg4
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x4 : Shape := ⟨2, ![50000, 4]⟩
abbrev S2x400000 : Shape := ⟨2, ![2, 400000]⟩
abbrev S400000x4 : Shape := ⟨2, ![400000, 4]⟩
abbrev S50000x3 : Shape := ⟨2, ![50000, 3]⟩
abbrev S4x32 : Shape := ⟨2, ![4, 32]⟩
abbrev S32 : Shape := ⟨1, ![32]⟩
abbrev S32x32 : Shape := ⟨2, ![32, 32]⟩
abbrev S100x32 : Shape := ⟨2, ![100, 32]⟩
abbrev S192x32 : Shape := ⟨2, ![192, 32]⟩
abbrev S32x4 : Shape := ⟨2, ![32, 4]⟩
abbrev S4 : Shape := ⟨1, ![4]⟩
abbrev S32x1 : Shape := ⟨2, ![32, 1]⟩
abbrev S1 : Shape := ⟨1, ![1]⟩
abbrev S1x400000 : Shape := ⟨2, ![1, 400000]⟩
abbrev S400000 : Shape := ⟨1, ![400000]⟩
abbrev S1x32 : Shape := ⟨2, ![1, 32]⟩
abbrev S400000x32 : Shape := ⟨2, ![400000, 32]⟩
abbrev S8000x4 : Shape := ⟨2, ![8000, 4]⟩
abbrev S8000x32 : Shape := ⟨2, ![8000, 32]⟩
abbrev S_ : Shape := ⟨0, ![]⟩
abbrev S400000x1 : Shape := ⟨2, ![400000, 1]⟩
abbrev S50000x1 : Shape := ⟨2, ![50000, 1]⟩
abbrev S50000x32 : Shape := ⟨2, ![50000, 32]⟩
abbrev S50000x64 : Shape := ⟨2, ![50000, 64]⟩
abbrev S400000x64 : Shape := ⟨2, ![400000, 64]⟩
abbrev S64x32 : Shape := ⟨2, ![64, 32]⟩
abbrev S8000x64 : Shape := ⟨2, ![8000, 64]⟩
abbrev S1x4 : Shape := ⟨2, ![1, 4]⟩
abbrev S1x1 : Shape := ⟨2, ![1, 1]⟩
abbrev S400000x8 : Shape := ⟨2, ![400000, 8]⟩
abbrev S8000x8 : Shape := ⟨2, ![8000, 8]⟩
abbrev S8000 : Shape := ⟨1, ![8000]⟩
abbrev S8000x1 : Shape := ⟨2, ![8000, 1]⟩
abbrev S8000x3 : Shape := ⟨2, ![8000, 3]⟩

abbrev nBuf : Space → Nat
  | .hbm => 112
  | .vmem => 69
  | .smem => 0
  | _ => 0

abbrev bufTy : (tb : Table) → Fin (tcTables nBuf tb) → BufTy
  | .hbm, ⟨0, _⟩ => ⟨S50000x4, .f32⟩
  | .hbm, ⟨1, _⟩ => ⟨S2x400000, .i32⟩
  | .hbm, ⟨2, _⟩ => ⟨S400000x4, .f32⟩
  | .hbm, ⟨3, _⟩ => ⟨S50000x3, .f32⟩
  | .hbm, ⟨4, _⟩ => ⟨S4x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S100x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S192x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S192x32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S32x32, .f32⟩
  | .hbm, ⟨21, _⟩ => ⟨S32, .f32⟩
  | .hbm, ⟨22, _⟩ => ⟨S32x32, .f32⟩
  | .hbm, ⟨23, _⟩ => ⟨S32, .f32⟩
  | .hbm, ⟨24, _⟩ => ⟨S32x4, .f32⟩
  | .hbm, ⟨25, _⟩ => ⟨S4, .f32⟩
  | .hbm, ⟨26, _⟩ => ⟨S32x1, .f32⟩
  | .hbm, ⟨27, _⟩ => ⟨S1, .f32⟩
  | .hbm, ⟨28, _⟩ => ⟨S1x400000, .i32⟩
  | .hbm, ⟨29, _⟩ => ⟨S400000, .i32⟩
  | .hbm, ⟨30, _⟩ => ⟨S1x400000, .i32⟩
  | .hbm, ⟨31, _⟩ => ⟨S400000, .i32⟩
  | .hbm, ⟨32, _⟩ => ⟨S1x32, .f32⟩
  | .hbm, ⟨33, _⟩ => ⟨S1x32, .f32⟩
  | .hbm, ⟨34, _⟩ => ⟨S400000x32, .f32⟩
  | .hbm, ⟨35, _⟩ => ⟨S_, .f32⟩
  | .hbm, ⟨36, _⟩ => ⟨S400000x1, .f32⟩
  | .hbm, ⟨37, _⟩ => ⟨S_, .f32⟩
  | .hbm, ⟨38, _⟩ => ⟨S50000x1, .f32⟩
  | .hbm, ⟨39, _⟩ => ⟨S400000x1, .i32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x32, .f32⟩
  | .hbm, ⟨46, _⟩ => ⟨S400000x1, .i32⟩
  | .hbm, ⟨47, _⟩ => ⟨S50000x32, .f32⟩
  | .hbm, ⟨48, _⟩ => ⟨S50000x32, .f32⟩
  | .hbm, ⟨49, _⟩ => ⟨S50000x32, .f32⟩
  | .hbm, ⟨50, _⟩ => ⟨S_, .f32⟩
  | .hbm, ⟨51, _⟩ => ⟨S50000x32, .f32⟩
  | .hbm, ⟨52, _⟩ => ⟨S50000x32, .f32⟩
  | .hbm, ⟨53, _⟩ => ⟨S400000x1, .i32⟩
  | .hbm, ⟨54, _⟩ => ⟨S400000x32, .f32⟩
  | .hbm, ⟨55, _⟩ => ⟨S400000x1, .i32⟩
  | .hbm, ⟨56, _⟩ => ⟨S400000x32, .f32⟩
  | .hbm, ⟨57, _⟩ => ⟨S32x32, .f32⟩
  | .hbm, ⟨58, _⟩ => ⟨S32x32, .f32⟩
  | .hbm, ⟨59, _⟩ => ⟨S4x32, .f32⟩
  | .hbm, ⟨60, _⟩ => ⟨S32x32, .f32⟩
  | .hbm, ⟨61, _⟩ => ⟨S1x32, .f32⟩
  | .hbm, ⟨62, _⟩ => ⟨S1x32, .f32⟩
  | .hbm, ⟨63, _⟩ => ⟨S400000x32, .f32⟩
  | .hbm, ⟨64, _⟩ => ⟨S_, .f32⟩
  | .hbm, ⟨65, _⟩ => ⟨S50000x32, .f32⟩
  | .hbm, ⟨66, _⟩ => ⟨S400000x1, .i32⟩
  | .hbm, ⟨67, _⟩ => ⟨S50000x32, .f32⟩
  | .hbm, ⟨68, _⟩ => ⟨S50000x32, .f32⟩
  | .hbm, ⟨69, _⟩ => ⟨S50000x32, .f32⟩
  | .hbm, ⟨70, _⟩ => ⟨S_, .f32⟩
  | .hbm, ⟨71, _⟩ => ⟨S50000x32, .f32⟩
  | .hbm, ⟨72, _⟩ => ⟨S50000x32, .f32⟩
  | .hbm, ⟨73, _⟩ => ⟨S50000x64, .f32⟩
  | .hbm, ⟨74, _⟩ => ⟨S400000x1, .i32⟩
  | .hbm, ⟨75, _⟩ => ⟨S400000x64, .f32⟩
  | .hbm, ⟨76, _⟩ => ⟨S400000x1, .i32⟩
  | .hbm, ⟨77, _⟩ => ⟨S400000x64, .f32⟩
  | .hbm, ⟨78, _⟩ => ⟨S64x32, .f32⟩
  | .hbm, ⟨79, _⟩ => ⟨S64x32, .f32⟩
  | .hbm, ⟨80, _⟩ => ⟨S32x32, .f32⟩
  | .hbm, ⟨81, _⟩ => ⟨S32x32, .f32⟩
  | .hbm, ⟨82, _⟩ => ⟨S1x32, .f32⟩
  | .hbm, ⟨83, _⟩ => ⟨S1x32, .f32⟩
  | .hbm, ⟨84, _⟩ => ⟨S400000x32, .f32⟩
  | .hbm, ⟨85, _⟩ => ⟨S_, .f32⟩
  | .hbm, ⟨86, _⟩ => ⟨S50000x32, .f32⟩
  | .hbm, ⟨87, _⟩ => ⟨S400000x1, .i32⟩
  | .hbm, ⟨88, _⟩ => ⟨S50000x32, .f32⟩
  | .hbm, ⟨89, _⟩ => ⟨S50000x32, .f32⟩
  | .hbm, ⟨90, _⟩ => ⟨S50000x32, .f32⟩
  | .hbm, ⟨91, _⟩ => ⟨S_, .f32⟩
  | .hbm, ⟨92, _⟩ => ⟨S50000x32, .f32⟩
  | .hbm, ⟨93, _⟩ => ⟨S50000x32, .f32⟩
  | .hbm, ⟨94, _⟩ => ⟨S50000x64, .f32⟩
  | .hbm, ⟨95, _⟩ => ⟨S400000x1, .i32⟩
  | .hbm, ⟨96, _⟩ => ⟨S400000x64, .f32⟩
  | .hbm, ⟨97, _⟩ => ⟨S400000x1, .i32⟩
  | .hbm, ⟨98, _⟩ => ⟨S400000x64, .f32⟩
  | .hbm, ⟨99, _⟩ => ⟨S64x32, .f32⟩
  | .hbm, ⟨100, _⟩ => ⟨S64x32, .f32⟩
  | .hbm, ⟨101, _⟩ => ⟨S32x32, .f32⟩
  | .hbm, ⟨102, _⟩ => ⟨S32x32, .f32⟩
  | .hbm, ⟨103, _⟩ => ⟨S1x32, .f32⟩
  | .hbm, ⟨104, _⟩ => ⟨S1x32, .f32⟩
  | .hbm, ⟨105, _⟩ => ⟨S1x32, .f32⟩
  | .hbm, ⟨106, _⟩ => ⟨S1x32, .f32⟩
  | .hbm, ⟨107, _⟩ => ⟨S1x4, .f32⟩
  | .hbm, ⟨108, _⟩ => ⟨S1x1, .f32⟩
  | .hbm, ⟨109, _⟩ => ⟨S400000x8, .f32⟩
  | .hbm, ⟨110, _⟩ => ⟨S400000x4, .f32⟩
  | .hbm, ⟨111, _⟩ => ⟨S400000x1, .f32⟩
  | .local _ .vmem, ⟨0, _⟩ => ⟨S8000x4, .f32⟩
  | .local _ .vmem, ⟨1, _⟩ => ⟨S8000x4, .f32⟩
  | .local _ .vmem, ⟨2, _⟩ => ⟨S4x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S8000x4, .f32⟩
  | .local _ .vmem, ⟨13, _⟩ => ⟨S8000x4, .f32⟩
  | .local _ .vmem, ⟨14, _⟩ => ⟨S8000x32, .f32⟩
  | .local _ .vmem, ⟨15, _⟩ => ⟨S8000x32, .f32⟩
  | .local _ .vmem, ⟨16, _⟩ => ⟨S32x32, .f32⟩
  | .local _ .vmem, ⟨17, _⟩ => ⟨S32x32, .f32⟩
  | .local _ .vmem, ⟨18, _⟩ => ⟨S4x32, .f32⟩
  | .local _ .vmem, ⟨19, _⟩ => ⟨S32x32, .f32⟩
  | .local _ .vmem, ⟨20, _⟩ => ⟨S1x32, .f32⟩
  | .local _ .vmem, ⟨21, _⟩ => ⟨S32x32, .f32⟩
  | .local _ .vmem, ⟨22, _⟩ => ⟨S1x32, .f32⟩
  | .local _ .vmem, ⟨23, _⟩ => ⟨S8000x32, .f32⟩
  | .local _ .vmem, ⟨24, _⟩ => ⟨S8000x32, .f32⟩
  | .local _ .vmem, ⟨25, _⟩ => ⟨S8000x64, .f32⟩
  | .local _ .vmem, ⟨26, _⟩ => ⟨S8000x64, .f32⟩
  | .local _ .vmem, ⟨27, _⟩ => ⟨S8000x64, .f32⟩
  | .local _ .vmem, ⟨28, _⟩ => ⟨S8000x64, .f32⟩
  | .local _ .vmem, ⟨29, _⟩ => ⟨S8000x32, .f32⟩
  | .local _ .vmem, ⟨30, _⟩ => ⟨S8000x32, .f32⟩
  | .local _ .vmem, ⟨31, _⟩ => ⟨S8000x32, .f32⟩
  | .local _ .vmem, ⟨32, _⟩ => ⟨S8000x32, .f32⟩
  | .local _ .vmem, ⟨33, _⟩ => ⟨S64x32, .f32⟩
  | .local _ .vmem, ⟨34, _⟩ => ⟨S64x32, .f32⟩
  | .local _ .vmem, ⟨35, _⟩ => ⟨S32x32, .f32⟩
  | .local _ .vmem, ⟨36, _⟩ => ⟨S32x32, .f32⟩
  | .local _ .vmem, ⟨37, _⟩ => ⟨S1x32, .f32⟩
  | .local _ .vmem, ⟨38, _⟩ => ⟨S32x32, .f32⟩
  | .local _ .vmem, ⟨39, _⟩ => ⟨S1x32, .f32⟩
  | .local _ .vmem, ⟨40, _⟩ => ⟨S8000x32, .f32⟩
  | .local _ .vmem, ⟨41, _⟩ => ⟨S8000x32, .f32⟩
  | .local _ .vmem, ⟨42, _⟩ => ⟨S8000x64, .f32⟩
  | .local _ .vmem, ⟨43, _⟩ => ⟨S8000x64, .f32⟩
  | .local _ .vmem, ⟨44, _⟩ => ⟨S8000x64, .f32⟩
  | .local _ .vmem, ⟨45, _⟩ => ⟨S8000x64, .f32⟩
  | .local _ .vmem, ⟨46, _⟩ => ⟨S8000x32, .f32⟩
  | .local _ .vmem, ⟨47, _⟩ => ⟨S8000x32, .f32⟩
  | .local _ .vmem, ⟨48, _⟩ => ⟨S8000x32, .f32⟩
  | .local _ .vmem, ⟨49, _⟩ => ⟨S8000x32, .f32⟩
  | .local _ .vmem, ⟨50, _⟩ => ⟨S8000x4, .f32⟩
  | .local _ .vmem, ⟨51, _⟩ => ⟨S8000x4, .f32⟩
  | .local _ .vmem, ⟨52, _⟩ => ⟨S64x32, .f32⟩
  | .local _ .vmem, ⟨53, _⟩ => ⟨S64x32, .f32⟩
  | .local _ .vmem, ⟨54, _⟩ => ⟨S32x32, .f32⟩
  | .local _ .vmem, ⟨55, _⟩ => ⟨S32x32, .f32⟩
  | .local _ .vmem, ⟨56, _⟩ => ⟨S1x32, .f32⟩
  | .local _ .vmem, ⟨57, _⟩ => ⟨S32x32, .f32⟩
  | .local _ .vmem, ⟨58, _⟩ => ⟨S1x32, .f32⟩
  | .local _ .vmem, ⟨59, _⟩ => ⟨S32x32, .f32⟩
  | .local _ .vmem, ⟨60, _⟩ => ⟨S1x32, .f32⟩
  | .local _ .vmem, ⟨61, _⟩ => ⟨S32x32, .f32⟩
  | .local _ .vmem, ⟨62, _⟩ => ⟨S1x32, .f32⟩
  | .local _ .vmem, ⟨63, _⟩ => ⟨S32x4, .f32⟩
  | .local _ .vmem, ⟨64, _⟩ => ⟨S1x4, .f32⟩
  | .local _ .vmem, ⟨65, _⟩ => ⟨S32x1, .f32⟩
  | .local _ .vmem, ⟨66, _⟩ => ⟨S1x1, .f32⟩
  | .local _ .vmem, ⟨67, _⟩ => ⟨S8000x8, .f32⟩
  | .local _ .vmem, ⟨68, _⟩ => ⟨S8000x8, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call0_cst : Ref sig .tc := ⟨.hbm, 50, rfl⟩
abbrev main_call0_v0 : Ref sig .tc := ⟨.hbm, 51, rfl⟩
abbrev main_v18 : Ref sig .tc := ⟨.hbm, 52, rfl⟩
abbrev main_call1_v0 : Ref sig .tc := ⟨.hbm, 53, rfl⟩
abbrev main_v19 : Ref sig .tc := ⟨.hbm, 54, rfl⟩
abbrev main_call2_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_call3_cst : Ref sig .tc := ⟨.hbm, 70, rfl⟩
abbrev main_call3_v0 : Ref sig .tc := ⟨.hbm, 71, rfl⟩
abbrev main_v33 : Ref sig .tc := ⟨.hbm, 72, rfl⟩
abbrev main_v34 : Ref sig .tc := ⟨.hbm, 73, rfl⟩
abbrev main_call4_v0 : Ref sig .tc := ⟨.hbm, 74, rfl⟩
abbrev main_v35 : Ref sig .tc := ⟨.hbm, 75, rfl⟩
abbrev main_call5_v0 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_4 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call6_cst : Ref sig .tc := ⟨.hbm, 91, rfl⟩
abbrev main_call6_v0 : Ref sig .tc := ⟨.hbm, 92, rfl⟩
abbrev main_v49 : Ref sig .tc := ⟨.hbm, 93, rfl⟩
abbrev main_v50 : Ref sig .tc := ⟨.hbm, 94, rfl⟩
abbrev main_call7_v0 : Ref sig .tc := ⟨.hbm, 95, rfl⟩
abbrev main_v51 : Ref sig .tc := ⟨.hbm, 96, rfl⟩
abbrev main_call8_v0 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg11_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg10_0 : Ref sig .tc := ⟨.vmem, 39, rfl⟩
abbrev cc2_stg11_0 : Ref sig .tc := ⟨.vmem, 40, rfl⟩
abbrev cc2_stg11_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg12_0 : Ref sig .tc := ⟨.vmem, 59, rfl⟩
abbrev cc3_stg13_0 : Ref sig .tc := ⟨.vmem, 60, rfl⟩
abbrev cc3_stg14_0 : Ref sig .tc := ⟨.vmem, 61, rfl⟩
abbrev cc3_stg15_0 : Ref sig .tc := ⟨.vmem, 62, rfl⟩
abbrev cc3_stg16_0 : Ref sig .tc := ⟨.vmem, 63, rfl⟩
abbrev cc3_stg17_0 : Ref sig .tc := ⟨.vmem, 64, rfl⟩
abbrev cc3_stg18_0 : Ref sig .tc := ⟨.vmem, 65, rfl⟩
abbrev cc3_stg19_0 : Ref sig .tc := ⟨.vmem, 66, rfl⟩
abbrev cc3_stg20_0 : Ref sig .tc := ⟨.vmem, 67, rfl⟩
abbrev cc3_stg20_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem11_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem10_0 : DmaSem sig := 39
abbrev cc2_sem11_0 : DmaSem sig := 40
abbrev cc2_sem11_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem11_0 : DmaSem sig := 58
abbrev cc3_sem12_0 : DmaSem sig := 59
abbrev cc3_sem13_0 : DmaSem sig := 60
abbrev cc3_sem14_0 : DmaSem sig := 61
abbrev cc3_sem15_0 : DmaSem sig := 62
abbrev cc3_sem16_0 : DmaSem sig := 63
abbrev cc3_sem17_0 : DmaSem sig := 64
abbrev cc3_sem18_0 : DmaSem sig := 65
abbrev cc3_sem19_0 : DmaSem sig := 66
abbrev cc3_sem20_0 : DmaSem sig := 67
abbrev cc3_sem20_1 : DmaSem sig := 68

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S8000x32 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S8000x32 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8000x4 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S32x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x32 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S32x32 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x32 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S32x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x32 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S32x32 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x32 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S32x4 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x4 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S32x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S1x1 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 2 → Memref sig .tc .vmem S8000x8 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S32_S1x32 : S32.ShapeCasts S1x32
  inb_S8000x4_S8000x4_0_0 : ∀ a, (![0, 0] : Fin 2 → Nat) a + S8000x4.size a ≤ S8000x4.size a
  h_S8000x4 : 0 < S8000x4.numel
  inb_S4x32_S4x32_0_0 : ∀ a, (![0, 0] : Fin 2 → Nat) a + S4x32.size a ≤ S4x32.size a
  h_S4x32 : 0 < S4x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  inb_S8000x32_S8000x32_0_0 : ∀ a, (![0, 0] : Fin 2 → Nat) a + S8000x32.size a ≤ S8000x32.size a
  h_S8000x32 : 0 < S8000x32.numel
  bcast_S_S400000x1 : S_.BroadcastsInDim S400000x1 (![] : Fin 0 → Fin S400000x1.rank)
  bcast_S_S50000x1 : S_.BroadcastsInDim S50000x1 (![] : Fin 0 → Fin S50000x1.rank)
  bcast_S400000_S400000x1_0 : S400000.BroadcastsInDim S400000x1 (![0] : Fin 1 → Fin S400000x1.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  slices_S100x32_S32x32_0_0 : S100x32.Slices ![0, 0] S32x32
  slices_S100x32_S32x32_32_0 : S100x32.Slices ![32, 0] S32x32
  slices_S100x32_S4x32_64_0 : S100x32.Slices ![64, 0] S4x32
  slices_S100x32_S32x32_68_0 : S100x32.Slices ![68, 0] S32x32
  shapeCasts_S8000x32_S8000x32 : S8000x32.ShapeCasts S8000x32
  shapeCasts_S32x32_S32x32 : S32x32.ShapeCasts S32x32
  shapeCasts_S4x32_S4x32 : S4x32.ShapeCasts S4x32
  concatenates_S50000x32_S50000x32_S50000x64_d1 : Shape.Concatenates [S50000x32, S50000x32] S50000x64 1
  slices_S192x32_S64x32_0_0 : S192x32.Slices ![0, 0] S64x32
  slices_S192x32_S64x32_64_0 : S192x32.Slices ![64, 0] S64x32
  slices_S192x32_S32x32_128_0 : S192x32.Slices ![128, 0] S32x32
  slices_S192x32_S32x32_160_0 : S192x32.Slices ![160, 0] S32x32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S4_S1x4 : S4.ShapeCasts S1x4
  shapeCasts_S1_S1x1 : S1.ShapeCasts S1x1
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8000x4 : S1x4.Broadcasts S8000x4
  reduces_S8000x4_S8000 : S8000x4.Reduces [1] S8000
  shapeCasts_S8000_S8000x1 : S8000.ShapeCasts S8000x1
  broadcasts_S8000x1_S8000x4 : S8000x1.Broadcasts S8000x4
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  concatenates_S8000x4_S8000x1_S8000x3_S8000x8_d1 : Shape.Concatenates [S8000x4, S8000x1, S8000x3] S8000x8 1
  inb_S8000x8_S8000x8_0_0 : ∀ a, (![0, 0] : Fin 2 → Nat) a + S8000x8.size a ≤ S8000x8.size a
  h_S8000x8 : 0 < S8000x8.numel
  slices_S400000x8_S400000x4_0_0 : S400000x8.Slices ![0, 0] S400000x4
  slices_S400000x8_S400000x1_0_4 : S400000x8.Slices ![0, 4] S400000x1
  dot_S8000x4_S4x32_S8000x32_1_0_0_1_n_n_wf : DotDims.WF S8000x4 S4x32 S8000x32 [1] [0] [0] [1] [] []
  dot_S8000x32_S32x32_S8000x32_1_0_0_1_n_n_wf : DotDims.WF S8000x32 S32x32 S8000x32 [1] [0] [0] [1] [] []
  scatter_S50000x1_S400000x1_S400000x1_1_0_0_1_wf : ScatterDims.WF S50000x1 S400000x1 S400000x1 [1] [0] [0] 1
  scatter_S50000x32_S400000x1_S400000x32_1_0_0_1_wf : ScatterDims.WF S50000x32 S400000x1 S400000x32 [1] [0] [0] 1
  gather_S50000x32_S400000x1_S400000x32_1_0_n_n_0_1_132_wf : GatherDims.WF S50000x32 S400000x1 S400000x32 [1] [0] [] [0] [] 1 ![1, 32]
  gather_S50000x64_S400000x1_S400000x64_1_0_n_n_0_1_164_wf : GatherDims.WF S50000x64 S400000x1 S400000x64 [1] [0] [] [0] [] 1 ![1, 64]
  dot_S8000x64_S64x32_S8000x32_1_0_0_1_n_n_wf : DotDims.WF S8000x64 S64x32 S8000x32 [1] [0] [0] [1] [] []
  dot_S8000x32_S32x4_S8000x4_1_0_0_1_n_n_wf : DotDims.WF S8000x32 S32x4 S8000x4 [1] [0] [0] [1] [] []
  dot_S8000x32_S32x1_S8000x1_1_0_0_1_n_n_wf : DotDims.WF S8000x32 S32x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S400000x4.size a
  hwx0_0 : ∀ i : grid0.Coords, EltTy.bits .f32 = 32 ∨ (Rect.block (s := S400000x4) S8000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x32.size a ≤ S400000x32.size a
  hwx0_5 : ∀ i : grid0.Coords, EltTy.bits .f32 = 32 ∨ (Rect.block (s := S400000x32) S8000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S400000x32.size a
  hwx1_0 : ∀ i : grid1.Coords, EltTy.bits .f32 = 32 ∨ (Rect.block (s := S400000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S400000x32.size a
  hwx1_1 : ∀ i : grid1.Coords, EltTy.bits .f32 = 32 ∨ (Rect.block (s := S400000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x4.size a ≤ S400000x4.size a
  hwx1_2 : ∀ i : grid1.Coords, EltTy.bits .f32 = 32 ∨ (Rect.block (s := S400000x4) S8000x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x32.size a ≤ S400000x32.size a
  hwx1_3 : ∀ i : grid1.Coords, EltTy.bits .f32 = 32 ∨ (Rect.block (s := S400000x32) S8000x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x32.size a ≤ S4x32.size a
  hwx1_6 : ∀ i : grid1.Coords, EltTy.bits .f32 = 32 ∨ (Rect.block (s := S4x32) S4x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x32.size a ≤ S32x32.size a
  hwx1_9 : ∀ i : grid1.Coords, EltTy.bits .f32 = 32 ∨ (Rect.block (s := S32x32) S32x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8000x32.size a ≤ S400000x32.size a
  hwx1_11 : ∀ i : grid1.Coords, EltTy.bits .f32 = 32 ∨ (Rect.block (s := S400000x32) S8000x32.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S400000x64.size a
  hwx2_0 : ∀ i : grid2.Coords, EltTy.bits .f32 = 32 ∨ (Rect.block (s := S400000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S400000x64.size a
  hwx2_1 : ∀ i : grid2.Coords, EltTy.bits .f32 = 32 ∨ (Rect.block (s := S400000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S400000x32.size a
  hwx2_2 : ∀ i : grid2.Coords, EltTy.bits .f32 = 32 ∨ (Rect.block (s := S400000x32) S8000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x32.size a ≤ S400000x32.size a
  hwx2_3 : ∀ i : grid2.Coords, EltTy.bits .f32 = 32 ∨ (Rect.block (s := S400000x32) S8000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .f32 = 32 ∨ (Rect.block (s := S64x32) S64x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x32.size a ≤ S32x32.size a
  hwx2_9 : ∀ i : grid2.Coords, EltTy.bits .f32 = 32 ∨ (Rect.block (s := S32x32) S32x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S8000x32.size a ≤ S400000x32.size a
  hwx2_11 : ∀ i : grid2.Coords, EltTy.bits .f32 = 32 ∨ (Rect.block (s := S400000x32) S8000x32.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S400000x64.size a
  hwx3_0 : ∀ i : grid3.Coords, EltTy.bits .f32 = 32 ∨ (Rect.block (s := S400000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S400000x64.size a
  hwx3_1 : ∀ i : grid3.Coords, EltTy.bits .f32 = 32 ∨ (Rect.block (s := S400000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S400000x32.size a
  hwx3_2 : ∀ i : grid3.Coords, EltTy.bits .f32 = 32 ∨ (Rect.block (s := S400000x32) S8000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x32.size a ≤ S400000x32.size a
  hwx3_3 : ∀ i : grid3.Coords, EltTy.bits .f32 = 32 ∨ (Rect.block (s := S400000x32) S8000x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x4.size a ≤ S400000x4.size a
  hwx3_4 : ∀ i : grid3.Coords, EltTy.bits .f32 = 32 ∨ (Rect.block (s := S400000x4) S8000x4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x32.size a ≤ S64x32.size a
  hwx3_6 : ∀ i : grid3.Coords, EltTy.bits .f32 = 32 ∨ (Rect.block (s := S64x32) S64x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32x32.size a ≤ S32x32.size a
  hwx3_7 : ∀ i : grid3.Coords, EltTy.bits .f32 = 32 ∨ (Rect.block (s := S32x32) S32x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S32x32.size a ≤ S32x32.size a
  hwx3_8 : ∀ i : grid3.Coords, EltTy.bits .f32 = 32 ∨ (Rect.block (s := S32x32) S32x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x32.size a ≤ S1x32.size a
  hwx3_9 : ∀ i : grid3.Coords, EltTy.bits .f32 = 32 ∨ (Rect.block (s := S1x32) S1x32.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S32x32.size a ≤ S32x32.size a
  hwx3_10 : ∀ i : grid3.Coords, EltTy.bits .f32 = 32 ∨ (Rect.block (s := S32x32) S32x32.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x32.size a ≤ S1x32.size a
  hwx3_11 : ∀ i : grid3.Coords, EltTy.bits .f32 = 32 ∨ (Rect.block (s := S1x32) S1x32.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S32x32.size a ≤ S32x32.size a
  hwx3_12 : ∀ i : grid3.Coords, EltTy.bits .f32 = 32 ∨ (Rect.block (s := S32x32) S32x32.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x32.size a ≤ S1x32.size a
  hwx3_13 : ∀ i : grid3.Coords, EltTy.bits .f32 = 32 ∨ (Rect.block (s := S1x32) S1x32.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S32x32.size a ≤ S32x32.size a
  hwx3_14 : ∀ i : grid3.Coords, EltTy.bits .f32 = 32 ∨ (Rect.block (s := S32x32) S32x32.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x32.size a ≤ S1x32.size a
  hwx3_15 : ∀ i : grid3.Coords, EltTy.bits .f32 = 32 ∨ (Rect.block (s := S1x32) S1x32.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S32x4.size a ≤ S32x4.size a
  hwx3_16 : ∀ i : grid3.Coords, EltTy.bits .f32 = 32 ∨ (Rect.block (s := S32x4) S32x4.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S1x4.size a ≤ S1x4.size a
  hwx3_17 : ∀ i : grid3.Coords, EltTy.bits .f32 = 32 ∨ (Rect.block (s := S1x4) S1x4.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S32x1.size a ≤ S32x1.size a
  hwx3_18 : ∀ i : grid3.Coords, EltTy.bits .f32 = 32 ∨ (Rect.block (s := S32x1) S32x1.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S1x1.size a ≤ S1x1.size a
  hwx3_19 : ∀ i : grid3.Coords, EltTy.bits .f32 = 32 ∨ (Rect.block (s := S1x1) S1x1.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S8000x8.size a ≤ S400000x8.size a
  hwx3_20 : ∀ i : grid3.Coords, EltTy.bits .f32 = 32 ∨ (Rect.block (s := S400000x8) S8000x8.size (cc3_transform_20 i) (hinb3_20 i)).WholeWords (EltTy.packing .f32)

variable [Facts₀]

def dot_S8000x4_S4x32_S8000x32_1_0_0_1_n_n : DotDims S8000x4 S4x32 S8000x32 where
  lhsContracting := [1]
  rhsContracting := [0]
  lhsNonContracting := [0]
  rhsNonContracting := [1]
  lhsBatch := []
  rhsBatch := []
  wf := dot_S8000x4_S4x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x4_S8000x4_1_0_0_1_n_n : DotDims S8000x32 S32x4 S8000x4 where
  lhsContracting := [1]
  rhsContracting := [0]
  lhsNonContracting := [0]
  rhsNonContracting := [1]
  lhsBatch := []
  rhsBatch := []
  wf := dot_S8000x32_S32x4_S8000x4_1_0_0_1_n_n_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf

abbrev win0_0 : Pipeline.Window sig grid0 :=
  Pipeline.Window.ofSpec (Memref.whole main_arg2) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S4x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S32x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v26) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v27) S8000x32.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v35) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S8000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S64x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg14) S32x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v42) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v43) S8000x32.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v51) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S8000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S8000x32.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg2) S8000x4.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v53) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S64x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S32x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v56) S32x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v57) S1x32.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg18) S32x32.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v58) S1x32.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg20) S32x32.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v59) S1x32.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_arg22) S32x32.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v60) S1x32.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_arg24) S32x4.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v61) S1x4.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_arg26) S32x1.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v62) S1x1.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v63) S8000x8.size cc3_transform_20 reads3_20 true false 2 stage3_20 sem3_20
    hrank3 hreads3_20 hinb3_20 nbuf3_20 (Memref.isWhole_whole _) hwx3_20 hstage3_20

abbrev win3 : Fin 21 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | ⟨_ + 21, h⟩ => absurd h (Nat.not_lt.2 (Nat.le_add_left _ _))
abbrev spec3 : Fin 21 → Pipeline.WinSpec sig grid3.rank := fun w => (win3 w).toWinSpec

class Facts : Prop extends Facts₀ where

variable [Facts]
-- ==== ReferenceIdeal.lean ====
abbrev S50000x4 : Shape := ⟨2, ![50000, 4]⟩
abbrev S2x400000 : Shape := ⟨2, ![2, 400000]⟩
abbrev S400000x4 : Shape := ⟨2, ![400000, 4]⟩
abbrev S50000x3 : Shape := ⟨2, ![50000, 3]⟩
abbrev S4x32 : Shape := ⟨2, ![4, 32]⟩
abbrev S32 : Shape := ⟨1, ![32]⟩
abbrev S32x32 : Shape := ⟨2, ![32, 32]⟩
abbrev S100x32 : Shape := ⟨2, ![100, 32]⟩
abbrev S192x32 : Shape := ⟨2, ![192, 32]⟩
abbrev S32x4 : Shape := ⟨2, ![32, 4]⟩
abbrev S4 : Shape := ⟨1, ![4]⟩
abbrev S32x1 : Shape := ⟨2, ![32, 1]⟩
abbrev S1 : Shape := ⟨1, ![1]⟩
abbrev S1x400000 : Shape := ⟨2, ![1, 400000]⟩
abbrev S400000 : Shape := ⟨1, ![400000]⟩
abbrev S400000x32 : Shape := ⟨2, ![400000, 32]⟩
abbrev S1x32 : Shape := ⟨2, ![1, 32]⟩
abbrev S_ : Shape := ⟨0, ![]⟩
abbrev S50000x32 : Shape := ⟨2, ![50000, 32]⟩
abbrev S400000x1 : Shape := ⟨2, ![400000, 1]⟩
abbrev S50000x1 : Shape := ⟨2, ![50000, 1]⟩
abbrev S400000x36 : Shape := ⟨2, ![400000, 36]⟩
abbrev S400000x100 : Shape := ⟨2, ![400000, 100]⟩
abbrev S50000x64 : Shape := ⟨2, ![50000, 64]⟩
abbrev S400000x64 : Shape := ⟨2, ![400000, 64]⟩
abbrev S400000x192 : Shape := ⟨2, ![400000, 192]⟩
abbrev S1x4 : Shape := ⟨2, ![1, 4]⟩
abbrev S1x1 : Shape := ⟨2, ![1, 1]⟩

abbrev nBuf : Space → Nat
  | .hbm => 239
  | .vmem => 0
  | .smem => 0
  | _ => 0

abbrev hbmTy0_0 (i : Nat) : BufTy := match i % 128 with
  | 0 => ⟨S50000x4, .f32⟩
  | 1 => ⟨S2x400000, .i32⟩
  | 2 => ⟨S400000x4, .f32⟩
  | 3 => ⟨S50000x3, .f32⟩
  | 4 => ⟨S4x32, .f32⟩
  | 5 => ⟨S32, .f32⟩
  | 6 => ⟨S32x32, .f32⟩
  | 7 => ⟨S32, .f32⟩
  | 8 => ⟨S100x32, .f32⟩
  | 9 => ⟨S32, .f32⟩
  | 10 => ⟨S32x32, .f32⟩
  | 11 => ⟨S32, .f32⟩
  | 12 => ⟨S192x32, .f32⟩
  | 13 => ⟨S32, .f32⟩
  | 14 => ⟨S32x32, .f32⟩
  | 15 => ⟨S32, .f32⟩
  | 16 => ⟨S192x32, .f32⟩
  | 17 => ⟨S32, .f32⟩
  | 18 => ⟨S32x32, .f32⟩
  | 19 => ⟨S32, .f32⟩
  | 20 => ⟨S32x32, .f32⟩
  | 21 => ⟨S32, .f32⟩
  | 22 => ⟨S32x32, .f32⟩
  | 23 => ⟨S32, .f32⟩
  | 24 => ⟨S32x4, .f32⟩
  | 25 => ⟨S4, .f32⟩
  | 26 => ⟨S32x1, .f32⟩
  | 27 => ⟨S1, .f32⟩
  | 28 => ⟨S1x400000, .i32⟩
  | 29 => ⟨S400000, .i32⟩
  | 30 => ⟨S1x400000, .i32⟩
  | 31 => ⟨S400000, .i32⟩
  | 32 => ⟨S400000x32, .f32⟩
  | 33 => ⟨S1x32, .f32⟩
  | 34 => ⟨S400000x32, .f32⟩
  | 35 => ⟨S400000x32, .f32⟩
  | 36 => ⟨S_, .f32⟩
  | 37 => ⟨S400000x32, .f32⟩
  | 38 => ⟨S400000x32, .f32⟩
  | 39 => ⟨S400000x32, .f32⟩
  | 40 => ⟨S1x32, .f32⟩
  | 41 => ⟨S400000x32, .f32⟩
  | 42 => ⟨S400000x32, .f32⟩
  | 43 => ⟨S_, .f32⟩
  | 44 => ⟨S50000x32, .f32⟩
  | 45 => ⟨S400000x1, .i32⟩
  | 46 => ⟨S50000x32, .f32⟩
  | 47 => ⟨S_, .f32⟩
  | 48 => ⟨S400000x1, .f32⟩
  | 49 => ⟨S_, .f32⟩
  | 50 => ⟨S50000x1, .f32⟩
  | 51 => ⟨S400000x1, .i32⟩
  | 52 => ⟨S50000x1, .f32⟩
  | 53 => ⟨S_, .f32⟩
  | 54 => ⟨S50000x1, .f32⟩
  | 55 => ⟨S50000x1, .f32⟩
  | 56 => ⟨S50000x32, .f32⟩
  | 57 => ⟨S50000x32, .f32⟩
  | 58 => ⟨S_, .f32⟩
  | 59 => ⟨S50000x32, .f32⟩
  | 60 => ⟨S50000x32, .f32⟩
  | 61 => ⟨S_, .f32⟩
  | 62 => ⟨S400000x32, .f32⟩
  | 63 => ⟨S400000x32, .f32⟩
  | 64 => ⟨S400000x36, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x32, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x32, .f32⟩
  | 83 => ⟨S400000x100, .f32⟩
  | 84 => ⟨S400000x32, .f32⟩
  | 85 => ⟨S1x32, .f32⟩
  | 86 => ⟨S400000x32, .f32⟩
  | 87 => ⟨S400000x32, .f32⟩
  | 88 => ⟨S_, .f32⟩
  | 89 => ⟨S400000x32, .f32⟩
  | 90 => ⟨S400000x32, .f32⟩
  | 91 => ⟨S400000x32, .f32⟩
  | 92 => ⟨S1x32, .f32⟩
  | 93 => ⟨S400000x32, .f32⟩
  | 94 => ⟨S400000x32, .f32⟩
  | 95 => ⟨S_, .f32⟩
  | 96 => ⟨S50000x32, .f32⟩
  | 97 => ⟨S400000x1, .i32⟩
  | 98 => ⟨S50000x32, .f32⟩
  | 99 => ⟨S_, .f32⟩
  | 100 => ⟨S400000x1, .f32⟩
  | 101 => ⟨S_, .f32⟩
  | 102 => ⟨S50000x1, .f32⟩
  | 103 => ⟨S400000x1, .i32⟩
  | 104 => ⟨S50000x1, .f32⟩
  | 105 => ⟨S_, .f32⟩
  | 106 => ⟨S50000x1, .f32⟩
  | 107 => ⟨S50000x1, .f32⟩
  | 108 => ⟨S50000x32, .f32⟩
  | 109 => ⟨S50000x32, .f32⟩
  | 110 => ⟨S_, .f32⟩
  | 111 => ⟨S50000x32, .f32⟩
  | 112 => ⟨S50000x32, .f32⟩
  | 113 => ⟨S_, .f32⟩
  | 114 => ⟨S400000x32, .f32⟩
  | 115 => ⟨S400000x32, .f32⟩
  | 116 => ⟨S50000x64, .f32⟩
  | 117 => ⟨S400000x64, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x64, .f32⟩
  | 127 => ⟨S_, .i32⟩
  | _ => ⟨S50000x4, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x64, .f32⟩
  | 8 => ⟨S400000x192, .f32⟩
  | 9 => ⟨S400000x32, .f32⟩
  | 10 => ⟨S1x32, .f32⟩
  | 11 => ⟨S400000x32, .f32⟩
  | 12 => ⟨S400000x32, .f32⟩
  | 13 => ⟨S_, .f32⟩
  | 14 => ⟨S400000x32, .f32⟩
  | 15 => ⟨S400000x32, .f32⟩
  | 16 => ⟨S400000x32, .f32⟩
  | 17 => ⟨S1x32, .f32⟩
  | 18 => ⟨S400000x32, .f32⟩
  | 19 => ⟨S400000x32, .f32⟩
  | 20 => ⟨S_, .f32⟩
  | 21 => ⟨S50000x32, .f32⟩
  | 22 => ⟨S400000x1, .i32⟩
  | 23 => ⟨S50000x32, .f32⟩
  | 24 => ⟨S_, .f32⟩
  | 25 => ⟨S400000x1, .f32⟩
  | 26 => ⟨S_, .f32⟩
  | 27 => ⟨S50000x1, .f32⟩
  | 28 => ⟨S400000x1, .i32⟩
  | 29 => ⟨S50000x1, .f32⟩
  | 30 => ⟨S_, .f32⟩
  | 31 => ⟨S50000x1, .f32⟩
  | 32 => ⟨S50000x1, .f32⟩
  | 33 => ⟨S50000x32, .f32⟩
  | 34 => ⟨S50000x32, .f32⟩
  | 35 => ⟨S_, .f32⟩
  | 36 => ⟨S50000x32, .f32⟩
  | 37 => ⟨S50000x32, .f32⟩
  | 38 => ⟨S_, .f32⟩
  | 39 => ⟨S400000x32, .f32⟩
  | 40 => ⟨S400000x32, .f32⟩
  | 41 => ⟨S50000x64, .f32⟩
  | 42 => ⟨S400000x64, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x64, .f32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x64, .f32⟩
  | 61 => ⟨S400000x192, .f32⟩
  | 62 => ⟨S400000x32, .f32⟩
  | 63 => ⟨S1x32, .f32⟩
  | 64 => ⟨S400000x32, .f32⟩
  | 65 => ⟨S400000x32, .f32⟩
  | 66 => ⟨S_, .f32⟩
  | 67 => ⟨S400000x32, .f32⟩
  | 68 => ⟨S400000x32, .f32⟩
  | 69 => ⟨S400000x32, .f32⟩
  | 70 => ⟨S1x32, .f32⟩
  | 71 => ⟨S400000x32, .f32⟩
  | 72 => ⟨S400000x32, .f32⟩
  | 73 => ⟨S_, .f32⟩
  | 74 => ⟨S400000x32, .f32⟩
  | 75 => ⟨S400000x32, .f32⟩
  | 76 => ⟨S400000x32, .f32⟩
  | 77 => ⟨S1x32, .f32⟩
  | 78 => ⟨S400000x32, .f32⟩
  | 79 => ⟨S400000x32, .f32⟩
  | 80 => ⟨S400000x32, .f32⟩
  | 81 => ⟨S1x32, .f32⟩
  | 82 => ⟨S400000x32, .f32⟩
  | 83 => ⟨S400000x32, .f32⟩
  | 84 => ⟨S400000x4, .f32⟩
  | 85 => ⟨S1x4, .f32⟩
  | 86 => ⟨S400000x4, .f32⟩
  | 87 => ⟨S400000x4, .f32⟩
  | 88 => ⟨S400000x4, .f32⟩
  | 89 => ⟨S400000x4, .f32⟩
  | 90 => ⟨S_, .f32⟩
  | 91 => ⟨S400000, .f32⟩
  | 92 => ⟨S400000x1, .f32⟩
  | 93 => ⟨S400000x1, .f32⟩
  | 94 => ⟨S_, .f32⟩
  | 95 => ⟨S400000x1, .f32⟩
  | 96 => ⟨S400000x1, .f32⟩
  | 97 => ⟨S400000x4, .f32⟩
  | 98 => ⟨S400000x4, .f32⟩
  | 99 => ⟨S400000x1, .f32⟩
  | 100 => ⟨S1x1, .f32⟩
  | 101 => ⟨S400000x1, .f32⟩
  | 102 => ⟨S400000x1, .f32⟩
  | 103 => ⟨S400000x1, .f32⟩
  | 104 => ⟨S400000x1, .f32⟩
  | 105 => ⟨S_, .f32⟩
  | 106 => ⟨S400000x1, .f32⟩
  | 107 => ⟨S400000x1, .f32⟩
  | 108 => ⟨S_, .f32⟩
  | 109 => ⟨S400000x1, .f32⟩
  | 110 => ⟨S400000x1, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call0_cst : Ref sig .tc := ⟨.hbm, 36, rfl⟩
abbrev main_call0_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_2 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call1_cst : Ref sig .tc := ⟨.hbm, 58, rfl⟩
abbrev main_call1_v0 : Ref sig .tc := ⟨.hbm, 59, rfl⟩
abbrev main_v24 : Ref sig .tc := ⟨.hbm, 60, rfl⟩
abbrev main_call2_cst : Ref sig .tc := ⟨.hbm, 61, rfl⟩
abbrev main_call2_v0 : Ref sig .tc := ⟨.hbm, 62, rfl⟩
abbrev main_v25 : Ref sig .tc := ⟨.hbm, 63, rfl⟩
abbrev main_v26 : Ref sig .tc := ⟨.hbm, 64, rfl⟩
abbrev main_c : Ref sig .tc := ⟨.hbm, 65, rfl⟩
abbrev main_v27 : Ref sig .tc := ⟨.hbm, 66, rfl⟩
abbrev main_v28 : Ref sig .tc := ⟨.hbm, 67, rfl⟩
abbrev main_c_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_4 : Ref sig .tc := ⟨.hbm, 74, rfl⟩
abbrev main_v34 : Ref sig .tc := ⟨.hbm, 75, rfl⟩
abbrev main_v35 : Ref sig .tc := ⟨.hbm, 76, rfl⟩
abbrev main_c_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call3_cst : Ref sig .tc := ⟨.hbm, 88, rfl⟩
abbrev main_call3_v0 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_6 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_7 : Ref sig .tc := ⟨.hbm, 99, rfl⟩
abbrev main_v54 : Ref sig .tc := ⟨.hbm, 100, rfl⟩
abbrev main_cst_8 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_9 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call4_cst : Ref sig .tc := ⟨.hbm, 110, rfl⟩
abbrev main_call4_v0 : Ref sig .tc := ⟨.hbm, 111, rfl⟩
abbrev main_v62 : Ref sig .tc := ⟨.hbm, 112, rfl⟩
abbrev main_call5_cst : Ref sig .tc := ⟨.hbm, 113, rfl⟩
abbrev main_call5_v0 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_c_10 : Ref sig .tc := ⟨.hbm, 118, rfl⟩
abbrev main_v66 : Ref sig .tc := ⟨.hbm, 119, rfl⟩
abbrev main_v67 : Ref sig .tc := ⟨.hbm, 120, rfl⟩
abbrev main_c_11 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_12 : Ref sig .tc := ⟨.hbm, 127, rfl⟩
abbrev main_v73 : Ref sig .tc := ⟨.hbm, 128, rfl⟩
abbrev main_v74 : Ref sig .tc := ⟨.hbm, 129, rfl⟩
abbrev main_c_13 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_call6_cst : Ref sig .tc := ⟨.hbm, 141, rfl⟩
abbrev main_call6_v0 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_14 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_15 : Ref sig .tc := ⟨.hbm, 152, rfl⟩
abbrev main_v93 : Ref sig .tc := ⟨.hbm, 153, rfl⟩
abbrev main_cst_16 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_17 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_call7_cst : Ref sig .tc := ⟨.hbm, 163, rfl⟩
abbrev main_call7_v0 : Ref sig .tc := ⟨.hbm, 164, rfl⟩
abbrev main_v101 : Ref sig .tc := ⟨.hbm, 165, rfl⟩
abbrev main_call8_cst : Ref sig .tc := ⟨.hbm, 166, rfl⟩
abbrev main_call8_v0 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_c_18 : Ref sig .tc := ⟨.hbm, 171, rfl⟩
abbrev main_v105 : Ref sig .tc := ⟨.hbm, 172, rfl⟩
abbrev main_v106 : Ref sig .tc := ⟨.hbm, 173, rfl⟩
abbrev main_c_19 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_c_20 : Ref sig .tc := ⟨.hbm, 180, rfl⟩
abbrev main_v112 : Ref sig .tc := ⟨.hbm, 181, rfl⟩
abbrev main_v113 : Ref sig .tc := ⟨.hbm, 182, rfl⟩
abbrev main_c_21 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_call9_cst : Ref sig .tc := ⟨.hbm, 194, rfl⟩
abbrev main_call9_v0 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_call10_cst : Ref sig .tc := ⟨.hbm, 201, rfl⟩
abbrev main_call10_v0 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_call11_v0 : Ref sig .tc := ⟨.hbm, 217, rfl⟩
abbrev main_call11_cst : Ref sig .tc := ⟨.hbm, 218, rfl⟩
abbrev main_call11_v1 : Ref sig .tc := ⟨.hbm, 219, rfl⟩
abbrev main_call11_v2 : Ref sig .tc := ⟨.hbm, 220, rfl⟩
abbrev main_v143 : Ref sig .tc := ⟨.hbm, 221, rfl⟩
abbrev main_cst_22 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_cst_23 : Ref sig .tc := ⟨.hbm, 233, rfl⟩
abbrev main_v154 : Ref sig .tc := ⟨.hbm, 234, rfl⟩
abbrev main_v155 : Ref sig .tc := ⟨.hbm, 235, rfl⟩
abbrev main_cst_24 : Ref sig .tc := ⟨.hbm, 236, rfl⟩
abbrev main_v156 : Ref sig .tc := ⟨.hbm, 237, rfl⟩
abbrev main_v157 : Ref sig .tc := ⟨.hbm, 238, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  bcast_S_S400000x32 : S_.BroadcastsInDim S400000x32 (![] : Fin 0 → Fin S400000x32.rank)
  bcast_S_S50000x32 : S_.BroadcastsInDim S50000x32 (![] : Fin 0 → Fin S50000x32.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  concatenates_S400000x4_S400000x32_S400000x36_d1 : Shape.Concatenates [S400000x4, S400000x32] S400000x36 1
  bcast_S_S400000 : S_.BroadcastsInDim S400000 (![] : Fin 0 → Fin S400000.rank)
  concatenates_S400000x32_S400000x32_S400000x36_S400000x100_d1 : Shape.Concatenates [S400000x32, S400000x32, S400000x36] S400000x100 1
  concatenates_S50000x32_S50000x32_S50000x64_d1 : Shape.Concatenates [S50000x32, S50000x32] S50000x64 1
  concatenates_S400000x32_S400000x32_S400000x64_d1 : Shape.Concatenates [S400000x32, S400000x32] S400000x64 1
  concatenates_S400000x64_S400000x64_S400000x64_S400000x192_d1 : Shape.Concatenates [S400000x64, S400000x64, S400000x64] S400000x192 1
  bcast_S4_S1x4_1 : S4.BroadcastsInDim S1x4 (![1] : Fin 1 → Fin S1x4.rank)
  bcast_S1x4_S400000x4_0_1 : S1x4.BroadcastsInDim S400000x4 (![0, 1] : Fin 2 → Fin S400000x4.rank)
  reducesTo_S400000x4_S400000_d1 : S400000x4.ReducesTo [1] S400000
  h_S_ : 0 < S_.numel
  bcast_S400000x1_S400000x4_0_1 : S400000x1.BroadcastsInDim S400000x4 (![0, 1] : Fin 2 → Fin S400000x4.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  dot_S400000x4_S4x32_S400000x32_1_0_0_1_n_n_wf : DotDims.WF S400000x4 S4x32 S400000x32 [1] [0] [0] [1] [] []
  dot_S400000x32_S32x32_S400000x32_1_0_0_1_n_n_wf : DotDims.WF S400000x32 S32x32 S400000x32 [1] [0] [0] [1] [] []
  scatter_S50000x32_S400000x1_S400000x32_1_0_0_1_wf : ScatterDims.WF S50000x32 S400000x1 S400000x32 [1] [0] [0] 1
  scatter_S50000x1_S400000x1_S400000x1_1_0_0_1_wf : ScatterDims.WF S50000x1 S400000x1 S400000x1 [1] [0] [0] 1
  gather_S50000x32_S400000x1_S400000x32_1_0_n_n_0_1_132_wf : GatherDims.WF S50000x32 S400000x1 S400000x32 [1] [0] [] [0] [] 1 ![1, 32]
  dot_S400000x100_S100x32_S400000x32_1_0_0_1_n_n_wf : DotDims.WF S400000x100 S100x32 S400000x32 [1] [0] [0] [1] [] []
  gather_S50000x64_S400000x1_S400000x64_1_0_n_n_0_1_164_wf : GatherDims.WF S50000x64 S400000x1 S400000x64 [1] [0] [] [0] [] 1 ![1, 64]
  dot_S400000x192_S192x32_S400000x32_1_0_0_1_n_n_wf : DotDims.WF S400000x192 S192x32 S400000x32 [1] [0] [0] [1] [] []
  dot_S400000x32_S32x4_S400000x4_1_0_0_1_n_n_wf : DotDims.WF S400000x32 S32x4 S400000x4 [1] [0] [0] [1] [] []
  dot_S400000x32_S32x1_S400000x1_1_0_0_1_n_n_wf : DotDims.WF S400000x32 S32x1 S400000x1 [1] [0] [0] [1] [] []

variable [Facts₀]

def dot_S400000x4_S4x32_S400000x32_1_0_0_1_n_n : DotDims S400000x4 S4x32 S400000x32 where
  lhsContracting := [1]
  rhsContracting := [0]
  lhsNonContracting := [0]
  rhsNonContracting := [1]
  lhsBatch := []
  rhsBatch := []
  wf := dot_S400000x4_S4x32_S400000x32_1_0_0_1_n_n_wf
def dot_S400000x32_S32x32_S400000x32_1_0_0_1_n_n : DotDims S400000x32 S32x32 S400000x32 where
  lhsContracting := [1]
  rhsContracting := [0]
  lhsNonContracting := [0]
  rhsNonContracting := [1]
  lhsBatch := []
  rhsBatch := []
  wf := dot_S400000x32_S32x32_S400000x32_1_0_0_1_n_n_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def dot_S400000x100_S100x32_S400000x32_1_0_0_1_n_n : DotDims S400000x100 S100x32 S400000x32 where
  lhsContracting := [1]
  rhsContracting := [0]
  lhsNonContracting := [0]
  rhsNonContracting := [1]
  lhsBatch := []
  rhsBatch := []
  wf := dot_S400000x100_S100x32_S400000x32_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x192_S192x32_S400000x32_1_0_0_1_n_n : DotDims S400000x192 S192x32 S400000x32 where
  lhsContracting := [1]
  rhsContracting := [0]
  lhsNonContracting := [0]
  rhsNonContracting := [1]
  lhsBatch := []
  rhsBatch := []
  wf := dot_S400000x192_S192x32_S400000x32_1_0_0_1_n_n_wf
def dot_S400000x32_S32x4_S400000x4_1_0_0_1_n_n : DotDims S400000x32 S32x4 S400000x4 where
  lhsContracting := [1]
  rhsContracting := [0]
  lhsNonContracting := [0]
  rhsNonContracting := [1]
  lhsBatch := []
  rhsBatch := []
  wf := dot_S400000x32_S32x4_S400000x4_1_0_0_1_n_n_wf
def dot_S400000x32_S32x1_S400000x1_1_0_0_1_n_n : DotDims S400000x32 S32x1 S400000x1 where
  lhsContracting := [1]
  rhsContracting := [0]
  lhsNonContracting := [0]
  rhsNonContracting := [1]
  lhsBatch := []
  rhsBatch := []
  wf := dot_S400000x32_S32x1_S400000x1_1_0_0_1_n_n_wf

class Facts : Prop extends Facts₀ where

variable [Facts]
-- ==== Proof.RefC_a.lean ====
/-
  The reference's buffer contents across two stretches of its host operations: the two index rows and layer 1; the edge counts and the node means of layer 1.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 0 to 14, from contents that hold the stages and arguments they read, the buffer of stage
    `v1` holds that stage. -/
theorem c0_v1 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_arg1 : Wv (Proc.devRef .tc main_arg1) = x1)
    (h_arg2 : Wv (Proc.devRef .tc main_arg2) = x2)
    (h_arg4 : Wv (Proc.devRef .tc main_arg4) = x4)
    (h_arg5 : Wv (Proc.devRef .tc main_arg5) = x5)
    (h_arg6 : Wv (Proc.devRef .tc main_arg6) = x6)
    (h_arg7 : Wv (Proc.devRef .tc main_arg7) = x7) :
    StableHlo.after ops0 Wv (Proc.devRef .tc main_v1) = val_main_v1 (F := F) x1 := by
  simp only [ops0]
  after_results
  rw [h_arg1]
  unfold val_main_v1 val_main_v0
  rfl

/-- After operations 0 to 14, from contents that hold the stages and arguments they read, the buffer of stage
    `v3` holds that stage. -/
theorem c0_v3 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_arg1 : Wv (Proc.devRef .tc main_arg1) = x1)
    (h_arg2 : Wv (Proc.devRef .tc main_arg2) = x2)
    (h_arg4 : Wv (Proc.devRef .tc main_arg4) = x4)
    (h_arg5 : Wv (Proc.devRef .tc main_arg5) = x5)
    (h_arg6 : Wv (Proc.devRef .tc main_arg6) = x6)
    (h_arg7 : Wv (Proc.devRef .tc main_arg7) = x7) :
    StableHlo.after ops0 Wv (Proc.devRef .tc main_v3) = val_main_v3 (F := F) x1 := by
  simp only [ops0]
  after_results
  rw [h_arg1]
  unfold val_main_v3 val_main_v2
  rfl

/-- After operations 0 to 14, from contents that hold the stages and arguments they read, the buffer of stage
    `v12` holds that stage. -/
theorem c0_v12 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_arg1 : Wv (Proc.devRef .tc main_arg1) = x1)
    (h_arg2 : Wv (Proc.devRef .tc main_arg2) = x2)
    (h_arg4 : Wv (Proc.devRef .tc main_arg4) = x4)
    (h_arg5 : Wv (Proc.devRef .tc main_arg5) = x5)
    (h_arg6 : Wv (Proc.devRef .tc main_arg6) = x6)
    (h_arg7 : Wv (Proc.devRef .tc main_arg7) = x7) :
    StableHlo.after ops0 Wv (Proc.devRef .tc main_v12) = val_main_v12 (F := F) x2 x4 x5 x6 x7 := by
  simp only [ops0]
  after_results
  rw [h_arg2, h_arg4, h_arg5, h_arg6, h_arg7]
  unfold val_main_v12 val_main_v11 val_main_v10 val_main_v9 val_main_v8 val_main_call0_v0 val_main_call0_cst val_main_v7
    val_main_v6 val_main_v5 val_main_v4
  rfl

/-- After operations 15 to 32, from contents that hold the stages and arguments they read, the buffer of stage
    `v24` holds that stage. -/
theorem c1_v24 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_v1 : Wv (Proc.devRef .tc main_v1) = val_main_v1 (F := F) x1)
    (h_v12 : Wv (Proc.devRef .tc main_v12) = val_main_v12 (F := F) x2 x4 x5 x6 x7) :
    StableHlo.after ops1 Wv (Proc.devRef .tc main_v24) = val_main_v24 (F := F) x1 x2 x4 x5 x6 x7 := by
  simp only [ops1]
  after_results
  rw [h_v1, h_v12]
  unfold val_main_v24 val_main_call1_v0 val_main_call1_cst val_main_v23 val_main_v22 val_main_v21 val_main_v20 val_main_cst_2
    val_main_v19 val_main_v18 val_main_v17 val_main_cst_1 val_main_v16 val_main_cst_0 val_main_v15 val_main_v14 val_main_v13
    val_main_cst
  rfl

end Cert.ReferenceIdeal.RefWalk

end
-- ==== Proof.RefC_b.lean ====
/-
  The reference's buffer contents across two stretches of its host operations: the clamped layer-1 rows beside the attributes, and the two gathers of layer 2; layer 2.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 33 to 54, from contents that hold the stages and arguments they read, the buffer of stage
    `v25` holds that stage. -/
theorem c2_v25 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_v12 : Wv (Proc.devRef .tc main_v12) = val_main_v12 (F := F) x2 x4 x5 x6 x7)
    (h_arg2 : Wv (Proc.devRef .tc main_arg2) = x2)
    (h_v1 : Wv (Proc.devRef .tc main_v1) = val_main_v1 (F := F) x1)
    (h_v24 : Wv (Proc.devRef .tc main_v24) = val_main_v24 (F := F) x1 x2 x4 x5 x6 x7)
    (h_v3 : Wv (Proc.devRef .tc main_v3) = val_main_v3 (F := F) x1) :
    StableHlo.after ops2 Wv (Proc.devRef .tc main_v25) = val_main_v25 (F := F) x2 x4 x5 x6 x7 := by
  simp only [ops2]
  after_results
  rw [h_v12]
  unfold val_main_v25 val_main_call2_v0 val_main_call2_cst
  rfl

/-- After operations 33 to 54, from contents that hold the stages and arguments they read, the buffer of stage
    `v26` holds that stage. -/
theorem c2_v26 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_v12 : Wv (Proc.devRef .tc main_v12) = val_main_v12 (F := F) x2 x4 x5 x6 x7)
    (h_arg2 : Wv (Proc.devRef .tc main_arg2) = x2)
    (h_v1 : Wv (Proc.devRef .tc main_v1) = val_main_v1 (F := F) x1)
    (h_v24 : Wv (Proc.devRef .tc main_v24) = val_main_v24 (F := F) x1 x2 x4 x5 x6 x7)
    (h_v3 : Wv (Proc.devRef .tc main_v3) = val_main_v3 (F := F) x1) :
    StableHlo.after ops2 Wv (Proc.devRef .tc main_v26) = val_main_v26 (F := F) x2 x4 x5 x6 x7 := by
  simp only [ops2]
  after_results
  rw [h_v12, h_arg2]
  unfold val_main_v26 val_main_v25 val_main_call2_v0 val_main_call2_cst
  rfl

/-- After operations 33 to 54, from contents that hold the stages and arguments they read, the buffer of stage
    `v33` holds that stage. -/
theorem c2_v33 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_v12 : Wv (Proc.devRef .tc main_v12) = val_main_v12 (F := F) x2 x4 x5 x6 x7)
    (h_arg2 : Wv (Proc.devRef .tc main_arg2) = x2)
    (h_v1 : Wv (Proc.devRef .tc main_v1) = val_main_v1 (F := F) x1)
    (h_v24 : Wv (Proc.devRef .tc main_v24) = val_main_v24 (F := F) x1 x2 x4 x5 x6 x7)
    (h_v3 : Wv (Proc.devRef .tc main_v3) = val_main_v3 (F := F) x1) :
    StableHlo.after ops2 Wv (Proc.devRef .tc main_v33) = val_main_v33 (F := F) x1 x2 x4 x5 x6 x7 := by
  simp only [ops2]
  after_results
  rw [h_v24, h_v1]
  unfold val_main_v33 val_main_v32 val_main_v31 val_main_v30 val_main_v29 val_main_c_3 val_main_v28 val_main_v27 val_main_c
  rfl

/-- After operations 33 to 54, from contents that hold the stages and arguments they read, the buffer of stage
    `v40` holds that stage. -/
theorem c2_v40 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F))
    (h_v12 : Wv (Proc.devRef .tc main_v12) = val_main_v12 (F := F) x2 x4 x5 x6 x7)
    (h_arg2 : Wv (Proc.devRef .tc main_arg2) = x2)
    (h_v1 : Wv (Proc.devRef .tc main_v1) = val_main_v1 (F := F) x1)
    (h_v24 : Wv (Proc.devRef .tc main_v24) = val_main_v24 (F := F) x1 x2 x4 x5 x6 x7)
    (h_v3 : Wv (Proc.devRef .tc main_v3) = val_main_v3 (F := F) x1) :
    StableHlo.after ops2 Wv (Proc.devRef .tc main_v40) = val_main_v40 (F := F) x1 x2 x4 x5 x6 x7 := by
  simp only [ops2]
  after_results_simp
  rw [h_v24, h_v3]
  unfold val_main_v40 val_main_v39 val_main_v38 val_main_v37 val_main_v36 val_main_c_5 val_main_v35 val_main_v34 val_main_c_4
  rfl

/-- After operations 55 to 66, from contents that hold the stages and arguments they read, the buffer of stage
    `v50` holds that stage. -/
theorem c3_v50 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F))
    (h_v33 : Wv (Proc.devRef .tc main_v33) = val_main_v33 (F := F) x1 x2 x4 x5 x6 x7)
    (h_v40 : Wv (Proc.devRef .tc main_v40) = val_main_v40 (F := F) x1 x2 x4 x5 x6 x7)
    (h_v26 : Wv (Proc.devRef .tc main_v26) = val_main_v26 (F := F) x2 x4 x5 x6 x7)
    (h_arg8 : Wv (Proc.devRef .tc main_arg8) = x8)
    (h_arg9 : Wv (Proc.devRef .tc main_arg9) = x9)
    (h_arg10 : Wv (Proc.devRef .tc main_arg10) = x10)
    (h_arg11 : Wv (Proc.devRef .tc main_arg11) = x11) :
    StableHlo.after ops3 Wv (Proc.devRef .tc main_v50) = val_main_v50 (F := F) x1 x2 x4 x5 x6 x7 x8 x9 x10 x11 := by
  simp only [ops3]
  after_results
  rw [h_arg8, h_arg9, h_arg10, h_arg11]
  unfold val_main_v50 val_main_v49 val_main_v48 val_main_v47 val_main_v46 val_main_call3_v0 val_main_call3_cst val_main_v45
    val_main_v44 val_main_v43 val_main_v42 val_main_v41
  rw [← h_v33, ← h_v40, ← h_v26]
  rfl

end Cert.ReferenceIdeal.RefWalk

end
-- ==== Proof.RefC_c.lean ====
/-
  The reference's buffer contents across two stretches of its host operations: the node means of layer 2; the clamped layer-2 rows, the joined rows, and the two gathers of layer 3.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 67 to 84, from contents that hold the stages and arguments they read, the buffer of stage
    `v62` holds that stage. -/
theorem c4_v62 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F))
    (h_v1 : Wv (Proc.devRef .tc main_v1) = val_main_v1 (F := F) x1)
    (h_v50 : Wv (Proc.devRef .tc main_v50) = val_main_v50 (F := F) x1 x2 x4 x5 x6 x7 x8 x9 x10 x11) :
    StableHlo.after ops4 Wv (Proc.devRef .tc main_v62) = val_main_v62 (F := F) x1 x2 x4 x5 x6 x7 x8 x9 x10 x11 := by
  simp only [ops4]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h_v1, h_v50]
  unfold val_main_v62 val_main_v61 val_main_v60 val_main_v59 val_main_v58 val_main_v57 val_main_v56 val_main_v55 val_main_v54
    val_main_v53 val_main_v52 val_main_v51 val_main_call4_v0 val_main_call4_cst val_main_cst_6 val_main_cst_7 val_main_cst_8 val_main_cst_9
  rfl

/-- After operations 85 to 107, from contents that hold the stages and arguments they read, the buffer of stage
    `v63` holds that stage. -/
theorem c5_v63 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F))
    (h_v50 : Wv (Proc.devRef .tc main_v50) = val_main_v50 (F := F) x1 x2 x4 x5 x6 x7 x8 x9 x10 x11)
    (h_v62 : Wv (Proc.devRef .tc main_v62) = val_main_v62 (F := F) x1 x2 x4 x5 x6 x7 x8 x9 x10 x11)
    (h_v24 : Wv (Proc.devRef .tc main_v24) = val_main_v24 (F := F) x1 x2 x4 x5 x6 x7)
    (h_v25 : Wv (Proc.devRef .tc main_v25) = val_main_v25 (F := F) x2 x4 x5 x6 x7)
    (h_v1 : Wv (Proc.devRef .tc main_v1) = val_main_v1 (F := F) x1)
    (h_v3 : Wv (Proc.devRef .tc main_v3) = val_main_v3 (F := F) x1) :
    StableHlo.after ops5 Wv (Proc.devRef .tc main_v63) = val_main_v63 (F := F) x1 x2 x4 x5 x6 x7 x8 x9 x10 x11 := by
  simp only [ops5]
  after_results
  rw [h_v50]
  unfold val_main_v63 val_main_call5_v0 val_main_call5_cst
  rfl

/-- After operations 85 to 107, from contents that hold the stages and arguments they read, the buffer of stage
    `v65` holds that stage. -/
theorem c5_v65 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F))
    (h_v50 : Wv (Proc.devRef .tc main_v50) = val_main_v50 (F := F) x1 x2 x4 x5 x6 x7 x8 x9 x10 x11)
    (h_v62 : Wv (Proc.devRef .tc main_v62) = val_main_v62 (F := F) x1 x2 x4 x5 x6 x7 x8 x9 x10 x11)
    (h_v24 : Wv (Proc.devRef .tc main_v24) = val_main_v24 (F := F) x1 x2 x4 x5 x6 x7)
    (h_v25 : Wv (Proc.devRef .tc main_v25) = val_main_v25 (F := F) x2 x4 x5 x6 x7)
    (h_v1 : Wv (Proc.devRef .tc main_v1) = val_main_v1 (F := F) x1)
    (h_v3 : Wv (Proc.devRef .tc main_v3) = val_main_v3 (F := F) x1) :
    StableHlo.after ops5 Wv (Proc.devRef .tc main_v65) = val_main_v65 (F := F) x1 x2 x4 x5 x6 x7 x8 x9 x10 x11 := by
  simp only [ops5]
  after_results
  rw [h_v50, h_v25]
  unfold val_main_v65 val_main_v63 val_main_call5_v0 val_main_call5_cst
  rfl

/-- After operations 85 to 107, from contents that hold the stages and arguments they read, the buffer of stage
    `v72` holds that stage. -/
theorem c5_v72 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F))
    (h_v50 : Wv (Proc.devRef .tc main_v50) = val_main_v50 (F := F) x1 x2 x4 x5 x6 x7 x8 x9 x10 x11)
    (h_v62 : Wv (Proc.devRef .tc main_v62) = val_main_v62 (F := F) x1 x2 x4 x5 x6 x7 x8 x9 x10 x11)
    (h_v24 : Wv (Proc.devRef .tc main_v24) = val_main_v24 (F := F) x1 x2 x4 x5 x6 x7)
    (h_v25 : Wv (Proc.devRef .tc main_v25) = val_main_v25 (F := F) x2 x4 x5 x6 x7)
    (h_v1 : Wv (Proc.devRef .tc main_v1) = val_main_v1 (F := F) x1)
    (h_v3 : Wv (Proc.devRef .tc main_v3) = val_main_v3 (F := F) x1) :
    StableHlo.after ops5 Wv (Proc.devRef .tc main_v72) = val_main_v72 (F := F) x1 x2 x4 x5 x6 x7 x8 x9 x10 x11 := by
  simp only [ops5]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h_v62, h_v24, h_v1]
  unfold val_main_v72 val_main_v71 val_main_v70 val_main_v69 val_main_v68 val_main_v67 val_main_v66 val_main_v64 val_main_c_10 val_main_c_11
  rfl

/-- After operations 85 to 107, from contents that hold the stages and arguments they read, the buffer of stage
    `v79` holds that stage. -/
theorem c5_v79 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F))
    (h_v50 : Wv (Proc.devRef .tc main_v50) = val_main_v50 (F := F) x1 x2 x4 x5 x6 x7 x8 x9 x10 x11)
    (h_v62 : Wv (Proc.devRef .tc main_v62) = val_main_v62 (F := F) x1 x2 x4 x5 x6 x7 x8 x9 x10 x11)
    (h_v24 : Wv (Proc.devRef .tc main_v24) = val_main_v24 (F := F) x1 x2 x4 x5 x6 x7)
    (h_v25 : Wv (Proc.devRef .tc main_v25) = val_main_v25 (F := F) x2 x4 x5 x6 x7)
    (h_v1 : Wv (Proc.devRef .tc main_v1) = val_main_v1 (F := F) x1)
    (h_v3 : Wv (Proc.devRef .tc main_v3) = val_main_v3 (F := F) x1) :
    StableHlo.after ops5 Wv (Proc.devRef .tc main_v79) = val_main_v79 (F := F) x1 x2 x4 x5 x6 x7 x8 x9 x10 x11 := by
  simp only [ops5]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h_v62, h_v24, h_v3]
  unfold val_main_v79 val_main_v78 val_main_v77 val_main_v76 val_main_v75 val_main_v74 val_main_v73 val_main_v64 val_main_c_12 val_main_c_13
  rfl

end Cert.ReferenceIdeal.RefWalk

end
-- ==== Proof.RefC_d.lean ====
/-
  The reference's buffer contents across two stretches of its host operations: layer 3; the node means of layer 3.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 108 to 119, from contents that hold the stages and arguments they read, the buffer of stage
    `v89` holds that stage. -/
theorem c6_v89 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F))
    (h_v72 : Wv (Proc.devRef .tc main_v72) = val_main_v72 (F := F) x1 x2 x4 x5 x6 x7 x8 x9 x10 x11)
    (h_v79 : Wv (Proc.devRef .tc main_v79) = val_main_v79 (F := F) x1 x2 x4 x5 x6 x7 x8 x9 x10 x11)
    (h_v65 : Wv (Proc.devRef .tc main_v65) = val_main_v65 (F := F) x1 x2 x4 x5 x6 x7 x8 x9 x10 x11)
    (h_arg12 : Wv (Proc.devRef .tc main_arg12) = x12)
    (h_arg13 : Wv (Proc.devRef .tc main_arg13) = x13)
    (h_arg14 : Wv (Proc.devRef .tc main_arg14) = x14)
    (h_arg15 : Wv (Proc.devRef .tc main_arg15) = x15) :
    StableHlo.after ops6 Wv (Proc.devRef .tc main_v89) = val_main_v89 (F := F) x1 x2 x4 x5 x6 x7 x8 x9 x10 x11 x12 x13 x14 x15 := by
  subst h_arg12 h_arg13 h_arg14 h_arg15
  simp only [ops6]
  after_results
  unfold val_main_v89 val_main_v88 val_main_v87 val_main_v86 val_main_v85 val_main_call6_v0 val_main_call6_cst val_main_v84 val_main_v83 val_main_v82 val_main_v81 val_main_v80
  rw [← h_v72, ← h_v79, ← h_v65]
  rfl

/-- After operations 120 to 137, from contents that hold the stages and arguments they read, the buffer of stage
    `v101` holds that stage. -/
theorem c7_v101 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F))
    (h_v1 : Wv (Proc.devRef .tc main_v1) = val_main_v1 (F := F) x1)
    (h_v89 : Wv (Proc.devRef .tc main_v89) = val_main_v89 (F := F) x1 x2 x4 x5 x6 x7 x8 x9 x10 x11 x12 x13 x14 x15) :
    StableHlo.after ops7 Wv (Proc.devRef .tc main_v101) = val_main_v101 (F := F) x1 x2 x4 x5 x6 x7 x8 x9 x10 x11 x12 x13 x14 x15 := by
  simp only [ops7]
  after_results
  unfold val_main_v101 val_main_call7_v0 val_main_call7_cst val_main_v100 val_main_v99 val_main_v98 val_main_v97 val_main_cst_17 val_main_v96 val_main_v95 val_main_v94 val_main_cst_16 val_main_v93 val_main_cst_15 val_main_v92 val_main_v91 val_main_v90 val_main_cst_14
  rw [← h_v1, ← h_v89]
  rfl

end Cert.ReferenceIdeal.RefWalk

end
-- ==== Proof.RefC_e.lean ====
/-
  The reference's buffer contents across two stretches of its host operations: the clamped layer-3 rows beside layer 2's, and the two gathers of layer 4; layer 4's clamped result row.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 138 to 160, from contents that hold the stages and arguments they read, the buffer of stage
    `v104` holds that stage. -/
theorem c8_v104 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F))
    (h_v89 : Wv (Proc.devRef .tc main_v89) = val_main_v89 (F := F) x1 x2 x4 x5 x6 x7 x8 x9 x10 x11 x12 x13 x14 x15)
    (h_v101 : Wv (Proc.devRef .tc main_v101) = val_main_v101 (F := F) x1 x2 x4 x5 x6 x7 x8 x9 x10 x11 x12 x13 x14 x15)
    (h_v62 : Wv (Proc.devRef .tc main_v62) = val_main_v62 (F := F) x1 x2 x4 x5 x6 x7 x8 x9 x10 x11)
    (h_v63 : Wv (Proc.devRef .tc main_v63) = val_main_v63 (F := F) x1 x2 x4 x5 x6 x7 x8 x9 x10 x11)
    (h_v1 : Wv (Proc.devRef .tc main_v1) = val_main_v1 (F := F) x1)
    (h_v3 : Wv (Proc.devRef .tc main_v3) = val_main_v3 (F := F) x1) :
    StableHlo.after ops8 Wv (Proc.devRef .tc main_v104) = val_main_v104 (F := F) x1 x2 x4 x5 x6 x7 x8 x9 x10 x11 x12 x13 x14 x15 := by
  simp only [ops8]
  after_results
  rw [h_v89, h_v63]
  unfold val_main_v104 val_main_v102 val_main_call8_v0 val_main_call8_cst
  rfl

/-- After operations 138 to 160, from contents that hold the stages and arguments they read, the buffer of stage
    `v111` holds that stage. -/
theorem c8_v111 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F))
    (h_v89 : Wv (Proc.devRef .tc main_v89) = val_main_v89 (F := F) x1 x2 x4 x5 x6 x7 x8 x9 x10 x11 x12 x13 x14 x15)
    (h_v101 : Wv (Proc.devRef .tc main_v101) = val_main_v101 (F := F) x1 x2 x4 x5 x6 x7 x8 x9 x10 x11 x12 x13 x14 x15)
    (h_v62 : Wv (Proc.devRef .tc main_v62) = val_main_v62 (F := F) x1 x2 x4 x5 x6 x7 x8 x9 x10 x11)
    (h_v63 : Wv (Proc.devRef .tc main_v63) = val_main_v63 (F := F) x1 x2 x4 x5 x6 x7 x8 x9 x10 x11)
    (h_v1 : Wv (Proc.devRef .tc main_v1) = val_main_v1 (F := F) x1)
    (h_v3 : Wv (Proc.devRef .tc main_v3) = val_main_v3 (F := F) x1) :
    StableHlo.after ops8 Wv (Proc.devRef .tc main_v111) = val_main_v111 (F := F) x1 x2 x4 x5 x6 x7 x8 x9 x10 x11 x12 x13 x14 x15 := by
  simp only [ops8]
  after_results
  rw [h_v101, h_v62, h_v1]
  unfold val_main_v111 val_main_v103 val_main_v110 val_main_v109 val_main_v106 val_main_v105 val_main_c_18 val_main_v108 val_main_v107 val_main_c_19
  rfl

/-- After operations 138 to 160, from contents that hold the stages and arguments they read, the buffer of stage
    `v118` holds that stage. -/
theorem c8_v118 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F))
    (h_v89 : Wv (Proc.devRef .tc main_v89) = val_main_v89 (F := F) x1 x2 x4 x5 x6 x7 x8 x9 x10 x11 x12 x13 x14 x15)
    (h_v101 : Wv (Proc.devRef .tc main_v101) = val_main_v101 (F := F) x1 x2 x4 x5 x6 x7 x8 x9 x10 x11 x12 x13 x14 x15)
    (h_v62 : Wv (Proc.devRef .tc main_v62) = val_main_v62 (F := F) x1 x2 x4 x5 x6 x7 x8 x9 x10 x11)
    (h_v63 : Wv (Proc.devRef .tc main_v63) = val_main_v63 (F := F) x1 x2 x4 x5 x6 x7 x8 x9 x10 x11)
    (h_v1 : Wv (Proc.devRef .tc main_v1) = val_main_v1 (F := F) x1)
    (h_v3 : Wv (Proc.devRef .tc main_v3) = val_main_v3 (F := F) x1) :
    StableHlo.after ops8 Wv (Proc.devRef .tc main_v118) = val_main_v118 (F := F) x1 x2 x4 x5 x6 x7 x8 x9 x10 x11 x12 x13 x14 x15 := by
  simp only [ops8]
  after_results_simp
  repeat (first
    | (rw [nullary_result_ne]; rotate_left; decide)
    | (rw [unary_result_ne]; rotate_left; decide)
    | (rw [binary_result_ne]; rotate_left; decide))
  rw [h_v101, h_v62, h_v3]
  unfold val_main_v118 val_main_v103 val_main_v117 val_main_v116 val_main_v113 val_main_v112 val_main_c_20 val_main_v115 val_main_v114 val_main_c_21
  rfl

/-- After operations 161 to 175, from contents that hold the stages and arguments they read, the buffer of stage
    `v129` holds that stage. -/
theorem c9_v129 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F)) (x16 : (⟨S192x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F))
    (h_v111 : Wv (Proc.devRef .tc main_v111) = val_main_v111 (F := F) x1 x2 x4 x5 x6 x7 x8 x9 x10 x11 x12 x13 x14 x15)
    (h_v118 : Wv (Proc.devRef .tc main_v118) = val_main_v118 (F := F) x1 x2 x4 x5 x6 x7 x8 x9 x10 x11 x12 x13 x14 x15)
    (h_v104 : Wv (Proc.devRef .tc main_v104) = val_main_v104 (F := F) x1 x2 x4 x5 x6 x7 x8 x9 x10 x11 x12 x13 x14 x15)
    (h_arg16 : Wv (Proc.devRef .tc main_arg16) = x16)
    (h_arg17 : Wv (Proc.devRef .tc main_arg17) = x17)
    (h_arg18 : Wv (Proc.devRef .tc main_arg18) = x18)
    (h_arg19 : Wv (Proc.devRef .tc main_arg19) = x19) :
    StableHlo.after ops9 Wv (Proc.devRef .tc main_v129) = val_main_v129 (F := F) x1 x2 x4 x5 x6 x7 x8 x9 x10 x11 x12 x13 x14 x15 x16 x17 x18 x19 := by
  subst h_arg16 h_arg17 h_arg18 h_arg19
  simp only [ops9]
  after_results
  unfold val_main_v129 val_main_call10_v0 val_main_call10_cst val_main_v128 val_main_v127 val_main_v126 val_main_v125 val_main_v124 val_main_call9_v0 val_main_call9_cst val_main_v123 val_main_v122 val_main_v121 val_main_v120 val_main_v119
  rw [← h_v111, ← h_v118, ← h_v104]
  rfl

end Cert.ReferenceIdeal.RefWalk

end
-- ==== Proof.RefC_f.lean ====
/-
  The reference's buffer contents across one stretch of its host operations: the two heads' first affine maps and the normalised four-vector result.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 176 to 198, from contents that hold the stages and arguments they read, the buffer of stage
    `v137` holds that stage. -/
theorem c10_v137 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F)) (x16 : (⟨S192x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F)) (x20 : (⟨S32x32, .f32⟩ : BufTy).Contents (Elt F)) (x21 : (⟨S32, .f32⟩ : BufTy).Contents (Elt F)) (x22 : (⟨S32x32, .f32⟩ : BufTy).Contents (Elt F)) (x23 : (⟨S32, .f32⟩ : BufTy).Contents (Elt F)) (x24 : (⟨S32x4, .f32⟩ : BufTy).Contents (Elt F)) (x25 : (⟨S4, .f32⟩ : BufTy).Contents (Elt F))
    (h_v129 : Wv (Proc.devRef .tc main_v129) = val_main_v129 (F := F) x1 x2 x4 x5 x6 x7 x8 x9 x10 x11 x12 x13 x14 x15 x16 x17 x18 x19)
    (h_arg20 : Wv (Proc.devRef .tc main_arg20) = x20)
    (h_arg21 : Wv (Proc.devRef .tc main_arg21) = x21)
    (h_arg22 : Wv (Proc.devRef .tc main_arg22) = x22)
    (h_arg23 : Wv (Proc.devRef .tc main_arg23) = x23)
    (h_arg24 : Wv (Proc.devRef .tc main_arg24) = x24)
    (h_arg25 : Wv (Proc.devRef .tc main_arg25) = x25)
    (h_arg2 : Wv (Proc.devRef .tc main_arg2) = x2) :
    StableHlo.after ops10 Wv (Proc.devRef .tc main_v137) = val_main_v137 (F := F) x1 x2 x4 x5 x6 x7 x8 x9 x10 x11 x12 x13 x14 x15 x16 x17 x18 x19 x22 x23 := by
  simp only [ops10]
  after_results
  rw [h_v129, h_arg22, h_arg23]
  unfold val_main_v137 val_main_v134 val_main_v136 val_main_v135
  rfl

/-- After operations 176 to 198, from contents that hold the stages and arguments they read, the buffer of stage
    `v147` holds that stage. -/
theorem c10_v147 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F)) (x16 : (⟨S192x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F)) (x20 : (⟨S32x32, .f32⟩ : BufTy).Contents (Elt F)) (x21 : (⟨S32, .f32⟩ : BufTy).Contents (Elt F)) (x22 : (⟨S32x32, .f32⟩ : BufTy).Contents (Elt F)) (x23 : (⟨S32, .f32⟩ : BufTy).Contents (Elt F)) (x24 : (⟨S32x4, .f32⟩ : BufTy).Contents (Elt F)) (x25 : (⟨S4, .f32⟩ : BufTy).Contents (Elt F))
    (h_v129 : Wv (Proc.devRef .tc main_v129) = val_main_v129 (F := F) x1 x2 x4 x5 x6 x7 x8 x9 x10 x11 x12 x13 x14 x15 x16 x17 x18 x19)
    (h_arg20 : Wv (Proc.devRef .tc main_arg20) = x20)
    (h_arg21 : Wv (Proc.devRef .tc main_arg21) = x21)
    (h_arg22 : Wv (Proc.devRef .tc main_arg22) = x22)
    (h_arg23 : Wv (Proc.devRef .tc main_arg23) = x23)
    (h_arg24 : Wv (Proc.devRef .tc main_arg24) = x24)
    (h_arg25 : Wv (Proc.devRef .tc main_arg25) = x25)
    (h_arg2 : Wv (Proc.devRef .tc main_arg2) = x2) :
    StableHlo.after ops10 Wv (Proc.devRef .tc main_v147) = val_main_v147 (F := F) x1 x2 x4 x5 x6 x7 x8 x9 x10 x11 x12 x13 x14 x15 x16 x17 x18 x19 x20 x21 x24 x25 := by
  simp only [ops10]
  after_results_simp
  simp only [h_v129, h_arg20, h_arg21, h_arg24, h_arg25, h_arg2]
  unfold val_main_v147 val_main_v146 val_main_v145 val_main_v144 val_main_cst_22 val_main_v143 val_main_call11_v2
    val_main_call11_v1 val_main_call11_cst val_main_call11_v0 val_main_v142 val_main_v141 val_main_v140 val_main_v139
    val_main_v138 val_main_v133 val_main_v132 val_main_v131 val_main_v130
  rfl

end Cert.ReferenceIdeal.RefWalk

end
-- ==== Proof.RefC_g.lean ====
/-
  The reference's buffer contents across one stretch of its host operations: the logistic result.
  Each operation of a stretch rewrites the one buffer it defines, so after the stretch a buffer it defines holds the
  operation's function of what its operands held; a stage of the reference is defined as exactly that function of the
  earlier stages. So if the stretch is entered with the earlier stages (and the arguments) in their buffers, it is left
  with its own stages in theirs.
-/
import proofs.«411902_j85581518340249_3_alg».proof.Proof.RefOps
import proofs.«411902_j85581518340249_3_alg».proof.Proof.ReadP

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- After operations 199 to 210, from contents that hold the stages and arguments they read, the buffer of stage
    `v157` holds that stage. -/
theorem c11_v157 (Wv : Valuation τ sig (Elt F)) (x1 : (⟨S2x400000, .i32⟩ : BufTy).Contents (Elt F)) (x2 : (⟨S400000x4, .f32⟩ : BufTy).Contents (Elt F)) (x4 : (⟨S4x32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S100x32, .f32⟩ : BufTy).Contents (Elt F)) (x9 : (⟨S32, .f32⟩ : BufTy).Contents (Elt F)) (x10 : (⟨S32x32, .f32⟩ : BufTy).Contents (Elt F)) (x11 : (⟨S32, .f32⟩ : BufTy).Contents (Elt F)) (x12 : (⟨S192x32, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F)) (x16 : (⟨S192x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F)) (x22 : (⟨S32x32, .f32⟩ : BufTy).Contents (Elt F)) (x23 : (⟨S32, .f32⟩ : BufTy).Contents (Elt F)) (x26 : (⟨S32x1, .f32⟩ : BufTy).Contents (Elt F)) (x27 : (⟨S1, .f32⟩ : BufTy).Contents (Elt F))
    (h_v137 : Wv (Proc.devRef .tc main_v137) = val_main_v137 (F := F) x1 x2 x4 x5 x6 x7 x8 x9 x10 x11 x12 x13 x14 x15 x16 x17 x18 x19 x22 x23)
    (h_arg26 : Wv (Proc.devRef .tc main_arg26) = x26)
    (h_arg27 : Wv (Proc.devRef .tc main_arg27) = x27) :
    StableHlo.after ops11 Wv (Proc.devRef .tc main_v157) = val_main_v157 (F := F) x1 x2 x4 x5 x6 x7 x8 x9 x10 x11 x12 x13 x14 x15 x16 x17 x18 x19 x22 x23 x26 x27 := by
  -- the fold over the twelve operations, read at the last buffer, is the operations' composed function of what the
  -- source buffers held; the stage is defined as the same composition of the same operations
  simp only [ops11]
  after_results
  rw [h_v137, h_arg26, h_arg27]
  unfold val_main_v157 val_main_v156 val_main_cst_24 val_main_v155 val_main_v154 val_main_cst_23 val_main_v153
    val_main_v152 val_main_v151 val_main_v150 val_main_v149 val_main_v148
  rfl

end Cert.ReferenceIdeal.RefWalk

end
-- ==== Proof.RefRun.lean ====
/-
  The reference's run, read one chunk at a time. @main's 211 host operations are twelve chunks, each ending where a layer
  or a group of node-level operations ends. The fold of the operations over the launch contents is the fold of the
  chunks in order. Each chunk, entered with the earlier stages and the arguments in their buffers, leaves its own stages
  in theirs (the chunk modules); a buffer a chunk does not define keeps its contents across it. Walking the twelve chunks
  in order gives the two result buffers at their stages; no operation defines an argument's buffer, so every argument is
  as launched.
-/
import proofs.«411902_j85581518340249_3_alg».proof.Proof.RefOps
import proofs.«411902_j85581518340249_3_alg».proof.Proof.ReadP
import proofs.«411902_j85581518340249_3_alg».proof.Proof.RefC_a
import proofs.«411902_j85581518340249_3_alg».proof.Proof.RefC_b
import proofs.«411902_j85581518340249_3_alg».proof.Proof.RefC_c
import proofs.«411902_j85581518340249_3_alg».proof.Proof.RefC_d
import proofs.«411902_j85581518340249_3_alg».proof.Proof.RefC_e
import proofs.«411902_j85581518340249_3_alg».proof.Proof.RefC_f
import proofs.«411902_j85581518340249_3_alg».proof.Proof.RefC_g

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

/-- The fold over two lists in a row is the fold over the second of the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## Which buffers each chunk defines -/

abbrev wrR0 : List (Ref sig .tc) := [main_v0, main_v1, main_v2, main_v3, main_v4, main_v5, main_v6, main_v7, main_call0_cst, main_call0_v0, main_v8, main_v9, main_v10, main_v11, main_v12]
abbrev wrR1 : List (Ref sig .tc) := [main_cst, main_v13, main_v14, main_v15, main_cst_0, main_v16, main_cst_1, main_v17, main_v18, main_v19, main_cst_2, main_v20, main_v21, main_v22, main_v23, main_call1_cst, main_call1_v0, main_v24]
abbrev wrR2 : List (Ref sig .tc) := [main_call2_cst, main_call2_v0, main_v25, main_v26, main_c, main_v27, main_v28, main_c_3, main_v29, main_v30, main_v31, main_v32, main_v33, main_c_4, main_v34, main_v35, main_c_5, main_v36, main_v37, main_v38, main_v39, main_v40]
abbrev wrR3 : List (Ref sig .tc) := [main_v41, main_v42, main_v43, main_v44, main_v45, main_call3_cst, main_call3_v0, main_v46, main_v47, main_v48, main_v49, main_v50]
abbrev wrR4 : List (Ref sig .tc) := [main_cst_6, main_v51, main_v52, main_v53, main_cst_7, main_v54, main_cst_8, main_v55, main_v56, main_v57, main_cst_9, main_v58, main_v59, main_v60, main_v61, main_call4_cst, main_call4_v0, main_v62]
abbrev wrR5 : List (Ref sig .tc) := [main_call5_cst, main_call5_v0, main_v63, main_v64, main_v65, main_c_10, main_v66, main_v67, main_c_11, main_v68, main_v69, main_v70, main_v71, main_v72, main_c_12, main_v73, main_v74, main_c_13, main_v75, main_v76, main_v77, main_v78, main_v79]
abbrev wrR6 : List (Ref sig .tc) := [main_v80, main_v81, main_v82, main_v83, main_v84, main_call6_cst, main_call6_v0, main_v85, main_v86, main_v87, main_v88, main_v89]
abbrev wrR7 : List (Ref sig .tc) := [main_cst_14, main_v90, main_v91, main_v92, main_cst_15, main_v93, main_cst_16, main_v94, main_v95, main_v96, main_cst_17, main_v97, main_v98, main_v99, main_v100, main_call7_cst, main_call7_v0, main_v101]
abbrev wrR8 : List (Ref sig .tc) := [main_call8_cst, main_call8_v0, main_v102, main_v103, main_v104, main_c_18, main_v105, main_v106, main_c_19, main_v107, main_v108, main_v109, main_v110, main_v111, main_c_20, main_v112, main_v113, main_c_21, main_v114, main_v115, main_v116, main_v117, main_v118]
abbrev wrR9 : List (Ref sig .tc) := [main_v119, main_v120, main_v121, main_v122, main_v123, main_call9_cst, main_call9_v0, main_v124, main_v125, main_v126, main_v127, main_v128, main_call10_cst, main_call10_v0, main_v129]
abbrev wrR10 : List (Ref sig .tc) := [main_v130, main_v131, main_v132, main_v133, main_v134, main_v135, main_v136, main_v137, main_v138, main_v139, main_v140, main_v141, main_v142, main_call11_v0, main_call11_cst, main_call11_v1, main_call11_v2, main_v143, main_cst_22, main_v144, main_v145, main_v146, main_v147]
abbrev wrR11 : List (Ref sig .tc) := [main_v148, main_v149, main_v150, main_v151, main_v152, main_v153, main_cst_23, main_v154, main_v155, main_cst_24, main_v156, main_v157]

/-- Each operation of a literal chunk defines one buffer, and that buffer is in the chunk's list. -/
macro "writes_sub" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.nary_writes]
  repeat' apply And.intro
  all_goals (rw [Finset.singleton_subset_iff, List.mem_toFinset]; exact List.mem_map_of_mem (by decide))))

theorem hWR0 : (ops0 : List (HloOp τ sig (Elt F))).Forall fun op => op.writes ⊆ (wrR0.map (Proc.devRef (τ := τ) .tc)).toFinset := by
  simp only [ops0]; writes_sub
theorem hWR1 : (ops1 : List (HloOp τ sig (Elt F))).Forall fun op => op.writes ⊆ (wrR1.map (Proc.devRef (τ := τ) .tc)).toFinset := by
  simp only [ops1]; writes_sub
theorem hWR2 : (ops2 : List (HloOp τ sig (Elt F))).Forall fun op => op.writes ⊆ (wrR2.map (Proc.devRef (τ := τ) .tc)).toFinset := by
  simp only [ops2]; writes_sub
theorem hWR3 : (ops3 : List (HloOp τ sig (Elt F))).Forall fun op => op.writes ⊆ (wrR3.map (Proc.devRef (τ := τ) .tc)).toFinset := by
  simp only [ops3]; writes_sub
theorem hWR4 : (ops4 : List (HloOp τ sig (Elt F))).Forall fun op => op.writes ⊆ (wrR4.map (Proc.devRef (τ := τ) .tc)).toFinset := by
  simp only [ops4]; writes_sub
theorem hWR5 : (ops5 : List (HloOp τ sig (Elt F))).Forall fun op => op.writes ⊆ (wrR5.map (Proc.devRef (τ := τ) .tc)).toFinset := by
  simp only [ops5]; writes_sub
theorem hWR6 : (ops6 : List (HloOp τ sig (Elt F))).Forall fun op => op.writes ⊆ (wrR6.map (Proc.devRef (τ := τ) .tc)).toFinset := by
  simp only [ops6]; writes_sub
theorem hWR7 : (ops7 : List (HloOp τ sig (Elt F))).Forall fun op => op.writes ⊆ (wrR7.map (Proc.devRef (τ := τ) .tc)).toFinset := by
  simp only [ops7]; writes_sub
theorem hWR8 : (ops8 : List (HloOp τ sig (Elt F))).Forall fun op => op.writes ⊆ (wrR8.map (Proc.devRef (τ := τ) .tc)).toFinset := by
  simp only [ops8]; writes_sub
theorem hWR9 : (ops9 : List (HloOp τ sig (Elt F))).Forall fun op => op.writes ⊆ (wrR9.map (Proc.devRef (τ := τ) .tc)).toFinset := by
  simp only [ops9]; writes_sub
theorem hWR10 : (ops10 : List (HloOp τ sig (Elt F))).Forall fun op => op.writes ⊆ (wrR10.map (Proc.devRef (τ := τ) .tc)).toFinset := by
  simp only [ops10]; writes_sub
theorem hWR11 : (ops11 : List (HloOp τ sig (Elt F))).Forall fun op => op.writes ⊆ (wrR11.map (Proc.devRef (τ := τ) .tc)).toFinset := by
  simp only [ops11]; writes_sub

theorem keepR0 (V : Valuation τ sig (Elt F)) (b : Ref sig .tc) (hb : b ∉ wrR0) :
    StableHlo.after ops0 V (Proc.devRef .tc b) = V (Proc.devRef .tc b) := StableHlo.after_of_writes_sub ops0 V hWR0 hb
theorem keepR1 (V : Valuation τ sig (Elt F)) (b : Ref sig .tc) (hb : b ∉ wrR1) :
    StableHlo.after ops1 V (Proc.devRef .tc b) = V (Proc.devRef .tc b) := StableHlo.after_of_writes_sub ops1 V hWR1 hb
theorem keepR2 (V : Valuation τ sig (Elt F)) (b : Ref sig .tc) (hb : b ∉ wrR2) :
    StableHlo.after ops2 V (Proc.devRef .tc b) = V (Proc.devRef .tc b) := StableHlo.after_of_writes_sub ops2 V hWR2 hb
theorem keepR3 (V : Valuation τ sig (Elt F)) (b : Ref sig .tc) (hb : b ∉ wrR3) :
    StableHlo.after ops3 V (Proc.devRef .tc b) = V (Proc.devRef .tc b) := StableHlo.after_of_writes_sub ops3 V hWR3 hb
theorem keepR4 (V : Valuation τ sig (Elt F)) (b : Ref sig .tc) (hb : b ∉ wrR4) :
    StableHlo.after ops4 V (Proc.devRef .tc b) = V (Proc.devRef .tc b) := StableHlo.after_of_writes_sub ops4 V hWR4 hb
theorem keepR5 (V : Valuation τ sig (Elt F)) (b : Ref sig .tc) (hb : b ∉ wrR5) :
    StableHlo.after ops5 V (Proc.devRef .tc b) = V (Proc.devRef .tc b) := StableHlo.after_of_writes_sub ops5 V hWR5 hb
theorem keepR6 (V : Valuation τ sig (Elt F)) (b : Ref sig .tc) (hb : b ∉ wrR6) :
    StableHlo.after ops6 V (Proc.devRef .tc b) = V (Proc.devRef .tc b) := StableHlo.after_of_writes_sub ops6 V hWR6 hb
theorem keepR7 (V : Valuation τ sig (Elt F)) (b : Ref sig .tc) (hb : b ∉ wrR7) :
    StableHlo.after ops7 V (Proc.devRef .tc b) = V (Proc.devRef .tc b) := StableHlo.after_of_writes_sub ops7 V hWR7 hb
theorem keepR8 (V : Valuation τ sig (Elt F)) (b : Ref sig .tc) (hb : b ∉ wrR8) :
    StableHlo.after ops8 V (Proc.devRef .tc b) = V (Proc.devRef .tc b) := StableHlo.after_of_writes_sub ops8 V hWR8 hb
theorem keepR9 (V : Valuation τ sig (Elt F)) (b : Ref sig .tc) (hb : b ∉ wrR9) :
    StableHlo.after ops9 V (Proc.devRef .tc b) = V (Proc.devRef .tc b) := StableHlo.after_of_writes_sub ops9 V hWR9 hb
theorem keepR10 (V : Valuation τ sig (Elt F)) (b : Ref sig .tc) (hb : b ∉ wrR10) :
    StableHlo.after ops10 V (Proc.devRef .tc b) = V (Proc.devRef .tc b) := StableHlo.after_of_writes_sub ops10 V hWR10 hb
theorem keepR11 (V : Valuation τ sig (Elt F)) (b : Ref sig .tc) (hb : b ∉ wrR11) :
    StableHlo.after ops11 V (Proc.devRef .tc b) = V (Proc.devRef .tc b) := StableHlo.after_of_writes_sub ops11 V hWR11 hb

/-! ## The contents at each chunk's entry -/

section
variable (W : Valuation τ sig (Elt F))

abbrev R0 : Valuation τ sig (Elt F) := W
abbrev R1 : Valuation τ sig (Elt F) := StableHlo.after ops0 (R0 W)
abbrev R2 : Valuation τ sig (Elt F) := StableHlo.after ops1 (R1 W)
abbrev R3 : Valuation τ sig (Elt F) := StableHlo.after ops2 (R2 W)
abbrev R4 : Valuation τ sig (Elt F) := StableHlo.after ops3 (R3 W)
abbrev R5 : Valuation τ sig (Elt F) := StableHlo.after ops4 (R4 W)
abbrev R6 : Valuation τ sig (Elt F) := StableHlo.after ops5 (R5 W)
abbrev R7 : Valuation τ sig (Elt F) := StableHlo.after ops6 (R6 W)
abbrev R8 : Valuation τ sig (Elt F) := StableHlo.after ops7 (R7 W)
abbrev R9 : Valuation τ sig (Elt F) := StableHlo.after ops8 (R8 W)
abbrev R10 : Valuation τ sig (Elt F) := StableHlo.after ops9 (R9 W)
abbrev R11 : Valuation τ sig (Elt F) := StableHlo.after ops10 (R10 W)
abbrev R12 : Valuation τ sig (Elt F) := StableHlo.after ops11 (R11 W)

/-- The fold over the whole list is the last boundary. -/
theorem after_ops : StableHlo.after ops W = R12 W := by
  rw [ops_split]
  simp only [after_append]

/-- A buffer no operation defines is as it was after the whole list. -/
theorem after_ops_arg (b : Ref sig .tc) (h0 : b ∉ wrR0) (h1 : b ∉ wrR1) (h2 : b ∉ wrR2) (h3 : b ∉ wrR3) (h4 : b ∉ wrR4) (h5 : b ∉ wrR5) (h6 : b ∉ wrR6) (h7 : b ∉ wrR7) (h8 : b ∉ wrR8) (h9 : b ∉ wrR9) (h10 : b ∉ wrR10) (h11 : b ∉ wrR11) :
    StableHlo.after ops W (Proc.devRef .tc b) = W (Proc.devRef .tc b) := by
  rw [after_ops]
  exact (keepR11 (R11 W) b h11).trans ((keepR10 (R10 W) b h10).trans ((keepR9 (R9 W) b h9).trans ((keepR8 (R8 W) b h8).trans ((keepR7 (R7 W) b h7).trans ((keepR6 (R6 W) b h6).trans ((keepR5 (R5 W) b h5).trans ((keepR4 (R4 W) b h4).trans ((keepR3 (R3 W) b h3).trans ((keepR2 (R2 W) b h2).trans ((keepR1 (R1 W) b h1).trans ((keepR0 (R0 W) b h0))))))))))))

/-- Argument `J` as the entry contents hold it. -/
abbrev aR1 := W (Proc.devRef .tc main_arg1)
abbrev aR2 := W (Proc.devRef .tc main_arg2)
abbrev aR4 := W (Proc.devRef .tc main_arg4)
abbrev aR5 := W (Proc.devRef .tc main_arg5)
abbrev aR6 := W (Proc.devRef .tc main_arg6)
abbrev aR7 := W (Proc.devRef .tc main_arg7)
abbrev aR8 := W (Proc.devRef .tc main_arg8)
abbrev aR9 := W (Proc.devRef .tc main_arg9)
abbrev aR10 := W (Proc.devRef .tc main_arg10)
abbrev aR11 := W (Proc.devRef .tc main_arg11)
abbrev aR12 := W (Proc.devRef .tc main_arg12)
abbrev aR13 := W (Proc.devRef .tc main_arg13)
abbrev aR14 := W (Proc.devRef .tc main_arg14)
abbrev aR15 := W (Proc.devRef .tc main_arg15)
abbrev aR16 := W (Proc.devRef .tc main_arg16)
abbrev aR17 := W (Proc.devRef .tc main_arg17)
abbrev aR18 := W (Proc.devRef .tc main_arg18)
abbrev aR19 := W (Proc.devRef .tc main_arg19)
abbrev aR20 := W (Proc.devRef .tc main_arg20)
abbrev aR21 := W (Proc.devRef .tc main_arg21)
abbrev aR22 := W (Proc.devRef .tc main_arg22)
abbrev aR23 := W (Proc.devRef .tc main_arg23)
abbrev aR24 := W (Proc.devRef .tc main_arg24)
abbrev aR25 := W (Proc.devRef .tc main_arg25)
abbrev aR26 := W (Proc.devRef .tc main_arg26)
abbrev aR27 := W (Proc.devRef .tc main_arg27)

/-! ### At the entry of chunk 0 -/

theorem at0_arg1 : R0 W (Proc.devRef .tc main_arg1) = aR1 W := rfl
theorem at0_arg2 : R0 W (Proc.devRef .tc main_arg2) = aR2 W := rfl
theorem at0_arg4 : R0 W (Proc.devRef .tc main_arg4) = aR4 W := rfl
theorem at0_arg5 : R0 W (Proc.devRef .tc main_arg5) = aR5 W := rfl
theorem at0_arg6 : R0 W (Proc.devRef .tc main_arg6) = aR6 W := rfl
theorem at0_arg7 : R0 W (Proc.devRef .tc main_arg7) = aR7 W := rfl
theorem at0_arg8 : R0 W (Proc.devRef .tc main_arg8) = aR8 W := rfl
theorem at0_arg9 : R0 W (Proc.devRef .tc main_arg9) = aR9 W := rfl
theorem at0_arg10 : R0 W (Proc.devRef .tc main_arg10) = aR10 W := rfl
theorem at0_arg11 : R0 W (Proc.devRef .tc main_arg11) = aR11 W := rfl
theorem at0_arg12 : R0 W (Proc.devRef .tc main_arg12) = aR12 W := rfl
theorem at0_arg13 : R0 W (Proc.devRef .tc main_arg13) = aR13 W := rfl
theorem at0_arg14 : R0 W (Proc.devRef .tc main_arg14) = aR14 W := rfl
theorem at0_arg15 : R0 W (Proc.devRef .tc main_arg15) = aR15 W := rfl
theorem at0_arg16 : R0 W (Proc.devRef .tc main_arg16) = aR16 W := rfl
theorem at0_arg17 : R0 W (Proc.devRef .tc main_arg17) = aR17 W := rfl
theorem at0_arg18 : R0 W (Proc.devRef .tc main_arg18) = aR18 W := rfl
theorem at0_arg19 : R0 W (Proc.devRef .tc main_arg19) = aR19 W := rfl
theorem at0_arg20 : R0 W (Proc.devRef .tc main_arg20) = aR20 W := rfl
theorem at0_arg21 : R0 W (Proc.devRef .tc main_arg21) = aR21 W := rfl
theorem at0_arg22 : R0 W (Proc.devRef .tc main_arg22) = aR22 W := rfl
theorem at0_arg23 : R0 W (Proc.devRef .tc main_arg23) = aR23 W := rfl
theorem at0_arg24 : R0 W (Proc.devRef .tc main_arg24) = aR24 W := rfl
theorem at0_arg25 : R0 W (Proc.devRef .tc main_arg25) = aR25 W := rfl
theorem at0_arg26 : R0 W (Proc.devRef .tc main_arg26) = aR26 W := rfl
theorem at0_arg27 : R0 W (Proc.devRef .tc main_arg27) = aR27 W := rfl

/-! ### What chunk 0 leaves -/

theorem out0_v1 : R1 W (Proc.devRef .tc main_v1) = val_main_v1 (F := F) (aR1 W) :=
  c0_v1 (R0 W) (aR1 W) (aR2 W) (aR4 W) (aR5 W) (aR6 W) (aR7 W) (at0_arg1 W) (at0_arg2 W) (at0_arg4 W) (at0_arg5 W) (at0_arg6 W) (at0_arg7 W)
theorem out0_v3 : R1 W (Proc.devRef .tc main_v3) = val_main_v3 (F := F) (aR1 W) :=
  c0_v3 (R0 W) (aR1 W) (aR2 W) (aR4 W) (aR5 W) (aR6 W) (aR7 W) (at0_arg1 W) (at0_arg2 W) (at0_arg4 W) (at0_arg5 W) (at0_arg6 W) (at0_arg7 W)
theorem out0_v12 : R1 W (Proc.devRef .tc main_v12) = val_main_v12 (F := F) (aR2 W) (aR4 W) (aR5 W) (aR6 W) (aR7 W) :=
  c0_v12 (R0 W) (aR1 W) (aR2 W) (aR4 W) (aR5 W) (aR6 W) (aR7 W) (at0_arg1 W) (at0_arg2 W) (at0_arg4 W) (at0_arg5 W) (at0_arg6 W) (at0_arg7 W)

/-! ### At the entry of chunk 1 -/

theorem at1_v1 : R1 W (Proc.devRef .tc main_v1) = val_main_v1 (F := F) (aR1 W) := out0_v1 W
theorem at1_v12 : R1 W (Proc.devRef .tc main_v12) = val_main_v12 (F := F) (aR2 W) (aR4 W) (aR5 W) (aR6 W) (aR7 W) := out0_v12 W
theorem at1_arg2 : R1 W (Proc.devRef .tc main_arg2) = aR2 W := (keepR0 (R0 W) main_arg2 (by decide)).trans (at0_arg2 W)
theorem at1_v3 : R1 W (Proc.devRef .tc main_v3) = val_main_v3 (F := F) (aR1 W) := out0_v3 W
theorem at1_arg8 : R1 W (Proc.devRef .tc main_arg8) = aR8 W := (keepR0 (R0 W) main_arg8 (by decide)).trans (at0_arg8 W)
theorem at1_arg9 : R1 W (Proc.devRef .tc main_arg9) = aR9 W := (keepR0 (R0 W) main_arg9 (by decide)).trans (at0_arg9 W)
theorem at1_arg10 : R1 W (Proc.devRef .tc main_arg10) = aR10 W := (keepR0 (R0 W) main_arg10 (by decide)).trans (at0_arg10 W)
theorem at1_arg11 : R1 W (Proc.devRef .tc main_arg11) = aR11 W := (keepR0 (R0 W) main_arg11 (by decide)).trans (at0_arg11 W)
theorem at1_arg12 : R1 W (Proc.devRef .tc main_arg12) = aR12 W := (keepR0 (R0 W) main_arg12 (by decide)).trans (at0_arg12 W)
theorem at1_arg13 : R1 W (Proc.devRef .tc main_arg13) = aR13 W := (keepR0 (R0 W) main_arg13 (by decide)).trans (at0_arg13 W)
theorem at1_arg14 : R1 W (Proc.devRef .tc main_arg14) = aR14 W := (keepR0 (R0 W) main_arg14 (by decide)).trans (at0_arg14 W)
theorem at1_arg15 : R1 W (Proc.devRef .tc main_arg15) = aR15 W := (keepR0 (R0 W) main_arg15 (by decide)).trans (at0_arg15 W)
theorem at1_arg16 : R1 W (Proc.devRef .tc main_arg16) = aR16 W := (keepR0 (R0 W) main_arg16 (by decide)).trans (at0_arg16 W)
theorem at1_arg17 : R1 W (Proc.devRef .tc main_arg17) = aR17 W := (keepR0 (R0 W) main_arg17 (by decide)).trans (at0_arg17 W)
theorem at1_arg18 : R1 W (Proc.devRef .tc main_arg18) = aR18 W := (keepR0 (R0 W) main_arg18 (by decide)).trans (at0_arg18 W)
theorem at1_arg19 : R1 W (Proc.devRef .tc main_arg19) = aR19 W := (keepR0 (R0 W) main_arg19 (by decide)).trans (at0_arg19 W)
theorem at1_arg20 : R1 W (Proc.devRef .tc main_arg20) = aR20 W := (keepR0 (R0 W) main_arg20 (by decide)).trans (at0_arg20 W)
theorem at1_arg21 : R1 W (Proc.devRef .tc main_arg21) = aR21 W := (keepR0 (R0 W) main_arg21 (by decide)).trans (at0_arg21 W)
theorem at1_arg22 : R1 W (Proc.devRef .tc main_arg22) = aR22 W := (keepR0 (R0 W) main_arg22 (by decide)).trans (at0_arg22 W)
theorem at1_arg23 : R1 W (Proc.devRef .tc main_arg23) = aR23 W := (keepR0 (R0 W) main_arg23 (by decide)).trans (at0_arg23 W)
theorem at1_arg24 : R1 W (Proc.devRef .tc main_arg24) = aR24 W := (keepR0 (R0 W) main_arg24 (by decide)).trans (at0_arg24 W)
theorem at1_arg25 : R1 W (Proc.devRef .tc main_arg25) = aR25 W := (keepR0 (R0 W) main_arg25 (by decide)).trans (at0_arg25 W)
theorem at1_arg26 : R1 W (Proc.devRef .tc main_arg26) = aR26 W := (keepR0 (R0 W) main_arg26 (by decide)).trans (at0_arg26 W)
theorem at1_arg27 : R1 W (Proc.devRef .tc main_arg27) = aR27 W := (keepR0 (R0 W) main_arg27 (by decide)).trans (at0_arg27 W)

/-! ### What chunk 1 leaves -/

theorem out1_v24 : R2 W (Proc.devRef .tc main_v24) = val_main_v24 (F := F) (aR1 W) (aR2 W) (aR4 W) (aR5 W) (aR6 W) (aR7 W) :=
  c1_v24 (R1 W) (aR1 W) (aR2 W) (aR4 W) (aR5 W) (aR6 W) (aR7 W) (at1_v1 W) (at1_v12 W)

/-! ### At the entry of chunk 2 -/

theorem at2_v12 : R2 W (Proc.devRef .tc main_v12) = val_main_v12 (F := F) (aR2 W) (aR4 W) (aR5 W) (aR6 W) (aR7 W) := (keepR1 (R1 W) main_v12 (by decide)).trans (at1_v12 W)
theorem at2_arg2 : R2 W (Proc.devRef .tc main_arg2) = aR2 W := (keepR1 (R1 W) main_arg2 (by decide)).trans (at1_arg2 W)
theorem at2_v1 : R2 W (Proc.devRef .tc main_v1) = val_main_v1 (F := F) (aR1 W) := (keepR1 (R1 W) main_v1 (by decide)).trans (at1_v1 W)
theorem at2_v24 : R2 W (Proc.devRef .tc main_v24) = val_main_v24 (F := F) (aR1 W) (aR2 W) (aR4 W) (aR5 W) (aR6 W) (aR7 W) := out1_v24 W
theorem at2_v3 : R2 W (Proc.devRef .tc main_v3) = val_main_v3 (F := F) (aR1 W) := (keepR1 (R1 W) main_v3 (by decide)).trans (at1_v3 W)
theorem at2_arg8 : R2 W (Proc.devRef .tc main_arg8) = aR8 W := (keepR1 (R1 W) main_arg8 (by decide)).trans (at1_arg8 W)
theorem at2_arg9 : R2 W (Proc.devRef .tc main_arg9) = aR9 W := (keepR1 (R1 W) main_arg9 (by decide)).trans (at1_arg9 W)
theorem at2_arg10 : R2 W (Proc.devRef .tc main_arg10) = aR10 W := (keepR1 (R1 W) main_arg10 (by decide)).trans (at1_arg10 W)
theorem at2_arg11 : R2 W (Proc.devRef .tc main_arg11) = aR11 W := (keepR1 (R1 W) main_arg11 (by decide)).trans (at1_arg11 W)
theorem at2_arg12 : R2 W (Proc.devRef .tc main_arg12) = aR12 W := (keepR1 (R1 W) main_arg12 (by decide)).trans (at1_arg12 W)
theorem at2_arg13 : R2 W (Proc.devRef .tc main_arg13) = aR13 W := (keepR1 (R1 W) main_arg13 (by decide)).trans (at1_arg13 W)
theorem at2_arg14 : R2 W (Proc.devRef .tc main_arg14) = aR14 W := (keepR1 (R1 W) main_arg14 (by decide)).trans (at1_arg14 W)
theorem at2_arg15 : R2 W (Proc.devRef .tc main_arg15) = aR15 W := (keepR1 (R1 W) main_arg15 (by decide)).trans (at1_arg15 W)
theorem at2_arg16 : R2 W (Proc.devRef .tc main_arg16) = aR16 W := (keepR1 (R1 W) main_arg16 (by decide)).trans (at1_arg16 W)
theorem at2_arg17 : R2 W (Proc.devRef .tc main_arg17) = aR17 W := (keepR1 (R1 W) main_arg17 (by decide)).trans (at1_arg17 W)
theorem at2_arg18 : R2 W (Proc.devRef .tc main_arg18) = aR18 W := (keepR1 (R1 W) main_arg18 (by decide)).trans (at1_arg18 W)
theorem at2_arg19 : R2 W (Proc.devRef .tc main_arg19) = aR19 W := (keepR1 (R1 W) main_arg19 (by decide)).trans (at1_arg19 W)
theorem at2_arg20 : R2 W (Proc.devRef .tc main_arg20) = aR20 W := (keepR1 (R1 W) main_arg20 (by decide)).trans (at1_arg20 W)
theorem at2_arg21 : R2 W (Proc.devRef .tc main_arg21) = aR21 W := (keepR1 (R1 W) main_arg21 (by decide)).trans (at1_arg21 W)
theorem at2_arg22 : R2 W (Proc.devRef .tc main_arg22) = aR22 W := (keepR1 (R1 W) main_arg22 (by decide)).trans (at1_arg22 W)
theorem at2_arg23 : R2 W (Proc.devRef .tc main_arg23) = aR23 W := (keepR1 (R1 W) main_arg23 (by decide)).trans (at1_arg23 W)
theorem at2_arg24 : R2 W (Proc.devRef .tc main_arg24) = aR24 W := (keepR1 (R1 W) main_arg24 (by decide)).trans (at1_arg24 W)
theorem at2_arg25 : R2 W (Proc.devRef .tc main_arg25) = aR25 W := (keepR1 (R1 W) main_arg25 (by decide)).trans (at1_arg25 W)
theorem at2_arg26 : R2 W (Proc.devRef .tc main_arg26) = aR26 W := (keepR1 (R1 W) main_arg26 (by decide)).trans (at1_arg26 W)
theorem at2_arg27 : R2 W (Proc.devRef .tc main_arg27) = aR27 W := (keepR1 (R1 W) main_arg27 (by decide)).trans (at1_arg27 W)

/-! ### What chunk 2 leaves -/

theorem out2_v25 : R3 W (Proc.devRef .tc main_v25) = val_main_v25 (F := F) (aR2 W) (aR4 W) (aR5 W) (aR6 W) (aR7 W) :=
  c2_v25 (R2 W) (aR1 W) (aR2 W) (aR4 W) (aR5 W) (aR6 W) (aR7 W) (at2_v12 W) (at2_arg2 W) (at2_v1 W) (at2_v24 W) (at2_v3 W)
theorem out2_v26 : R3 W (Proc.devRef .tc main_v26) = val_main_v26 (F := F) (aR2 W) (aR4 W) (aR5 W) (aR6 W) (aR7 W) :=
  c2_v26 (R2 W) (aR1 W) (aR2 W) (aR4 W) (aR5 W) (aR6 W) (aR7 W) (at2_v12 W) (at2_arg2 W) (at2_v1 W) (at2_v24 W) (at2_v3 W)
theorem out2_v33 : R3 W (Proc.devRef .tc main_v33) = val_main_v33 (F := F) (aR1 W) (aR2 W) (aR4 W) (aR5 W) (aR6 W) (aR7 W) :=
  c2_v33 (R2 W) (aR1 W) (aR2 W) (aR4 W) (aR5 W) (aR6 W) (aR7 W) (at2_v12 W) (at2_arg2 W) (at2_v1 W) (at2_v24 W) (at2_v3 W)
theorem out2_v40 : R3 W (Proc.devRef .tc main_v40) = val_main_v40 (F := F) (aR1 W) (aR2 W) (aR4 W) (aR5 W) (aR6 W) (aR7 W) :=
  c2_v40 (R2 W) (aR1 W) (aR2 W) (aR4 W) (aR5 W) (aR6 W) (aR7 W) (at2_v12 W) (at2_arg2 W) (at2_v1 W) (at2_v24 W) (at2_v3 W)

/-! ### At the entry of chunk 3 -/

theorem at3_v33 : R3 W (Proc.devRef .tc main_v33) = val_main_v33 (F := F) (aR1 W) (aR2 W) (aR4 W) (aR5 W) (aR6 W) (aR7 W) := out2_v33 W
theorem at3_v40 : R3 W (Proc.devRef .tc main_v40) = val_main_v40 (F := F) (aR1 W) (aR2 W) (aR4 W) (aR5 W) (aR6 W) (aR7 W) := out2_v40 W
theorem at3_v26 : R3 W (Proc.devRef .tc main_v26) = val_main_v26 (F := F) (aR2 W) (aR4 W) (aR5 W) (aR6 W) (aR7 W) := out2_v26 W
theorem at3_arg8 : R3 W (Proc.devRef .tc main_arg8) = aR8 W := (keepR2 (R2 W) main_arg8 (by decide)).trans (at2_arg8 W)
theorem at3_arg9 : R3 W (Proc.devRef .tc main_arg9) = aR9 W := (keepR2 (R2 W) main_arg9 (by decide)).trans (at2_arg9 W)
theorem at3_arg10 : R3 W (Proc.devRef .tc main_arg10) = aR10 W := (keepR2 (R2 W) main_arg10 (by decide)).trans (at2_arg10 W)
theorem at3_arg11 : R3 W (Proc.devRef .tc main_arg11) = aR11 W := (keepR2 (R2 W) main_arg11 (by decide)).trans (at2_arg11 W)
theorem at3_v1 : R3 W (Proc.devRef .tc main_v1) = val_main_v1 (F := F) (aR1 W) := (keepR2 (R2 W) main_v1 (by decide)).trans (at2_v1 W)
theorem at3_v24 : R3 W (Proc.devRef .tc main_v24) = val_main_v24 (F := F) (aR1 W) (aR2 W) (aR4 W) (aR5 W) (aR6 W) (aR7 W) := (keepR2 (R2 W) main_v24 (by decide)).trans (at2_v24 W)
theorem at3_v25 : R3 W (Proc.devRef .tc main_v25) = val_main_v25 (F := F) (aR2 W) (aR4 W) (aR5 W) (aR6 W) (aR7 W) := out2_v25 W
theorem at3_v3 : R3 W (Proc.devRef .tc main_v3) = val_main_v3 (F := F) (aR1 W) := (keepR2 (R2 W) main_v3 (by decide)).trans (at2_v3 W)
theorem at3_arg12 : R3 W (Proc.devRef .tc main_arg12) = aR12 W := (keepR2 (R2 W) main_arg12 (by decide)).trans (at2_arg12 W)
theorem at3_arg13 : R3 W (Proc.devRef .tc main_arg13) = aR13 W := (keepR2 (R2 W) main_arg13 (by decide)).trans (at2_arg13 W)
theorem at3_arg14 : R3 W (Proc.devRef .tc main_arg14) = aR14 W := (keepR2 (R2 W) main_arg14 (by decide)).trans (at2_arg14 W)
theorem at3_arg15 : R3 W (Proc.devRef .tc main_arg15) = aR15 W := (keepR2 (R2 W) main_arg15 (by decide)).trans (at2_arg15 W)
theorem at3_arg16 : R3 W (Proc.devRef .tc main_arg16) = aR16 W := (keepR2 (R2 W) main_arg16 (by decide)).trans (at2_arg16 W)
theorem at3_arg17 : R3 W (Proc.devRef .tc main_arg17) = aR17 W := (keepR2 (R2 W) main_arg17 (by decide)).trans (at2_arg17 W)
theorem at3_arg18 : R3 W (Proc.devRef .tc main_arg18) = aR18 W := (keepR2 (R2 W) main_arg18 (by decide)).trans (at2_arg18 W)
theorem at3_arg19 : R3 W (Proc.devRef .tc main_arg19) = aR19 W := (keepR2 (R2 W) main_arg19 (by decide)).trans (at2_arg19 W)
theorem at3_arg20 : R3 W (Proc.devRef .tc main_arg20) = aR20 W := (keepR2 (R2 W) main_arg20 (by decide)).trans (at2_arg20 W)
theorem at3_arg21 : R3 W (Proc.devRef .tc main_arg21) = aR21 W := (keepR2 (R2 W) main_arg21 (by decide)).trans (at2_arg21 W)
theorem at3_arg22 : R3 W (Proc.devRef .tc main_arg22) = aR22 W := (keepR2 (R2 W) main_arg22 (by decide)).trans (at2_arg22 W)
theorem at3_arg23 : R3 W (Proc.devRef .tc main_arg23) = aR23 W := (keepR2 (R2 W) main_arg23 (by decide)).trans (at2_arg23 W)
theorem at3_arg24 : R3 W (Proc.devRef .tc main_arg24) = aR24 W := (keepR2 (R2 W) main_arg24 (by decide)).trans (at2_arg24 W)
theorem at3_arg25 : R3 W (Proc.devRef .tc main_arg25) = aR25 W := (keepR2 (R2 W) main_arg25 (by decide)).trans (at2_arg25 W)
theorem at3_arg2 : R3 W (Proc.devRef .tc main_arg2) = aR2 W := (keepR2 (R2 W) main_arg2 (by decide)).trans (at2_arg2 W)
theorem at3_arg26 : R3 W (Proc.devRef .tc main_arg26) = aR26 W := (keepR2 (R2 W) main_arg26 (by decide)).trans (at2_arg26 W)
theorem at3_arg27 : R3 W (Proc.devRef .tc main_arg27) = aR27 W := (keepR2 (R2 W) main_arg27 (by decide)).trans (at2_arg27 W)

/-! ### What chunk 3 leaves -/

theorem out3_v50 : R4 W (Proc.devRef .tc main_v50) = val_main_v50 (F := F) (aR1 W) (aR2 W) (aR4 W) (aR5 W) (aR6 W) (aR7 W) (aR8 W) (aR9 W) (aR10 W) (aR11 W) :=
  c3_v50 (R3 W) (aR1 W) (aR2 W) (aR4 W) (aR5 W) (aR6 W) (aR7 W) (aR8 W) (aR9 W) (aR10 W) (aR11 W) (at3_v33 W) (at3_v40 W) (at3_v26 W) (at3_arg8 W) (at3_arg9 W) (at3_arg10 W) (at3_arg11 W)

/-! ### At the entry of chunk 4 -/

theorem at4_v1 : R4 W (Proc.devRef .tc main_v1) = val_main_v1 (F := F) (aR1 W) := (keepR3 (R3 W) main_v1 (by decide)).trans (at3_v1 W)
theorem at4_v50 : R4 W (Proc.devRef .tc main_v50) = val_main_v50 (F := F) (aR1 W) (aR2 W) (aR4 W) (aR5 W) (aR6 W) (aR7 W) (aR8 W) (aR9 W) (aR10 W) (aR11 W) := out3_v50 W
theorem at4_v24 : R4 W (Proc.devRef .tc main_v24) = val_main_v24 (F := F) (aR1 W) (aR2 W) (aR4 W) (aR5 W) (aR6 W) (aR7 W) := (keepR3 (R3 W) main_v24 (by decide)).trans (at3_v24 W)
theorem at4_v25 : R4 W (Proc.devRef .tc main_v25) = val_main_v25 (F := F) (aR2 W) (aR4 W) (aR5 W) (aR6 W) (aR7 W) := (keepR3 (R3 W) main_v25 (by decide)).trans (at3_v25 W)
theorem at4_v3 : R4 W (Proc.devRef .tc main_v3) = val_main_v3 (F := F) (aR1 W) := (keepR3 (R3 W) main_v3 (by decide)).trans (at3_v3 W)
theorem at4_arg12 : R4 W (Proc.devRef .tc main_arg12) = aR12 W := (keepR3 (R3 W) main_arg12 (by decide)).trans (at3_arg12 W)
theorem at4_arg13 : R4 W (Proc.devRef .tc main_arg13) = aR13 W := (keepR3 (R3 W) main_arg13 (by decide)).trans (at3_arg13 W)
theorem at4_arg14 : R4 W (Proc.devRef .tc main_arg14) = aR14 W := (keepR3 (R3 W) main_arg14 (by decide)).trans (at3_arg14 W)
theorem at4_arg15 : R4 W (Proc.devRef .tc main_arg15) = aR15 W := (keepR3 (R3 W) main_arg15 (by decide)).trans (at3_arg15 W)
theorem at4_arg16 : R4 W (Proc.devRef .tc main_arg16) = aR16 W := (keepR3 (R3 W) main_arg16 (by decide)).trans (at3_arg16 W)
theorem at4_arg17 : R4 W (Proc.devRef .tc main_arg17) = aR17 W := (keepR3 (R3 W) main_arg17 (by decide)).trans (at3_arg17 W)
theorem at4_arg18 : R4 W (Proc.devRef .tc main_arg18) = aR18 W := (keepR3 (R3 W) main_arg18 (by decide)).trans (at3_arg18 W)
theorem at4_arg19 : R4 W (Proc.devRef .tc main_arg19) = aR19 W := (keepR3 (R3 W) main_arg19 (by decide)).trans (at3_arg19 W)
theorem at4_arg20 : R4 W (Proc.devRef .tc main_arg20) = aR20 W := (keepR3 (R3 W) main_arg20 (by decide)).trans (at3_arg20 W)
theorem at4_arg21 : R4 W (Proc.devRef .tc main_arg21) = aR21 W := (keepR3 (R3 W) main_arg21 (by decide)).trans (at3_arg21 W)
theorem at4_arg22 : R4 W (Proc.devRef .tc main_arg22) = aR22 W := (keepR3 (R3 W) main_arg22 (by decide)).trans (at3_arg22 W)
theorem at4_arg23 : R4 W (Proc.devRef .tc main_arg23) = aR23 W := (keepR3 (R3 W) main_arg23 (by decide)).trans (at3_arg23 W)
theorem at4_arg24 : R4 W (Proc.devRef .tc main_arg24) = aR24 W := (keepR3 (R3 W) main_arg24 (by decide)).trans (at3_arg24 W)
theorem at4_arg25 : R4 W (Proc.devRef .tc main_arg25) = aR25 W := (keepR3 (R3 W) main_arg25 (by decide)).trans (at3_arg25 W)
theorem at4_arg2 : R4 W (Proc.devRef .tc main_arg2) = aR2 W := (keepR3 (R3 W) main_arg2 (by decide)).trans (at3_arg2 W)
theorem at4_arg26 : R4 W (Proc.devRef .tc main_arg26) = aR26 W := (keepR3 (R3 W) main_arg26 (by decide)).trans (at3_arg26 W)
theorem at4_arg27 : R4 W (Proc.devRef .tc main_arg27) = aR27 W := (keepR3 (R3 W) main_arg27 (by decide)).trans (at3_arg27 W)

/-! ### What chunk 4 leaves -/

theorem out4_v62 : R5 W (Proc.devRef .tc main_v62) = val_main_v62 (F := F) (aR1 W) (aR2 W) (aR4 W) (aR5 W) (aR6 W) (aR7 W) (aR8 W) (aR9 W) (aR10 W) (aR11 W) :=
  c4_v62 (R4 W) (aR1 W) (aR2 W) (aR4 W) (aR5 W) (aR6 W) (aR7 W) (aR8 W) (aR9 W) (aR10 W) (aR11 W) (at4_v1 W) (at4_v50 W)

/-! ### At the entry of chunk 5 -/

theorem at5_v50 : R5 W (Proc.devRef .tc main_v50) = val_main_v50 (F := F) (aR1 W) (aR2 W) (aR4 W) (aR5 W) (aR6 W) (aR7 W) (aR8 W) (aR9 W) (aR10 W) (aR11 W) := (keepR4 (R4 W) main_v50 (by decide)).trans (at4_v50 W)
theorem at5_v62 : R5 W (Proc.devRef .tc main_v62) = val_main_v62 (F := F) (aR1 W) (aR2 W) (aR4 W) (aR5 W) (aR6 W) (aR7 W) (aR8 W) (aR9 W) (aR10 W) (aR11 W) := out4_v62 W
theorem at5_v24 : R5 W (Proc.devRef .tc main_v24) = val_main_v24 (F := F) (aR1 W) (aR2 W) (aR4 W) (aR5 W) (aR6 W) (aR7 W) := (keepR4 (R4 W) main_v24 (by decide)).trans (at4_v24 W)
theorem at5_v25 : R5 W (Proc.devRef .tc main_v25) = val_main_v25 (F := F) (aR2 W) (aR4 W) (aR5 W) (aR6 W) (aR7 W) := (keepR4 (R4 W) main_v25 (by decide)).trans (at4_v25 W)
theorem at5_v1 : R5 W (Proc.devRef .tc main_v1) = val_main_v1 (F := F) (aR1 W) := (keepR4 (R4 W) main_v1 (by decide)).trans (at4_v1 W)
theorem at5_v3 : R5 W (Proc.devRef .tc main_v3) = val_main_v3 (F := F) (aR1 W) := (keepR4 (R4 W) main_v3 (by decide)).trans (at4_v3 W)
theorem at5_arg12 : R5 W (Proc.devRef .tc main_arg12) = aR12 W := (keepR4 (R4 W) main_arg12 (by decide)).trans (at4_arg12 W)
theorem at5_arg13 : R5 W (Proc.devRef .tc main_arg13) = aR13 W := (keepR4 (R4 W) main_arg13 (by decide)).trans (at4_arg13 W)
theorem at5_arg14 : R5 W (Proc.devRef .tc main_arg14) = aR14 W := (keepR4 (R4 W) main_arg14 (by decide)).trans (at4_arg14 W)
theorem at5_arg15 : R5 W (Proc.devRef .tc main_arg15) = aR15 W := (keepR4 (R4 W) main_arg15 (by decide)).trans (at4_arg15 W)
theorem at5_arg16 : R5 W (Proc.devRef .tc main_arg16) = aR16 W := (keepR4 (R4 W) main_arg16 (by decide)).trans (at4_arg16 W)
theorem at5_arg17 : R5 W (Proc.devRef .tc main_arg17) = aR17 W := (keepR4 (R4 W) main_arg17 (by decide)).trans (at4_arg17 W)
theorem at5_arg18 : R5 W (Proc.devRef .tc main_arg18) = aR18 W := (keepR4 (R4 W) main_arg18 (by decide)).trans (at4_arg18 W)
theorem at5_arg19 : R5 W (Proc.devRef .tc main_arg19) = aR19 W := (keepR4 (R4 W) main_arg19 (by decide)).trans (at4_arg19 W)
theorem at5_arg20 : R5 W (Proc.devRef .tc main_arg20) = aR20 W := (keepR4 (R4 W) main_arg20 (by decide)).trans (at4_arg20 W)
theorem at5_arg21 : R5 W (Proc.devRef .tc main_arg21) = aR21 W := (keepR4 (R4 W) main_arg21 (by decide)).trans (at4_arg21 W)
theorem at5_arg22 : R5 W (Proc.devRef .tc main_arg22) = aR22 W := (keepR4 (R4 W) main_arg22 (by decide)).trans (at4_arg22 W)
theorem at5_arg23 : R5 W (Proc.devRef .tc main_arg23) = aR23 W := (keepR4 (R4 W) main_arg23 (by decide)).trans (at4_arg23 W)
theorem at5_arg24 : R5 W (Proc.devRef .tc main_arg24) = aR24 W := (keepR4 (R4 W) main_arg24 (by decide)).trans (at4_arg24 W)
theorem at5_arg25 : R5 W (Proc.devRef .tc main_arg25) = aR25 W := (keepR4 (R4 W) main_arg25 (by decide)).trans (at4_arg25 W)
theorem at5_arg2 : R5 W (Proc.devRef .tc main_arg2) = aR2 W := (keepR4 (R4 W) main_arg2 (by decide)).trans (at4_arg2 W)
theorem at5_arg26 : R5 W (Proc.devRef .tc main_arg26) = aR26 W := (keepR4 (R4 W) main_arg26 (by decide)).trans (at4_arg26 W)
theorem at5_arg27 : R5 W (Proc.devRef .tc main_arg27) = aR27 W := (keepR4 (R4 W) main_arg27 (by decide)).trans (at4_arg27 W)

/-! ### What chunk 5 leaves -/

theorem out5_v63 : R6 W (Proc.devRef .tc main_v63) = val_main_v63 (F := F) (aR1 W) (aR2 W) (aR4 W) (aR5 W) (aR6 W) (aR7 W) (aR8 W) (aR9 W) (aR10 W) (aR11 W) :=
  c5_v63 (R5 W) (aR1 W) (aR2 W) (aR4 W) (aR5 W) (aR6 W) (aR7 W) (aR8 W) (aR9 W) (aR10 W) (aR11 W) (at5_v50 W) (at5_v62 W) (at5_v24 W) (at5_v25 W) (at5_v1 W) (at5_v3 W)
theorem out5_v65 : R6 W (Proc.devRef .tc main_v65) = val_main_v65 (F := F) (aR1 W) (aR2 W) (aR4 W) (aR5 W) (aR6 W) (aR7 W) (aR8 W) (aR9 W) (aR10 W) (aR11 W) :=
  c5_v65 (R5 W) (aR1 W) (aR2 W) (aR4 W) (aR5 W) (aR6 W) (aR7 W) (aR8 W) (aR9 W) (aR10 W) (aR11 W) (at5_v50 W) (at5_v62 W) (at5_v24 W) (at5_v25 W) (at5_v1 W) (at5_v3 W)
theorem out5_v72 : R6 W (Proc.devRef .tc main_v72) = val_main_v72 (F := F) (aR1 W) (aR2 W) (aR4 W) (aR5 W) (aR6 W) (aR7 W) (aR8 W) (aR9 W) (aR10 W) (aR11 W) :=
  c5_v72 (R5 W) (aR1 W) (aR2 W) (aR4 W) (aR5 W) (aR6 W) (aR7 W) (aR8 W) (aR9 W) (aR10 W) (aR11 W) (at5_v50 W) (at5_v62 W) (at5_v24 W) (at5_v25 W) (at5_v1 W) (at5_v3 W)
theorem out5_v79 : R6 W (Proc.devRef .tc main_v79) = val_main_v79 (F := F) (aR1 W) (aR2 W) (aR4 W) (aR5 W) (aR6 W) (aR7 W) (aR8 W) (aR9 W) (aR10 W) (aR11 W) :=
  c5_v79 (R5 W) (aR1 W) (aR2 W) (aR4 W) (aR5 W) (aR6 W) (aR7 W) (aR8 W) (aR9 W) (aR10 W) (aR11 W) (at5_v50 W) (at5_v62 W) (at5_v24 W) (at5_v25 W) (at5_v1 W) (at5_v3 W)

/-! ### At the entry of chunk 6 -/

theorem at6_v72 : R6 W (Proc.devRef .tc main_v72) = val_main_v72 (F := F) (aR1 W) (aR2 W) (aR4 W) (aR5 W) (aR6 W) (aR7 W) (aR8 W) (aR9 W) (aR10 W) (aR11 W) := out5_v72 W
theorem at6_v79 : R6 W (Proc.devRef .tc main_v79) = val_main_v79 (F := F) (aR1 W) (aR2 W) (aR4 W) (aR5 W) (aR6 W) (aR7 W) (aR8 W) (aR9 W) (aR10 W) (aR11 W) := out5_v79 W
theorem at6_v65 : R6 W (Proc.devRef .tc main_v65) = val_main_v65 (F := F) (aR1 W) (aR2 W) (aR4 W) (aR5 W) (aR6 W) (aR7 W) (aR8 W) (aR9 W) (aR10 W) (aR11 W) := out5_v65 W
theorem at6_arg12 : R6 W (Proc.devRef .tc main_arg12) = aR12 W := (keepR5 (R5 W) main_arg12 (by decide)).trans (at5_arg12 W)
theorem at6_arg13 : R6 W (Proc.devRef .tc main_arg13) = aR13 W := (keepR5 (R5 W) main_arg13 (by decide)).trans (at5_arg13 W)
theorem at6_arg14 : R6 W (Proc.devRef .tc main_arg14) = aR14 W := (keepR5 (R5 W) main_arg14 (by decide)).trans (at5_arg14 W)
theorem at6_arg15 : R6 W (Proc.devRef .tc main_arg15) = aR15 W := (keepR5 (R5 W) main_arg15 (by decide)).trans (at5_arg15 W)
theorem at6_v1 : R6 W (Proc.devRef .tc main_v1) = val_main_v1 (F := F) (aR1 W) := (keepR5 (R5 W) main_v1 (by decide)).trans (at5_v1 W)
theorem at6_v62 : R6 W (Proc.devRef .tc main_v62) = val_main_v62 (F := F) (aR1 W) (aR2 W) (aR4 W) (aR5 W) (aR6 W) (aR7 W) (aR8 W) (aR9 W) (aR10 W) (aR11 W) := (keepR5 (R5 W) main_v62 (by decide)).trans (at5_v62 W)
theorem at6_v63 : R6 W (Proc.devRef .tc main_v63) = val_main_v63 (F := F) (aR1 W) (aR2 W) (aR4 W) (aR5 W) (aR6 W) (aR7 W) (aR8 W) (aR9 W) (aR10 W) (aR11 W) := out5_v63 W
theorem at6_v3 : R6 W (Proc.devRef .tc main_v3) = val_main_v3 (F := F) (aR1 W) := (keepR5 (R5 W) main_v3 (by decide)).trans (at5_v3 W)
theorem at6_arg16 : R6 W (Proc.devRef .tc main_arg16) = aR16 W := (keepR5 (R5 W) main_arg16 (by decide)).trans (at5_arg16 W)
theorem at6_arg17 : R6 W (Proc.devRef .tc main_arg17) = aR17 W := (keepR5 (R5 W) main_arg17 (by decide)).trans (at5_arg17 W)
theorem at6_arg18 : R6 W (Proc.devRef .tc main_arg18) = aR18 W := (keepR5 (R5 W) main_arg18 (by decide)).trans (at5_arg18 W)
theorem at6_arg19 : R6 W (Proc.devRef .tc main_arg19) = aR19 W := (keepR5 (R5 W) main_arg19 (by decide)).trans (at5_arg19 W)
theorem at6_arg20 : R6 W (Proc.devRef .tc main_arg20) = aR20 W := (keepR5 (R5 W) main_arg20 (by decide)).trans (at5_arg20 W)
theorem at6_arg21 : R6 W (Proc.devRef .tc main_arg21) = aR21 W := (keepR5 (R5 W) main_arg21 (by decide)).trans (at5_arg21 W)
theorem at6_arg22 : R6 W (Proc.devRef .tc main_arg22) = aR22 W := (keepR5 (R5 W) main_arg22 (by decide)).trans (at5_arg22 W)
theorem at6_arg23 : R6 W (Proc.devRef .tc main_arg23) = aR23 W := (keepR5 (R5 W) main_arg23 (by decide)).trans (at5_arg23 W)
theorem at6_arg24 : R6 W (Proc.devRef .tc main_arg24) = aR24 W := (keepR5 (R5 W) main_arg24 (by decide)).trans (at5_arg24 W)
theorem at6_arg25 : R6 W (Proc.devRef .tc main_arg25) = aR25 W := (keepR5 (R5 W) main_arg25 (by decide)).trans (at5_arg25 W)
theorem at6_arg2 : R6 W (Proc.devRef .tc main_arg2) = aR2 W := (keepR5 (R5 W) main_arg2 (by decide)).trans (at5_arg2 W)
theorem at6_arg26 : R6 W (Proc.devRef .tc main_arg26) = aR26 W := (keepR5 (R5 W) main_arg26 (by decide)).trans (at5_arg26 W)
theorem at6_arg27 : R6 W (Proc.devRef .tc main_arg27) = aR27 W := (keepR5 (R5 W) main_arg27 (by decide)).trans (at5_arg27 W)

/-! ### What chunk 6 leaves -/

theorem out6_v89 : R7 W (Proc.devRef .tc main_v89) = val_main_v89 (F := F) (aR1 W) (aR2 W) (aR4 W) (aR5 W) (aR6 W) (aR7 W) (aR8 W) (aR9 W) (aR10 W) (aR11 W) (aR12 W) (aR13 W) (aR14 W) (aR15 W) :=
  c6_v89 (R6 W) (aR1 W) (aR2 W) (aR4 W) (aR5 W) (aR6 W) (aR7 W) (aR8 W) (aR9 W) (aR10 W) (aR11 W) (aR12 W) (aR13 W) (aR14 W) (aR15 W) (at6_v72 W) (at6_v79 W) (at6_v65 W) (at6_arg12 W) (at6_arg13 W) (at6_arg14 W) (at6_arg15 W)

/-! ### At the entry of chunk 7 -/

theorem at7_v1 : R7 W (Proc.devRef .tc main_v1) = val_main_v1 (F := F) (aR1 W) := (keepR6 (R6 W) main_v1 (by decide)).trans (at6_v1 W)
theorem at7_v89 : R7 W (Proc.devRef .tc main_v89) = val_main_v89 (F := F) (aR1 W) (aR2 W) (aR4 W) (aR5 W) (aR6 W) (aR7 W) (aR8 W) (aR9 W) (aR10 W) (aR11 W) (aR12 W) (aR13 W) (aR14 W) (aR15 W) := out6_v89 W
theorem at7_v62 : R7 W (Proc.devRef .tc main_v62) = val_main_v62 (F := F) (aR1 W) (aR2 W) (aR4 W) (aR5 W) (aR6 W) (aR7 W) (aR8 W) (aR9 W) (aR10 W) (aR11 W) := (keepR6 (R6 W) main_v62 (by decide)).trans (at6_v62 W)
theorem at7_v63 : R7 W (Proc.devRef .tc main_v63) = val_main_v63 (F := F) (aR1 W) (aR2 W) (aR4 W) (aR5 W) (aR6 W) (aR7 W) (aR8 W) (aR9 W) (aR10 W) (aR11 W) := (keepR6 (R6 W) main_v63 (by decide)).trans (at6_v63 W)
theorem at7_v3 : R7 W (Proc.devRef .tc main_v3) = val_main_v3 (F := F) (aR1 W) := (keepR6 (R6 W) main_v3 (by decide)).trans (at6_v3 W)
theorem at7_arg16 : R7 W (Proc.devRef .tc main_arg16) = aR16 W := (keepR6 (R6 W) main_arg16 (by decide)).trans (at6_arg16 W)
theorem at7_arg17 : R7 W (Proc.devRef .tc main_arg17) = aR17 W := (keepR6 (R6 W) main_arg17 (by decide)).trans (at6_arg17 W)
theorem at7_arg18 : R7 W (Proc.devRef .tc main_arg18) = aR18 W := (keepR6 (R6 W) main_arg18 (by decide)).trans (at6_arg18 W)
theorem at7_arg19 : R7 W (Proc.devRef .tc main_arg19) = aR19 W := (keepR6 (R6 W) main_arg19 (by decide)).trans (at6_arg19 W)
theorem at7_arg20 : R7 W (Proc.devRef .tc main_arg20) = aR20 W := (keepR6 (R6 W) main_arg20 (by decide)).trans (at6_arg20 W)
theorem at7_arg21 : R7 W (Proc.devRef .tc main_arg21) = aR21 W := (keepR6 (R6 W) main_arg21 (by decide)).trans (at6_arg21 W)
theorem at7_arg22 : R7 W (Proc.devRef .tc main_arg22) = aR22 W := (keepR6 (R6 W) main_arg22 (by decide)).trans (at6_arg22 W)
theorem at7_arg23 : R7 W (Proc.devRef .tc main_arg23) = aR23 W := (keepR6 (R6 W) main_arg23 (by decide)).trans (at6_arg23 W)
theorem at7_arg24 : R7 W (Proc.devRef .tc main_arg24) = aR24 W := (keepR6 (R6 W) main_arg24 (by decide)).trans (at6_arg24 W)
theorem at7_arg25 : R7 W (Proc.devRef .tc main_arg25) = aR25 W := (keepR6 (R6 W) main_arg25 (by decide)).trans (at6_arg25 W)
theorem at7_arg2 : R7 W (Proc.devRef .tc main_arg2) = aR2 W := (keepR6 (R6 W) main_arg2 (by decide)).trans (at6_arg2 W)
theorem at7_arg26 : R7 W (Proc.devRef .tc main_arg26) = aR26 W := (keepR6 (R6 W) main_arg26 (by decide)).trans (at6_arg26 W)
theorem at7_arg27 : R7 W (Proc.devRef .tc main_arg27) = aR27 W := (keepR6 (R6 W) main_arg27 (by decide)).trans (at6_arg27 W)

/-! ### What chunk 7 leaves -/

theorem out7_v101 : R8 W (Proc.devRef .tc main_v101) = val_main_v101 (F := F) (aR1 W) (aR2 W) (aR4 W) (aR5 W) (aR6 W) (aR7 W) (aR8 W) (aR9 W) (aR10 W) (aR11 W) (aR12 W) (aR13 W) (aR14 W) (aR15 W) :=
  c7_v101 (R7 W) (aR1 W) (aR2 W) (aR4 W) (aR5 W) (aR6 W) (aR7 W) (aR8 W) (aR9 W) (aR10 W) (aR11 W) (aR12 W) (aR13 W) (aR14 W) (aR15 W) (at7_v1 W) (at7_v89 W)

/-! ### At the entry of chunk 8 -/

theorem at8_v89 : R8 W (Proc.devRef .tc main_v89) = val_main_v89 (F := F) (aR1 W) (aR2 W) (aR4 W) (aR5 W) (aR6 W) (aR7 W) (aR8 W) (aR9 W) (aR10 W) (aR11 W) (aR12 W) (aR13 W) (aR14 W) (aR15 W) := (keepR7 (R7 W) main_v89 (by decide)).trans (at7_v89 W)
theorem at8_v101 : R8 W (Proc.devRef .tc main_v101) = val_main_v101 (F := F) (aR1 W) (aR2 W) (aR4 W) (aR5 W) (aR6 W) (aR7 W) (aR8 W) (aR9 W) (aR10 W) (aR11 W) (aR12 W) (aR13 W) (aR14 W) (aR15 W) := out7_v101 W
theorem at8_v62 : R8 W (Proc.devRef .tc main_v62) = val_main_v62 (F := F) (aR1 W) (aR2 W) (aR4 W) (aR5 W) (aR6 W) (aR7 W) (aR8 W) (aR9 W) (aR10 W) (aR11 W) := (keepR7 (R7 W) main_v62 (by decide)).trans (at7_v62 W)
theorem at8_v63 : R8 W (Proc.devRef .tc main_v63) = val_main_v63 (F := F) (aR1 W) (aR2 W) (aR4 W) (aR5 W) (aR6 W) (aR7 W) (aR8 W) (aR9 W) (aR10 W) (aR11 W) := (keepR7 (R7 W) main_v63 (by decide)).trans (at7_v63 W)
theorem at8_v1 : R8 W (Proc.devRef .tc main_v1) = val_main_v1 (F := F) (aR1 W) := (keepR7 (R7 W) main_v1 (by decide)).trans (at7_v1 W)
theorem at8_v3 : R8 W (Proc.devRef .tc main_v3) = val_main_v3 (F := F) (aR1 W) := (keepR7 (R7 W) main_v3 (by decide)).trans (at7_v3 W)
theorem at8_arg16 : R8 W (Proc.devRef .tc main_arg16) = aR16 W := (keepR7 (R7 W) main_arg16 (by decide)).trans (at7_arg16 W)
theorem at8_arg17 : R8 W (Proc.devRef .tc main_arg17) = aR17 W := (keepR7 (R7 W) main_arg17 (by decide)).trans (at7_arg17 W)
theorem at8_arg18 : R8 W (Proc.devRef .tc main_arg18) = aR18 W := (keepR7 (R7 W) main_arg18 (by decide)).trans (at7_arg18 W)
theorem at8_arg19 : R8 W (Proc.devRef .tc main_arg19) = aR19 W := (keepR7 (R7 W) main_arg19 (by decide)).trans (at7_arg19 W)
theorem at8_arg20 : R8 W (Proc.devRef .tc main_arg20) = aR20 W := (keepR7 (R7 W) main_arg20 (by decide)).trans (at7_arg20 W)
theorem at8_arg21 : R8 W (Proc.devRef .tc main_arg21) = aR21 W := (keepR7 (R7 W) main_arg21 (by decide)).trans (at7_arg21 W)
theorem at8_arg22 : R8 W (Proc.devRef .tc main_arg22) = aR22 W := (keepR7 (R7 W) main_arg22 (by decide)).trans (at7_arg22 W)
theorem at8_arg23 : R8 W (Proc.devRef .tc main_arg23) = aR23 W := (keepR7 (R7 W) main_arg23 (by decide)).trans (at7_arg23 W)
theorem at8_arg24 : R8 W (Proc.devRef .tc main_arg24) = aR24 W := (keepR7 (R7 W) main_arg24 (by decide)).trans (at7_arg24 W)
theorem at8_arg25 : R8 W (Proc.devRef .tc main_arg25) = aR25 W := (keepR7 (R7 W) main_arg25 (by decide)).trans (at7_arg25 W)
theorem at8_arg2 : R8 W (Proc.devRef .tc main_arg2) = aR2 W := (keepR7 (R7 W) main_arg2 (by decide)).trans (at7_arg2 W)
theorem at8_arg26 : R8 W (Proc.devRef .tc main_arg26) = aR26 W := (keepR7 (R7 W) main_arg26 (by decide)).trans (at7_arg26 W)
theorem at8_arg27 : R8 W (Proc.devRef .tc main_arg27) = aR27 W := (keepR7 (R7 W) main_arg27 (by decide)).trans (at7_arg27 W)

/-! ### What chunk 8 leaves -/

theorem out8_v104 : R9 W (Proc.devRef .tc main_v104) = val_main_v104 (F := F) (aR1 W) (aR2 W) (aR4 W) (aR5 W) (aR6 W) (aR7 W) (aR8 W) (aR9 W) (aR10 W) (aR11 W) (aR12 W) (aR13 W) (aR14 W) (aR15 W) :=
  c8_v104 (R8 W) (aR1 W) (aR2 W) (aR4 W) (aR5 W) (aR6 W) (aR7 W) (aR8 W) (aR9 W) (aR10 W) (aR11 W) (aR12 W) (aR13 W) (aR14 W) (aR15 W) (at8_v89 W) (at8_v101 W) (at8_v62 W) (at8_v63 W) (at8_v1 W) (at8_v3 W)
theorem out8_v111 : R9 W (Proc.devRef .tc main_v111) = val_main_v111 (F := F) (aR1 W) (aR2 W) (aR4 W) (aR5 W) (aR6 W) (aR7 W) (aR8 W) (aR9 W) (aR10 W) (aR11 W) (aR12 W) (aR13 W) (aR14 W) (aR15 W) :=
  c8_v111 (R8 W) (aR1 W) (aR2 W) (aR4 W) (aR5 W) (aR6 W) (aR7 W) (aR8 W) (aR9 W) (aR10 W) (aR11 W) (aR12 W) (aR13 W) (aR14 W) (aR15 W) (at8_v89 W) (at8_v101 W) (at8_v62 W) (at8_v63 W) (at8_v1 W) (at8_v3 W)
theorem out8_v118 : R9 W (Proc.devRef .tc main_v118) = val_main_v118 (F := F) (aR1 W) (aR2 W) (aR4 W) (aR5 W) (aR6 W) (aR7 W) (aR8 W) (aR9 W) (aR10 W) (aR11 W) (aR12 W) (aR13 W) (aR14 W) (aR15 W) :=
  c8_v118 (R8 W) (aR1 W) (aR2 W) (aR4 W) (aR5 W) (aR6 W) (aR7 W) (aR8 W) (aR9 W) (aR10 W) (aR11 W) (aR12 W) (aR13 W) (aR14 W) (aR15 W) (at8_v89 W) (at8_v101 W) (at8_v62 W) (at8_v63 W) (at8_v1 W) (at8_v3 W)

/-! ### At the entry of chunk 9 -/

theorem at9_v111 : R9 W (Proc.devRef .tc main_v111) = val_main_v111 (F := F) (aR1 W) (aR2 W) (aR4 W) (aR5 W) (aR6 W) (aR7 W) (aR8 W) (aR9 W) (aR10 W) (aR11 W) (aR12 W) (aR13 W) (aR14 W) (aR15 W) := out8_v111 W
theorem at9_v118 : R9 W (Proc.devRef .tc main_v118) = val_main_v118 (F := F) (aR1 W) (aR2 W) (aR4 W) (aR5 W) (aR6 W) (aR7 W) (aR8 W) (aR9 W) (aR10 W) (aR11 W) (aR12 W) (aR13 W) (aR14 W) (aR15 W) := out8_v118 W
theorem at9_v104 : R9 W (Proc.devRef .tc main_v104) = val_main_v104 (F := F) (aR1 W) (aR2 W) (aR4 W) (aR5 W) (aR6 W) (aR7 W) (aR8 W) (aR9 W) (aR10 W) (aR11 W) (aR12 W) (aR13 W) (aR14 W) (aR15 W) := out8_v104 W
theorem at9_arg16 : R9 W (Proc.devRef .tc main_arg16) = aR16 W := (keepR8 (R8 W) main_arg16 (by decide)).trans (at8_arg16 W)
theorem at9_arg17 : R9 W (Proc.devRef .tc main_arg17) = aR17 W := (keepR8 (R8 W) main_arg17 (by decide)).trans (at8_arg17 W)
theorem at9_arg18 : R9 W (Proc.devRef .tc main_arg18) = aR18 W := (keepR8 (R8 W) main_arg18 (by decide)).trans (at8_arg18 W)
theorem at9_arg19 : R9 W (Proc.devRef .tc main_arg19) = aR19 W := (keepR8 (R8 W) main_arg19 (by decide)).trans (at8_arg19 W)
theorem at9_arg20 : R9 W (Proc.devRef .tc main_arg20) = aR20 W := (keepR8 (R8 W) main_arg20 (by decide)).trans (at8_arg20 W)
theorem at9_arg21 : R9 W (Proc.devRef .tc main_arg21) = aR21 W := (keepR8 (R8 W) main_arg21 (by decide)).trans (at8_arg21 W)
theorem at9_arg22 : R9 W (Proc.devRef .tc main_arg22) = aR22 W := (keepR8 (R8 W) main_arg22 (by decide)).trans (at8_arg22 W)
theorem at9_arg23 : R9 W (Proc.devRef .tc main_arg23) = aR23 W := (keepR8 (R8 W) main_arg23 (by decide)).trans (at8_arg23 W)
theorem at9_arg24 : R9 W (Proc.devRef .tc main_arg24) = aR24 W := (keepR8 (R8 W) main_arg24 (by decide)).trans (at8_arg24 W)
theorem at9_arg25 : R9 W (Proc.devRef .tc main_arg25) = aR25 W := (keepR8 (R8 W) main_arg25 (by decide)).trans (at8_arg25 W)
theorem at9_arg2 : R9 W (Proc.devRef .tc main_arg2) = aR2 W := (keepR8 (R8 W) main_arg2 (by decide)).trans (at8_arg2 W)
theorem at9_arg26 : R9 W (Proc.devRef .tc main_arg26) = aR26 W := (keepR8 (R8 W) main_arg26 (by decide)).trans (at8_arg26 W)
theorem at9_arg27 : R9 W (Proc.devRef .tc main_arg27) = aR27 W := (keepR8 (R8 W) main_arg27 (by decide)).trans (at8_arg27 W)

/-! ### What chunk 9 leaves -/

theorem out9_v129 : R10 W (Proc.devRef .tc main_v129) = val_main_v129 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) :=
  c9_v129 (R9 W) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (at9_v111 W) (at9_v118 W) (at9_v104 W) (at9_arg16 W) (at9_arg17 W) (at9_arg18 W) (at9_arg19 W)

/-! ### At the entry of chunk 10 -/

theorem at10_v129 : R10 W (Proc.devRef .tc main_v129) = val_main_v129 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) := out9_v129 W
theorem at10_arg20 : R10 W (Proc.devRef .tc main_arg20) = aR20 W := (keepR9 (R9 W) main_arg20 (by decide)).trans (at9_arg20 W)
theorem at10_arg21 : R10 W (Proc.devRef .tc main_arg21) = aR21 W := (keepR9 (R9 W) main_arg21 (by decide)).trans (at9_arg21 W)
theorem at10_arg22 : R10 W (Proc.devRef .tc main_arg22) = aR22 W := (keepR9 (R9 W) main_arg22 (by decide)).trans (at9_arg22 W)
theorem at10_arg23 : R10 W (Proc.devRef .tc main_arg23) = aR23 W := (keepR9 (R9 W) main_arg23 (by decide)).trans (at9_arg23 W)
theorem at10_arg24 : R10 W (Proc.devRef .tc main_arg24) = aR24 W := (keepR9 (R9 W) main_arg24 (by decide)).trans (at9_arg24 W)
theorem at10_arg25 : R10 W (Proc.devRef .tc main_arg25) = aR25 W := (keepR9 (R9 W) main_arg25 (by decide)).trans (at9_arg25 W)
theorem at10_arg2 : R10 W (Proc.devRef .tc main_arg2) = aR2 W := (keepR9 (R9 W) main_arg2 (by decide)).trans (at9_arg2 W)
theorem at10_arg26 : R10 W (Proc.devRef .tc main_arg26) = aR26 W := (keepR9 (R9 W) main_arg26 (by decide)).trans (at9_arg26 W)
theorem at10_arg27 : R10 W (Proc.devRef .tc main_arg27) = aR27 W := (keepR9 (R9 W) main_arg27 (by decide)).trans (at9_arg27 W)

/-! ### What chunk 10 leaves -/

theorem out10_v137 : R11 W (Proc.devRef .tc main_v137) = val_main_v137 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR22 W) (aR23 W) :=
  c10_v137 (R10 W) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR20 W) (aR21 W) (aR22 W) (aR23 W) (aR24 W) (aR25 W) (at10_v129 W) (at10_arg20 W) (at10_arg21 W) (at10_arg22 W) (at10_arg23 W) (at10_arg24 W) (at10_arg25 W) (at10_arg2 W)
theorem out10_v147 : R11 W (Proc.devRef .tc main_v147) = val_main_v147 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR20 W) (aR21 W) (aR24 W) (aR25 W) :=
  c10_v147 (R10 W) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR20 W) (aR21 W) (aR22 W) (aR23 W) (aR24 W) (aR25 W) (at10_v129 W) (at10_arg20 W) (at10_arg21 W) (at10_arg22 W) (at10_arg23 W) (at10_arg24 W) (at10_arg25 W) (at10_arg2 W)

/-! ### At the entry of chunk 11 -/

theorem at11_v137 : R11 W (Proc.devRef .tc main_v137) = val_main_v137 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR22 W) (aR23 W) := out10_v137 W
theorem at11_arg26 : R11 W (Proc.devRef .tc main_arg26) = aR26 W := (keepR10 (R10 W) main_arg26 (by decide)).trans (at10_arg26 W)
theorem at11_arg27 : R11 W (Proc.devRef .tc main_arg27) = aR27 W := (keepR10 (R10 W) main_arg27 (by decide)).trans (at10_arg27 W)
theorem at11_v147 : R11 W (Proc.devRef .tc main_v147) = val_main_v147 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR20 W) (aR21 W) (aR24 W) (aR25 W) := out10_v147 W

/-! ### What chunk 11 leaves -/

theorem out11_v157 : R12 W (Proc.devRef .tc main_v157) = val_main_v157 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR22 W) (aR23 W) (aR26 W) (aR27 W) :=
  c11_v157 (R11 W) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR22 W) (aR23 W) (aR26 W) (aR27 W) (at11_v137 W) (at11_arg26 W) (at11_arg27 W)

/-! ### At the entry of chunk 12 (the end) -/

theorem at12_v147 : R12 W (Proc.devRef .tc main_v147) = val_main_v147 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR20 W) (aR21 W) (aR24 W) (aR25 W) := (keepR11 (R11 W) main_v147 (by decide)).trans (at11_v147 W)
theorem at12_v157 : R12 W (Proc.devRef .tc main_v157) = val_main_v157 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR22 W) (aR23 W) (aR26 W) (aR27 W) := out11_v157 W

/-- The logistic result's buffer after the whole list is its stage of the arguments. -/
theorem ref_prob : StableHlo.after ops W (Proc.devRef .tc main_v157) = val_main_v157 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR22 W) (aR23 W) (aR26 W) (aR27 W) := by
  rw [after_ops]; exact at12_v157 W
/-- The four-vector result's buffer after the whole list is its stage of the arguments. -/
theorem ref_edge : StableHlo.after ops W (Proc.devRef .tc main_v147) = val_main_v147 (F := F) (aR1 W) (aR2 W) (aR4 W) (aR5 W) (aR6 W) (aR7 W) (aR8 W) (aR9 W) (aR10 W) (aR11 W) (aR12 W) (aR13 W) (aR14 W) (aR15 W) (aR16 W) (aR17 W) (aR18 W) (aR19 W) (aR20 W) (aR21 W) (aR24 W) (aR25 W) := by
  rw [after_ops]; exact at12_v147 W
end

end Cert.ReferenceIdeal.RefWalk

end
-- ==== Proof.RefTop.lean ====
/-
  The reference program's run. The reference has no kernel: its @main is a straight line of 211 host operations, so
  every weakly fair execution ends without a fault with every buffer at the fold of the operations over the launch
  memory. Read one chunk at a time, that fold has the two result buffers at their stages of the arguments, and every
  argument's buffer, which no operation defines, as launched.
-/
import proofs.«411902_j85581518340249_3_alg».proof.Proof.RefRun

set_option maxRecDepth 16384

noncomputable section

namespace Cert.ReferenceIdeal.RefWalk

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

variable {F : FTy → Type} [FloatOps F]

set_option maxHeartbeats 2000000 in
/-- On every device, from any memory with zero counters: every weakly fair execution of @main terminates without a
    fault, the two results are their stages of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = val_main_v157 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg22)) (m ((c.tc : Thread nD τ).loc main_arg23)) (m ((c.tc : Thread nD τ).loc main_arg26)) (m ((c.tc : Thread nD τ).loc main_arg27))
      ∧ r.2.mem ((c.tc : Thread nD τ).loc main_v147) = val_main_v147 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg24)) (m ((c.tc : Thread nD τ).loc main_arg25))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c =>
    ⟨(h c main_v157).trans (ref_prob (launchContents m c)),
     (h c main_v147).trans (ref_edge (launchContents m c)),
     (h c main_arg3).trans (after_ops_arg (launchContents m c) main_arg3 (by decide) (by decide) (by decide) (by decide) (by decide) (by decide) (by decide) (by decide) (by decide) (by decide) (by decide) (by decide)),
     (h c main_arg0).trans (after_ops_arg (launchContents m c) main_arg0 (by decide) (by decide) (by decide) (by decide) (by decide) (by decide) (by decide) (by decide) (by decide) (by decide) (by decide) (by decide)),
     (h c main_arg1).trans (after_ops_arg (launchContents m c) main_arg1 (by decide) (by decide) (by decide) (by decide) (by decide) (by decide) (by decide) (by decide) (by decide) (by decide) (by decide) (by decide)),
     (h c main_arg2).trans (after_ops_arg (launchContents m c) main_arg2 (by decide) (by decide) (by decide) (by decide) (by decide) (by decide) (by decide) (by decide) (by decide) (by decide) (by decide) (by decide)),
     (h c main_arg3).trans (after_ops_arg (launchContents m c) main_arg3 (by decide) (by decide) (by decide) (by decide) (by decide) (by decide) (by decide) (by decide) (by decide) (by decide) (by decide) (by decide)),
     (h c main_arg4).trans (after_ops_arg (launchContents m c) main_arg4 (by decide) (by decide) (by decide) (by decide) (by decide) (by decide) (by decide) (by decide) (by decide) (by decide) (by decide) (by decide)),
     (h c main_arg5).trans (after_ops_arg (launchContents m c) main_arg5 (by decide) (by decide) (by decide) (by decide) (by decide) (by decide) (by decide) (by decide) (by decide) (by decide) (by decide) (by decide)),
     (h c main_arg6).trans (after_ops_arg (launchContents m c) main_arg6 (by decide) (by decide) (by decide) (by decide) (by decide) (by decide) (by decide) (by decide) (by decide) (by decide) (by decide) (by decide)),
     (h c main_arg7).trans (after_ops_arg (launchContents m c) main_arg7 (by decide) (by decide) (by decide) (by decide) (by decide) (by decide) (by decide) (by decide) (by decide) (by decide) (by decide) (by decide)),
     (h c main_arg8).trans (after_ops_arg (launchContents m c) main_arg8 (by decide) (by decide) (by decide) (by decide) (by decide) (by decide) (by decide) (by decide) (by decide) (by decide) (by decide) (by decide)),
     (h c main_arg9).trans (after_ops_arg (launchContents m c) main_arg9 (by decide) (by decide) (by decide) (by decide) (by decide) (by decide) (by decide) (by decide) (by decide) (by decide) (by decide) (by decide)),
     (h c main_arg10).trans (after_ops_arg (launchContents m c) main_arg10 (by decide) (by decide) (by decide) (by decide) (by decide) (by decide) (by decide) (by decide) (by decide) (by decide) (by decide) (by decide)),
     (h c main_arg11).trans (after_ops_arg (launchContents m c) main_arg11 (by decide) (by decide) (by decide) (by decide) (by decide) (by decide) (by decide) (by decide) (by decide) (by decide) (by decide) (by decide)),
     (h c main_arg12).trans (after_ops_arg (launchContents m c) main_arg12 (by decide) (by decide) (by decide) (by decide) (by decide) (by decide) (by decide) (by decide) (by decide) (by decide) (by decide) (by decide)),
     (h c main_arg13).trans (after_ops_arg (launchContents m c) main_arg13 (by decide) (by decide) (by decide) (by decide) (by decide) (by decide) (by decide) (by decide) (by decide) (by decide) (by decide) (by decide)),
     (h c main_arg14).trans (after_ops_arg (launchContents m c) main_arg14 (by decide) (by decide) (by decide) (by decide) (by decide) (by decide) (by decide) (by decide) (by decide) (by decide) (by decide) (by decide)),
     (h c main_arg15).trans (after_ops_arg (launchContents m c) main_arg15 (by decide) (by decide) (by decide) (by decide) (by decide) (by decide) (by decide) (by decide) (by decide) (by decide) (by decide) (by decide)),
     (h c main_arg16).trans (after_ops_arg (launchContents m c) main_arg16 (by decide) (by decide) (by decide) (by decide) (by decide) (by decide) (by decide) (by decide) (by decide) (by decide) (by decide) (by decide)),
     (h c main_arg17).trans (after_ops_arg (launchContents m c) main_arg17 (by decide) (by decide) (by decide) (by decide) (by decide) (by decide) (by decide) (by decide) (by decide) (by decide) (by decide) (by decide)),
     (h c main_arg18).trans (after_ops_arg (launchContents m c) main_arg18 (by decide) (by decide) (by decide) (by decide) (by decide) (by decide) (by decide) (by decide) (by decide) (by decide) (by decide) (by decide)),
     (h c main_arg19).trans (after_ops_arg (launchContents m c) main_arg19 (by decide) (by decide) (by decide) (by decide) (by decide) (by decide) (by decide) (by decide) (by decide) (by decide) (by decide) (by decide)),
     (h c main_arg20).trans (after_ops_arg (launchContents m c) main_arg20 (by decide) (by decide) (by decide) (by decide) (by decide) (by decide) (by decide) (by decide) (by decide) (by decide) (by decide) (by decide)),
     (h c main_arg21).trans (after_ops_arg (launchContents m c) main_arg21 (by decide) (by decide) (by decide) (by decide) (by decide) (by decide) (by decide) (by decide) (by decide) (by decide) (by decide) (by decide)),
     (h c main_arg22).trans (after_ops_arg (launchContents m c) main_arg22 (by decide) (by decide) (by decide) (by decide) (by decide) (by decide) (by decide) (by decide) (by decide) (by decide) (by decide) (by decide)),
     (h c main_arg23).trans (after_ops_arg (launchContents m c) main_arg23 (by decide) (by decide) (by decide) (by decide) (by decide) (by decide) (by decide) (by decide) (by decide) (by decide) (by decide) (by decide)),
     (h c main_arg24).trans (after_ops_arg (launchContents m c) main_arg24 (by decide) (by decide) (by decide) (by decide) (by decide) (by decide) (by decide) (by decide) (by decide) (by decide) (by decide) (by decide)),
     (h c main_arg25).trans (after_ops_arg (launchContents m c) main_arg25 (by decide) (by decide) (by decide) (by decide) (by decide) (by decide) (by decide) (by decide) (by decide) (by decide) (by decide) (by decide)),
     (h c main_arg26).trans (after_ops_arg (launchContents m c) main_arg26 (by decide) (by decide) (by decide) (by decide) (by decide) (by decide) (by decide) (by decide) (by decide) (by decide) (by decide) (by decide)),
     (h c main_arg27).trans (after_ops_arg (launchContents m c) main_arg27 (by decide) (by decide) (by decide) (by decide) (by decide) (by decide) (by decide) (by decide) (by decide) (by decide) (by decide) (by decide))⟩)
    (run_raw m ρ)

end Cert.ReferenceIdeal.RefWalk

end
-- ==== Proof.Keep.lean ====
/-
  Which buffers keep their contents across a stretch of host operations or a kernel region.
  A host operation rewrites only the buffer it defines, so a buffer that no operation of a stretch defines holds after
  the stretch what it held before. The stretches between two regions are taken together: `wr1`, `wr2`, `wr3` list every
  buffer defined between regions 0 and 1, 1 and 2, 2 and 3, `wr0` those before region 0 and `wr4` those after region 3.
  A region rewrites only its output window's array. In particular an argument array, which nothing defines, holds its
  launch contents at every boundary.
-/
import proofs.«411902_j85581518340249_3_alg».proof.Proof.Gen.KernelIdeal.Frame
import Idealize.ShloMosaic.PureOps.Ideal

set_option maxRecDepth 16384

noncomputable section

open scoped BigOperators

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.StableHlo

abbrev wr0 : List (Ref sig .tc) := [main_v0, main_v1, main_v2, main_v3, main_v4, main_v5]
abbrev wr1 : List (Ref sig .tc) := [main_cst, main_v7, main_cst_0, main_v8, main_v9, main_v10, main_cst_1, main_v11, main_v12, main_cst_2, main_v13, main_v14, main_v15, main_v16, main_v17, main_call0_cst, main_call0_v0, main_v18, main_call1_v0, main_v19, main_call2_v0, main_v20, main_v21, main_v22, main_v23, main_v24, main_v25, main_v26]
abbrev wr2 : List (Ref sig .tc) := [main_cst_3, main_v28, main_v29, main_v30, main_v31, main_v32, main_call3_cst, main_call3_v0, main_v33, main_v34, main_call4_v0, main_v35, main_call5_v0, main_v36, main_v37, main_v38, main_v39, main_v40, main_v41, main_v42]
abbrev wr3 : List (Ref sig .tc) := [main_cst_4, main_v44, main_v45, main_v46, main_v47, main_v48, main_call6_cst, main_call6_v0, main_v49, main_v50, main_call7_v0, main_v51, main_call8_v0, main_v52, main_v53, main_v54, main_v55, main_v56, main_v57, main_v58, main_v59, main_v60, main_v61, main_v62]
abbrev wr4 : List (Ref sig .tc) := [main_v64, main_v65]

/-- Each operation of a literal stretch defines one buffer, and that buffer is in the listed ones. -/
macro "writes_sub" : tactic => `(tactic| (
  simp only [List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff, List.mem_toFinset]; exact List.mem_map_of_mem (by decide))))

theorem hW_hostOps0 : (hostOps0 : List (HloOp τ sig (Elt Ideal))).Forall fun op => op.writes ⊆ (wr0.map (Proc.devRef (τ := τ) .tc)).toFinset := by
  simp only [hostOps0]; writes_sub
theorem hW_hostOps1 : (hostOps1 : List (HloOp τ sig (Elt Ideal))).Forall fun op => op.writes ⊆ (wr1.map (Proc.devRef (τ := τ) .tc)).toFinset := by
  simp only [hostOps1]; writes_sub
theorem hW_hostOps1_1 : (hostOps1_1 : List (HloOp τ sig (Elt Ideal))).Forall fun op => op.writes ⊆ (wr1.map (Proc.devRef (τ := τ) .tc)).toFinset := by
  simp only [hostOps1_1]; writes_sub
theorem hW_hostOps1_2 : (hostOps1_2 : List (HloOp τ sig (Elt Ideal))).Forall fun op => op.writes ⊆ (wr1.map (Proc.devRef (τ := τ) .tc)).toFinset := by
  simp only [hostOps1_2]; writes_sub
theorem hW_hostOps1_3 : (hostOps1_3 : List (HloOp τ sig (Elt Ideal))).Forall fun op => op.writes ⊆ (wr1.map (Proc.devRef (τ := τ) .tc)).toFinset := by
  simp only [hostOps1_3]; writes_sub
theorem hW_hostOps1_4 : (hostOps1_4 : List (HloOp τ sig (Elt Ideal))).Forall fun op => op.writes ⊆ (wr1.map (Proc.devRef (τ := τ) .tc)).toFinset := by
  simp only [hostOps1_4]; writes_sub
theorem hW_hostOps2 : (hostOps2 : List (HloOp τ sig (Elt Ideal))).Forall fun op => op.writes ⊆ (wr2.map (Proc.devRef (τ := τ) .tc)).toFinset := by
  simp only [hostOps2]; writes_sub
theorem hW_hostOps2_1 : (hostOps2_1 : List (HloOp τ sig (Elt Ideal))).Forall fun op => op.writes ⊆ (wr2.map (Proc.devRef (τ := τ) .tc)).toFinset := by
  simp only [hostOps2_1]; writes_sub
theorem hW_hostOps2_2 : (hostOps2_2 : List (HloOp τ sig (Elt Ideal))).Forall fun op => op.writes ⊆ (wr2.map (Proc.devRef (τ := τ) .tc)).toFinset := by
  simp only [hostOps2_2]; writes_sub
theorem hW_hostOps2_3 : (hostOps2_3 : List (HloOp τ sig (Elt Ideal))).Forall fun op => op.writes ⊆ (wr2.map (Proc.devRef (τ := τ) .tc)).toFinset := by
  simp only [hostOps2_3]; writes_sub
theorem hW_hostOps2_4 : (hostOps2_4 : List (HloOp τ sig (Elt Ideal))).Forall fun op => op.writes ⊆ (wr2.map (Proc.devRef (τ := τ) .tc)).toFinset := by
  simp only [hostOps2_4]; writes_sub
theorem hW_hostOps2_5 : (hostOps2_5 : List (HloOp τ sig (Elt Ideal))).Forall fun op => op.writes ⊆ (wr2.map (Proc.devRef (τ := τ) .tc)).toFinset := by
  simp only [hostOps2_5]; writes_sub
theorem hW_hostOps3 : (hostOps3 : List (HloOp τ sig (Elt Ideal))).Forall fun op => op.writes ⊆ (wr3.map (Proc.devRef (τ := τ) .tc)).toFinset := by
  simp only [hostOps3]; writes_sub
theorem hW_hostOps3_1 : (hostOps3_1 : List (HloOp τ sig (Elt Ideal))).Forall fun op => op.writes ⊆ (wr3.map (Proc.devRef (τ := τ) .tc)).toFinset := by
  simp only [hostOps3_1]; writes_sub
theorem hW_hostOps3_2 : (hostOps3_2 : List (HloOp τ sig (Elt Ideal))).Forall fun op => op.writes ⊆ (wr3.map (Proc.devRef (τ := τ) .tc)).toFinset := by
  simp only [hostOps3_2]; writes_sub
theorem hW_hostOps3_3 : (hostOps3_3 : List (HloOp τ sig (Elt Ideal))).Forall fun op => op.writes ⊆ (wr3.map (Proc.devRef (τ := τ) .tc)).toFinset := by
  simp only [hostOps3_3]; writes_sub
theorem hW_hostOps3_4 : (hostOps3_4 : List (HloOp τ sig (Elt Ideal))).Forall fun op => op.writes ⊆ (wr3.map (Proc.devRef (τ := τ) .tc)).toFinset := by
  simp only [hostOps3_4]; writes_sub
theorem hW_hostOps3_5 : (hostOps3_5 : List (HloOp τ sig (Elt Ideal))).Forall fun op => op.writes ⊆ (wr3.map (Proc.devRef (τ := τ) .tc)).toFinset := by
  simp only [hostOps3_5]; writes_sub
theorem hW_hostOps4 : (hostOps4 : List (HloOp τ sig (Elt Ideal))).Forall fun op => op.writes ⊆ (wr4.map (Proc.devRef (τ := τ) .tc)).toFinset := by
  simp only [hostOps4]; writes_sub

variable (m : (ℓ : Loc nD τ sig) → Buf (Elt Ideal) ℓ) (ρ : Dev nD → PrngReg) (c : Dev nD)

/-- A buffer's contents in the launch memory (for an argument array: the argument). -/
abbrev argOf (b : Ref sig .tc) : Buf (Elt Ideal) ((c : Thread nD τ).loc b) := m ((c : Thread nD τ).loc b)

/-- Across the stretch before region 0. -/
theorem keep_0_1 (b : Ref sig .tc) (hb : b ∉ wr0) : W1 m ρ c (Proc.devRef .tc b) = W0 m ρ c (Proc.devRef .tc b) :=
  StableHlo.after_of_writes_sub hostOps0 _ hW_hostOps0 hb
/-- Across the stretches between regions 0 and 1. -/
theorem keep_2_7 (b : Ref sig .tc) (hb : b ∉ wr1) : W7 m ρ c (Proc.devRef .tc b) = W2 m ρ c (Proc.devRef .tc b) :=
  (StableHlo.after_of_writes_sub hostOps1_4 _ hW_hostOps1_4 hb).trans ((StableHlo.after_of_writes_sub hostOps1_3 _ hW_hostOps1_3 hb).trans ((StableHlo.after_of_writes_sub hostOps1_2 _ hW_hostOps1_2 hb).trans ((StableHlo.after_of_writes_sub hostOps1_1 _ hW_hostOps1_1 hb).trans ((StableHlo.after_of_writes_sub hostOps1 _ hW_hostOps1 hb)))))
/-- Across the stretches between regions 1 and 2. -/
theorem keep_8_14 (b : Ref sig .tc) (hb : b ∉ wr2) : W14 m ρ c (Proc.devRef .tc b) = W8 m ρ c (Proc.devRef .tc b) :=
  (StableHlo.after_of_writes_sub hostOps2_5 _ hW_hostOps2_5 hb).trans ((StableHlo.after_of_writes_sub hostOps2_4 _ hW_hostOps2_4 hb).trans ((StableHlo.after_of_writes_sub hostOps2_3 _ hW_hostOps2_3 hb).trans ((StableHlo.after_of_writes_sub hostOps2_2 _ hW_hostOps2_2 hb).trans ((StableHlo.after_of_writes_sub hostOps2_1 _ hW_hostOps2_1 hb).trans ((StableHlo.after_of_writes_sub hostOps2 _ hW_hostOps2 hb))))))
/-- Across the stretches between regions 2 and 3. -/
theorem keep_15_21 (b : Ref sig .tc) (hb : b ∉ wr3) : W21 m ρ c (Proc.devRef .tc b) = W15 m ρ c (Proc.devRef .tc b) :=
  (StableHlo.after_of_writes_sub hostOps3_5 _ hW_hostOps3_5 hb).trans ((StableHlo.after_of_writes_sub hostOps3_4 _ hW_hostOps3_4 hb).trans ((StableHlo.after_of_writes_sub hostOps3_3 _ hW_hostOps3_3 hb).trans ((StableHlo.after_of_writes_sub hostOps3_2 _ hW_hostOps3_2 hb).trans ((StableHlo.after_of_writes_sub hostOps3_1 _ hW_hostOps3_1 hb).trans ((StableHlo.after_of_writes_sub hostOps3 _ hW_hostOps3 hb))))))

/-- A region leaves the array of each of its INPUT windows as it found it. -/
theorem thru0 (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem thru1 (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))
theorem thru2 (w : Fin cfg2.W) (hin : (cfg2.win w).isOut = false) :
    W15 m ρ c (Proc.devRef .tc (Pipeline.arrRef spec2 w)) = W14 m ρ c (Proc.devRef .tc (Pipeline.arrRef spec2 w)) :=
  (W15_arr m ρ c w).trans (((dat2 (V14 m ρ) c).arrAt_in w hin _).trans (A_eq2 (V14 m ρ) c w))

/-- What the launch memory holds at a buffer is what the first boundary's contents are there. -/
theorem W0_eq (b : Ref sig .tc) : W0 m ρ c (Proc.devRef .tc b) = m ((c : Thread nD τ).loc b) := rfl

/-- A buffer nothing has defined yet holds its launch contents at region 0's entry … -/
theorem at1 (b : Ref sig .tc) (h0 : b ∉ wr0) : W1 m ρ c (Proc.devRef .tc b) = m ((c : Thread nD τ).loc b) :=
  keep_0_1 m ρ c b h0
/-- … at region 0's exit … -/
theorem at2 (b : Ref sig .tc) (h0 : b ∉ wr0) (r0 : ∀ w, Pipeline.arrRef spec0 w ≠ b) :
    W2 m ρ c (Proc.devRef .tc b) = m ((c : Thread nD τ).loc b) :=
  (W2_of_ne m ρ c b r0).trans (at1 m ρ c b h0)
/-- … at region 1's entry … -/
theorem at7 (b : Ref sig .tc) (h0 : b ∉ wr0) (r0 : ∀ w, Pipeline.arrRef spec0 w ≠ b) (h1 : b ∉ wr1) :
    W7 m ρ c (Proc.devRef .tc b) = m ((c : Thread nD τ).loc b) :=
  (keep_2_7 m ρ c b h1).trans (at2 m ρ c b h0 r0)
/-- … at region 1's exit … -/
theorem at8 (b : Ref sig .tc) (h0 : b ∉ wr0) (r0 : ∀ w, Pipeline.arrRef spec0 w ≠ b) (h1 : b ∉ wr1)
    (r1 : ∀ w, Pipeline.arrRef spec1 w ≠ b) : W8 m ρ c (Proc.devRef .tc b) = m ((c : Thread nD τ).loc b) :=
  (W8_of_ne m ρ c b r1).trans (at7 m ρ c b h0 r0 h1)
/-- … at region 2's entry … -/
theorem at14 (b : Ref sig .tc) (h0 : b ∉ wr0) (r0 : ∀ w, Pipeline.arrRef spec0 w ≠ b) (h1 : b ∉ wr1)
    (r1 : ∀ w, Pipeline.arrRef spec1 w ≠ b) (h2 : b ∉ wr2) : W14 m ρ c (Proc.devRef .tc b) = m ((c : Thread nD τ).loc b) :=
  (keep_8_14 m ρ c b h2).trans (at8 m ρ c b h0 r0 h1 r1)
/-- … at region 2's exit … -/
theorem at15 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) :
    W15 m ρ c (Proc.devRef .tc b) = m ((c : Thread nD τ).loc b) :=
  (W15_of_ne m ρ c b r2).trans (at14 m ρ c b h0 r0 h1 r1 h2)
/-- … and at region 3's entry. -/
theorem at21 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3) :
    W21 m ρ c (Proc.devRef .tc b) = m ((c : Thread nD τ).loc b) :=
  (keep_15_21 m ρ c b h3).trans (at15 m ρ c b h0 r0 h1 r1 h2 r2)

/-- The edge attributes, which regions 0, 1 and 3 read through a window, are as launched at region 1's entry … -/
theorem arg2_W7 : W7 m ρ c (Proc.devRef .tc main_arg2) = m ((c : Thread nD τ).loc main_arg2) :=
  (keep_2_7 m ρ c main_arg2 (by decide)).trans ((thru0 m ρ c 0 rfl).trans (at1 m ρ c main_arg2 (by decide)))
/-- … and at region 3's entry. -/
theorem arg2_W21 : W21 m ρ c (Proc.devRef .tc main_arg2) = m ((c : Thread nD τ).loc main_arg2) :=
  (keep_15_21 m ρ c main_arg2 (by decide)).trans ((W15_of_ne m ρ c main_arg2 (by decide)).trans
    ((keep_8_14 m ρ c main_arg2 (by decide)).trans ((thru1 m ρ c 2 rfl).trans (arg2_W7 m ρ c))))

end Cert.KernelIdeal.Walk

end
-- ==== Proof.Spec.lean ====
/-
  What each of the four layers computes, entry by entry, on the extended reals.

  Every layer acts on one edge at a time: entry (e, j) of its result depends on row e of the streamed arrays and on the
  weight matrices, never on another edge. So each layer is first a function of ROWS (`Fin K → EReal`) and small
  matrices, and then a function of whole arrays that reads row `e` of each.

  A row times a matrix is `dot r W j = ∑ k, r k · W[k, j]`. The first half of layers 2 to 4 adds four such products, one per
  block of the concatenated input that the reference multiplies by one tall matrix, left to right, and then the bias
  (`hid4`); the second half of every layer clamps at zero and applies one more affine map (`rowL`). The last layer also
  produces the two heads: the four-vector `ex` divided by `max ‖ex‖ ε`, and the logistic function of a scalar.

  On whole arrays the four blocks are the row ranges of the tall matrix (`rows W off K`), and a bias vector is read by
  its one coordinate (`vec1`) or, when it has been reshaped to one row, by its column (`vecRow`).

  The zero of the clamp and `ε` are kept as the words both programs print; no arithmetic is done on them here.
-/
import Idealize.ShloMosaic.PureOps.Ideal
import Idealize.ShloMosaic.Lib.ValueIdx

noncomputable section

open scoped BigOperators

namespace Cert.Spec

open Idealize.ShloMosaic Idealize.ShloMosaic.ValueIdx

/-- A vector of extended reals of length `n`. -/
abbrev A1 (n : Nat) := (⟨1, ![n]⟩ : Shape).Idx → EReal
/-- A matrix of extended reals with `n0` rows and `n1` columns. -/
abbrev A2 (n0 n1 : Nat) := (⟨2, ![n0, n1]⟩ : Shape).Idx → EReal

/-- The edge index array holds node numbers: every entry, read as a signed integer, is at least 0 and below 50000. -/
def InRange (idx : (⟨2, ![2, 400000]⟩ : Shape).Idx → BitVec 32) : Prop :=
  ∀ i, 0 ≤ (idx i).toInt ∧ (idx i).toInt < 50000

/-! ## Rows, row ranges, bias vectors -/

/-- Row `e` of a matrix. -/
def rowOf {E K : Nat} (X : A2 E K) (e : Fin E) : Fin K → EReal := fun k => X (ix2 e k)

/-- Rows `off … off + K - 1` of a matrix, as a matrix of `K` rows. -/
def rows {R J : Nat} (W : A2 R J) (off K : Nat) (h : off + K ≤ R) : A2 K J := fun i =>
  W (ix2 ⟨off + (i 0).val, by have := idx2_lt0 i; omega⟩ ⟨(i 1).val, idx2_lt1 i⟩)

/-- A vector read by its coordinate. -/
def vec1 {J : Nat} (b : A1 J) : Fin J → EReal := fun j => b (ix1 j)

/-- A one-row matrix read by its column. -/
def vecRow {J : Nat} (b : A2 1 J) : Fin J → EReal := fun j => b (ix2 0 j)

/-! ## One edge's row through a layer -/

/-- The clamp at zero, the zero being the word `0x00000000` both programs print. -/
def relu (x : EReal) : EReal := max x (Ideal.ofBits .f32 0x00000000#32)

/-- A row times a matrix at column `j`: `∑ k, r k · W[k, j]`. -/
def dot {K J : Nat} (r : Fin K → EReal) (W : A2 K J) (j : Fin J) : EReal := ∑ k : Fin K, r k * W (ix2 k j)

/-- An affine map of a row at column `j`: `r · W + b`. -/
def aff {K J : Nat} (r : Fin K → EReal) (W : A2 K J) (b : Fin J → EReal) (j : Fin J) : EReal := dot r W j + b j

/-- Four rows through four matrices, summed left to right, plus the bias. -/
def hid4 {K0 K1 K2 K3 J : Nat} (r0 : Fin K0 → EReal) (r1 : Fin K1 → EReal) (r2 : Fin K2 → EReal) (r3 : Fin K3 → EReal)
    (w0 : A2 K0 J) (w1 : A2 K1 J) (w2 : A2 K2 J) (w3 : A2 K3 J) (b : Fin J → EReal) (j : Fin J) : EReal :=
  (((dot r0 w0 j + dot r1 w1 j) + dot r2 w2 j) + dot r3 w3 j) + b j

/-- The second half of a layer: clamp the hidden row at zero, then an affine map. -/
def rowL {K J : Nat} (hidden : Fin K → EReal) (W : A2 K J) (b : Fin J → EReal) (j : Fin J) : EReal :=
  aff (fun k => relu (hidden k)) W b j

/-- Layer 1 on one edge's attribute row: `relu (ea · w10 + b10) · w11 + b11`. -/
def rowL1 (ea : Fin 4 → EReal) (w10 : A2 4 32) (b10 : Fin 32 → EReal) (w11 : A2 32 32) (b11 : Fin 32 → EReal)
    (j : Fin 32) : EReal :=
  rowL (aff ea w10 b10) w11 b11 j

/-- Layer 4's clamped result row from its hidden row (the row both heads read). -/
def rowE4 (hidden : Fin 32 → EReal) (w41 : A2 32 32) (b41 : Fin 32 → EReal) (k : Fin 32) : EReal :=
  relu (rowL hidden w41 b41 k)

/-- The four-vector before normalisation: `(e4 · wl01 + bl01) · wl1 + bl1 + attr`. -/
def rowEX (e4 : Fin 32 → EReal) (wl01 : A2 32 32) (bl01 : Fin 32 → EReal) (wl1 : A2 32 4) (bl1 : Fin 4 → EReal)
    (attr : Fin 4 → EReal) (a : Fin 4) : EReal :=
  aff (aff e4 wl01 bl01) wl1 bl1 a + attr a

/-- A four-vector divided by `max (its Euclidean norm) ε`, `ε` the word `0x2B8CBCCC` both programs print. -/
def normalise (ex : Fin 4 → EReal) (a : Fin 4) : EReal :=
  Ideal.div (ex a) (max (Ideal.sqrt (∑ k : Fin 4, ex k * ex k)) (Ideal.ofBits .f32 0x2B8CBCCC#32))

/-- The scalar the logistic head is applied to: `(e4 · wl02 + bl02) · wl2 + bl2`. -/
def rowPZ (e4 : Fin 32 → EReal) (wl02 : A2 32 32) (bl02 : Fin 32 → EReal) (wl2 : A2 32 1) (bl2 : Fin 1 → EReal) : EReal :=
  aff (aff e4 wl02 bl02) wl2 bl2 0

/-! ## The layers on whole arrays -/

/-- Layer 1 at entry `i`. -/
def G1 (ea : A2 400000 4) (w10 : A2 4 32) (b10 : A1 32) (w11 : A2 32 32) (b11 : A1 32) : A2 400000 32 := fun i =>
  rowL1 (rowOf ea ⟨(i 0).val, idx2_lt0 i⟩) w10 (vec1 b10) w11 (vec1 b11) ⟨(i 1).val, idx2_lt1 i⟩

/-- Layer 2's hidden row at edge `e`: the blocks of `w20` are its rows 0–31, 32–63, 64–67, 68–99, applied to the two
    gathered node rows, the edge attributes and the clamped layer-1 row. -/
def H2 (xr xc : A2 400000 32) (ea : A2 400000 4) (e1 : A2 400000 32) (w20 : A2 100 32) (b20 : A1 32)
    (e : Fin 400000) : Fin 32 → EReal :=
  hid4 (rowOf xr e) (rowOf xc e) (rowOf ea e) (fun a => relu (rowOf e1 e a))
    (rows w20 0 32 (by omega)) (rows w20 32 32 (by omega)) (rows w20 64 4 (by omega)) (rows w20 68 32 (by omega)) (vec1 b20)

/-- Layer 2 at entry `i`. -/
def G2 (xr xc : A2 400000 32) (ea : A2 400000 4) (e1 : A2 400000 32) (w20 : A2 100 32) (b20 : A1 32)
    (w21 : A2 32 32) (b21 : A1 32) : A2 400000 32 := fun i =>
  rowL (H2 xr xc ea e1 w20 b20 ⟨(i 0).val, idx2_lt0 i⟩) w21 (vec1 b21) ⟨(i 1).val, idx2_lt1 i⟩

/-- The hidden row of layers 3 and 4 at edge `e`: the blocks of a 192-row matrix are its rows 0–63, 64–127, 128–159,
    160–191, applied to the two gathered 64-wide node rows and to two clamped 32-wide edge rows. -/
def H3 (xr xc : A2 400000 64) (ea eb : A2 400000 32) (w : A2 192 32) (b : A1 32) (e : Fin 400000) : Fin 32 → EReal :=
  hid4 (rowOf xr e) (rowOf xc e) (fun a => relu (rowOf ea e a)) (fun a => relu (rowOf eb e a))
    (rows w 0 64 (by omega)) (rows w 64 64 (by omega)) (rows w 128 32 (by omega)) (rows w 160 32 (by omega)) (vec1 b)

/-- Layer 3 at entry `i` (`ea` the layer-2 rows, `eb` the layer-1 rows, both before their clamp). -/
def G3 (xr xc : A2 400000 64) (ea eb : A2 400000 32) (w30 : A2 192 32) (b30 : A1 32)
    (w31 : A2 32 32) (b31 : A1 32) : A2 400000 32 := fun i =>
  rowL (H3 xr xc ea eb w30 b30 ⟨(i 0).val, idx2_lt0 i⟩) w31 (vec1 b31) ⟨(i 1).val, idx2_lt1 i⟩

/-- Layer 4's clamped row at edge `e` (`ea` the layer-3 rows, `eb` the layer-2 rows, both before their clamp). -/
def E4 (xr xc : A2 400000 64) (ea eb : A2 400000 32) (w40 : A2 192 32) (b40 : A1 32) (w41 : A2 32 32) (b41 : A1 32)
    (e : Fin 400000) : Fin 32 → EReal :=
  rowE4 (H3 xr xc ea eb w40 b40 e) w41 (vec1 b41)

/-- The normalised four-vector head at entry `i`. -/
def EdgeX (xr xc : A2 400000 64) (ea eb : A2 400000 32) (attr : A2 400000 4) (w40 : A2 192 32) (b40 : A1 32)
    (w41 : A2 32 32) (b41 : A1 32) (wl01 : A2 32 32) (bl01 : A1 32) (wl1 : A2 32 4) (bl1 : A1 4) : A2 400000 4 := fun i =>
  normalise (rowEX (E4 xr xc ea eb w40 b40 w41 b41 ⟨(i 0).val, idx2_lt0 i⟩) wl01 (vec1 bl01) wl1 (vec1 bl1)
    (rowOf attr ⟨(i 0).val, idx2_lt0 i⟩)) ⟨(i 1).val, idx2_lt1 i⟩

/-- The logistic head at entry `i` (one column). -/
def Probs (xr xc : A2 400000 64) (ea eb : A2 400000 32) (w40 : A2 192 32) (b40 : A1 32)
    (w41 : A2 32 32) (b41 : A1 32) (wl02 : A2 32 32) (bl02 : A1 32) (wl2 : A2 32 1) (bl2 : A1 1) : A2 400000 1 := fun i =>
  Ideal.logistic (rowPZ (E4 xr xc ea eb w40 b40 w41 b41 ⟨(i 0).val, idx2_lt0 i⟩) wl02 (vec1 bl02) wl2 (vec1 bl2))

end Cert.Spec

end
-- ==== Proof.KChain.lean ====
/-
  The idealized kernel's host side as functions, and the whole chain from the arguments to the two results.
  Between its four kernel regions @main does the same few things each time: it takes the two rows of the edge index
  array (each edge's target node and source node), counts the edges into each target node (at least 1), averages a
  layer's edge rows over each target node and clamps at zero, gathers the node rows at each edge's two endpoints, and
  joins two node tables side by side. Each of these is one function here, spelt as the printed operations are; the
  chain then names every intermediate array from the arguments on: layer-1 rows, node means, gathered rows, layer-2
  rows, and so on to the two heads.
-/
import proofs.«411902_j85581518340249_3_alg».proof.Proof.Gen.KernelIdeal
import proofs.«411902_j85581518340249_3_alg».proof.Proof.Spec
import Idealize.ShloMosaic.PureOps.Ideal

set_option maxRecDepth 16384

noncomputable section

open scoped BigOperators

namespace Cert.KernelIdeal.Chain

open Cert.KernelIdeal Cert.KernelIdeal.Facts₀ Cert.KernelIdeal.Facts Cert.Spec
open Idealize.ShloMosaic Idealize.ShloMosaic.TcCoe

/-- Each edge's target node: row 0 of the index array. -/
def row (ei : IVec S2x400000 32) : IVec S400000 32 :=
  shapeCast S400000 (extractStridedSlice S1x400000 ![0, 0] ei slices_S2x400000_S1x400000_0_0) shapeCasts_S1x400000_S400000
/-- Each edge's source node: row 1 of the index array. -/
def col (ei : IVec S2x400000 32) : IVec S400000 32 :=
  shapeCast S400000 (extractStridedSlice S1x400000 ![1, 0] ei slices_S2x400000_S1x400000_1_0) shapeCasts_S1x400000_S400000

/-- The number of edges into each node, at least 1: ones scattered onto the target nodes, then the maximum with 1. -/
def cnt (r : IVec S400000 32) : FVec Ideal S50000x1 .f32 :=
  maximumf
    (Host.scatterAdd scatter_S50000x1_S400000x1_S400000x1_1_0_0_1
      (broadcastInDim S50000x1 ![] bcast_S_S50000x1 (constant (F := Ideal) S_ .f32 0x00000000#32))
      (broadcastInDim S400000x1 ![0] bcast_S400000_S400000x1_0 r)
      (broadcastInDim S400000x1 ![] bcast_S_S400000x1 (constant (F := Ideal) S_ .f32 0x3F800000#32)))
    (broadcastInDim S50000x1 ![] bcast_S_S50000x1 (constant (F := Ideal) S_ .f32 0x3F800000#32))

/-- A layer's edge rows averaged over each target node and clamped at zero. -/
def mean (r : IVec S400000 32) (cn : FVec Ideal S50000x1 .f32) (e : FVec Ideal S400000x32 .f32) : FVec Ideal S50000x32 .f32 :=
  maximumf
    (Host.divf
      (Host.scatterAdd scatter_S50000x32_S400000x1_S400000x32_1_0_0_1
        (broadcastInDim S50000x32 ![] bcast_S_S50000x32 (constant (F := Ideal) S_ .f32 0x00000000#32))
        (broadcastInDim S400000x1 ![0] bcast_S400000_S400000x1_0 r) e)
      (broadcastInDim S50000x32 ![0, 1] bcast_S50000x1_S50000x32_0_1 cn))
    (broadcastInDim S50000x32 ![] bcast_S_S50000x32 (constant (F := Ideal) S_ .f32 0x00000000#32))

/-- The 32-wide node rows at each edge's endpoint `idx`. -/
def take32 (x : FVec Ideal S50000x32 .f32) (idx : IVec S400000 32) : FVec Ideal S400000x32 .f32 :=
  Host.gather gather_S50000x32_S400000x1_S400000x32_1_0_n_n_0_1_132 x (broadcastInDim S400000x1 ![0] bcast_S400000_S400000x1_0 idx)
/-- The 64-wide node rows at each edge's endpoint `idx`. -/
def take64 (x : FVec Ideal S50000x64 .f32) (idx : IVec S400000 32) : FVec Ideal S400000x64 .f32 :=
  Host.gather gather_S50000x64_S400000x1_S400000x64_1_0_n_n_0_1_164 x (broadcastInDim S400000x1 ![0] bcast_S400000_S400000x1_0 idx)
/-- Two 32-wide node tables side by side. -/
def cat (a b : FVec Ideal S50000x32 .f32) : FVec Ideal S50000x64 .f32 :=
  concatenate S50000x64 1 [⟨S50000x32, a⟩, ⟨S50000x32, b⟩] concatenates_S50000x32_S50000x32_S50000x64_d1

/-! ## The chain: every intermediate array as a function of the arguments -/

section
variable (a1 : IVec S2x400000 32) (a2 : FVec Ideal S400000x4 .f32) (a4 : FVec Ideal S4x32 .f32) (a5 : FVec Ideal S32 .f32)
  (a6 : FVec Ideal S32x32 .f32) (a7 : FVec Ideal S32 .f32) (a8 : FVec Ideal S100x32 .f32) (a9 : FVec Ideal S32 .f32)
  (a10 : FVec Ideal S32x32 .f32) (a11 : FVec Ideal S32 .f32) (a12 : FVec Ideal S192x32 .f32) (a13 : FVec Ideal S32 .f32)
  (a14 : FVec Ideal S32x32 .f32) (a15 : FVec Ideal S32 .f32) (a16 : FVec Ideal S192x32 .f32) (a17 : FVec Ideal S32 .f32)
  (a18 : FVec Ideal S32x32 .f32) (a19 : FVec Ideal S32 .f32) (a20 : FVec Ideal S32x32 .f32) (a21 : FVec Ideal S32 .f32)
  (a22 : FVec Ideal S32x32 .f32) (a23 : FVec Ideal S32 .f32) (a24 : FVec Ideal S32x4 .f32) (a25 : FVec Ideal S4 .f32)
  (a26 : FVec Ideal S32x1 .f32) (a27 : FVec Ideal S1 .f32)

/-- Layer-1 rows. -/
def E1 : FVec Ideal S400000x32 .f32 := G1 a2 a4 a5 a6 a7
/-- Node means of layer 1. -/
def X1 : FVec Ideal S50000x32 .f32 := mean (row a1) (cnt (row a1)) (E1 a2 a4 a5 a6 a7)
/-- Layer-2 rows. -/
def E2 : FVec Ideal S400000x32 .f32 :=
  G2 (take32 (X1 a1 a2 a4 a5 a6 a7) (row a1)) (take32 (X1 a1 a2 a4 a5 a6 a7) (col a1)) a2 (E1 a2 a4 a5 a6 a7) a8 a9 a10 a11
/-- Node means of layer 2. -/
def X2 : FVec Ideal S50000x32 .f32 := mean (row a1) (cnt (row a1)) (E2 a1 a2 a4 a5 a6 a7 a8 a9 a10 a11)
/-- The node table layer 3 gathers from: layer-2 means beside layer-1 means. -/
def X21 : FVec Ideal S50000x64 .f32 := cat (X2 a1 a2 a4 a5 a6 a7 a8 a9 a10 a11) (X1 a1 a2 a4 a5 a6 a7)
/-- Layer-3 rows. -/
def E3 : FVec Ideal S400000x32 .f32 :=
  G3 (take64 (X21 a1 a2 a4 a5 a6 a7 a8 a9 a10 a11) (row a1)) (take64 (X21 a1 a2 a4 a5 a6 a7 a8 a9 a10 a11) (col a1))
    (E2 a1 a2 a4 a5 a6 a7 a8 a9 a10 a11) (E1 a2 a4 a5 a6 a7) a12 a13 a14 a15
/-- Node means of layer 3. -/
def X3 : FVec Ideal S50000x32 .f32 := mean (row a1) (cnt (row a1)) (E3 a1 a2 a4 a5 a6 a7 a8 a9 a10 a11 a12 a13 a14 a15)
/-- The node table layer 4 gathers from: layer-3 means beside layer-2 means. -/
def X32 : FVec Ideal S50000x64 .f32 :=
  cat (X3 a1 a2 a4 a5 a6 a7 a8 a9 a10 a11 a12 a13 a14 a15) (X2 a1 a2 a4 a5 a6 a7 a8 a9 a10 a11)
/-- The normalised four-vector result. -/
def Edge : FVec Ideal S400000x4 .f32 :=
  EdgeX (take64 (X32 a1 a2 a4 a5 a6 a7 a8 a9 a10 a11 a12 a13 a14 a15) (row a1))
    (take64 (X32 a1 a2 a4 a5 a6 a7 a8 a9 a10 a11 a12 a13 a14 a15) (col a1))
    (E3 a1 a2 a4 a5 a6 a7 a8 a9 a10 a11 a12 a13 a14 a15) (E2 a1 a2 a4 a5 a6 a7 a8 a9 a10 a11) a2
    a16 a17 a18 a19 a20 a21 a24 a25
/-- The logistic result. -/
def Prob : FVec Ideal S400000x1 .f32 :=
  Probs (take64 (X32 a1 a2 a4 a5 a6 a7 a8 a9 a10 a11 a12 a13 a14 a15) (row a1))
    (take64 (X32 a1 a2 a4 a5 a6 a7 a8 a9 a10 a11 a12 a13 a14 a15) (col a1))
    (E3 a1 a2 a4 a5 a6 a7 a8 a9 a10 a11 a12 a13 a14 a15) (E2 a1 a2 a4 a5 a6 a7 a8 a9 a10 a11)
    a16 a17 a18 a19 a22 a23 a26 a27
end

end Cert.KernelIdeal.Chain

end
-- ==== Proof.Region3Pay.lean ====
/-
  Region 3's body at one entry: what the last kernel's block computation puts at row `p`, column by column.
  The body's arithmetic is five named terms: the hidden row of layer 4 clamped (four matmuls into zero accumulators,
  summed, plus the bias row, clamped); the clamped result row `e4` (one more matmul, bias, clamp); the two affine heads
  of `e4`; the four-vector head plus the attribute row, divided by `max (sqrt of its lane sum of squares) ε`; the
  logistic function of the scalar head; and the concatenation of the four-vector, the scalar and three zero columns
  into eight columns. Read at row `p`: a matmul into a zero accumulator is a sum over its one contracted coordinate, a
  one-row bias broadcast over the rows reads its column, a lane sum over four columns is a sum over `Fin 4`, and a
  column below 4 of the concatenation is the first piece's, column 4 the second's.
-/
import proofs.«411902_j85581518340249_3_alg».proof.Proof.Gen.KernelIdeal.Skeleton
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Cert.KernelIdeal Cert.KernelIdeal.Gen Cert.Spec
open Idealize.ShloMosaic Idealize.ShloMosaic.TcCoe Idealize.ShloMosaic.ValueIdx Idealize.SL.Sem

namespace R3Paux

/-! ## A plain contraction, the bias row, the column forms and the lane sum, each read at one entry -/

/-- Rows times columns with one contracted axis: the left operand's index at output `(i₀, i₁)` and contraction
    coordinate `q` is `(i₀, q)` … -/
theorem plain_lhs_0 (M K N : Nat) (i : (⟨2, ![M, N]⟩ : Shape).Idx) (q : (DotDims.plain M K N).contr.Idx) :
    ((DotDims.plain M K N).lhsIdx i q 0).val = (i 0).val := rfl
theorem plain_lhs_1 (M K N : Nat) (i : (⟨2, ![M, N]⟩ : Shape).Idx) (q : (DotDims.plain M K N).contr.Idx) :
    ((DotDims.plain M K N).lhsIdx i q 1).val = (q ⟨0, Nat.one_pos⟩).val := rfl
/-- … and the right operand's is `(q, i₁)`. -/
theorem plain_rhs_0 (M K N : Nat) (i : (⟨2, ![M, N]⟩ : Shape).Idx) (q : (DotDims.plain M K N).contr.Idx) :
    ((DotDims.plain M K N).rhsIdx i q 0).val = (q ⟨0, Nat.one_pos⟩).val := rfl
theorem plain_rhs_1 (M K N : Nat) (i : (⟨2, ![M, N]⟩ : Shape).Idx) (q : (DotDims.plain M K N).contr.Idx) :
    ((DotDims.plain M K N).rhsIdx i q 1).val = (i 1).val := rfl

/-- A product into the zero accumulator, at `(p, c)`: the sum over the contracted coordinate of row `p` of the left
    factor times column `c` of the right one. -/
theorem plain_mm_apply (M K N : Nat) (prec : Option ContractPrecision)
    (lhs : FVec Ideal ⟨2, ![M, K]⟩ .f32) (rhs : FVec Ideal ⟨2, ![K, N]⟩ .f32) (p : Fin M) (c : Fin N) :
    FloatOps.matmul (DotDims.plain M K N) prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact plain_lhs_0 M K N _ _
      | ⟨1, _⟩ => exact (plain_lhs_1 M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- The four contractions of this body are plain ones: rows of a block times a weight matrix. -/
theorem mm_64_32 (lhs : FVec Ideal S8000x64 .f32) (rhs : FVec Ideal S64x32 .f32) (p : Fin 8000) (c : Fin 32) :
    matmul dot_S8000x64_S64x32_S8000x32_1_0_0_1_n_n (some .fp32) lhs rhs (constant (F := Ideal) S8000x32 .f32 0x00000000#32) (ix2 p c)
      = dot (rowOf lhs p) rhs c := plain_mm_apply 8000 64 32 _ lhs rhs p c
theorem mm_32_32 (lhs : FVec Ideal S8000x32 .f32) (rhs : FVec Ideal S32x32 .f32) (p : Fin 8000) (c : Fin 32) :
    matmul dot_S8000x32_S32x32_S8000x32_1_0_0_1_n_n (some .fp32) lhs rhs (constant (F := Ideal) S8000x32 .f32 0x00000000#32) (ix2 p c)
      = dot (rowOf lhs p) rhs c := plain_mm_apply 8000 32 32 _ lhs rhs p c
theorem mm_32_4 (lhs : FVec Ideal S8000x32 .f32) (rhs : FVec Ideal S32x4 .f32) (p : Fin 8000) (c : Fin 4) :
    matmul dot_S8000x32_S32x4_S8000x4_1_0_0_1_n_n (some .fp32) lhs rhs (constant (F := Ideal) S8000x4 .f32 0x00000000#32) (ix2 p c)
      = dot (rowOf lhs p) rhs c := plain_mm_apply 8000 32 4 _ lhs rhs p c
theorem mm_32_1 (lhs : FVec Ideal S8000x32 .f32) (rhs : FVec Ideal S32x1 .f32) (p : Fin 8000) (c : Fin 1) :
    matmul dot_S8000x32_S32x1_S8000x1_1_0_0_1_n_n (some .fp32) lhs rhs (constant (F := Ideal) S8000x1 .f32 0x00000000#32) (ix2 p c)
      = dot (rowOf lhs p) rhs c := plain_mm_apply 8000 32 1 _ lhs rhs p c

/-- A one-row bias, cast to its own shape and repeated over the rows, reads its column. -/
theorem bias_apply {a b : Nat} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = vecRow v c := by
  rw [shapeCast_self]; exact broadcastTo_1b_ab_apply v h2 p c

/-- A vector cast to one column reads, at `(i, u)`, its coordinate `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated over `b` columns reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum over the four columns of row `p`. -/
theorem laneSum_apply (src : FVec Ideal S8000x4 .f32) (h : S8000x4.Reduces [1] S8000) (hφ : FKind.Formats .f32)
    (hacc : (0x00000000#32 : BitVec 32) = 0x00000000#32) (p : Fin 8000) :
    multiReduction (F := Ideal) .add [1] S8000 src 0x00000000#32 h hφ hacc (ix1 p) = ∑ k : Fin 4, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

/-- The eight-column concatenation of a four-column, a one-column and a three-column block: a column below 4 is the
    first piece's … -/
theorem cat_left {α : Type} (y0 : S8000x4.Idx → α) (y1 : S8000x1.Idx → α) (y2 : S8000x3.Idx → α)
    (h : Shape.Concatenates ([(⟨S8000x4, y0⟩ : (s : Shape) × (s.Idx → α)), ⟨S8000x1, y1⟩, ⟨S8000x3, y2⟩].map (·.1)) S8000x8 1)
    (p : Fin 8000) (a : Fin 4) :
    concatenate S8000x8 1 [⟨S8000x4, y0⟩, ⟨S8000x1, y1⟩, ⟨S8000x3, y2⟩] h (ix2 p ⟨a.val, by omega⟩) = y0 (ix2 p a) :=
  concatenate_apply_piece (1 : Fin S8000x8.rank) _ h _ 0 (by show 0 < 3; omega) S8000x4 y0 rfl rfl 0 rfl (ix2 p a)
    (fun b hb => by
      match b with
      | ⟨0, _⟩ => rfl
      | ⟨1, _⟩ => exact absurd rfl hb) (Nat.zero_add _)

/-- … and column 4 is the second piece's one column. -/
theorem cat_mid {α : Type} (y0 : S8000x4.Idx → α) (y1 : S8000x1.Idx → α) (y2 : S8000x3.Idx → α)
    (h : Shape.Concatenates ([(⟨S8000x4, y0⟩ : (s : Shape) × (s.Idx → α)), ⟨S8000x1, y1⟩, ⟨S8000x3, y2⟩].map (·.1)) S8000x8 1)
    (p : Fin 8000) :
    concatenate S8000x8 1 [⟨S8000x4, y0⟩, ⟨S8000x1, y1⟩, ⟨S8000x3, y2⟩] h (ix2 p ⟨4, by omega⟩) = y1 (ix2 p (0 : Fin 1)) :=
  concatenate_apply_piece (1 : Fin S8000x8.rank) _ h _ 1 (by show 1 < 3; omega) S8000x1 y1 rfl rfl 4 rfl (ix2 p (0 : Fin 1))
    (fun b hb => by
      match b with
      | ⟨0, _⟩ => rfl
      | ⟨1, _⟩ => exact absurd rfl hb) rfl

end R3Paux

open R3Paux

/-- Layer 4's clamped result row at row `p` of a block: the block's two node-row windows, its two edge-row windows
    (clamped first), the four weight blocks, the bias row, the second weight matrix and its bias row. -/
def blkE4 (x0 x1 : A2 8000 64) (x2 x3 : A2 8000 32) (x5 x6 : A2 64 32) (x7 x8 : A2 32 32) (x9 : A2 1 32)
    (x10 : A2 32 32) (x11 : A2 1 32) (p : Fin 8000) : Fin 32 → EReal :=
  rowE4 (hid4 (rowOf x0 p) (rowOf x1 p) (fun a => relu (rowOf x2 p a)) (fun a => relu (rowOf x3 p a)) x5 x6 x7 x8 (vecRow x9))
    x10 (vecRow x11)

/-- The body's eight-column block as one term of the twenty input blocks (the generated frame's `out3_20` stores it). -/
abbrev pay3 (x0 : FVec Ideal S8000x64 .f32) (x1 : FVec Ideal S8000x64 .f32) (x2 : FVec Ideal S8000x32 .f32) (x3 : FVec Ideal S8000x32 .f32) (x4 : FVec Ideal S8000x4 .f32) (x5 : FVec Ideal S64x32 .f32) (x6 : FVec Ideal S64x32 .f32) (x7 : FVec Ideal S32x32 .f32) (x8 : FVec Ideal S32x32 .f32) (x9 : FVec Ideal S1x32 .f32) (x10 : FVec Ideal S32x32 .f32) (x11 : FVec Ideal S1x32 .f32) (x12 : FVec Ideal S32x32 .f32) (x13 : FVec Ideal S1x32 .f32) (x14 : FVec Ideal S32x32 .f32) (x15 : FVec Ideal S1x32 .f32) (x16 : FVec Ideal S32x4 .f32) (x17 : FVec Ideal S1x4 .f32) (x18 : FVec Ideal S32x1 .f32) (x19 : FVec Ideal S1x1 .f32) : FVec Ideal S8000x8 .f32 :=
  k3_pay1 (F := Ideal) (k3_pay4 (k3_pay2 x2 x3 x0 x5 x1 x6 x7 x8 x9) x10 x11 x14 x15) (k3_pay5 (k3_pay2 x2 x3 x0 x5 x1 x6 x7 x8 x9) x10 x11 x12 x13 x16 x17 x4) x18 x19

namespace R3Paux

/-! ## The five terms of the body at one entry -/

/-- An affine layer on a block: the rows times a weight matrix into zero, plus the one-row bias repeated over the rows. -/
theorem aff_32_32 (X : FVec Ideal S8000x32 .f32) (W : FVec Ideal S32x32 .f32) (b : FVec Ideal S1x32 .f32)
    (h1 : S1x32.ShapeCasts S1x32) (h2 : S1x32.Broadcasts S8000x32) (p : Fin 8000) (c : Fin 32) :
    addf (matmul dot_S8000x32_S32x32_S8000x32_1_0_0_1_n_n (some .fp32) X W (constant (F := Ideal) S8000x32 .f32 0x00000000#32))
        (broadcastTo S8000x32 (shapeCast S1x32 b h1) h2) (ix2 p c)
      = aff (rowOf X p) W (vecRow b) c :=
  congrArg₂ (· + ·) (mm_32_32 X W p c) (bias_apply b h1 h2 p c)
theorem aff_32_4 (X : FVec Ideal S8000x32 .f32) (W : FVec Ideal S32x4 .f32) (b : FVec Ideal S1x4 .f32)
    (h1 : S1x4.ShapeCasts S1x4) (h2 : S1x4.Broadcasts S8000x4) (p : Fin 8000) (c : Fin 4) :
    addf (matmul dot_S8000x32_S32x4_S8000x4_1_0_0_1_n_n (some .fp32) X W (constant (F := Ideal) S8000x4 .f32 0x00000000#32))
        (broadcastTo S8000x4 (shapeCast S1x4 b h1) h2) (ix2 p c)
      = aff (rowOf X p) W (vecRow b) c :=
  congrArg₂ (· + ·) (mm_32_4 X W p c) (bias_apply b h1 h2 p c)
theorem aff_32_1 (X : FVec Ideal S8000x32 .f32) (W : FVec Ideal S32x1 .f32) (b : FVec Ideal S1x1 .f32)
    (h1 : S1x1.ShapeCasts S1x1) (h2 : S1x1.Broadcasts S8000x1) (p : Fin 8000) (c : Fin 1) :
    addf (matmul dot_S8000x32_S32x1_S8000x1_1_0_0_1_n_n (some .fp32) X W (constant (F := Ideal) S8000x1 .f32 0x00000000#32))
        (broadcastTo S8000x1 (shapeCast S1x1 b h1) h2) (ix2 p c)
      = aff (rowOf X p) W (vecRow b) c :=
  congrArg₂ (· + ·) (mm_32_1 X W p c) (bias_apply b h1 h2 p c)

/-- The clamped hidden row: the two node rows and the two clamped edge rows through their weight blocks, summed left
    to right, plus the bias, clamped. -/
theorem pay2_apply (v0 v4 : FVec Ideal S8000x32 .f32) (v8 : FVec Ideal S8000x64 .f32) (v10 : FVec Ideal S64x32 .f32)
    (v13 : FVec Ideal S8000x64 .f32) (v15 : FVec Ideal S64x32 .f32) (v19 v23 : FVec Ideal S32x32 .f32)
    (v27 : FVec Ideal S1x32 .f32) (p : Fin 8000) (c : Fin 32) :
    k3_pay2 (F := Ideal) v0 v4 v8 v10 v13 v15 v19 v23 v27 (ix2 p c)
      = relu (hid4 (rowOf v8 p) (rowOf v13 p) (fun a => relu (rowOf v0 p a)) (fun a => relu (rowOf v4 p a))
          v10 v15 v19 v23 (vecRow v27) c) := by
  unfold k3_pay2
  simp only [shapeCast_self]
  exact congrArg (fun x : EReal => max x (Ideal.ofBits .f32 0x00000000#32))
    (congrArg₂ (· + ·) (congrArg₂ (· + ·) (congrArg₂ (· + ·) (congrArg₂ (· + ·) (mm_64_32 v8 v10 p c) (mm_64_32 v13 v15 p c))
      (mm_32_32 _ v19 p c)) (mm_32_32 _ v23 p c)) (broadcastTo_1b_ab_apply v27 _ p c))

/-- The clamped result row of layer 4 from the clamped hidden block. -/
theorem pay3row_apply (v32 : FVec Ideal S8000x32 .f32) (v33 : FVec Ideal S32x32 .f32) (v35 : FVec Ideal S1x32 .f32)
    (p : Fin 8000) (c : Fin 32) :
    k3_pay3 (F := Ideal) v32 v33 v35 (ix2 p c) = relu (aff (rowOf v32 p) v33 (vecRow v35) c) := by
  unfold k3_pay3
  exact congrArg (fun x : EReal => max x (Ideal.ofBits .f32 0x00000000#32)) (aff_32_32 v32 v33 v35 _ _ p c)

/-- The second head's first affine map of the result row. -/
theorem pay4_apply (v32 : FVec Ideal S8000x32 .f32) (v33 : FVec Ideal S32x32 .f32) (v35 : FVec Ideal S1x32 .f32)
    (v47 : FVec Ideal S32x32 .f32) (v49 : FVec Ideal S1x32 .f32) (p : Fin 8000) (c : Fin 32) :
    k3_pay4 (F := Ideal) v32 v33 v35 v47 v49 (ix2 p c)
      = aff (rowOf (k3_pay3 (F := Ideal) v32 v33 v35) p) v47 (vecRow v49) c := by
  unfold k3_pay4
  exact aff_32_32 _ v47 v49 _ _ p c

/-- A four-column block divided, row by row, by `max (sqrt of the row's sum of squares) ε`. -/
theorem norm_apply (y : FVec Ideal S8000x4 .f32) (hred : S8000x4.Reduces [1] S8000) (hφ : FKind.Formats .f32)
    (hacc : (0x00000000#32 : BitVec 32) = 0x00000000#32) (hcast : S8000.ShapeCasts S8000x1) (hbc : S8000x1.Broadcasts S8000x4)
    (p : Fin 8000) (a : Fin 4) :
    divf y (broadcastTo S8000x4 (maximumf (sqrt (shapeCast S8000x1 (multiReduction (F := Ideal) .add [1] S8000 (mulf y y) 0x00000000#32 hred hφ hacc) hcast))
        (broadcast S8000x1 (Scalar.ofBits (F := Ideal) .f32 0x2B8CBCCC#32))) hbc) (ix2 p a)
      = normalise (rowOf y p) a :=
  congrArg (fun d : EReal => Ideal.div (y (ix2 p a)) d)
    ((broadcastTo_a1_ab_apply _ hbc p a).trans
      (congrArg (fun s : EReal => max (Ideal.sqrt s) (Ideal.ofBits .f32 0x2B8CBCCC#32))
        ((shapeCast_a_a1_apply _ hcast p (0 : Fin 1)).trans (laneSum_apply (mulf y y) hred hφ hacc p))))

/-- The first head before normalisation: two affine maps of the result row plus the attribute row. -/
theorem ex_apply (X : FVec Ideal S8000x32 .f32) (v41 : FVec Ideal S32x32 .f32) (v43 : FVec Ideal S1x32 .f32)
    (v53 : FVec Ideal S32x4 .f32) (v55 : FVec Ideal S1x4 .f32) (v59 : FVec Ideal S8000x4 .f32)
    (h1 : S1x32.ShapeCasts S1x32) (h2 : S1x32.Broadcasts S8000x32) (h3 : S1x4.ShapeCasts S1x4) (h4 : S1x4.Broadcasts S8000x4)
    (p : Fin 8000) (a : Fin 4) :
    addf (addf (matmul dot_S8000x32_S32x4_S8000x4_1_0_0_1_n_n (some .fp32)
          (addf (matmul dot_S8000x32_S32x32_S8000x32_1_0_0_1_n_n (some .fp32) X v41 (constant (F := Ideal) S8000x32 .f32 0x00000000#32))
            (broadcastTo S8000x32 (shapeCast S1x32 v43 h1) h2)) v53 (constant (F := Ideal) S8000x4 .f32 0x00000000#32))
        (broadcastTo S8000x4 (shapeCast S1x4 v55 h3) h4)) v59 (ix2 p a)
      = rowEX (rowOf X p) v41 (vecRow v43) v53 (vecRow v55) (rowOf v59 p) a :=
  (congrArg (· + v59 (ix2 p a)) (aff_32_4 _ v53 v55 h3 h4 p a)).trans
    (congrArg (fun r : Fin 32 → EReal => aff r v53 (vecRow v55) a + v59 (ix2 p a))
      (funext fun j => aff_32_32 X v41 v43 h1 h2 p j))

/-- The first head: the four-vector of the row, normalised. -/
theorem pay5_apply (v32 : FVec Ideal S8000x32 .f32) (v33 : FVec Ideal S32x32 .f32) (v35 : FVec Ideal S1x32 .f32)
    (v41 : FVec Ideal S32x32 .f32) (v43 : FVec Ideal S1x32 .f32) (v53 : FVec Ideal S32x4 .f32) (v55 : FVec Ideal S1x4 .f32)
    (v59 : FVec Ideal S8000x4 .f32) (p : Fin 8000) (a : Fin 4) :
    k3_pay5 (F := Ideal) v32 v33 v35 v41 v43 v53 v55 v59 (ix2 p a)
      = normalise (rowEX (rowOf (k3_pay3 (F := Ideal) v32 v33 v35) p) v41 (vecRow v43) v53 (vecRow v55) (rowOf v59 p)) a := by
  unfold k3_pay5
  exact (norm_apply _ _ _ _ _ _ p a).trans
    (congrArg (fun r : Fin 4 → EReal => normalise r a) (funext fun k => ex_apply _ v41 v43 v53 v55 v59 _ _ _ _ p k))

/-- The stored block: its columns below 4 are the first head's … -/
theorem pay1_edge (v52 : FVec Ideal S8000x32 .f32) (v68 : FVec Ideal S8000x4 .f32) (v69 : FVec Ideal S32x1 .f32)
    (v71 : FVec Ideal S1x1 .f32) (p : Fin 8000) (a : Fin 4) :
    k3_pay1 (F := Ideal) v52 v68 v69 v71 (ix2 p ⟨a.val, by omega⟩) = v68 (ix2 p a) := by
  unfold k3_pay1
  exact cat_left _ _ _ _ p a

/-- … and its column 4 the logistic function of the second head's scalar. -/
theorem pay1_prob (v52 : FVec Ideal S8000x32 .f32) (v68 : FVec Ideal S8000x4 .f32) (v69 : FVec Ideal S32x1 .f32)
    (v71 : FVec Ideal S1x1 .f32) (p : Fin 8000) :
    k3_pay1 (F := Ideal) v52 v68 v69 v71 (ix2 p ⟨4, by omega⟩) = Ideal.logistic (aff (rowOf v52 p) v69 (vecRow v71) 0) := by
  unfold k3_pay1
  exact (cat_mid _ _ _ _ p).trans (congrArg Ideal.logistic (aff_32_1 v52 v69 v71 _ _ p 0))

/-- Row `p` of the result block of layer 4 is the specification's clamped result row of that row's inputs. -/
theorem e4_eq (x0 x1 : FVec Ideal S8000x64 .f32) (x2 x3 : FVec Ideal S8000x32 .f32) (x5 x6 : FVec Ideal S64x32 .f32)
    (x7 x8 : FVec Ideal S32x32 .f32) (x9 : FVec Ideal S1x32 .f32) (x10 : FVec Ideal S32x32 .f32) (x11 : FVec Ideal S1x32 .f32)
    (p : Fin 8000) :
    rowOf (k3_pay3 (F := Ideal) (k3_pay2 (F := Ideal) x2 x3 x0 x5 x1 x6 x7 x8 x9) x10 x11) p
      = blkE4 x0 x1 x2 x3 x5 x6 x7 x8 x9 x10 x11 p :=
  funext fun k => (pay3row_apply _ x10 x11 p k).trans
    (congrArg (fun h : Fin 32 → EReal => relu (aff h x10 (vecRow x11) k))
      (funext fun j => pay2_apply x2 x3 x0 x5 x1 x6 x7 x8 x9 p j))

end R3Paux

/-- Columns 0 to 3 of row `p`: the normalised four-vector head of that row. -/
theorem pay3_edge (x0 : FVec Ideal S8000x64 .f32) (x1 : FVec Ideal S8000x64 .f32) (x2 : FVec Ideal S8000x32 .f32) (x3 : FVec Ideal S8000x32 .f32) (x4 : FVec Ideal S8000x4 .f32) (x5 : FVec Ideal S64x32 .f32) (x6 : FVec Ideal S64x32 .f32) (x7 : FVec Ideal S32x32 .f32) (x8 : FVec Ideal S32x32 .f32) (x9 : FVec Ideal S1x32 .f32) (x10 : FVec Ideal S32x32 .f32) (x11 : FVec Ideal S1x32 .f32) (x12 : FVec Ideal S32x32 .f32) (x13 : FVec Ideal S1x32 .f32) (x14 : FVec Ideal S32x32 .f32) (x15 : FVec Ideal S1x32 .f32) (x16 : FVec Ideal S32x4 .f32) (x17 : FVec Ideal S1x4 .f32) (x18 : FVec Ideal S32x1 .f32) (x19 : FVec Ideal S1x1 .f32) (p : Fin 8000) (a : Fin 4) :
    pay3 x0 x1 x2 x3 x4 x5 x6 x7 x8 x9 x10 x11 x12 x13 x14 x15 x16 x17 x18 x19 (ix2 p ⟨a.val, by omega⟩)
      = normalise (rowEX (blkE4 x0 x1 x2 x3 x5 x6 x7 x8 x9 x10 x11 p) x12 (vecRow x13) x16 (vecRow x17) (rowOf x4 p)) a :=
  (pay1_edge _ _ x18 x19 p a).trans ((pay5_apply _ x10 x11 x12 x13 x16 x17 x4 p a).trans
    (congrArg (fun e : Fin 32 → EReal => normalise (rowEX e x12 (vecRow x13) x16 (vecRow x17) (rowOf x4 p)) a)
      (e4_eq x0 x1 x2 x3 x5 x6 x7 x8 x9 x10 x11 p)))

/-- Column 4 of row `p`: the logistic head of that row. -/
theorem pay3_prob (x0 : FVec Ideal S8000x64 .f32) (x1 : FVec Ideal S8000x64 .f32) (x2 : FVec Ideal S8000x32 .f32) (x3 : FVec Ideal S8000x32 .f32) (x4 : FVec Ideal S8000x4 .f32) (x5 : FVec Ideal S64x32 .f32) (x6 : FVec Ideal S64x32 .f32) (x7 : FVec Ideal S32x32 .f32) (x8 : FVec Ideal S32x32 .f32) (x9 : FVec Ideal S1x32 .f32) (x10 : FVec Ideal S32x32 .f32) (x11 : FVec Ideal S1x32 .f32) (x12 : FVec Ideal S32x32 .f32) (x13 : FVec Ideal S1x32 .f32) (x14 : FVec Ideal S32x32 .f32) (x15 : FVec Ideal S1x32 .f32) (x16 : FVec Ideal S32x4 .f32) (x17 : FVec Ideal S1x4 .f32) (x18 : FVec Ideal S32x1 .f32) (x19 : FVec Ideal S1x1 .f32) (p : Fin 8000) :
    pay3 x0 x1 x2 x3 x4 x5 x6 x7 x8 x9 x10 x11 x12 x13 x14 x15 x16 x17 x18 x19 (ix2 p ⟨4, by omega⟩)
      = Ideal.logistic (rowPZ (blkE4 x0 x1 x2 x3 x5 x6 x7 x8 x9 x10 x11 p) x14 (vecRow x15) x18 (vecRow x19)) :=
  (pay1_prob _ _ x18 x19 p).trans
    (congrArg (fun r : Fin 32 → EReal => Ideal.logistic (aff r x18 (vecRow x19) 0))
      (funext fun j => (pay4_apply _ x10 x11 x14 x15 p j).trans
        (congrArg (fun e : Fin 32 → EReal => aff e x14 (vecRow x15) j) (e4_eq x0 x1 x2 x3 x5 x6 x7 x8 x9 x10 x11 p))))

end Cert.KernelIdeal.Regions

end
-- ==== Proof.Region3.lean ====
/-
  Region 3 (layer 4 and the two heads), as a value: the array the last kernel leaves.
  Five streamed windows (the two gathered 64-wide node rows, the layer-3 rows, the layer-2 rows, the edge attributes) go
  through in blocks of 8000 rows; fifteen weight and bias windows are whole blocks. At each point the body writes an
  eight-column block whose columns 0 to 3 are the normalised four-vector head and whose column 4 is the logistic head of
  each row. Fifty points cover the 400000 rows exactly once, so the output array holds, at row `e`, those heads of row
  `e` of the streamed arrays.
-/
import proofs.«411902_j85581518340249_3_alg».proof.Proof.Gen.KernelIdeal.Frame
import proofs.«411902_j85581518340249_3_alg».proof.Proof.Spec
import proofs.«411902_j85581518340249_3_alg».proof.Proof.Region3Pay
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the TensorCore's buffer contents when the region is entered: the parameter the region's proof data are stated at
variable (V : (c : Dev nD) → (b : Ref sig .tc) → Buf (Elt Ideal) ((c : Thread nD τ).loc b))

namespace R3aux

/-- Both coordinates of the two-axis zero offset are zero. -/
theorem hz3 : (![0, 0] : Fin 2 → Nat) = fun _ => 0 := funext fun a => by fin_cases a <;> rfl

/-- The grid has fifty points. -/
theorem lt50 (t : Fin cfg3.N) : t.val < 50 :=
  lt_of_lt_of_eq t.isLt (N_3 : cfg3.N = 50)

/-! ## The block index maps over the grid

The five streamed windows and the output move down the rows with the point and stay at column block 0; every weight
and bias window stays at block (0, 0). -/

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = t.val ∧ win3_1.index t (1 : Fin 2) = 0 :=
  (by decide +kernel : ∀ t : Fin grid3.N, _)

theorem idx3_2 : ∀ t : Fin cfg3.N, win3_2.index t (0 : Fin 2) = t.val ∧ win3_2.index t (1 : Fin 2) = 0 :=
  (by decide +kernel : ∀ t : Fin grid3.N, _)

theorem idx3_3 : ∀ t : Fin cfg3.N, win3_3.index t (0 : Fin 2) = t.val ∧ win3_3.index t (1 : Fin 2) = 0 :=
  (by decide +kernel : ∀ t : Fin grid3.N, _)

theorem idx3_4 : ∀ t : Fin cfg3.N, win3_4.index t (0 : Fin 2) = t.val ∧ win3_4.index t (1 : Fin 2) = 0 :=
  (by decide +kernel : ∀ t : Fin grid3.N, _)

theorem idx3_20 : ∀ t : Fin cfg3.N, win3_20.index t (0 : Fin 2) = t.val ∧ win3_20.index t (1 : Fin 2) = 0 :=
  (by decide +kernel : ∀ t : Fin grid3.N, _)

theorem idx3_5 : ∀ t : Fin cfg3.N, win3_5.index t (0 : Fin 2) = 0 ∧ win3_5.index t (1 : Fin 2) = 0 :=
  (by decide +kernel : ∀ t : Fin grid3.N, _)

theorem idx3_6 : ∀ t : Fin cfg3.N, win3_6.index t (0 : Fin 2) = 0 ∧ win3_6.index t (1 : Fin 2) = 0 :=
  (by decide +kernel : ∀ t : Fin grid3.N, _)

theorem idx3_7 : ∀ t : Fin cfg3.N, win3_7.index t (0 : Fin 2) = 0 ∧ win3_7.index t (1 : Fin 2) = 0 :=
  (by decide +kernel : ∀ t : Fin grid3.N, _)

theorem idx3_8 : ∀ t : Fin cfg3.N, win3_8.index t (0 : Fin 2) = 0 ∧ win3_8.index t (1 : Fin 2) = 0 :=
  (by decide +kernel : ∀ t : Fin grid3.N, _)

theorem idx3_9 : ∀ t : Fin cfg3.N, win3_9.index t (0 : Fin 2) = 0 ∧ win3_9.index t (1 : Fin 2) = 0 :=
  (by decide +kernel : ∀ t : Fin grid3.N, _)

theorem idx3_10 : ∀ t : Fin cfg3.N, win3_10.index t (0 : Fin 2) = 0 ∧ win3_10.index t (1 : Fin 2) = 0 :=
  (by decide +kernel : ∀ t : Fin grid3.N, _)

theorem idx3_11 : ∀ t : Fin cfg3.N, win3_11.index t (0 : Fin 2) = 0 ∧ win3_11.index t (1 : Fin 2) = 0 :=
  (by decide +kernel : ∀ t : Fin grid3.N, _)

theorem idx3_12 : ∀ t : Fin cfg3.N, win3_12.index t (0 : Fin 2) = 0 ∧ win3_12.index t (1 : Fin 2) = 0 :=
  (by decide +kernel : ∀ t : Fin grid3.N, _)

theorem idx3_13 : ∀ t : Fin cfg3.N, win3_13.index t (0 : Fin 2) = 0 ∧ win3_13.index t (1 : Fin 2) = 0 :=
  (by decide +kernel : ∀ t : Fin grid3.N, _)

theorem idx3_14 : ∀ t : Fin cfg3.N, win3_14.index t (0 : Fin 2) = 0 ∧ win3_14.index t (1 : Fin 2) = 0 :=
  (by decide +kernel : ∀ t : Fin grid3.N, _)

theorem idx3_15 : ∀ t : Fin cfg3.N, win3_15.index t (0 : Fin 2) = 0 ∧ win3_15.index t (1 : Fin 2) = 0 :=
  (by decide +kernel : ∀ t : Fin grid3.N, _)

theorem idx3_16 : ∀ t : Fin cfg3.N, win3_16.index t (0 : Fin 2) = 0 ∧ win3_16.index t (1 : Fin 2) = 0 :=
  (by decide +kernel : ∀ t : Fin grid3.N, _)

theorem idx3_17 : ∀ t : Fin cfg3.N, win3_17.index t (0 : Fin 2) = 0 ∧ win3_17.index t (1 : Fin 2) = 0 :=
  (by decide +kernel : ∀ t : Fin grid3.N, _)

theorem idx3_18 : ∀ t : Fin cfg3.N, win3_18.index t (0 : Fin 2) = 0 ∧ win3_18.index t (1 : Fin 2) = 0 :=
  (by decide +kernel : ∀ t : Fin grid3.N, _)

theorem idx3_19 : ∀ t : Fin cfg3.N, win3_19.index t (0 : Fin 2) = 0 ∧ win3_19.index t (1 : Fin 2) = 0 :=
  (by decide +kernel : ∀ t : Fin grid3.N, _)

/-! ## Each input block as entries of its array

Entry (p, k) of a streamed window's block at point t is entry (8000 t + p, k) of the array; a weight or bias window's
block is its whole array. -/

theorem iblk3_0_apply (c : Dev nD) (t : Fin cfg3.N) (x : S8000x64.Idx) (k : S400000x64.Idx)
    (hk0 : (k 0).val = 8000 * t.val + (x 0).val) (hk1 : (k 1).val = (x 1).val) :
    (iblk3 (F := Ideal) V c 0 t : Vec Ideal S8000x64 .f32) x = (V c main_v51 : S400000x64.Idx → EReal) k := by
  obtain ⟨i0, i1⟩ := idx3_0 t
  unfold iblk3
  rw [View.read_apply]
  show V c main_v51 _ = V c main_v51 _
  congr 1
  funext a
  apply Fin.ext
  match a with
  | ⟨0, _⟩ => show win3_0.index t 0 * 8000 + 1 * (x 0).val = (k 0).val; rw [i0, hk0]; omega
  | ⟨1, _⟩ => show win3_0.index t 1 * 64 + 1 * (x 1).val = (k 1).val; rw [i1, hk1]; omega

theorem iblk3_1_apply (c : Dev nD) (t : Fin cfg3.N) (x : S8000x64.Idx) (k : S400000x64.Idx)
    (hk0 : (k 0).val = 8000 * t.val + (x 0).val) (hk1 : (k 1).val = (x 1).val) :
    (iblk3 (F := Ideal) V c 1 t : Vec Ideal S8000x64 .f32) x = (V c main_v52 : S400000x64.Idx → EReal) k := by
  obtain ⟨i0, i1⟩ := idx3_1 t
  unfold iblk3
  rw [View.read_apply]
  show V c main_v52 _ = V c main_v52 _
  congr 1
  funext a
  apply Fin.ext
  match a with
  | ⟨0, _⟩ => show win3_1.index t 0 * 8000 + 1 * (x 0).val = (k 0).val; rw [i0, hk0]; omega
  | ⟨1, _⟩ => show win3_1.index t 1 * 64 + 1 * (x 1).val = (k 1).val; rw [i1, hk1]; omega

theorem iblk3_2_apply (c : Dev nD) (t : Fin cfg3.N) (x : S8000x32.Idx) (k : S400000x32.Idx)
    (hk0 : (k 0).val = 8000 * t.val + (x 0).val) (hk1 : (k 1).val = (x 1).val) :
    (iblk3 (F := Ideal) V c 2 t : Vec Ideal S8000x32 .f32) x = (V c main_v43 : S400000x32.Idx → EReal) k := by
  obtain ⟨i0, i1⟩ := idx3_2 t
  unfold iblk3
  rw [View.read_apply]
  show V c main_v43 _ = V c main_v43 _
  congr 1
  funext a
  apply Fin.ext
  match a with
  | ⟨0, _⟩ => show win3_2.index t 0 * 8000 + 1 * (x 0).val = (k 0).val; rw [i0, hk0]; omega
  | ⟨1, _⟩ => show win3_2.index t 1 * 32 + 1 * (x 1).val = (k 1).val; rw [i1, hk1]; omega

theorem iblk3_3_apply (c : Dev nD) (t : Fin cfg3.N) (x : S8000x32.Idx) (k : S400000x32.Idx)
    (hk0 : (k 0).val = 8000 * t.val + (x 0).val) (hk1 : (k 1).val = (x 1).val) :
    (iblk3 (F := Ideal) V c 3 t : Vec Ideal S8000x32 .f32) x = (V c main_v27 : S400000x32.Idx → EReal) k := by
  obtain ⟨i0, i1⟩ := idx3_3 t
  unfold iblk3
  rw [View.read_apply]
  show V c main_v27 _ = V c main_v27 _
  congr 1
  funext a
  apply Fin.ext
  match a with
  | ⟨0, _⟩ => show win3_3.index t 0 * 8000 + 1 * (x 0).val = (k 0).val; rw [i0, hk0]; omega
  | ⟨1, _⟩ => show win3_3.index t 1 * 32 + 1 * (x 1).val = (k 1).val; rw [i1, hk1]; omega

theorem iblk3_4_apply (c : Dev nD) (t : Fin cfg3.N) (x : S8000x4.Idx) (k : S400000x4.Idx)
    (hk0 : (k 0).val = 8000 * t.val + (x 0).val) (hk1 : (k 1).val = (x 1).val) :
    (iblk3 (F := Ideal) V c 4 t : Vec Ideal S8000x4 .f32) x = (V c main_arg2 : S400000x4.Idx → EReal) k := by
  obtain ⟨i0, i1⟩ := idx3_4 t
  unfold iblk3
  rw [View.read_apply]
  show V c main_arg2 _ = V c main_arg2 _
  congr 1
  funext a
  apply Fin.ext
  match a with
  | ⟨0, _⟩ => show win3_4.index t 0 * 8000 + 1 * (x 0).val = (k 0).val; rw [i0, hk0]; omega
  | ⟨1, _⟩ => show win3_4.index t 1 * 4 + 1 * (x 1).val = (k 1).val; rw [i1, hk1]; omega

theorem iblk3_5_eq (c : Dev nD) (t : Fin cfg3.N) :
    (iblk3 (F := Ideal) V c 5 t : Vec Ideal S64x32 .f32) = (V c main_v53 : S64x32.Idx → EReal) := by
  obtain ⟨i0, i1⟩ := idx3_5 t
  funext x
  unfold iblk3
  rw [View.read_apply]
  show V c main_v53 _ = V c main_v53 _
  congr 1
  funext a
  apply Fin.ext
  match a with
  | ⟨0, _⟩ => show win3_5.index t 0 * 64 + 1 * (x 0).val = (x 0).val; rw [i0]; omega
  | ⟨1, _⟩ => show win3_5.index t 1 * 32 + 1 * (x 1).val = (x 1).val; rw [i1]; omega

theorem iblk3_6_eq (c : Dev nD) (t : Fin cfg3.N) :
    (iblk3 (F := Ideal) V c 6 t : Vec Ideal S64x32 .f32) = (V c main_v54 : S64x32.Idx → EReal) := by
  obtain ⟨i0, i1⟩ := idx3_6 t
  funext x
  unfold iblk3
  rw [View.read_apply]
  show V c main_v54 _ = V c main_v54 _
  congr 1
  funext a
  apply Fin.ext
  match a with
  | ⟨0, _⟩ => show win3_6.index t 0 * 64 + 1 * (x 0).val = (x 0).val; rw [i0]; omega
  | ⟨1, _⟩ => show win3_6.index t 1 * 32 + 1 * (x 1).val = (x 1).val; rw [i1]; omega

theorem iblk3_7_eq (c : Dev nD) (t : Fin cfg3.N) :
    (iblk3 (F := Ideal) V c 7 t : Vec Ideal S32x32 .f32) = (V c main_v55 : S32x32.Idx → EReal) := by
  obtain ⟨i0, i1⟩ := idx3_7 t
  funext x
  unfold iblk3
  rw [View.read_apply]
  show V c main_v55 _ = V c main_v55 _
  congr 1
  funext a
  apply Fin.ext
  match a with
  | ⟨0, _⟩ => show win3_7.index t 0 * 32 + 1 * (x 0).val = (x 0).val; rw [i0]; omega
  | ⟨1, _⟩ => show win3_7.index t 1 * 32 + 1 * (x 1).val = (x 1).val; rw [i1]; omega

theorem iblk3_8_eq (c : Dev nD) (t : Fin cfg3.N) :
    (iblk3 (F := Ideal) V c 8 t : Vec Ideal S32x32 .f32) = (V c main_v56 : S32x32.Idx → EReal) := by
  obtain ⟨i0, i1⟩ := idx3_8 t
  funext x
  unfold iblk3
  rw [View.read_apply]
  show V c main_v56 _ = V c main_v56 _
  congr 1
  funext a
  apply Fin.ext
  match a with
  | ⟨0, _⟩ => show win3_8.index t 0 * 32 + 1 * (x 0).val = (x 0).val; rw [i0]; omega
  | ⟨1, _⟩ => show win3_8.index t 1 * 32 + 1 * (x 1).val = (x 1).val; rw [i1]; omega

theorem iblk3_9_eq (c : Dev nD) (t : Fin cfg3.N) :
    (iblk3 (F := Ideal) V c 9 t : Vec Ideal S1x32 .f32) = (V c main_v57 : S1x32.Idx → EReal) := by
  obtain ⟨i0, i1⟩ := idx3_9 t
  funext x
  unfold iblk3
  rw [View.read_apply]
  show V c main_v57 _ = V c main_v57 _
  congr 1
  funext a
  apply Fin.ext
  match a with
  | ⟨0, _⟩ => show win3_9.index t 0 * 1 + 1 * (x 0).val = (x 0).val; rw [i0]; omega
  | ⟨1, _⟩ => show win3_9.index t 1 * 32 + 1 * (x 1).val = (x 1).val; rw [i1]; omega

theorem iblk3_10_eq (c : Dev nD) (t : Fin cfg3.N) :
    (iblk3 (F := Ideal) V c 10 t : Vec Ideal S32x32 .f32) = (V c main_arg18 : S32x32.Idx → EReal) := by
  obtain ⟨i0, i1⟩ := idx3_10 t
  funext x
  unfold iblk3
  rw [View.read_apply]
  show V c main_arg18 _ = V c main_arg18 _
  congr 1
  funext a
  apply Fin.ext
  match a with
  | ⟨0, _⟩ => show win3_10.index t 0 * 32 + 1 * (x 0).val = (x 0).val; rw [i0]; omega
  | ⟨1, _⟩ => show win3_10.index t 1 * 32 + 1 * (x 1).val = (x 1).val; rw [i1]; omega

theorem iblk3_11_eq (c : Dev nD) (t : Fin cfg3.N) :
    (iblk3 (F := Ideal) V c 11 t : Vec Ideal S1x32 .f32) = (V c main_v58 : S1x32.Idx → EReal) := by
  obtain ⟨i0, i1⟩ := idx3_11 t
  funext x
  unfold iblk3
  rw [View.read_apply]
  show V c main_v58 _ = V c main_v58 _
  congr 1
  funext a
  apply Fin.ext
  match a with
  | ⟨0, _⟩ => show win3_11.index t 0 * 1 + 1 * (x 0).val = (x 0).val; rw [i0]; omega
  | ⟨1, _⟩ => show win3_11.index t 1 * 32 + 1 * (x 1).val = (x 1).val; rw [i1]; omega

theorem iblk3_12_eq (c : Dev nD) (t : Fin cfg3.N) :
    (iblk3 (F := Ideal) V c 12 t : Vec Ideal S32x32 .f32) = (V c main_arg20 : S32x32.Idx → EReal) := by
  obtain ⟨i0, i1⟩ := idx3_12 t
  funext x
  unfold iblk3
  rw [View.read_apply]
  show V c main_arg20 _ = V c main_arg20 _
  congr 1
  funext a
  apply Fin.ext
  match a with
  | ⟨0, _⟩ => show win3_12.index t 0 * 32 + 1 * (x 0).val = (x 0).val; rw [i0]; omega
  | ⟨1, _⟩ => show win3_12.index t 1 * 32 + 1 * (x 1).val = (x 1).val; rw [i1]; omega

theorem iblk3_13_eq (c : Dev nD) (t : Fin cfg3.N) :
    (iblk3 (F := Ideal) V c 13 t : Vec Ideal S1x32 .f32) = (V c main_v59 : S1x32.Idx → EReal) := by
  obtain ⟨i0, i1⟩ := idx3_13 t
  funext x
  unfold iblk3
  rw [View.read_apply]
  show V c main_v59 _ = V c main_v59 _
  congr 1
  funext a
  apply Fin.ext
  match a with
  | ⟨0, _⟩ => show win3_13.index t 0 * 1 + 1 * (x 0).val = (x 0).val; rw [i0]; omega
  | ⟨1, _⟩ => show win3_13.index t 1 * 32 + 1 * (x 1).val = (x 1).val; rw [i1]; omega

theorem iblk3_14_eq (c : Dev nD) (t : Fin cfg3.N) :
    (iblk3 (F := Ideal) V c 14 t : Vec Ideal S32x32 .f32) = (V c main_arg22 : S32x32.Idx → EReal) := by
  obtain ⟨i0, i1⟩ := idx3_14 t
  funext x
  unfold iblk3
  rw [View.read_apply]
  show V c main_arg22 _ = V c main_arg22 _
  congr 1
  funext a
  apply Fin.ext
  match a with
  | ⟨0, _⟩ => show win3_14.index t 0 * 32 + 1 * (x 0).val = (x 0).val; rw [i0]; omega
  | ⟨1, _⟩ => show win3_14.index t 1 * 32 + 1 * (x 1).val = (x 1).val; rw [i1]; omega

theorem iblk3_15_eq (c : Dev nD) (t : Fin cfg3.N) :
    (iblk3 (F := Ideal) V c 15 t : Vec Ideal S1x32 .f32) = (V c main_v60 : S1x32.Idx → EReal) := by
  obtain ⟨i0, i1⟩ := idx3_15 t
  funext x
  unfold iblk3
  rw [View.read_apply]
  show V c main_v60 _ = V c main_v60 _
  congr 1
  funext a
  apply Fin.ext
  match a with
  | ⟨0, _⟩ => show win3_15.index t 0 * 1 + 1 * (x 0).val = (x 0).val; rw [i0]; omega
  | ⟨1, _⟩ => show win3_15.index t 1 * 32 + 1 * (x 1).val = (x 1).val; rw [i1]; omega

theorem iblk3_16_eq (c : Dev nD) (t : Fin cfg3.N) :
    (iblk3 (F := Ideal) V c 16 t : Vec Ideal S32x4 .f32) = (V c main_arg24 : S32x4.Idx → EReal) := by
  obtain ⟨i0, i1⟩ := idx3_16 t
  funext x
  unfold iblk3
  rw [View.read_apply]
  show V c main_arg24 _ = V c main_arg24 _
  congr 1
  funext a
  apply Fin.ext
  match a with
  | ⟨0, _⟩ => show win3_16.index t 0 * 32 + 1 * (x 0).val = (x 0).val; rw [i0]; omega
  | ⟨1, _⟩ => show win3_16.index t 1 * 4 + 1 * (x 1).val = (x 1).val; rw [i1]; omega

theorem iblk3_17_eq (c : Dev nD) (t : Fin cfg3.N) :
    (iblk3 (F := Ideal) V c 17 t : Vec Ideal S1x4 .f32) = (V c main_v61 : S1x4.Idx → EReal) := by
  obtain ⟨i0, i1⟩ := idx3_17 t
  funext x
  unfold iblk3
  rw [View.read_apply]
  show V c main_v61 _ = V c main_v61 _
  congr 1
  funext a
  apply Fin.ext
  match a with
  | ⟨0, _⟩ => show win3_17.index t 0 * 1 + 1 * (x 0).val = (x 0).val; rw [i0]; omega
  | ⟨1, _⟩ => show win3_17.index t 1 * 4 + 1 * (x 1).val = (x 1).val; rw [i1]; omega

theorem iblk3_18_eq (c : Dev nD) (t : Fin cfg3.N) :
    (iblk3 (F := Ideal) V c 18 t : Vec Ideal S32x1 .f32) = (V c main_arg26 : S32x1.Idx → EReal) := by
  obtain ⟨i0, i1⟩ := idx3_18 t
  funext x
  unfold iblk3
  rw [View.read_apply]
  show V c main_arg26 _ = V c main_arg26 _
  congr 1
  funext a
  apply Fin.ext
  match a with
  | ⟨0, _⟩ => show win3_18.index t 0 * 32 + 1 * (x 0).val = (x 0).val; rw [i0]; omega
  | ⟨1, _⟩ => show win3_18.index t 1 * 1 + 1 * (x 1).val = (x 1).val; rw [i1]; omega

theorem iblk3_19_eq (c : Dev nD) (t : Fin cfg3.N) :
    (iblk3 (F := Ideal) V c 19 t : Vec Ideal S1x1 .f32) = (V c main_v62 : S1x1.Idx → EReal) := by
  obtain ⟨i0, i1⟩ := idx3_19 t
  funext x
  unfold iblk3
  rw [View.read_apply]
  show V c main_v62 _ = V c main_v62 _
  congr 1
  funext a
  apply Fin.ext
  match a with
  | ⟨0, _⟩ => show win3_19.index t 0 * 1 + 1 * (x 0).val = (x 0).val; rw [i0]; omega
  | ⟨1, _⟩ => show win3_19.index t 1 * 1 + 1 * (x 1).val = (x 1).val; rw [i1]; omega

/-! ## The output array as one function of the region's entry contents -/

/-- The point whose block holds row `r`. -/
def pt3 (r : Nat) (h : r < 400000) : Fin cfg3.N := ⟨r / 8000, by rw [show cfg3.N = 50 from N_3]; omega⟩

/-- The body's eight-column block at point `q`, a term of the twenty input blocks there. -/
def blkAt3 (c : Dev nD) (q : Fin cfg3.N) : S8000x8.Idx → EReal :=
  pay3 (iblk3 (F := Ideal) V c 0 q) (iblk3 (F := Ideal) V c 1 q) (iblk3 (F := Ideal) V c 2 q) (iblk3 (F := Ideal) V c 3 q) (iblk3 (F := Ideal) V c 4 q) (iblk3 (F := Ideal) V c 5 q) (iblk3 (F := Ideal) V c 6 q) (iblk3 (F := Ideal) V c 7 q) (iblk3 (F := Ideal) V c 8 q) (iblk3 (F := Ideal) V c 9 q) (iblk3 (F := Ideal) V c 10 q) (iblk3 (F := Ideal) V c 11 q) (iblk3 (F := Ideal) V c 12 q) (iblk3 (F := Ideal) V c 13 q) (iblk3 (F := Ideal) V c 14 q) (iblk3 (F := Ideal) V c 15 q) (iblk3 (F := Ideal) V c 16 q) (iblk3 (F := Ideal) V c 17 q) (iblk3 (F := Ideal) V c 18 q) (iblk3 (F := Ideal) V c 19 q)

/-- Row `e` of the output array is row `e % 8000` of the body's block at the point `e / 8000`. -/
def out3 (c : Dev nD) : S400000x8.Idx → EReal := fun i =>
  blkAt3 V c (pt3 (i 0).val (idx2_lt0 i)) (ix2 ⟨(i 0).val % 8000, Nat.mod_lt _ (by norm_num)⟩ ⟨(i 1).val, idx2_lt1 i⟩)

/-- `out3` at row `e` and column `col`. -/
theorem out3_row (c : Dev nD) (e : Fin 400000) (col : Fin 8) :
    out3 V c (ix2 e col) = blkAt3 V c (pt3 e.val e.isLt) (ix2 ⟨e.val % 8000, Nat.mod_lt _ (by norm_num)⟩ col) := rfl

/-- The same block read at the same entry, the point and the entry given up to equality. -/
theorem blkAt3_congr (c : Dev nD) (q t : Fin cfg3.N) (j' j : S8000x8.Idx) (hq : q = t) (hj : j' = j) :
    blkAt3 V c q j' = blkAt3 V c t j := by subst hq; subst hj; rfl

/-- An entry (p, k) of the output's block at point `t` sits in the array at row 8000 t + p, column k. -/
theorem emb3_20 (t : Fin cfg3.N) (j : S8000x8.Idx) :
    (((cfg3.win 20).blk t).view.emb j : S400000x8.Idx)
      = ix2 ⟨8000 * t.val + (j 0).val, by have := lt50 t; have := idx2_lt0 j; omega⟩ ⟨(j 1).val, idx2_lt1 j⟩ := by
  obtain ⟨e0, e1⟩ := idx3_20 t
  funext a
  apply Fin.ext
  match a with
  | ⟨0, _⟩ => show win3_20.index t 0 * 8000 + 1 * (j 0).val = 8000 * t.val + (j 0).val; rw [e0]; omega
  | ⟨1, _⟩ => show win3_20.index t 1 * 8 + 1 * (j 1).val = (j 1).val; rw [e1]; omega

/-- `out3` at that entry is the block of point `t` at (p, k): the row's point is t and its row inside the block is p. -/
theorem out3_emb (c : Dev nD) (t : Fin cfg3.N) (j : S8000x8.Idx) :
    out3 V c (((cfg3.win 20).blk t).view.emb j) = blkAt3 V c t j := by
  refine (congrArg (out3 V c) (emb3_20 t j)).trans ?_
  refine (out3_row V c _ _).trans ?_
  have hj0 : (j 0).val < 8000 := idx2_lt0 j
  refine blkAt3_congr V c _ t _ j (Fin.ext ?_) (funext fun a => Fin.ext ?_)
  · show (8000 * t.val + (j 0).val) / 8000 = t.val
    omega
  · match a with
    | ⟨0, _⟩ => show (8000 * t.val + (j 0).val) % 8000 = (j 0).val; omega
    | ⟨1, _⟩ => rfl

/-- What point `t` writes back is its block of `out3`. -/
theorem flushed3_eq (c : Dev nD) (t : Fin cfg3.N) :
    (dat3 (F := Ideal) V c).flushed 20 t = ((cfg3.win 20).blk t).view.read (Elt Ideal) (out3 V c) := by
  show (cfg3.win 20).cut (grid3.coords t) ((dat3 (F := Ideal) V c).after 20 t) = _
  rw [after3_20]
  unfold out3_20
  rw [View.canon_unit_zero hz3]
  simp only [View.ld_unit_zero (S := S8000x32) hz3, View.ld_unit_zero (S := S8000x64) hz3, View.ld_unit_zero (S := S64x32) hz3, View.ld_unit_zero (S := S32x32) hz3, View.ld_unit_zero (S := S1x32) hz3, View.ld_unit_zero (S := S32x4) hz3, View.ld_unit_zero (S := S1x4) hz3, View.ld_unit_zero (S := S8000x4) hz3, View.ld_unit_zero (S := S32x1) hz3, View.ld_unit_zero (S := S1x1) hz3]
  funext j
  show blkAt3 V c t j = out3 V c (((cfg3.win 20).blk t).view.emb j)
  exact (out3_emb V c t j).symm

/-- An index of the array is in point `t`'s block iff each coordinate is in the block's range on its axis. -/
theorem mem_blk3 (t : Fin cfg3.N) (i : S400000x8.Idx) :
    i ∈ ((cfg3.win 20).blk t).view.set ↔ ∀ a : Fin 2, win3_20.index t a * S8000x8.size a ≤ (i a).val ∧ (i a).val < win3_20.index t a * S8000x8.size a + S8000x8.size a := by
  show i ∈ ((View.whole main_v63).slice (win3_20.rect t)).set ↔ _
  rw [View.set_slice_whole, Rect.mem_set_unit]
  exact Iff.rfl

/-- Every entry of the array is in the block of the point its row selects: the rows split into fifty runs of 8000 and
    the eight columns are one block. -/
theorem cover3 (i : S400000x8.Idx) :
    ∃ t : Fin cfg3.N, (cfg3.win 20).flush t = true ∧ i ∈ ((cfg3.win 20).blk t).view.set := by
  have h0 : (i 0).val < 400000 := idx2_lt0 i
  have h1 : (i 1).val < 8 := idx2_lt1 i
  refine ⟨pt3 (i 0).val h0, flush3_20 _, ?_⟩
  rw [mem_blk3]
  obtain ⟨e0, e1⟩ := idx3_20 (pt3 (i 0).val h0)
  intro a
  match a with
  | ⟨0, _⟩ =>
    show win3_20.index (pt3 (i 0).val h0) 0 * 8000 ≤ (i 0).val ∧ (i 0).val < win3_20.index (pt3 (i 0).val h0) 0 * 8000 + 8000
    rw [e0]
    show (i 0).val / 8000 * 8000 ≤ (i 0).val ∧ (i 0).val < (i 0).val / 8000 * 8000 + 8000
    omega
  | ⟨1, _⟩ =>
    show win3_20.index (pt3 (i 0).val h0) 1 * 8 ≤ (i 1).val ∧ (i 1).val < win3_20.index (pt3 (i 0).val h0) 1 * 8 + 8
    rw [e1]; omega

/-- The output array after the run. -/
theorem final3 (c : Dev nD) : (dat3 (F := Ideal) V c).arrAt 20 cfg3.N = out3 V c :=
  (dat3 (F := Ideal) V c).arrAt_eq_of_cover 20 (out3 V c) (fun t _ => flushed3_eq V c t) cover3

/-! ## Reading the array at a row: each block's row is the array's row -/

theorem row3_0 (c : Dev nD) (e : Fin 400000) (X : A2 400000 64)
    (h : (V c main_v51 : S400000x64.Idx → EReal) = X) :
    rowOf (iblk3 (F := Ideal) V c 0 (pt3 e.val e.isLt) : Vec Ideal S8000x64 .f32) ⟨e.val % 8000, Nat.mod_lt _ (by norm_num)⟩ = rowOf X e := by
  funext k
  show (iblk3 (F := Ideal) V c 0 (pt3 e.val e.isLt) : Vec Ideal S8000x64 .f32) (ix2 ⟨e.val % 8000, Nat.mod_lt _ (by norm_num)⟩ k) = X (ix2 e k)
  rw [← h]
  refine iblk3_0_apply V c _ _ _ ?_ rfl
  show e.val = 8000 * (e.val / 8000) + e.val % 8000
  omega

theorem row3_1 (c : Dev nD) (e : Fin 400000) (X : A2 400000 64)
    (h : (V c main_v52 : S400000x64.Idx → EReal) = X) :
    rowOf (iblk3 (F := Ideal) V c 1 (pt3 e.val e.isLt) : Vec Ideal S8000x64 .f32) ⟨e.val % 8000, Nat.mod_lt _ (by norm_num)⟩ = rowOf X e := by
  funext k
  show (iblk3 (F := Ideal) V c 1 (pt3 e.val e.isLt) : Vec Ideal S8000x64 .f32) (ix2 ⟨e.val % 8000, Nat.mod_lt _ (by norm_num)⟩ k) = X (ix2 e k)
  rw [← h]
  refine iblk3_1_apply V c _ _ _ ?_ rfl
  show e.val = 8000 * (e.val / 8000) + e.val % 8000
  omega

theorem row3_2 (c : Dev nD) (e : Fin 400000) (X : A2 400000 32)
    (h : (V c main_v43 : S400000x32.Idx → EReal) = X) :
    rowOf (iblk3 (F := Ideal) V c 2 (pt3 e.val e.isLt) : Vec Ideal S8000x32 .f32) ⟨e.val % 8000, Nat.mod_lt _ (by norm_num)⟩ = rowOf X e := by
  funext k
  show (iblk3 (F := Ideal) V c 2 (pt3 e.val e.isLt) : Vec Ideal S8000x32 .f32) (ix2 ⟨e.val % 8000, Nat.mod_lt _ (by norm_num)⟩ k) = X (ix2 e k)
  rw [← h]
  refine iblk3_2_apply V c _ _ _ ?_ rfl
  show e.val = 8000 * (e.val / 8000) + e.val % 8000
  omega

theorem row3_3 (c : Dev nD) (e : Fin 400000) (X : A2 400000 32)
    (h : (V c main_v27 : S400000x32.Idx → EReal) = X) :
    rowOf (iblk3 (F := Ideal) V c 3 (pt3 e.val e.isLt) : Vec Ideal S8000x32 .f32) ⟨e.val % 8000, Nat.mod_lt _ (by norm_num)⟩ = rowOf X e := by
  funext k
  show (iblk3 (F := Ideal) V c 3 (pt3 e.val e.isLt) : Vec Ideal S8000x32 .f32) (ix2 ⟨e.val % 8000, Nat.mod_lt _ (by norm_num)⟩ k) = X (ix2 e k)
  rw [← h]
  refine iblk3_3_apply V c _ _ _ ?_ rfl
  show e.val = 8000 * (e.val / 8000) + e.val % 8000
  omega

theorem row3_4 (c : Dev nD) (e : Fin 400000) (X : A2 400000 4)
    (h : (V c main_arg2 : S400000x4.Idx → EReal) = X) :
    rowOf (iblk3 (F := Ideal) V c 4 (pt3 e.val e.isLt) : Vec Ideal S8000x4 .f32) ⟨e.val % 8000, Nat.mod_lt _ (by norm_num)⟩ = rowOf X e := by
  funext k
  show (iblk3 (F := Ideal) V c 4 (pt3 e.val e.isLt) : Vec Ideal S8000x4 .f32) (ix2 ⟨e.val % 8000, Nat.mod_lt _ (by norm_num)⟩ k) = X (ix2 e k)
  rw [← h]
  refine iblk3_4_apply V c _ _ _ ?_ rfl
  show e.val = 8000 * (e.val / 8000) + e.val % 8000
  omega

/-- A one-row bias block read by its column is the bias vector read by its coordinate. -/
theorem bias3 {J : Nat} (x y : A2 1 J) (b : A1 J) (hx : x = y) (h : ∀ k : Fin J, y (ix2 0 k) = b (ix1 k)) :
    vecRow x = vec1 b := by
  subst hx; funext k; exact h k

/-- Layer 4's clamped row of a block is that of the arrays, once each block row is the array's row, the four weight
    blocks are the four row ranges of the tall matrix and each bias row is its vector. -/
theorem blkE4_eq (x0 x1 : A2 8000 64) (x2 x3 : A2 8000 32) (x5 x6 : A2 64 32) (x7 x8 : A2 32 32) (x9 : A2 1 32)
    (x10 : A2 32 32) (x11 : A2 1 32) (p : Fin 8000) (e : Fin 400000)
    (xr xc : A2 400000 64) (e3 e2 : A2 400000 32) (w40 : A2 192 32) (b40 : A1 32) (w41 : A2 32 32) (b41 : A1 32)
    (r0 : rowOf x0 p = rowOf xr e) (r1 : rowOf x1 p = rowOf xc e) (r2 : rowOf x2 p = rowOf e3 e) (r3 : rowOf x3 p = rowOf e2 e)
    (w5 : x5 = rows w40 0 64 (by omega)) (w6 : x6 = rows w40 64 64 (by omega)) (w7 : x7 = rows w40 128 32 (by omega))
    (w8 : x8 = rows w40 160 32 (by omega)) (b9 : vecRow x9 = vec1 b40) (w10 : x10 = w41) (b11 : vecRow x11 = vec1 b41) :
    blkE4 x0 x1 x2 x3 x5 x6 x7 x8 x9 x10 x11 p = E4 xr xc e3 e2 w40 b40 w41 b41 e := by
  unfold blkE4 E4 H3
  rw [r0, r1, r2, r3, w5, w6, w7, w8, b9, w10, b11]

/-- The four-vector head of a block row is that of the arrays. -/
theorem edge_eq (e4 e4' : Fin 32 → EReal) (x12 : A2 32 32) (x13 : A2 1 32) (x16 : A2 32 4) (x17 : A2 1 4)
    (r r' : Fin 4 → EReal) (wl01 : A2 32 32) (bl01 : A1 32) (wl1 : A2 32 4) (bl1 : A1 4) (a : Fin 4)
    (hE : e4 = e4') (h12 : x12 = wl01) (h13 : vecRow x13 = vec1 bl01) (h16 : x16 = wl1) (h17 : vecRow x17 = vec1 bl1)
    (h4 : r = r') :
    normalise (rowEX e4 x12 (vecRow x13) x16 (vecRow x17) r) a
      = normalise (rowEX e4' wl01 (vec1 bl01) wl1 (vec1 bl1) r') a := by
  rw [hE, h12, h13, h16, h17, h4]

/-- The logistic head of a block row is that of the arrays. -/
theorem prob_eq (e4 e4' : Fin 32 → EReal) (x14 : A2 32 32) (x15 : A2 1 32) (x18 : A2 32 1) (x19 : A2 1 1)
    (wl02 : A2 32 32) (bl02 : A1 32) (wl2 : A2 32 1) (bl2 : A1 1)
    (hE : e4 = e4') (h14 : x14 = wl02) (h15 : vecRow x15 = vec1 bl02) (h18 : x18 = wl2) (h19 : vecRow x19 = vec1 bl2) :
    Ideal.logistic (rowPZ e4 x14 (vecRow x15) x18 (vecRow x19))
      = Ideal.logistic (rowPZ e4' wl02 (vec1 bl02) wl2 (vec1 bl2)) := by
  rw [hE, h14, h15, h18, h19]

end R3aux

open R3aux

/-- After the run, columns 0–3 and column 4 of region 3's output array are the two heads of the region's input arrays.
    The four weight windows hold rows 0–63, 64–127, 128–159 and 160–191 of `w40`; each bias window holds its vector
    as one row. -/
theorem region3_value (c : Dev nD)
    (xr xc : A2 400000 64) (e3 e2 : A2 400000 32) (ea : A2 400000 4) (w40 : A2 192 32) (b40 : A1 32)
    (w41 : A2 32 32) (b41 : A1 32) (wl01 : A2 32 32) (bl01 : A1 32) (wl02 : A2 32 32) (bl02 : A1 32)
    (wl1 : A2 32 4) (bl1 : A1 4) (wl2 : A2 32 1) (bl2 : A1 1)
    (h0 : (V c main_v51 : S400000x64.Idx → EReal) = xr)
    (h1 : (V c main_v52 : S400000x64.Idx → EReal) = xc)
    (h2 : (V c main_v43 : S400000x32.Idx → EReal) = e3)
    (h3 : (V c main_v27 : S400000x32.Idx → EReal) = e2)
    (h4 : (V c main_arg2 : S400000x4.Idx → EReal) = ea)
    (h5 : (V c main_v53 : S64x32.Idx → EReal) = rows w40 0 64 (by omega))
    (h6 : (V c main_v54 : S64x32.Idx → EReal) = rows w40 64 64 (by omega))
    (h7 : (V c main_v55 : S32x32.Idx → EReal) = rows w40 128 32 (by omega))
    (h8 : (V c main_v56 : S32x32.Idx → EReal) = rows w40 160 32 (by omega))
    (h9 : ∀ k : Fin 32, (V c main_v57 : S1x32.Idx → EReal) (ix2 0 k) = b40 (ix1 k))
    (h10 : (V c main_arg18 : S32x32.Idx → EReal) = w41)
    (h11 : ∀ k : Fin 32, (V c main_v58 : S1x32.Idx → EReal) (ix2 0 k) = b41 (ix1 k))
    (h12 : (V c main_arg20 : S32x32.Idx → EReal) = wl01)
    (h13 : ∀ k : Fin 32, (V c main_v59 : S1x32.Idx → EReal) (ix2 0 k) = bl01 (ix1 k))
    (h14 : (V c main_arg22 : S32x32.Idx → EReal) = wl02)
    (h15 : ∀ k : Fin 32, (V c main_v60 : S1x32.Idx → EReal) (ix2 0 k) = bl02 (ix1 k))
    (h16 : (V c main_arg24 : S32x4.Idx → EReal) = wl1)
    (h17 : ∀ k : Fin 4, (V c main_v61 : S1x4.Idx → EReal) (ix2 0 k) = bl1 (ix1 k))
    (h18 : (V c main_arg26 : S32x1.Idx → EReal) = wl2)
    (h19 : ∀ k : Fin 1, (V c main_v62 : S1x1.Idx → EReal) (ix2 0 k) = bl2 (ix1 k)) :
    (∀ (e : Fin 400000) (a : Fin 4),
        ((dat3 (F := Ideal) V c).arrAt 20 cfg3.N : S400000x8.Idx → EReal) (ix2 e ⟨a.val, by omega⟩)
          = EdgeX xr xc e3 e2 ea w40 b40 w41 b41 wl01 bl01 wl1 bl1 (ix2 e a))
    ∧ (∀ e : Fin 400000,
        ((dat3 (F := Ideal) V c).arrAt 20 cfg3.N : S400000x8.Idx → EReal) (ix2 e ⟨4, by omega⟩)
          = Probs xr xc e3 e2 w40 b40 w41 b41 wl02 bl02 wl2 bl2 (ix2 e 0)) := by
  have hE : ∀ e : Fin 400000,
      blkE4 (iblk3 (F := Ideal) V c 0 (pt3 e.val e.isLt))
        (iblk3 (F := Ideal) V c 1 (pt3 e.val e.isLt))
        (iblk3 (F := Ideal) V c 2 (pt3 e.val e.isLt))
        (iblk3 (F := Ideal) V c 3 (pt3 e.val e.isLt))
        (iblk3 (F := Ideal) V c 5 (pt3 e.val e.isLt))
        (iblk3 (F := Ideal) V c 6 (pt3 e.val e.isLt))
        (iblk3 (F := Ideal) V c 7 (pt3 e.val e.isLt))
        (iblk3 (F := Ideal) V c 8 (pt3 e.val e.isLt))
        (iblk3 (F := Ideal) V c 9 (pt3 e.val e.isLt))
        (iblk3 (F := Ideal) V c 10 (pt3 e.val e.isLt))
        (iblk3 (F := Ideal) V c 11 (pt3 e.val e.isLt))
        ⟨e.val % 8000, Nat.mod_lt _ (by norm_num)⟩
        = E4 xr xc e3 e2 w40 b40 w41 b41 e := fun e =>
    blkE4_eq _ _ _ _ _ _ _ _ _ _ _ _ e xr xc e3 e2 w40 b40 w41 b41
      (row3_0 V c e xr h0) (row3_1 V c e xc h1) (row3_2 V c e e3 h2) (row3_3 V c e e2 h3)
      ((iblk3_5_eq V c _).trans h5) ((iblk3_6_eq V c _).trans h6) ((iblk3_7_eq V c _).trans h7) ((iblk3_8_eq V c _).trans h8)
      (bias3 _ _ b40 (iblk3_9_eq V c _) h9) ((iblk3_10_eq V c _).trans h10) (bias3 _ _ b41 (iblk3_11_eq V c _) h11)
  refine ⟨fun e a => ?_, fun e => ?_⟩
  · refine (congrFun (final3 V c) (ix2 e ⟨a.val, by omega⟩)).trans ?_
    refine (out3_row V c e ⟨a.val, by omega⟩).trans ?_
    unfold blkAt3
    refine (pay3_edge _ _ _ _ _ _ _ _ _ _ _ _ _ _ _ _ _ _ _ _ ⟨e.val % 8000, Nat.mod_lt _ (by norm_num)⟩ a).trans ?_
    exact edge_eq _ _ _ _ _ _ _ _ wl01 bl01 wl1 bl1 a (hE e)
      ((iblk3_12_eq V c _).trans h12) (bias3 _ _ bl01 (iblk3_13_eq V c _) h13) ((iblk3_16_eq V c _).trans h16) (bias3 _ _ bl1 (iblk3_17_eq V c _) h17) (row3_4 V c e ea h4)
  · refine (congrFun (final3 V c) (ix2 e ⟨4, by omega⟩)).trans ?_
    refine (out3_row V c e ⟨4, by omega⟩).trans ?_
    unfold blkAt3
    refine (pay3_prob _ _ _ _ _ _ _ _ _ _ _ _ _ _ _ _ _ _ _ _ ⟨e.val % 8000, Nat.mod_lt _ (by norm_num)⟩).trans ?_
    exact prob_eq _ _ _ _ _ _ wl02 bl02 wl2 bl2 (hE e)
      ((iblk3_14_eq V c _).trans h14) (bias3 _ _ bl02 (iblk3_15_eq V c _) h15) ((iblk3_18_eq V c _).trans h18) (bias3 _ _ bl2 (iblk3_19_eq V c _) h19)

end Cert.KernelIdeal.Regions

end
-- ==== Proof.Region0.lean ====
/-
  Region 0 (layer 1), as a value: the array the first kernel leaves.
  The kernel streams the edge attributes through in blocks of 8000 rows; the two weight matrices and the two bias rows
  are whole blocks that every grid point sees. At each point the body computes, row by row of its block,
  `relu (row · w10 + b10) · w11 + b11`. Fifty points cover the 400000 rows exactly once, so the output array after the
  run is that row function applied to every row of the attribute array.
-/
import proofs.«411902_j85581518340249_3_alg».proof.Proof.Gen.KernelIdeal.Frame
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the TensorCore's buffer contents when the region is entered: the parameter the region's proof data are stated at
variable (V : (c : Dev nD) → (b : Ref sig .tc) → Buf (Elt Ideal) ((c : Thread nD τ).loc b))

namespace R0aux

/-! ## The two contractions read at an entry -/

-- Output entry (p, q) and contraction index k select entry (p, k) of the left factor and (k, q) of the right one:
-- the four coordinate facts, for the 4-term contraction …
theorem lhs1_0 (i : S8000x32.Idx) (q : dot_S8000x4_S4x32_S8000x32_1_0_0_1_n_n.contr.Idx) :
    (dot_S8000x4_S4x32_S8000x32_1_0_0_1_n_n.lhsIdx i q 0).val = (i 0).val := by
  unfold DotDims.lhsIdx
  rw [dif_neg (show ¬(0 : Fin S8000x4.rank) ∈ dot_S8000x4_S4x32_S8000x32_1_0_0_1_n_n.lhsBatch by decide), dif_pos (show (0 : Fin S8000x4.rank) ∈ dot_S8000x4_S4x32_S8000x32_1_0_0_1_n_n.lhsNonContracting by decide)]
  rfl
theorem lhs1_1 (i : S8000x32.Idx) (q : dot_S8000x4_S4x32_S8000x32_1_0_0_1_n_n.contr.Idx) :
    (dot_S8000x4_S4x32_S8000x32_1_0_0_1_n_n.lhsIdx i q 1).val = (q ⟨0, by decide⟩).val :=
  dot_S8000x4_S4x32_S8000x32_1_0_0_1_n_n.lhsIdx_val_of_single rfl i q
theorem rhs1_0 (i : S8000x32.Idx) (q : dot_S8000x4_S4x32_S8000x32_1_0_0_1_n_n.contr.Idx) :
    (dot_S8000x4_S4x32_S8000x32_1_0_0_1_n_n.rhsIdx i q 0).val = (q ⟨0, by decide⟩).val :=
  dot_S8000x4_S4x32_S8000x32_1_0_0_1_n_n.rhsIdx_val_of_single rfl i q
theorem rhs1_1 (i : S8000x32.Idx) (q : dot_S8000x4_S4x32_S8000x32_1_0_0_1_n_n.contr.Idx) :
    (dot_S8000x4_S4x32_S8000x32_1_0_0_1_n_n.rhsIdx i q 1).val = (i 1).val := by
  unfold DotDims.rhsIdx
  rw [dif_neg (show ¬(1 : Fin S4x32.rank) ∈ dot_S8000x4_S4x32_S8000x32_1_0_0_1_n_n.rhsBatch by decide), dif_pos (show (1 : Fin S4x32.rank) ∈ dot_S8000x4_S4x32_S8000x32_1_0_0_1_n_n.rhsNonContracting by decide)]
  rfl

/-- Entry (p, q) of a block of 8000 rows times the 4 × 32 matrix, into a zero accumulator: the 4-term sum. -/
theorem mm1_apply (x : FVec Ideal S8000x4 .f32) (w : FVec Ideal S4x32 .f32) (p : Fin 8000) (q : Fin 32) :
    matmul dot_S8000x4_S4x32_S8000x32_1_0_0_1_n_n (some .fp32) x w (constant S8000x32 .f32 0x00000000#32) (ix2 p q)
      = ∑ k : Fin 4, x (ix2 p k) * w (ix2 k q) := by
  refine (Ideal.matmul_constant_zero_apply dot_S8000x4_S4x32_S8000x32_1_0_0_1_n_n (some .fp32) x w (ix2 p q)).trans ?_
  rw [← Equiv.sum_comp (ValueIdx.contrEquiv1 dot_S8000x4_S4x32_S8000x32_1_0_0_1_n_n 4 rfl rfl).symm]
  refine Finset.sum_congr rfl fun k _ => ?_
  have hk := ValueIdx.contrEquiv1_symm_val dot_S8000x4_S4x32_S8000x32_1_0_0_1_n_n 4 rfl rfl k
  have el : dot_S8000x4_S4x32_S8000x32_1_0_0_1_n_n.lhsIdx (ix2 p q) ((ValueIdx.contrEquiv1 dot_S8000x4_S4x32_S8000x32_1_0_0_1_n_n 4 rfl rfl).symm k) = ix2 p k := funext fun a => Fin.ext (by
    match a with
    | ⟨0, _⟩ => exact lhs1_0 _ _
    | ⟨1, _⟩ => exact (lhs1_1 _ _).trans hk)
  have er : dot_S8000x4_S4x32_S8000x32_1_0_0_1_n_n.rhsIdx (ix2 p q) ((ValueIdx.contrEquiv1 dot_S8000x4_S4x32_S8000x32_1_0_0_1_n_n 4 rfl rfl).symm k) = ix2 k q := funext fun a => Fin.ext (by
    match a with
    | ⟨0, _⟩ => exact (rhs1_0 _ _).trans hk
    | ⟨1, _⟩ => exact rhs1_1 _ _)
  rw [el, er]

-- … and for the 32-term one.
theorem lhs2_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem lhs2_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem rhs2_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem rhs2_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- Entry (p, q) of a block of 8000 rows times the 32 × 32 matrix, into a zero accumulator: the 32-term sum. -/
theorem mm2_apply (x : FVec Ideal S8000x32 .f32) (w : FVec Ideal S32x32 .f32) (p : Fin 8000) (q : Fin 32) :
    matmul dot_S8000x32_S32x32_S8000x32_1_0_0_1_n_n (some .fp32) x w (constant S8000x32 .f32 0x00000000#32) (ix2 p q)
      = ∑ k : Fin 32, x (ix2 p k) * w (ix2 k q) := by
  refine (Ideal.matmul_constant_zero_apply dot_S8000x32_S32x32_S8000x32_1_0_0_1_n_n (some .fp32) x w (ix2 p q)).trans ?_
  rw [← Equiv.sum_comp (ValueIdx.contrEquiv1 dot_S8000x32_S32x32_S8000x32_1_0_0_1_n_n 32 rfl rfl).symm]
  refine Finset.sum_congr rfl fun k _ => ?_
  have hk := ValueIdx.contrEquiv1_symm_val dot_S8000x32_S32x32_S8000x32_1_0_0_1_n_n 32 rfl rfl k
  have el : dot_S8000x32_S32x32_S8000x32_1_0_0_1_n_n.lhsIdx (ix2 p q) ((ValueIdx.contrEquiv1 dot_S8000x32_S32x32_S8000x32_1_0_0_1_n_n 32 rfl rfl).symm k) = ix2 p k := funext fun a => Fin.ext (by
    match a with
    | ⟨0, _⟩ => exact lhs2_0 _ _
    | ⟨1, _⟩ => exact (lhs2_1 _ _).trans hk)
  have er : dot_S8000x32_S32x32_S8000x32_1_0_0_1_n_n.rhsIdx (ix2 p q) ((ValueIdx.contrEquiv1 dot_S8000x32_S32x32_S8000x32_1_0_0_1_n_n 32 rfl rfl).symm k) = ix2 k q := funext fun a => Fin.ext (by
    match a with
    | ⟨0, _⟩ => exact (rhs2_0 _ _).trans hk
    | ⟨1, _⟩ => exact rhs2_1 _ _)
  rw [el, er]

/-! ## The body's result at an entry -/

/-- A bias row spread over the 8000 rows reads, at (p, q), the row's column q. -/
theorem bias_apply (b : FVec Ideal S1x32 .f32) (p : Fin 8000) (q : Fin 32) :
    broadcastTo S8000x32 (shapeCast S1x32 b shapeCasts_S1x32_S1x32) broadcasts_S1x32_S8000x32 (ix2 p q) = vecRow b q := by
  rw [shapeCast_self]
  exact broadcastTo_1b_ab_apply b broadcasts_S1x32_S8000x32 p q

/-- Entry (p, q) of the body's stored block depends on row p of the attribute block only: it is layer 1 of that row. -/
theorem pay_apply (x0 : Vec Ideal S8000x4 .f32) (x1 : Vec Ideal S4x32 .f32) (x2 : Vec Ideal S1x32 .f32)
    (x3 : Vec Ideal S32x32 .f32) (x4 : Vec Ideal S1x32 .f32) (p : Fin 8000) (q : Fin 32) :
    k0_pay1 (F := Ideal) x0 x1 x2 x3 x4 (ix2 p q) = rowL1 (rowOf x0 p) x1 (vecRow x2) x3 (vecRow x4) q := by
  unfold k0_pay1
  refine (addf_apply _ _ (ix2 p q)).trans ?_
  rw [mm2_apply, bias_apply]
  simp only [maximumf_apply, addf_apply, broadcast_apply, mm1_apply, bias_apply]
  rfl

/-! ## Where each window's block sits -/

theorem hz : (![0, 0] : Fin 2 → Nat) = fun _ => 0 := funext fun a => by fin_cases a <;> rfl

/-- The block indices, decided over the fifty points: the attribute window and the output window are at row block
    `t`, column block 0; the weight and bias windows are at block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The attribute block at point `t`, at (p, k), is the attribute array at row `8000 t + p`, column k. -/
theorem blk0_apply (c : Dev nD) (t : Fin cfg0.N) (p : Fin 8000) (k : Fin 4) (r : Fin 400000) (hr : r.val = t.val * 8000 + p.val) :
    (iblk0 V c 0 t : Vec Ideal S8000x4 .f32) (ix2 p k) = (V c main_arg2 : S400000x4.Idx → EReal) (ix2 r k) := by
  obtain ⟨e0, e1, -⟩ := idx_facts t
  show (V c main_arg2 : S400000x4.Idx → EReal) (((cfg0.win 0).blk t).view.emb (ix2 p k)) = _
  refine congrArg (V c main_arg2 : S400000x4.Idx → EReal) (funext fun a => Fin.ext ?_)
  match a with
  | ⟨0, _⟩ => show win0_0.index t (0 : Fin 2) * 8000 + 1 * p.val = r.val; rw [e0, hr]; omega
  | ⟨1, _⟩ => show win0_0.index t (1 : Fin 2) * 4 + 1 * k.val = k.val; rw [e1]; omega

/-- The first weight window's block is its whole array, at every point. -/
theorem blk1_eq (c : Dev nD) (t : Fin cfg0.N) :
    (iblk0 V c 1 t : Vec Ideal S4x32 .f32) = (V c main_arg4 : S4x32.Idx → EReal) := by
  obtain ⟨-, -, e0, e1, -⟩ := idx_facts t
  funext y
  show (V c main_arg4 : S4x32.Idx → EReal) (((cfg0.win 1).blk t).view.emb y) = _
  refine congrArg (V c main_arg4 : S4x32.Idx → EReal) (funext fun a => Fin.ext ?_)
  match a with
  | ⟨0, _⟩ => show win0_1.index t (0 : Fin 2) * 4 + 1 * (y 0).val = (y 0).val; rw [e0]; omega
  | ⟨1, _⟩ => show win0_1.index t (1 : Fin 2) * 32 + 1 * (y 1).val = (y 1).val; rw [e1]; omega

/-- The first bias window's block is its whole one-row array, at every point. -/
theorem blk2_eq (c : Dev nD) (t : Fin cfg0.N) :
    (iblk0 V c 2 t : Vec Ideal S1x32 .f32) = (V c main_v4 : S1x32.Idx → EReal) := by
  obtain ⟨-, -, -, -, e0, e1, -⟩ := idx_facts t
  funext y
  show (V c main_v4 : S1x32.Idx → EReal) (((cfg0.win 2).blk t).view.emb y) = _
  refine congrArg (V c main_v4 : S1x32.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The second weight window's block is its whole array, at every point. -/
theorem blk3_eq (c : Dev nD) (t : Fin cfg0.N) :
    (iblk0 V c 3 t : Vec Ideal S32x32 .f32) = (V c main_arg6 : S32x32.Idx → EReal) := by
  obtain ⟨-, -, -, -, -, -, e0, e1, -⟩ := idx_facts t
  funext y
  show (V c main_arg6 : S32x32.Idx → EReal) (((cfg0.win 3).blk t).view.emb y) = _
  refine congrArg (V c main_arg6 : S32x32.Idx → EReal) (funext fun a => Fin.ext ?_)
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

/-- The second bias window's block is its whole one-row array, at every point. -/
theorem blk4_eq (c : Dev nD) (t : Fin cfg0.N) :
    (iblk0 V c 4 t : Vec Ideal S1x32 .f32) = (V c main_v5 : S1x32.Idx → EReal) := by
  obtain ⟨-, -, -, -, -, -, -, -, e0, e1, -⟩ := idx_facts t
  funext y
  show (V c main_v5 : S1x32.Idx → EReal) (((cfg0.win 4).blk t).view.emb y) = _
  refine congrArg (V c main_v5 : S1x32.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

/-! ## What one point writes back -/

/-- On blocks whose attribute row `p` is row `r` of the attribute array, and whose weight and bias blocks are the whole
    arrays, the body's stored entry (p, q) is layer 1 at entry (r, q). -/
theorem pay_G1 (x0 : Vec Ideal S8000x4 .f32) (x1 : Vec Ideal S4x32 .f32) (x2 : Vec Ideal S1x32 .f32)
    (x3 : Vec Ideal S32x32 .f32) (x4 : Vec Ideal S1x32 .f32)
    (ea : A2 400000 4) (w10 : A2 4 32) (b10 : A1 32) (w11 : A2 32 32) (b11 : A1 32)
    (p : Fin 8000) (q : Fin 32) (r : Fin 400000)
    (hx0 : ∀ k : Fin 4, x0 (ix2 p k) = ea (ix2 r k)) (hx1 : x1 = w10) (hx2 : ∀ k : Fin 32, x2 (ix2 0 k) = b10 (ix1 k))
    (hx3 : x3 = w11) (hx4 : ∀ k : Fin 32, x4 (ix2 0 k) = b11 (ix1 k)) :
    k0_pay1 (F := Ideal) x0 x1 x2 x3 x4 (ix2 p q) = G1 ea w10 b10 w11 b11 (ix2 r q) := by
  rw [pay_apply]
  show rowL1 (rowOf x0 p) x1 (vecRow x2) x3 (vecRow x4) q = rowL1 (rowOf ea r) w10 (vec1 b10) w11 (vec1 b11) q
  rw [show rowOf x0 p = rowOf ea r from funext hx0, show vecRow x2 = vec1 b10 from funext hx2,
    show vecRow x4 = vec1 b11 from funext hx4, hx1, hx3]

/-- Point `t` writes back rows `8000 t … 8000 t + 7999` of layer 1 of the arrays the region found. -/
theorem flushed_eq (c : Dev nD)
    (ea : A2 400000 4) (w10 : A2 4 32) (b10 : A1 32) (w11 : A2 32 32) (b11 : A1 32)
    (h0 : (V c main_arg2 : S400000x4.Idx → EReal) = ea)
    (h1 : (V c main_arg4 : S4x32.Idx → EReal) = w10)
    (h2 : ∀ k : Fin 32, (V c main_v4 : S1x32.Idx → EReal) (ix2 0 k) = b10 (ix1 k))
    (h3 : (V c main_arg6 : S32x32.Idx → EReal) = w11)
    (h4 : ∀ k : Fin 32, (V c main_v5 : S1x32.Idx → EReal) (ix2 0 k) = b11 (ix1 k)) (t : Fin cfg0.N) :
    (dat0 (F := Ideal) V c).flushed 5 t = ((cfg0.win 5).blk t).view.read (Elt Ideal) (G1 ea w10 b10 w11 b11) := by
  show (cfg0.win 5).cut (grid0.coords t) ((dat0 V c).after 5 t) = _
  rw [after0_5]
  unfold out0_5
  rw [View.canon_unit_zero hz]
  simp only [View.ld_unit_zero (S := S8000x4) hz, View.ld_unit_zero (S := S4x32) hz, View.ld_unit_zero (S := S1x32) hz,
    View.ld_unit_zero (S := S32x32) hz]
  obtain ⟨-, -, -, -, -, -, -, -, -, -, e0, e1⟩ := idx_facts t
  have ht : t.val < 50 := lt_of_lt_of_eq t.isLt N_0
  refine funext fun (j : S8000x32.Idx) => ?_
  obtain ⟨p, q, rfl⟩ : ∃ (p : Fin 8000) (q : Fin 32), j = ix2 p q :=
    ⟨⟨(j 0).val, idx2_lt0 j⟩, ⟨(j 1).val, idx2_lt1 j⟩, by funext a; match a with | ⟨0, _⟩ => rfl | ⟨1, _⟩ => rfl⟩
  have hp : t.val * 8000 + p.val < 400000 := by have := p.isLt; omega
  show k0_pay1 (F := Ideal) (iblk0 V c 0 t) (iblk0 V c 1 t) (iblk0 V c 2 t) (iblk0 V c 3 t) (iblk0 V c 4 t) (ix2 p q)
    = G1 ea w10 b10 w11 b11 (((cfg0.win 5).blk t).view.emb (ix2 p q))
  have hi : ((cfg0.win 5).blk t).view.emb (ix2 p q) = (ix2 ⟨t.val * 8000 + p.val, hp⟩ q : S400000x32.Idx) :=
    funext fun a => Fin.ext (by
      match a with
      | ⟨0, _⟩ => show win0_5.index t (0 : Fin 2) * 8000 + 1 * p.val = t.val * 8000 + p.val; rw [e0]; omega
      | ⟨1, _⟩ => show win0_5.index t (1 : Fin 2) * 32 + 1 * q.val = q.val; rw [e1]; omega)
  refine Eq.trans ?_ (congrArg (G1 ea w10 b10 w11 b11) hi).symm
  exact pay_G1 (iblk0 V c 0 t) (iblk0 V c 1 t) (iblk0 V c 2 t) (iblk0 V c 3 t) (iblk0 V c 4 t) ea w10 b10 w11 b11 p q
    ⟨t.val * 8000 + p.val, hp⟩
    (fun k => (blk0_apply V c t p k ⟨t.val * 8000 + p.val, hp⟩ rfl).trans (congrFun h0 _))
    ((blk1_eq V c t).trans h1) (fun k => (congrFun (blk2_eq V c t) (ix2 0 k)).trans (h2 k))
    ((blk3_eq V c t).trans h3) (fun k => (congrFun (blk4_eq V c t) (ix2 0 k)).trans (h4 k))

/-! ## The fifty blocks cover the array -/

/-- An entry of the array is in point `t`'s block iff, on each axis, its coordinate is in the block's range. -/
theorem mem_blk (t : Fin cfg0.N) (i : S400000x32.Idx) :
    i ∈ ((cfg0.win 5).blk t).view.set ↔ ∀ a : Fin 2, win0_5.index t a * S8000x32.size a ≤ (i a).val
      ∧ (i a).val < win0_5.index t a * S8000x32.size a + S8000x32.size a := by
  show i ∈ ((View.whole main_v6).slice (win0_5.rect t)).set ↔ _
  rw [View.set_slice_whole, Rect.mem_set_unit]
  exact Iff.rfl

/-- Entry (r, q) lies in the block of point `r / 8000`: the rows split into fifty runs of 8000, the columns are whole. -/
theorem cover (i : S400000x32.Idx) :
    ∃ t : Fin cfg0.N, (cfg0.win 5).flush t = true ∧ i ∈ ((cfg0.win 5).blk t).view.set := by
  have hi0 : (i 0).val < 400000 := idx2_lt0 i
  have hi1 : (i 1).val < 32 := idx2_lt1 i
  obtain ⟨t, ht⟩ : ∃ t : Fin cfg0.N, t.val = (i 0).val / 8000 :=
    ⟨⟨(i 0).val / 8000, lt_of_lt_of_eq (by omega : (i 0).val / 8000 < 50) N_0.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 8000 ≤ (i 0).val ∧ (i 0).val < win0_5.index t (0 : Fin 2) * 8000 + 8000
    rw [e0, ht]; omega
  | ⟨1, _⟩ =>
    show win0_5.index t (1 : Fin 2) * 32 ≤ (i 1).val ∧ (i 1).val < win0_5.index t (1 : Fin 2) * 32 + 32
    rw [e1]; omega

end R0aux

open R0aux

/-! ## The array after the run -/

/-- After the run, the output array of region 0 is layer 1 of the region's input arrays, entry by entry: `ea` is what the
    attribute window's array holds at entry, `w10`, `w11` the weight windows', and the two bias windows hold `b10`, `b11`
    as one row. -/
theorem region0_value (c : Dev nD)
    (ea : A2 400000 4) (w10 : A2 4 32) (b10 : A1 32) (w11 : A2 32 32) (b11 : A1 32)
    (h0 : (V c main_arg2 : S400000x4.Idx → EReal) = ea)
    (h1 : (V c main_arg4 : S4x32.Idx → EReal) = w10)
    (h2 : ∀ k : Fin 32, (V c main_v4 : S1x32.Idx → EReal) (ix2 0 k) = b10 (ix1 k))
    (h3 : (V c main_arg6 : S32x32.Idx → EReal) = w11)
    (h4 : ∀ k : Fin 32, (V c main_v5 : S1x32.Idx → EReal) (ix2 0 k) = b11 (ix1 k)) :
    ((dat0 (F := Ideal) V c).arrAt 5 cfg0.N : S400000x32.Idx → EReal) = G1 ea w10 b10 w11 b11 :=
  (dat0 (F := Ideal) V c).arrAt_eq_of_cover 5 (G1 ea w10 b10 w11 b11)
    (fun t _ => flushed_eq V c ea w10 b10 w11 b11 h0 h1 h2 h3 h4 t) cover

end Cert.KernelIdeal.Regions

end
-- ==== Proof.WalkA.lean ====
/-
  The buffer contents up to region 0's exit. Before the first kernel @main only slices the two rows out of the edge
  index array and reshapes two bias vectors to one row each; the first kernel then leaves the layer-1 rows in its output
  array, and every other buffer as it was.
-/
import proofs.«411902_j85581518340249_3_alg».proof.Proof.Gen.KernelIdeal.Frame
import proofs.«411902_j85581518340249_3_alg».proof.Proof.Keep
import proofs.«411902_j85581518340249_3_alg».proof.Proof.KChain
import proofs.«411902_j85581518340249_3_alg».proof.Proof.Region0
import Idealize.ShloMosaic.PureOps.Ideal
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Walk

open Cert.KernelIdeal Cert.KernelIdeal.Gen Cert.KernelIdeal.Regions Cert.Spec
open Idealize.ShloMosaic Idealize.ShloMosaic.TcCoe Idealize.ShloMosaic.Tactic Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-- Region 0 is entered with each edge's target node in its buffer … -/
theorem W1_v1 : W1 m ρ c (Proc.devRef .tc main_v1) = Chain.row (argOf m c main_arg1) := by
  show StableHlo.after hostOps0 (W0 m ρ c) (Proc.devRef .tc main_v1) = _
  simp only [hostOps0]
  after_results
  rfl
/-- … and each edge's source node. -/
theorem W1_v3 : W1 m ρ c (Proc.devRef .tc main_v3) = Chain.col (argOf m c main_arg1) := by
  show StableHlo.after hostOps0 (W0 m ρ c) (Proc.devRef .tc main_v3) = _
  simp only [hostOps0]
  after_results
  rfl

/-- The first bias as one row: its column `k` is the bias vector's entry `k`. -/
theorem W1_v4 (k : Fin 32) :
    (W1 m ρ c (Proc.devRef .tc main_v4) : S1x32.Idx → EReal) (ix2 0 k) = ((argOf m c main_arg5) : S32.Idx → EReal) (ix1 k) := by
  have e : (W1 m ρ c (Proc.devRef .tc main_v4) : S1x32.Idx → EReal)
      = shapeCast S1x32 ((argOf m c main_arg5) : S32.Idx → EReal) shapeCasts_S32_S1x32 := by
    show StableHlo.after hostOps0 (W0 m ρ c) (Proc.devRef .tc main_v4) = _
    simp only [hostOps0]
    after_results
    rfl
  rw [e]
  exact shapeCast_a_1a_apply _ _ 0 k
/-- The second bias as one row. -/
theorem W1_v5 (k : Fin 32) :
    (W1 m ρ c (Proc.devRef .tc main_v5) : S1x32.Idx → EReal) (ix2 0 k) = ((argOf m c main_arg7) : S32.Idx → EReal) (ix1 k) := by
  have e : (W1 m ρ c (Proc.devRef .tc main_v5) : S1x32.Idx → EReal)
      = shapeCast S1x32 ((argOf m c main_arg7) : S32.Idx → EReal) shapeCasts_S32_S1x32 := by
    show StableHlo.after hostOps0 (W0 m ρ c) (Proc.devRef .tc main_v5) = _
    simp only [hostOps0]
    after_results
    rfl
  rw [e]
  exact shapeCast_a_1a_apply _ _ 0 k

/-- Region 0 leaves the layer-1 rows in its output array. -/
theorem W2_v6 : W2 m ρ c (Proc.devRef .tc main_v6)
    = Chain.E1 (argOf m c main_arg2) (argOf m c main_arg4) (argOf m c main_arg5) (argOf m c main_arg6) (argOf m c main_arg7) :=
  (W2_arr m ρ c 5).trans (region0_value (V1 m ρ) c _ _ _ _ _
    (at1 m ρ c main_arg2 (by decide)) (at1 m ρ c main_arg4 (by decide)) (W1_v4 m ρ c)
    (at1 m ρ c main_arg6 (by decide)) (W1_v5 m ρ c))

end Cert.KernelIdeal.Walk

end
-- ==== Proof.Region1.lean ====
/-
  Region 1 (layer 2), as a value: the array the second kernel leaves.
  Four streamed windows (the node rows gathered at each edge's two endpoints, the edge attributes, the layer-1 rows) go
  through in blocks of 8000 rows; the four row ranges of the 100-row weight matrix, the second weight matrix and the two
  bias rows are whole blocks. At each point the body adds the four products block by block, adds the bias, clamps, and
  applies the second affine map; the layer-1 rows are clamped first. Fifty points cover the 400000 rows exactly once.
-/
import proofs.«411902_j85581518340249_3_alg».proof.Proof.Gen.KernelIdeal.Frame
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the TensorCore's buffer contents when the region is entered: the parameter the region's proof data are stated at
variable (V : (c : Dev nD) → (b : Ref sig .tc) → Buf (Elt Ideal) ((c : Thread nD τ).loc b))

namespace R1aux

/-! ## A block times a small matrix, read at an entry -/

-- the record of a [8000,32] block times a [32,32] matrix: the product's row is the left operand's row,
-- its column the right operand's column, and the one contracted axis runs over the 32 shared coordinates
theorem lhsA_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem lhsA_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem rhsA_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem rhsA_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- A [8000,32] block times a [32,32] matrix into the zero accumulator, at entry (p, q): row p of the block against
    column q of the matrix. -/
theorem mulA_apply (A : FVec Ideal S8000x32 .f32) (B : FVec Ideal S32x32 .f32) (p : Fin 8000) (q : Fin 32) :
    matmul dot_S8000x32_S32x32_S8000x32_1_0_0_1_n_n (some .fp32) A B (constant (F := Ideal) S8000x32 .f32 0x00000000#32) (ix2 p q)
      = ∑ k : Fin 32, A (ix2 p k) * B (ix2 k q) := by
  refine (Ideal.matmul_constant_zero_apply dot_S8000x32_S32x32_S8000x32_1_0_0_1_n_n (some .fp32) A B (ix2 p q)).trans ?_
  rw [← Equiv.sum_comp (ValueIdx.contrEquiv1 dot_S8000x32_S32x32_S8000x32_1_0_0_1_n_n 32 rfl rfl).symm]
  refine Finset.sum_congr rfl fun k _ => ?_
  have hk := ValueIdx.contrEquiv1_symm_val dot_S8000x32_S32x32_S8000x32_1_0_0_1_n_n 32 rfl rfl k
  have el : dot_S8000x32_S32x32_S8000x32_1_0_0_1_n_n.lhsIdx (ix2 p q) ((ValueIdx.contrEquiv1 dot_S8000x32_S32x32_S8000x32_1_0_0_1_n_n 32 rfl rfl).symm k) = ix2 p k := funext fun a => Fin.ext (by
    match a with
    | ⟨0, _⟩ => exact lhsA_0 _ _
    | ⟨1, _⟩ => exact (lhsA_1 _ _).trans hk)
  have er : dot_S8000x32_S32x32_S8000x32_1_0_0_1_n_n.rhsIdx (ix2 p q) ((ValueIdx.contrEquiv1 dot_S8000x32_S32x32_S8000x32_1_0_0_1_n_n 32 rfl rfl).symm k) = ix2 k q := funext fun a => Fin.ext (by
    match a with
    | ⟨0, _⟩ => exact (rhsA_0 _ _).trans hk
    | ⟨1, _⟩ => exact rhsA_1 _ _)
  rw [el, er]

-- the same for a [8000,4] block times a [4,32] matrix: four shared coordinates
theorem lhsB_0 (i : S8000x32.Idx) (q : dot_S8000x4_S4x32_S8000x32_1_0_0_1_n_n.contr.Idx) :
    (dot_S8000x4_S4x32_S8000x32_1_0_0_1_n_n.lhsIdx i q 0).val = (i 0).val := by
  unfold DotDims.lhsIdx
  rw [dif_neg (show ¬(0 : Fin S8000x4.rank) ∈ dot_S8000x4_S4x32_S8000x32_1_0_0_1_n_n.lhsBatch by decide), dif_pos (show (0 : Fin S8000x4.rank) ∈ dot_S8000x4_S4x32_S8000x32_1_0_0_1_n_n.lhsNonContracting by decide)]
  rfl
theorem lhsB_1 (i : S8000x32.Idx) (q : dot_S8000x4_S4x32_S8000x32_1_0_0_1_n_n.contr.Idx) :
    (dot_S8000x4_S4x32_S8000x32_1_0_0_1_n_n.lhsIdx i q 1).val = (q ⟨0, by decide⟩).val :=
  dot_S8000x4_S4x32_S8000x32_1_0_0_1_n_n.lhsIdx_val_of_single rfl i q
theorem rhsB_0 (i : S8000x32.Idx) (q : dot_S8000x4_S4x32_S8000x32_1_0_0_1_n_n.contr.Idx) :
    (dot_S8000x4_S4x32_S8000x32_1_0_0_1_n_n.rhsIdx i q 0).val = (q ⟨0, by decide⟩).val :=
  dot_S8000x4_S4x32_S8000x32_1_0_0_1_n_n.rhsIdx_val_of_single rfl i q
theorem rhsB_1 (i : S8000x32.Idx) (q : dot_S8000x4_S4x32_S8000x32_1_0_0_1_n_n.contr.Idx) :
    (dot_S8000x4_S4x32_S8000x32_1_0_0_1_n_n.rhsIdx i q 1).val = (i 1).val := by
  unfold DotDims.rhsIdx
  rw [dif_neg (show ¬(1 : Fin S4x32.rank) ∈ dot_S8000x4_S4x32_S8000x32_1_0_0_1_n_n.rhsBatch by decide), dif_pos (show (1 : Fin S4x32.rank) ∈ dot_S8000x4_S4x32_S8000x32_1_0_0_1_n_n.rhsNonContracting by decide)]
  rfl

/-- A [8000,4] block times a [4,32] matrix into the zero accumulator, at entry (p, q). -/
theorem mulB_apply (A : FVec Ideal S8000x4 .f32) (B : FVec Ideal S4x32 .f32) (p : Fin 8000) (q : Fin 32) :
    matmul dot_S8000x4_S4x32_S8000x32_1_0_0_1_n_n (some .fp32) A B (constant (F := Ideal) S8000x32 .f32 0x00000000#32) (ix2 p q)
      = ∑ k : Fin 4, A (ix2 p k) * B (ix2 k q) := by
  refine (Ideal.matmul_constant_zero_apply dot_S8000x4_S4x32_S8000x32_1_0_0_1_n_n (some .fp32) A B (ix2 p q)).trans ?_
  rw [← Equiv.sum_comp (ValueIdx.contrEquiv1 dot_S8000x4_S4x32_S8000x32_1_0_0_1_n_n 4 rfl rfl).symm]
  refine Finset.sum_congr rfl fun k _ => ?_
  have hk := ValueIdx.contrEquiv1_symm_val dot_S8000x4_S4x32_S8000x32_1_0_0_1_n_n 4 rfl rfl k
  have el : dot_S8000x4_S4x32_S8000x32_1_0_0_1_n_n.lhsIdx (ix2 p q) ((ValueIdx.contrEquiv1 dot_S8000x4_S4x32_S8000x32_1_0_0_1_n_n 4 rfl rfl).symm k) = ix2 p k := funext fun a => Fin.ext (by
    match a with
    | ⟨0, _⟩ => exact lhsB_0 _ _
    | ⟨1, _⟩ => exact (lhsB_1 _ _).trans hk)
  have er : dot_S8000x4_S4x32_S8000x32_1_0_0_1_n_n.rhsIdx (ix2 p q) ((ValueIdx.contrEquiv1 dot_S8000x4_S4x32_S8000x32_1_0_0_1_n_n 4 rfl rfl).symm k) = ix2 k q := funext fun a => Fin.ext (by
    match a with
    | ⟨0, _⟩ => exact (rhsB_0 _ _).trans hk
    | ⟨1, _⟩ => exact rhsB_1 _ _)
  rw [el, er]

/-! ## The stored block at an entry -/

/-- The first stage of the body at entry (p, q) of the block: the four products of row p (first endpoint, second
    endpoint, attributes, clamped layer-1 row) with the four matrices, summed left to right, plus the bias row; that
    hidden row clamped, against column q of the second matrix. -/
theorem stage1_apply (x0 x1 : FVec Ideal S8000x32 .f32) (x2 : FVec Ideal S8000x4 .f32) (x3 : FVec Ideal S8000x32 .f32)
    (x4 x5 : FVec Ideal S32x32 .f32) (x6 : FVec Ideal S4x32 .f32) (x7 : FVec Ideal S32x32 .f32) (x8 : FVec Ideal S1x32 .f32)
    (x9 : FVec Ideal S32x32 .f32) (p : Fin 8000) (q : Fin 32) :
    k1_pay2 (F := Ideal) x3 x0 x4 x1 x5 x2 x6 x7 x8 x9 (ix2 p q)
      = dot (fun k => relu (hid4 (rowOf x0 p) (rowOf x1 p) (rowOf x2 p) (fun a => relu (rowOf x3 p a)) x4 x5 x6 x7 (vecRow x8) k)) x9 q := by
  unfold k1_pay2
  simp only [shapeCast_self]
  refine (mulA_apply _ _ p q).trans ?_
  unfold dot
  refine Finset.sum_congr rfl fun k _ => ?_
  refine congrArg (· * x9 (ix2 k q)) ?_
  rw [maximumf_apply, broadcast_apply, addf_apply, broadcastTo_1b_ab_apply, addf_apply, addf_apply, addf_apply,
    mulA_apply, mulA_apply, mulB_apply, mulA_apply]
  simp only [maximumf_apply, broadcast_apply]
  rfl

/-- The stored block at entry (p, q): layer 2's second half of the hidden row of row p. -/
theorem stored_apply (x0 x1 : FVec Ideal S8000x32 .f32) (x2 : FVec Ideal S8000x4 .f32) (x3 : FVec Ideal S8000x32 .f32)
    (x4 x5 : FVec Ideal S32x32 .f32) (x6 : FVec Ideal S4x32 .f32) (x7 : FVec Ideal S32x32 .f32) (x8 : FVec Ideal S1x32 .f32)
    (x9 : FVec Ideal S32x32 .f32) (x10 : FVec Ideal S1x32 .f32) (p : Fin 8000) (q : Fin 32) :
    k1_pay1 (F := Ideal) (k1_pay2 (F := Ideal) x3 x0 x4 x1 x5 x2 x6 x7 x8 x9) x10 (ix2 p q)
      = rowL (hid4 (rowOf x0 p) (rowOf x1 p) (rowOf x2 p) (fun a => relu (rowOf x3 p a)) x4 x5 x6 x7 (vecRow x8)) x9 (vecRow x10) q := by
  unfold k1_pay1
  simp only [shapeCast_self]
  rw [addf_apply, broadcastTo_1b_ab_apply, stage1_apply]
  rfl

/-! ## Where each window's block sits at a point -/

theorem zero_offsets : (![0, 0] : Fin 2 → Nat) = fun _ => 0 := funext fun a => by fin_cases a <;> rfl

/-- The printed index maps, decided over the fifty points: the four streamed windows and the output are at block row
    `t` (block column 0) at point `t`; the seven weight and bias windows are at block (0, 0) at every point. -/
theorem where_blocks : ∀ t : Fin cfg1.N,
    (win1_11.index t (0 : Fin 2) = t.val ∧ win1_11.index t (1 : Fin 2) = 0)
    ∧ (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-! ## Each window's block at a point, read off its array

A block's coordinate on an axis is the block index times the block's size plus the coordinate inside the block. -/

/-- Row p of the first endpoint's window's block at point t is row 8000·t + p of its array. -/
theorem row_block0 (c : Dev nD) (t : Fin cfg1.N) (p : Fin 8000) (h : t.val * 8000 + p.val < 400000) :
    rowOf (iblk1 V c 0 t : S8000x32.Idx → EReal) p = rowOf (V c main_v19 : S400000x32.Idx → EReal) ⟨t.val * 8000 + p.val, h⟩ := by
  obtain ⟨-, e0, e1, e2, e3, -⟩ := where_blocks t
  funext k
  show V c main_v19 (((cfg1.win 0).blk t).view.emb (ix2 p k)) = V c main_v19 (ix2 ⟨t.val * 8000 + p.val, h⟩ k)
  refine congrArg _ (funext fun a => Fin.ext ?_)
  match a with
  | ⟨0, _⟩ => show win1_0.index t (0 : Fin 2) * 8000 + 1 * p.val = t.val * 8000 + p.val; omega
  | ⟨1, _⟩ => show win1_0.index t (1 : Fin 2) * 32 + 1 * k.val = k.val; omega

/-- Row p of the second endpoint's window's block at point t is row 8000·t + p of its array. -/
theorem row_block1 (c : Dev nD) (t : Fin cfg1.N) (p : Fin 8000) (h : t.val * 8000 + p.val < 400000) :
    rowOf (iblk1 V c 1 t : S8000x32.Idx → EReal) p = rowOf (V c main_v20 : S400000x32.Idx → EReal) ⟨t.val * 8000 + p.val, h⟩ := by
  obtain ⟨-, e0, e1, e2, e3, -⟩ := where_blocks t
  funext k
  show V c main_v20 (((cfg1.win 1).blk t).view.emb (ix2 p k)) = V c main_v20 (ix2 ⟨t.val * 8000 + p.val, h⟩ k)
  refine congrArg _ (funext fun a => Fin.ext ?_)
  match a with
  | ⟨0, _⟩ => show win1_1.index t (0 : Fin 2) * 8000 + 1 * p.val = t.val * 8000 + p.val; omega
  | ⟨1, _⟩ => show win1_1.index t (1 : Fin 2) * 32 + 1 * k.val = k.val; omega

/-- Row p of the attribute window's block at point t is row 8000·t + p of its array. -/
theorem row_block2 (c : Dev nD) (t : Fin cfg1.N) (p : Fin 8000) (h : t.val * 8000 + p.val < 400000) :
    rowOf (iblk1 V c 2 t : S8000x4.Idx → EReal) p = rowOf (V c main_arg2 : S400000x4.Idx → EReal) ⟨t.val * 8000 + p.val, h⟩ := by
  obtain ⟨-, e0, e1, e2, e3, -⟩ := where_blocks t
  funext k
  show V c main_arg2 (((cfg1.win 2).blk t).view.emb (ix2 p k)) = V c main_arg2 (ix2 ⟨t.val * 8000 + p.val, h⟩ k)
  refine congrArg _ (funext fun a => Fin.ext ?_)
  match a with
  | ⟨0, _⟩ => show win1_2.index t (0 : Fin 2) * 8000 + 1 * p.val = t.val * 8000 + p.val; omega
  | ⟨1, _⟩ => show win1_2.index t (1 : Fin 2) * 4 + 1 * k.val = k.val; omega

/-- Row p of the layer-1 window's block at point t is row 8000·t + p of its array. -/
theorem row_block3 (c : Dev nD) (t : Fin cfg1.N) (p : Fin 8000) (h : t.val * 8000 + p.val < 400000) :
    rowOf (iblk1 V c 3 t : S8000x32.Idx → EReal) p = rowOf (V c main_v6 : S400000x32.Idx → EReal) ⟨t.val * 8000 + p.val, h⟩ := by
  obtain ⟨-, e0, e1, e2, e3, -⟩ := where_blocks t
  funext k
  show V c main_v6 (((cfg1.win 3).blk t).view.emb (ix2 p k)) = V c main_v6 (ix2 ⟨t.val * 8000 + p.val, h⟩ k)
  refine congrArg _ (funext fun a => Fin.ext ?_)
  match a with
  | ⟨0, _⟩ => show win1_3.index t (0 : Fin 2) * 8000 + 1 * p.val = t.val * 8000 + p.val; omega
  | ⟨1, _⟩ => show win1_3.index t (1 : Fin 2) * 32 + 1 * k.val = k.val; omega

/-- The first weight window's block at every point is its whole array. -/
theorem whole_block4 (c : Dev nD) (t : Fin cfg1.N) :
    (iblk1 V c 4 t : S32x32.Idx → EReal) = (V c main_v21 : S32x32.Idx → EReal) := by
  obtain ⟨-, -, -, -, -, e4, e5, e6, e7, e8, e9, e10⟩ := where_blocks t
  funext y
  show V c main_v21 (((cfg1.win 4).blk t).view.emb y) = V c main_v21 y
  refine congrArg _ (funext fun a => Fin.ext ?_)
  match a with
  | ⟨0, _⟩ => show win1_4.index t (0 : Fin 2) * 32 + 1 * (y 0).val = (y 0).val; omega
  | ⟨1, _⟩ => show win1_4.index t (1 : Fin 2) * 32 + 1 * (y 1).val = (y 1).val; omega

/-- The second weight window's block at every point is its whole array. -/
theorem whole_block5 (c : Dev nD) (t : Fin cfg1.N) :
    (iblk1 V c 5 t : S32x32.Idx → EReal) = (V c main_v22 : S32x32.Idx → EReal) := by
  obtain ⟨-, -, -, -, -, e4, e5, e6, e7, e8, e9, e10⟩ := where_blocks t
  funext y
  show V c main_v22 (((cfg1.win 5).blk t).view.emb y) = V c main_v22 y
  refine congrArg _ (funext fun a => Fin.ext ?_)
  match a with
  | ⟨0, _⟩ => show win1_5.index t (0 : Fin 2) * 32 + 1 * (y 0).val = (y 0).val; omega
  | ⟨1, _⟩ => show win1_5.index t (1 : Fin 2) * 32 + 1 * (y 1).val = (y 1).val; omega

/-- The third weight window's block at every point is its whole array. -/
theorem whole_block6 (c : Dev nD) (t : Fin cfg1.N) :
    (iblk1 V c 6 t : S4x32.Idx → EReal) = (V c main_v23 : S4x32.Idx → EReal) := by
  obtain ⟨-, -, -, -, -, e4, e5, e6, e7, e8, e9, e10⟩ := where_blocks t
  funext y
  show V c main_v23 (((cfg1.win 6).blk t).view.emb y) = V c main_v23 y
  refine congrArg _ (funext fun a => Fin.ext ?_)
  match a with
  | ⟨0, _⟩ => show win1_6.index t (0 : Fin 2) * 4 + 1 * (y 0).val = (y 0).val; omega
  | ⟨1, _⟩ => show win1_6.index t (1 : Fin 2) * 32 + 1 * (y 1).val = (y 1).val; omega

/-- The fourth weight window's block at every point is its whole array. -/
theorem whole_block7 (c : Dev nD) (t : Fin cfg1.N) :
    (iblk1 V c 7 t : S32x32.Idx → EReal) = (V c main_v24 : S32x32.Idx → EReal) := by
  obtain ⟨-, -, -, -, -, e4, e5, e6, e7, e8, e9, e10⟩ := where_blocks t
  funext y
  show V c main_v24 (((cfg1.win 7).blk t).view.emb y) = V c main_v24 y
  refine congrArg _ (funext fun a => Fin.ext ?_)
  match a with
  | ⟨0, _⟩ => show win1_7.index t (0 : Fin 2) * 32 + 1 * (y 0).val = (y 0).val; omega
  | ⟨1, _⟩ => show win1_7.index t (1 : Fin 2) * 32 + 1 * (y 1).val = (y 1).val; omega

/-- The first bias window's block at every point is its whole array. -/
theorem whole_block8 (c : Dev nD) (t : Fin cfg1.N) :
    (iblk1 V c 8 t : S1x32.Idx → EReal) = (V c main_v25 : S1x32.Idx → EReal) := by
  obtain ⟨-, -, -, -, -, e4, e5, e6, e7, e8, e9, e10⟩ := where_blocks t
  funext y
  show V c main_v25 (((cfg1.win 8).blk t).view.emb y) = V c main_v25 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 32 + 1 * (y 1).val = (y 1).val; omega

/-- The second matrix's window's block at every point is its whole array. -/
theorem whole_block9 (c : Dev nD) (t : Fin cfg1.N) :
    (iblk1 V c 9 t : S32x32.Idx → EReal) = (V c main_arg10 : S32x32.Idx → EReal) := by
  obtain ⟨-, -, -, -, -, e4, e5, e6, e7, e8, e9, e10⟩ := where_blocks t
  funext y
  show V c main_arg10 (((cfg1.win 9).blk t).view.emb y) = V c main_arg10 y
  refine congrArg _ (funext fun a => Fin.ext ?_)
  match a with
  | ⟨0, _⟩ => show win1_9.index t (0 : Fin 2) * 32 + 1 * (y 0).val = (y 0).val; omega
  | ⟨1, _⟩ => show win1_9.index t (1 : Fin 2) * 32 + 1 * (y 1).val = (y 1).val; omega

/-- The second bias window's block at every point is its whole array. -/
theorem whole_block10 (c : Dev nD) (t : Fin cfg1.N) :
    (iblk1 V c 10 t : S1x32.Idx → EReal) = (V c main_v26 : S1x32.Idx → EReal) := by
  obtain ⟨-, -, -, -, -, e4, e5, e6, e7, e8, e9, e10⟩ := where_blocks t
  funext y
  show V c main_v26 (((cfg1.win 10).blk t).view.emb y) = V c main_v26 y
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 32 + 1 * (y 1).val = (y 1).val; omega

/-! ## What a point writes back -/

/-- Layer 2 at entry (e, q) of the whole array, by rows. -/
theorem G2_at (xr xc : A2 400000 32) (ea : A2 400000 4) (e1 : A2 400000 32) (w20 : A2 100 32) (b20 : A1 32) (w21 : A2 32 32)
    (b21 : A1 32) (e : Fin 400000) (q : Fin 32) :
    G2 xr xc ea e1 w20 b20 w21 b21 (ix2 e q) = rowL (H2 xr xc ea e1 w20 b20 e) w21 (vec1 b21) q := rfl

/-- Point t writes back block t of layer 2 of the region's input arrays: entry (p, q) of the stored block is built from
    row p of each streamed block, which is row 8000·t + p of its array, and from the whole weight and bias arrays. -/
theorem flushed_eq (c : Dev nD) (t : Fin cfg1.N)
    (xr xc : A2 400000 32) (ea : A2 400000 4) (e1 : A2 400000 32) (w20 : A2 100 32) (b20 : A1 32) (w21 : A2 32 32) (b21 : A1 32)
    (h0 : (V c main_v19 : S400000x32.Idx → EReal) = xr)
    (h1 : (V c main_v20 : S400000x32.Idx → EReal) = xc)
    (h2 : (V c main_arg2 : S400000x4.Idx → EReal) = ea)
    (h3 : (V c main_v6 : S400000x32.Idx → EReal) = e1)
    (h4 : (V c main_v21 : S32x32.Idx → EReal) = rows w20 0 32 (by omega))
    (h5 : (V c main_v22 : S32x32.Idx → EReal) = rows w20 32 32 (by omega))
    (h6 : (V c main_v23 : S4x32.Idx → EReal) = rows w20 64 4 (by omega))
    (h7 : (V c main_v24 : S32x32.Idx → EReal) = rows w20 68 32 (by omega))
    (h8 : ∀ k : Fin 32, (V c main_v25 : S1x32.Idx → EReal) (ix2 0 k) = b20 (ix1 k))
    (h9 : (V c main_arg10 : S32x32.Idx → EReal) = w21)
    (h10 : ∀ k : Fin 32, (V c main_v26 : S1x32.Idx → EReal) (ix2 0 k) = b21 (ix1 k)) :
    (dat1 (F := Ideal) V c).flushed 11 t
      = ((cfg1.win 11).blk t).view.read (Elt Ideal) (G2 xr xc ea e1 w20 b20 w21 b21) := by
  show (cfg1.win 11).cut (grid1.coords t) ((dat1 V c).after 11 t) = _
  rw [after1_11]
  unfold out1_11
  rw [View.canon_unit_zero zero_offsets]
  simp only [View.ld_unit_zero (S := S8000x32) zero_offsets, View.ld_unit_zero (S := S8000x4) zero_offsets,
    View.ld_unit_zero (S := S32x32) zero_offsets, View.ld_unit_zero (S := S4x32) zero_offsets,
    View.ld_unit_zero (S := S1x32) zero_offsets]
  have ht : t.val < 50 := lt_of_lt_of_eq t.isLt N_1
  obtain ⟨⟨o0, o1⟩, -⟩ := where_blocks t
  funext j
  have hj0 : (j 0).val < 8000 := (j 0).isLt
  have hj1 : (j 1).val < 32 := (j 1).isLt
  obtain ⟨p, q, rfl⟩ : ∃ (p : Fin 8000) (q : Fin 32), j = ix2 p q :=
    ⟨⟨(j 0).val, hj0⟩, ⟨(j 1).val, hj1⟩, by funext a; match a with | ⟨0, _⟩ => rfl | ⟨1, _⟩ => rfl⟩
  have hrow : t.val * 8000 + p.val < 400000 := by have := p.isLt; omega
  -- where entry (p, q) of the output's block sits in the array
  have hemb : ((cfg1.win 11).blk t).view.emb (ix2 p q) = ix2 ⟨t.val * 8000 + p.val, hrow⟩ q := by
    funext a; apply Fin.ext
    match a with
    | ⟨0, _⟩ => show win1_11.index t (0 : Fin 2) * 8000 + 1 * p.val = t.val * 8000 + p.val; omega
    | ⟨1, _⟩ => show win1_11.index t (1 : Fin 2) * 32 + 1 * q.val = q.val; omega
  show k1_pay1 (F := Ideal) (k1_pay2 (F := Ideal) (iblk1 V c 3 t) (iblk1 V c 0 t) (iblk1 V c 4 t) (iblk1 V c 1 t) (iblk1 V c 5 t)
      (iblk1 V c 2 t) (iblk1 V c 6 t) (iblk1 V c 7 t) (iblk1 V c 8 t) (iblk1 V c 9 t)) (iblk1 V c 10 t) (ix2 p q)
    = G2 xr xc ea e1 w20 b20 w21 b21 (((cfg1.win 11).blk t).view.emb (ix2 p q))
  rw [hemb, G2_at]
  refine (stored_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p q).trans ?_
  rw [row_block0 V c t p hrow, row_block1 V c t p hrow, row_block2 V c t p hrow, row_block3 V c t p hrow,
    whole_block4 V c t, whole_block5 V c t, whole_block6 V c t, whole_block7 V c t, whole_block8 V c t,
    whole_block9 V c t, whole_block10 V c t, h0, h1, h2, h3, h4, h5, h6, h7, h9]
  have hb20 : vecRow (V c main_v25 : S1x32.Idx → EReal) = vec1 b20 := funext fun k => h8 k
  have hb21 : vecRow (V c main_v26 : S1x32.Idx → EReal) = vec1 b21 := funext fun k => h10 k
  rw [hb20, hb21]
  rfl

/-! ## Fifty blocks cover the array -/

/-- An index of the array is in point t's block iff each coordinate is in the block's range on its axis. -/
theorem mem_block (t : Fin cfg1.N) (i : S400000x32.Idx) :
    i ∈ ((cfg1.win 11).blk t).view.set ↔ ∀ a : Fin 2, win1_11.index t a * S8000x32.size a ≤ (i a).val
      ∧ (i a).val < win1_11.index t a * S8000x32.size a + S8000x32.size a := by
  show i ∈ ((View.whole main_v27).slice (win1_11.rect t)).set ↔ _
  rw [View.set_slice_whole, Rect.mem_set_unit]
  exact Iff.rfl

/-- Row r of the array lies in the block of point r / 8000, which is written back; the 32 columns are one block. -/
theorem covered (i : S400000x32.Idx) :
    ∃ t : Fin cfg1.N, (cfg1.win 11).flush t = true ∧ i ∈ ((cfg1.win 11).blk t).view.set := by
  have hi0 : (i 0).val < 400000 := (i 0).isLt
  have hi1 : (i 1).val < 32 := (i 1).isLt
  have hN : (i 0).val / 8000 < cfg1.N := lt_of_lt_of_eq (by omega : (i 0).val / 8000 < 50) N_1.symm
  refine ⟨⟨(i 0).val / 8000, hN⟩, flush1_11 _, ?_⟩
  rw [mem_block]
  obtain ⟨⟨o0, o1⟩, -⟩ := where_blocks ⟨(i 0).val / 8000, hN⟩
  have o0' : win1_11.index ⟨(i 0).val / 8000, hN⟩ (0 : Fin 2) = (i 0).val / 8000 := o0
  intro a
  match a with
  | ⟨0, _⟩ =>
    show win1_11.index ⟨(i 0).val / 8000, hN⟩ (0 : Fin 2) * 8000 ≤ (i 0).val
      ∧ (i 0).val < win1_11.index ⟨(i 0).val / 8000, hN⟩ (0 : Fin 2) * 8000 + 8000
    omega
  | ⟨1, _⟩ =>
    show win1_11.index ⟨(i 0).val / 8000, hN⟩ (1 : Fin 2) * 32 ≤ (i 1).val
      ∧ (i 1).val < win1_11.index ⟨(i 0).val / 8000, hN⟩ (1 : Fin 2) * 32 + 32
    omega

end R1aux

open R1aux

/-! ## The array after the run -/

/-- After the run, the output array of region 1 is layer 2 of the region's input arrays, entry by entry. The four weight
    windows hold rows 0–31, 32–63, 64–67 and 68–99 of `w20`; the bias windows hold `b20`, `b21` as one row. -/
theorem region1_value (c : Dev nD)
    (xr xc : A2 400000 32) (ea : A2 400000 4) (e1 : A2 400000 32) (w20 : A2 100 32) (b20 : A1 32) (w21 : A2 32 32) (b21 : A1 32)
    (h0 : (V c main_v19 : S400000x32.Idx → EReal) = xr)
    (h1 : (V c main_v20 : S400000x32.Idx → EReal) = xc)
    (h2 : (V c main_arg2 : S400000x4.Idx → EReal) = ea)
    (h3 : (V c main_v6 : S400000x32.Idx → EReal) = e1)
    (h4 : (V c main_v21 : S32x32.Idx → EReal) = rows w20 0 32 (by omega))
    (h5 : (V c main_v22 : S32x32.Idx → EReal) = rows w20 32 32 (by omega))
    (h6 : (V c main_v23 : S4x32.Idx → EReal) = rows w20 64 4 (by omega))
    (h7 : (V c main_v24 : S32x32.Idx → EReal) = rows w20 68 32 (by omega))
    (h8 : ∀ k : Fin 32, (V c main_v25 : S1x32.Idx → EReal) (ix2 0 k) = b20 (ix1 k))
    (h9 : (V c main_arg10 : S32x32.Idx → EReal) = w21)
    (h10 : ∀ k : Fin 32, (V c main_v26 : S1x32.Idx → EReal) (ix2 0 k) = b21 (ix1 k)) :
    ((dat1 (F := Ideal) V c).arrAt 11 cfg1.N : S400000x32.Idx → EReal) = G2 xr xc ea e1 w20 b20 w21 b21 :=
  (dat1 (F := Ideal) V c).arrAt_eq_of_cover 11 _
    (fun t _ => flushed_eq V c t xr xc ea e1 w20 b20 w21 b21 h0 h1 h2 h3 h4 h5 h6 h7 h8 h9 h10) covered

end Cert.KernelIdeal.Regions

end
-- ==== Proof.WalkB.lean ====
/-
  The buffer contents from region 0's exit to region 1's exit. Between the first two kernels @main counts the edges into
  each node, averages the layer-1 rows over each target node and clamps, gathers those node rows at each edge's two
  endpoints, cuts the 100-row weight matrix into its four row ranges and reshapes two bias vectors to one row each. The
  second kernel then leaves the layer-2 rows in its output array, and every other buffer as it was.
-/
import proofs.«411902_j85581518340249_3_alg».proof.Proof.Gen.KernelIdeal.Frame
import proofs.«411902_j85581518340249_3_alg».proof.Proof.Keep
import proofs.«411902_j85581518340249_3_alg».proof.Proof.KChain
import proofs.«411902_j85581518340249_3_alg».proof.Proof.Region1
import proofs.«411902_j85581518340249_3_alg».proof.Proof.WalkA
import Idealize.ShloMosaic.PureOps.Ideal
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Walk

open Cert.KernelIdeal Cert.KernelIdeal.Gen Cert.KernelIdeal.Regions Cert.Spec
open Idealize.ShloMosaic Idealize.ShloMosaic.TcCoe Idealize.ShloMosaic.Tactic Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-- Rows `off … off + K - 1` cut out of a matrix are that row range. -/
theorem slice_rows {R J : Nat} (off K : Nat) (W : A2 R J) (h : (⟨2, ![R, J]⟩ : Shape).Slices ![off, 0] ⟨2, ![K, J]⟩)
    (hle : off + K ≤ R) : extractStridedSlice ⟨2, ![K, J]⟩ ![off, 0] W h = rows W off K hle := by
  funext i
  obtain ⟨k, j, rfl⟩ : ∃ (k : Fin K) (j : Fin J), i = ix2 k j :=
    ⟨⟨(i 0).val, idx2_lt0 i⟩, ⟨(i 1).val, idx2_lt1 i⟩, by funext a; match a with | ⟨0, _⟩ => rfl | ⟨1, _⟩ => rfl⟩
  exact slice2_axis0_apply off W h k j ⟨off + k.val, by have := k.isLt; omega⟩ rfl

/-! ## Carried across region 0's exit and the stretches after it -/

theorem W2_v1 : W2 m ρ c (Proc.devRef .tc main_v1) = Chain.row (argOf m c main_arg1) :=
  (W2_of_ne m ρ c main_v1 (by decide)).trans (W1_v1 m ρ c)
theorem W2_v3 : W2 m ρ c (Proc.devRef .tc main_v3) = Chain.col (argOf m c main_arg1) :=
  (W2_of_ne m ρ c main_v3 (by decide)).trans (W1_v3 m ρ c)
theorem W7_v6 : W7 m ρ c (Proc.devRef .tc main_v6) = Chain.E1 (argOf m c main_arg2) (argOf m c main_arg4) (argOf m c main_arg5) (argOf m c main_arg6) (argOf m c main_arg7) :=
  (keep_2_7 m ρ c main_v6 (by decide)).trans (W2_v6 m ρ c)

/-! ## Computed between the regions -/

set_option maxHeartbeats 2000000 in
/-- The edge counts per node. -/
theorem W7_v12 : W7 m ρ c (Proc.devRef .tc main_v12) = Chain.cnt (Chain.row (argOf m c main_arg1)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results
  rw [W2_v1 m ρ c]
  rfl
set_option maxHeartbeats 2000000 in
/-- The node means of layer 1. -/
theorem W7_v18 : W7 m ρ c (Proc.devRef .tc main_v18) = Chain.X1 (argOf m c main_arg1) (argOf m c main_arg2) (argOf m c main_arg4) (argOf m c main_arg5) (argOf m c main_arg6) (argOf m c main_arg7) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results
  rw [W2_v1 m ρ c, W2_v6 m ρ c]
  rfl
set_option maxHeartbeats 2000000 in
/-- The node means gathered at each edge's target node. -/
theorem W7_v19 : W7 m ρ c (Proc.devRef .tc main_v19) = Chain.take32 (Chain.X1 (argOf m c main_arg1) (argOf m c main_arg2) (argOf m c main_arg4) (argOf m c main_arg5) (argOf m c main_arg6) (argOf m c main_arg7)) (Chain.row (argOf m c main_arg1)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results
  simp only [W2_v1 m ρ c, W2_v6 m ρ c]
  rfl
set_option maxHeartbeats 2000000 in
/-- The node means gathered at each edge's source node. -/
theorem W7_v20 : W7 m ρ c (Proc.devRef .tc main_v20) = Chain.take32 (Chain.X1 (argOf m c main_arg1) (argOf m c main_arg2) (argOf m c main_arg4) (argOf m c main_arg5) (argOf m c main_arg6) (argOf m c main_arg7)) (Chain.col (argOf m c main_arg1)) := by
  show StableHlo.after hostOps1_4 (StableHlo.after hostOps1_3 (StableHlo.after hostOps1_2 (StableHlo.after hostOps1_1 (StableHlo.after hostOps1 (W2 m ρ c))))) _ = _
  simp only [hostOps1_4, hostOps1_3, hostOps1_2, hostOps1_1, hostOps1]
  after_results
  simp only [W2_v1 m ρ c, W2_v3 m ρ c, W2_v6 m ρ c]
  rfl

/-! ## The weight row ranges and the bias rows -/

theorem W7_v21 : (W7 m ρ c (Proc.devRef .tc main_v21) : S32x32.Idx → EReal) = rows (argOf m c main_arg8) 0 32 (by omega) := by
  have e : (W7 m ρ c (Proc.devRef .tc main_v21) : S32x32.Idx → EReal)
      = extractStridedSlice S32x32 ![0, 0] ((argOf m c main_arg8)) slices_S100x32_S32x32_0_0 := by
    show StableHlo.after hostOps1_4 (W6 m ρ c) (Proc.devRef .tc main_v21) = _
    simp only [hostOps1_4]
    after_results
    rw [at2 m ρ c main_arg8 (by decide) (by decide)]
  rw [e]
  exact slice_rows 0 32 _ _ _
theorem W7_v22 : (W7 m ρ c (Proc.devRef .tc main_v22) : S32x32.Idx → EReal) = rows (argOf m c main_arg8) 32 32 (by omega) := by
  have e : (W7 m ρ c (Proc.devRef .tc main_v22) : S32x32.Idx → EReal)
      = extractStridedSlice S32x32 ![32, 0] ((argOf m c main_arg8)) slices_S100x32_S32x32_32_0 := by
    show StableHlo.after hostOps1_4 (W6 m ρ c) (Proc.devRef .tc main_v22) = _
    simp only [hostOps1_4]
    after_results
    rw [at2 m ρ c main_arg8 (by decide) (by decide)]
  rw [e]
  exact slice_rows 32 32 _ _ _
theorem W7_v23 : (W7 m ρ c (Proc.devRef .tc main_v23) : S4x32.Idx → EReal) = rows (argOf m c main_arg8) 64 4 (by omega) := by
  have e : (W7 m ρ c (Proc.devRef .tc main_v23) : S4x32.Idx → EReal)
      = extractStridedSlice S4x32 ![64, 0] ((argOf m c main_arg8)) slices_S100x32_S4x32_64_0 := by
    show StableHlo.after hostOps1_4 (W6 m ρ c) (Proc.devRef .tc main_v23) = _
    simp only [hostOps1_4]
    after_results
    rw [at2 m ρ c main_arg8 (by decide) (by decide)]
  rw [e]
  exact slice_rows 64 4 _ _ _
theorem W7_v24 : (W7 m ρ c (Proc.devRef .tc main_v24) : S32x32.Idx → EReal) = rows (argOf m c main_arg8) 68 32 (by omega) := by
  have e : (W7 m ρ c (Proc.devRef .tc main_v24) : S32x32.Idx → EReal)
      = extractStridedSlice S32x32 ![68, 0] ((argOf m c main_arg8)) slices_S100x32_S32x32_68_0 := by
    show StableHlo.after hostOps1_4 (W6 m ρ c) (Proc.devRef .tc main_v24) = _
    simp only [hostOps1_4]
    after_results
    rw [at2 m ρ c main_arg8 (by decide) (by decide)]
  rw [e]
  exact slice_rows 68 32 _ _ _
theorem W7_v25 (k : Fin 32) :
    (W7 m ρ c (Proc.devRef .tc main_v25) : S1x32.Idx → EReal) (ix2 0 k) = ((argOf m c main_arg9) : S32.Idx → EReal) (ix1 k) := by
  have e : (W7 m ρ c (Proc.devRef .tc main_v25) : S1x32.Idx → EReal)
      = shapeCast S1x32 ((argOf m c main_arg9) : S32.Idx → EReal) shapeCasts_S32_S1x32 := by
    show StableHlo.after hostOps1_4 (W6 m ρ c) (Proc.devRef .tc main_v25) = _
    simp only [hostOps1_4]
    after_results
    rw [at2 m ρ c main_arg9 (by decide) (by decide)]
    rfl
  rw [e]
  exact shapeCast_a_1a_apply _ _ 0 k
theorem W7_v26 (k : Fin 32) :
    (W7 m ρ c (Proc.devRef .tc main_v26) : S1x32.Idx → EReal) (ix2 0 k) = ((argOf m c main_arg11) : S32.Idx → EReal) (ix1 k) := by
  have e : (W7 m ρ c (Proc.devRef .tc main_v26) : S1x32.Idx → EReal)
      = shapeCast S1x32 ((argOf m c main_arg11) : S32.Idx → EReal) shapeCasts_S32_S1x32 := by
    show StableHlo.after hostOps1_4 (W6 m ρ c) (Proc.devRef .tc main_v26) = _
    simp only [hostOps1_4]
    after_results
    rw [at2 m ρ c main_arg11 (by decide) (by decide)]
    rfl
  rw [e]
  exact shapeCast_a_1a_apply _ _ 0 k

/-! ## Region 1 -/

/-- Region 1 leaves the layer-2 rows in its output array. -/
theorem W8_v27 : W8 m ρ c (Proc.devRef .tc main_v27) = Chain.E2 (argOf m c main_arg1) (argOf m c main_arg2) (argOf m c main_arg4) (argOf m c main_arg5) (argOf m c main_arg6) (argOf m c main_arg7) (argOf m c main_arg8) (argOf m c main_arg9) (argOf m c main_arg10) (argOf m c main_arg11) :=
  (W8_arr m ρ c 11).trans (region1_value (V7 m ρ) c _ _ _ _ _ _ _ _
    (W7_v19 m ρ c) (W7_v20 m ρ c) (arg2_W7 m ρ c) (W7_v6 m ρ c)
    (W7_v21 m ρ c) (W7_v22 m ρ c) (W7_v23 m ρ c) (W7_v24 m ρ c) (W7_v25 m ρ c)
    (at7 m ρ c main_arg10 (by decide) (by decide) (by decide)) (W7_v26 m ρ c))

end Cert.KernelIdeal.Walk

end
-- ==== Proof.Region2.lean ====
/-
  Region 2 (layer 3), as a value: the array the third kernel leaves.
  Four streamed windows (the 64-wide node rows gathered at each edge's two endpoints, the layer-2 rows, the layer-1
  rows) go through in blocks of 8000 rows; the four row ranges of the 192-row weight matrix, the second weight matrix and
  the two bias rows are whole blocks. At each point the body clamps the two edge rows, adds the four products block by
  block, adds the bias, clamps, and applies the second affine map. Fifty points cover the 400000 rows exactly once.
-/
import proofs.«411902_j85581518340249_3_alg».proof.Proof.Gen.KernelIdeal.Frame
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the TensorCore's buffer contents when the region is entered: the parameter the region's proof data are stated at
variable (V : (c : Dev nD) → (b : Ref sig .tc) → Buf (Elt Ideal) ((c : Thread nD τ).loc b))

namespace R2aux

/-! The product of a block of rows with a 64-row matrix, read at an entry: the contraction runs over the left
    operand's column and the right operand's row. -/

theorem region2_lhs64_0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem region2_lhs64_1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q
theorem region2_rhs64_0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q
theorem region2_rhs64_1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- Into a zero accumulator the product at `(p, q)` is `∑ k, x[p, k] · w[k, q]`. -/
theorem region2_mm64 (x : FVec Ideal S8000x64 .f32) (w : FVec Ideal S64x32 .f32) (p : Fin 8000) (q : Fin 32) :
    matmul dot_S8000x64_S64x32_S8000x32_1_0_0_1_n_n (some .fp32) x w (constant (F := Ideal) S8000x32 .f32 0x00000000#32) (ix2 p q)
      = ∑ k : Fin 64, x (ix2 p k) * w (ix2 k q) := by
  refine (Ideal.matmul_constant_zero_apply dot_S8000x64_S64x32_S8000x32_1_0_0_1_n_n (some .fp32) x w (ix2 p q)).trans ?_
  rw [← Equiv.sum_comp (ValueIdx.contrEquiv1 dot_S8000x64_S64x32_S8000x32_1_0_0_1_n_n 64 rfl rfl).symm]
  refine Finset.sum_congr rfl fun k _ => ?_
  have hk := ValueIdx.contrEquiv1_symm_val dot_S8000x64_S64x32_S8000x32_1_0_0_1_n_n 64 rfl rfl k
  have el : dot_S8000x64_S64x32_S8000x32_1_0_0_1_n_n.lhsIdx (ix2 p q) ((ValueIdx.contrEquiv1 dot_S8000x64_S64x32_S8000x32_1_0_0_1_n_n 64 rfl rfl).symm k) = ix2 p k := funext fun a => Fin.ext (by
    match a with
    | ⟨0, _⟩ => exact region2_lhs64_0 _ _
    | ⟨1, _⟩ => exact (region2_lhs64_1 _ _).trans hk)
  have er : dot_S8000x64_S64x32_S8000x32_1_0_0_1_n_n.rhsIdx (ix2 p q) ((ValueIdx.contrEquiv1 dot_S8000x64_S64x32_S8000x32_1_0_0_1_n_n 64 rfl rfl).symm k) = ix2 k q := funext fun a => Fin.ext (by
    match a with
    | ⟨0, _⟩ => exact (region2_rhs64_0 _ _).trans hk
    | ⟨1, _⟩ => exact region2_rhs64_1 _ _)
  rw [el, er]

/-! The product of a block of rows with a 32-row matrix, read at an entry: the contraction runs over the left
    operand's column and the right operand's row. -/

theorem region2_lhs32_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem region2_lhs32_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem region2_rhs32_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem region2_rhs32_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- Into a zero accumulator the product at `(p, q)` is `∑ k, x[p, k] · w[k, q]`. -/
theorem region2_mm32 (x : FVec Ideal S8000x32 .f32) (w : FVec Ideal S32x32 .f32) (p : Fin 8000) (q : Fin 32) :
    matmul dot_S8000x32_S32x32_S8000x32_1_0_0_1_n_n (some .fp32) x w (constant (F := Ideal) S8000x32 .f32 0x00000000#32) (ix2 p q)
      = ∑ k : Fin 32, x (ix2 p k) * w (ix2 k q) := by
  refine (Ideal.matmul_constant_zero_apply dot_S8000x32_S32x32_S8000x32_1_0_0_1_n_n (some .fp32) x w (ix2 p q)).trans ?_
  rw [← Equiv.sum_comp (ValueIdx.contrEquiv1 dot_S8000x32_S32x32_S8000x32_1_0_0_1_n_n 32 rfl rfl).symm]
  refine Finset.sum_congr rfl fun k _ => ?_
  have hk := ValueIdx.contrEquiv1_symm_val dot_S8000x32_S32x32_S8000x32_1_0_0_1_n_n 32 rfl rfl k
  have el : dot_S8000x32_S32x32_S8000x32_1_0_0_1_n_n.lhsIdx (ix2 p q) ((ValueIdx.contrEquiv1 dot_S8000x32_S32x32_S8000x32_1_0_0_1_n_n 32 rfl rfl).symm k) = ix2 p k := funext fun a => Fin.ext (by
    match a with
    | ⟨0, _⟩ => exact region2_lhs32_0 _ _
    | ⟨1, _⟩ => exact (region2_lhs32_1 _ _).trans hk)
  have er : dot_S8000x32_S32x32_S8000x32_1_0_0_1_n_n.rhsIdx (ix2 p q) ((ValueIdx.contrEquiv1 dot_S8000x32_S32x32_S8000x32_1_0_0_1_n_n 32 rfl rfl).symm k) = ix2 k q := funext fun a => Fin.ext (by
    match a with
    | ⟨0, _⟩ => exact (region2_rhs32_0 _ _).trans hk
    | ⟨1, _⟩ => exact region2_rhs32_1 _ _)
  rw [el, er]

/-- The clamped hidden block at `(p, q)`: the four products, added left to right, plus the bias row, clamped at zero.
    The two edge blocks are clamped entry by entry before their products. -/
theorem region2_pay2_apply (e2 e1 : Vec Ideal S8000x32 .f32) (xr : Vec Ideal S8000x64 .f32) (w0 : Vec Ideal S64x32 .f32)
    (xc : Vec Ideal S8000x64 .f32) (w1 : Vec Ideal S64x32 .f32) (w2 w3 : Vec Ideal S32x32 .f32) (b : Vec Ideal S1x32 .f32)
    (p : Fin 8000) (q : Fin 32) :
    k2_pay2 (F := Ideal) e2 e1 xr w0 xc w1 w2 w3 b (ix2 p q)
      = relu (hid4 (rowOf (xr : A2 8000 64) p) (rowOf (xc : A2 8000 64) p) (fun a => relu (rowOf (e2 : A2 8000 32) p a))
          (fun a => relu (rowOf (e1 : A2 8000 32) p a)) (w0 : A2 64 32) (w1 : A2 64 32) (w2 : A2 32 32) (w3 : A2 32 32) (vecRow (b : A2 1 32)) q) := by
  unfold k2_pay2
  simp only [shapeCast_self]
  rw [maximumf_apply, broadcast_apply, addf_apply, addf_apply, addf_apply, addf_apply, region2_mm64, region2_mm64,
    region2_mm32, region2_mm32, broadcastTo_1b_ab_apply]
  rfl

/-- The stored block at `(p, q)`: the clamped hidden row of edge `p` through the second matrix, plus the second bias row. -/
theorem region2_pay1_apply (h : FVec Ideal S8000x32 .f32) (w : Vec Ideal S32x32 .f32) (b : Vec Ideal S1x32 .f32)
    (p : Fin 8000) (q : Fin 32) :
    k2_pay1 (F := Ideal) h w b (ix2 p q) = aff (rowOf (h : A2 8000 32) p) (w : A2 32 32) (vecRow (b : A2 1 32)) q := by
  unfold k2_pay1
  simp only [shapeCast_self]
  rw [addf_apply, region2_mm32, broadcastTo_1b_ab_apply]
  rfl

/-- One entry of the stored block from what the input blocks hold. When row `p` of each streamed block is row `e` of its
    array, the four weight blocks are the four row ranges of `w30`, and the bias blocks are `b30`, `b31` as one row, entry
    `(p, q)` is layer 3's row `e` at column `q`: it depends on edge `e` alone. -/
theorem region2_point (x0 x1 : Vec Ideal S8000x64 .f32) (x2 x3 : Vec Ideal S8000x32 .f32) (x4 x5 : Vec Ideal S64x32 .f32)
    (x6 x7 : Vec Ideal S32x32 .f32) (x8 : Vec Ideal S1x32 .f32) (x9 : Vec Ideal S32x32 .f32) (x10 : Vec Ideal S1x32 .f32)
    (xr xc : A2 400000 64) (e2 e1 : A2 400000 32) (w30 : A2 192 32) (b30 : A1 32) (w31 : A2 32 32) (b31 : A1 32)
    (p : Fin 8000) (q : Fin 32) (e : Fin 400000)
    (hx0 : ∀ k : Fin 64, x0 (ix2 p k) = xr (ix2 e k)) (hx1 : ∀ k : Fin 64, x1 (ix2 p k) = xc (ix2 e k))
    (hx2 : ∀ k : Fin 32, x2 (ix2 p k) = e2 (ix2 e k)) (hx3 : ∀ k : Fin 32, x3 (ix2 p k) = e1 (ix2 e k))
    (hx4 : (x4 : A2 64 32) = rows w30 0 64 (by omega)) (hx5 : (x5 : A2 64 32) = rows w30 64 64 (by omega))
    (hx6 : (x6 : A2 32 32) = rows w30 128 32 (by omega)) (hx7 : (x7 : A2 32 32) = rows w30 160 32 (by omega))
    (hx8 : ∀ k : Fin 32, x8 (ix2 0 k) = b30 (ix1 k)) (hx9 : (x9 : A2 32 32) = w31)
    (hx10 : ∀ k : Fin 32, x10 (ix2 0 k) = b31 (ix1 k)) :
    k2_pay1 (F := Ideal) (k2_pay2 x2 x3 x0 x4 x1 x5 x6 x7 x8) x9 x10 (ix2 p q)
      = rowL (H3 xr xc e2 e1 w30 b30 e) w31 (vec1 b31) q := by
  have r0 : rowOf (x0 : A2 8000 64) p = rowOf xr e := funext hx0
  have r1 : rowOf (x1 : A2 8000 64) p = rowOf xc e := funext hx1
  have r2 : (fun a => relu (rowOf (x2 : A2 8000 32) p a)) = fun a => relu (rowOf e2 e a) := funext fun a => congrArg relu (hx2 a)
  have r3 : (fun a => relu (rowOf (x3 : A2 8000 32) p a)) = fun a => relu (rowOf e1 e a) := funext fun a => congrArg relu (hx3 a)
  have v8 : vecRow (x8 : A2 1 32) = vec1 b30 := funext hx8
  have v10 : vecRow (x10 : A2 1 32) = vec1 b31 := funext hx10
  rw [region2_pay1_apply]
  unfold rowL H3
  rw [← r0, ← r1, ← r2, ← r3, ← hx4, ← hx5, ← hx6, ← hx7, ← v8, ← hx9, ← v10]
  refine congrArg (fun r => aff r (x9 : A2 32 32) (vecRow (x10 : A2 1 32)) q) (funext fun k => ?_)
  exact region2_pay2_apply x2 x3 x0 x4 x1 x5 x6 x7 x8 p k

theorem region2_hz : (![0, 0] : Fin 2 → Nat) = fun _ => 0 := funext fun a => by fin_cases a <;> rfl

/-- The printed index maps, decided once over the fifty points: the four streamed windows and the output sit at block
    `(t, 0)` at point `t`; the weight and bias windows sit at block `(0, 0)` at every point. -/
theorem region2_idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-! Each input block read where the point's rectangle says: a block's coordinate on an axis is its index times the
    block's extent plus the coordinate inside the block. -/

/-- Streamed window 0 at point `t`: row `p` of the block is row `8000 t + p` of the array. -/
theorem region2_blk0 (c : Dev nD) (t : Fin cfg2.N) (p : Fin 8000) (k : Fin 64) (hr : t.val * 8000 + p.val < 400000) :
    (iblk2 (F := Ideal) V c 0 t : S8000x64.Idx → EReal) (ix2 p k)
      = (V c main_v35 : S400000x64.Idx → EReal) (ix2 ⟨t.val * 8000 + p.val, hr⟩ k) := by
  obtain ⟨⟨fa, fb⟩, -, -, -, -, -, -, -, -, -, -, -⟩ := region2_idx_facts t
  show V c main_v35 (((cfg2.win 0).blk t).view.emb (ix2 p k)) = V c main_v35 (ix2 ⟨t.val * 8000 + p.val, hr⟩ k)
  refine congrArg _ (funext fun a => Fin.ext ?_)
  match a with
  | ⟨0, _⟩ => show win2_0.index t (0 : Fin 2) * 8000 + 1 * p.val = t.val * 8000 + p.val; rw [fa]; omega
  | ⟨1, _⟩ => show win2_0.index t (1 : Fin 2) * 64 + 1 * k.val = k.val; rw [fb]; omega

/-- Streamed window 1 at point `t`: row `p` of the block is row `8000 t + p` of the array. -/
theorem region2_blk1 (c : Dev nD) (t : Fin cfg2.N) (p : Fin 8000) (k : Fin 64) (hr : t.val * 8000 + p.val < 400000) :
    (iblk2 (F := Ideal) V c 1 t : S8000x64.Idx → EReal) (ix2 p k)
      = (V c main_v36 : S400000x64.Idx → EReal) (ix2 ⟨t.val * 8000 + p.val, hr⟩ k) := by
  obtain ⟨-, ⟨fa, fb⟩, -, -, -, -, -, -, -, -, -, -⟩ := region2_idx_facts t
  show V c main_v36 (((cfg2.win 1).blk t).view.emb (ix2 p k)) = V c main_v36 (ix2 ⟨t.val * 8000 + p.val, hr⟩ k)
  refine congrArg _ (funext fun a => Fin.ext ?_)
  match a with
  | ⟨0, _⟩ => show win2_1.index t (0 : Fin 2) * 8000 + 1 * p.val = t.val * 8000 + p.val; rw [fa]; omega
  | ⟨1, _⟩ => show win2_1.index t (1 : Fin 2) * 64 + 1 * k.val = k.val; rw [fb]; omega

/-- Streamed window 2 at point `t`: row `p` of the block is row `8000 t + p` of the array. -/
theorem region2_blk2 (c : Dev nD) (t : Fin cfg2.N) (p : Fin 8000) (k : Fin 32) (hr : t.val * 8000 + p.val < 400000) :
    (iblk2 (F := Ideal) V c 2 t : S8000x32.Idx → EReal) (ix2 p k)
      = (V c main_v27 : S400000x32.Idx → EReal) (ix2 ⟨t.val * 8000 + p.val, hr⟩ k) := by
  obtain ⟨-, -, ⟨fa, fb⟩, -, -, -, -, -, -, -, -, -⟩ := region2_idx_facts t
  show V c main_v27 (((cfg2.win 2).blk t).view.emb (ix2 p k)) = V c main_v27 (ix2 ⟨t.val * 8000 + p.val, hr⟩ k)
  refine congrArg _ (funext fun a => Fin.ext ?_)
  match a with
  | ⟨0, _⟩ => show win2_2.index t (0 : Fin 2) * 8000 + 1 * p.val = t.val * 8000 + p.val; rw [fa]; omega
  | ⟨1, _⟩ => show win2_2.index t (1 : Fin 2) * 32 + 1 * k.val = k.val; rw [fb]; omega

/-- Streamed window 3 at point `t`: row `p` of the block is row `8000 t + p` of the array. -/
theorem region2_blk3 (c : Dev nD) (t : Fin cfg2.N) (p : Fin 8000) (k : Fin 32) (hr : t.val * 8000 + p.val < 400000) :
    (iblk2 (F := Ideal) V c 3 t : S8000x32.Idx → EReal) (ix2 p k)
      = (V c main_v6 : S400000x32.Idx → EReal) (ix2 ⟨t.val * 8000 + p.val, hr⟩ k) := by
  obtain ⟨-, -, -, ⟨fa, fb⟩, -, -, -, -, -, -, -, -⟩ := region2_idx_facts t
  show V c main_v6 (((cfg2.win 3).blk t).view.emb (ix2 p k)) = V c main_v6 (ix2 ⟨t.val * 8000 + p.val, hr⟩ k)
  refine congrArg _ (funext fun a => Fin.ext ?_)
  match a with
  | ⟨0, _⟩ => show win2_3.index t (0 : Fin 2) * 8000 + 1 * p.val = t.val * 8000 + p.val; rw [fa]; omega
  | ⟨1, _⟩ => show win2_3.index t (1 : Fin 2) * 32 + 1 * k.val = k.val; rw [fb]; omega

/-- Window 4 is one block, the whole array, at every point. -/
theorem region2_blk4 (c : Dev nD) (t : Fin cfg2.N) :
    (iblk2 (F := Ideal) V c 4 t : S64x32.Idx → EReal) = (V c main_v37 : S64x32.Idx → EReal) := by
  obtain ⟨-, -, -, -, ⟨fa, fb⟩, -, -, -, -, -, -, -⟩ := region2_idx_facts t
  funext y
  show V c main_v37 (((cfg2.win 4).blk t).view.emb y) = V c main_v37 y
  refine congrArg _ (funext fun a => Fin.ext ?_)
  match a with
  | ⟨0, _⟩ => show win2_4.index t (0 : Fin 2) * 64 + 1 * (y 0).val = (y 0).val; rw [fa]; omega
  | ⟨1, _⟩ => show win2_4.index t (1 : Fin 2) * 32 + 1 * (y 1).val = (y 1).val; rw [fb]; omega

/-- Window 5 is one block, the whole array, at every point. -/
theorem region2_blk5 (c : Dev nD) (t : Fin cfg2.N) :
    (iblk2 (F := Ideal) V c 5 t : S64x32.Idx → EReal) = (V c main_v38 : S64x32.Idx → EReal) := by
  obtain ⟨-, -, -, -, -, ⟨fa, fb⟩, -, -, -, -, -, -⟩ := region2_idx_facts t
  funext y
  show V c main_v38 (((cfg2.win 5).blk t).view.emb y) = V c main_v38 y
  refine congrArg _ (funext fun a => Fin.ext ?_)
  match a with
  | ⟨0, _⟩ => show win2_5.index t (0 : Fin 2) * 64 + 1 * (y 0).val = (y 0).val; rw [fa]; omega
  | ⟨1, _⟩ => show win2_5.index t (1 : Fin 2) * 32 + 1 * (y 1).val = (y 1).val; rw [fb]; omega

/-- Window 6 is one block, the whole array, at every point. -/
theorem region2_blk6 (c : Dev nD) (t : Fin cfg2.N) :
    (iblk2 (F := Ideal) V c 6 t : S32x32.Idx → EReal) = (V c main_v39 : S32x32.Idx → EReal) := by
  obtain ⟨-, -, -, -, -, -, ⟨fa, fb⟩, -, -, -, -, -⟩ := region2_idx_facts t
  funext y
  show V c main_v39 (((cfg2.win 6).blk t).view.emb y) = V c main_v39 y
  refine congrArg _ (funext fun a => Fin.ext ?_)
  match a with
  | ⟨0, _⟩ => show win2_6.index t (0 : Fin 2) * 32 + 1 * (y 0).val = (y 0).val; rw [fa]; omega
  | ⟨1, _⟩ => show win2_6.index t (1 : Fin 2) * 32 + 1 * (y 1).val = (y 1).val; rw [fb]; omega

/-- Window 7 is one block, the whole array, at every point. -/
theorem region2_blk7 (c : Dev nD) (t : Fin cfg2.N) :
    (iblk2 (F := Ideal) V c 7 t : S32x32.Idx → EReal) = (V c main_v40 : S32x32.Idx → EReal) := by
  obtain ⟨-, -, -, -, -, -, -, ⟨fa, fb⟩, -, -, -, -⟩ := region2_idx_facts t
  funext y
  show V c main_v40 (((cfg2.win 7).blk t).view.emb y) = V c main_v40 y
  refine congrArg _ (funext fun a => Fin.ext ?_)
  match a with
  | ⟨0, _⟩ => show win2_7.index t (0 : Fin 2) * 32 + 1 * (y 0).val = (y 0).val; rw [fa]; omega
  | ⟨1, _⟩ => show win2_7.index t (1 : Fin 2) * 32 + 1 * (y 1).val = (y 1).val; rw [fb]; omega

/-- Window 8 is one block, the whole array, at every point. -/
theorem region2_blk8 (c : Dev nD) (t : Fin cfg2.N) :
    (iblk2 (F := Ideal) V c 8 t : S1x32.Idx → EReal) = (V c main_v41 : S1x32.Idx → EReal) := by
  obtain ⟨-, -, -, -, -, -, -, -, ⟨fa, fb⟩, -, -, -⟩ := region2_idx_facts t
  funext y
  show V c main_v41 (((cfg2.win 8).blk t).view.emb y) = V c main_v41 y
  refine congrArg _ (funext fun a => Fin.ext ?_)
  match a with
  | ⟨0, _⟩ => show win2_8.index t (0 : Fin 2) * 1 + 1 * (y 0).val = (y 0).val; rw [fa]; omega
  | ⟨1, _⟩ => show win2_8.index t (1 : Fin 2) * 32 + 1 * (y 1).val = (y 1).val; rw [fb]; omega

/-- Window 9 is one block, the whole array, at every point. -/
theorem region2_blk9 (c : Dev nD) (t : Fin cfg2.N) :
    (iblk2 (F := Ideal) V c 9 t : S32x32.Idx → EReal) = (V c main_arg14 : S32x32.Idx → EReal) := by
  obtain ⟨-, -, -, -, -, -, -, -, -, ⟨fa, fb⟩, -, -⟩ := region2_idx_facts t
  funext y
  show V c main_arg14 (((cfg2.win 9).blk t).view.emb y) = V c main_arg14 y
  refine congrArg _ (funext fun a => Fin.ext ?_)
  match a with
  | ⟨0, _⟩ => show win2_9.index t (0 : Fin 2) * 32 + 1 * (y 0).val = (y 0).val; rw [fa]; omega
  | ⟨1, _⟩ => show win2_9.index t (1 : Fin 2) * 32 + 1 * (y 1).val = (y 1).val; rw [fb]; omega

/-- Window 10 is one block, the whole array, at every point. -/
theorem region2_blk10 (c : Dev nD) (t : Fin cfg2.N) :
    (iblk2 (F := Ideal) V c 10 t : S1x32.Idx → EReal) = (V c main_v42 : S1x32.Idx → EReal) := by
  obtain ⟨-, -, -, -, -, -, -, -, -, -, ⟨fa, fb⟩, -⟩ := region2_idx_facts t
  funext y
  show V c main_v42 (((cfg2.win 10).blk t).view.emb y) = V c main_v42 y
  refine congrArg _ (funext fun a => Fin.ext ?_)
  match a with
  | ⟨0, _⟩ => show win2_10.index t (0 : Fin 2) * 1 + 1 * (y 0).val = (y 0).val; rw [fa]; omega
  | ⟨1, _⟩ => show win2_10.index t (1 : Fin 2) * 32 + 1 * (y 1).val = (y 1).val; rw [fb]; omega

/-- WHAT POINT `t` WRITES BACK is block `t` of layer 3 of the region's input arrays: entry `(p, q)` of the stored block is
    layer 3's row `8000 t + p` at column `q`. -/
theorem region2_flushed (c : Dev nD)
    (xr xc : A2 400000 64) (e2 e1 : A2 400000 32) (w30 : A2 192 32) (b30 : A1 32) (w31 : A2 32 32) (b31 : A1 32)
    (h0 : (V c main_v35 : S400000x64.Idx → EReal) = xr)
    (h1 : (V c main_v36 : S400000x64.Idx → EReal) = xc)
    (h2 : (V c main_v27 : S400000x32.Idx → EReal) = e2)
    (h3 : (V c main_v6 : S400000x32.Idx → EReal) = e1)
    (h4 : (V c main_v37 : S64x32.Idx → EReal) = rows w30 0 64 (by omega))
    (h5 : (V c main_v38 : S64x32.Idx → EReal) = rows w30 64 64 (by omega))
    (h6 : (V c main_v39 : S32x32.Idx → EReal) = rows w30 128 32 (by omega))
    (h7 : (V c main_v40 : S32x32.Idx → EReal) = rows w30 160 32 (by omega))
    (h8 : ∀ k : Fin 32, (V c main_v41 : S1x32.Idx → EReal) (ix2 0 k) = b30 (ix1 k))
    (h9 : (V c main_arg14 : S32x32.Idx → EReal) = w31)
    (h10 : ∀ k : Fin 32, (V c main_v42 : S1x32.Idx → EReal) (ix2 0 k) = b31 (ix1 k)) (t : Fin cfg2.N) :
    (dat2 (F := Ideal) V c).flushed 11 t
      = ((cfg2.win 11).blk t).view.read (Elt Ideal) (G3 xr xc e2 e1 w30 b30 w31 b31) := by
  show (cfg2.win 11).cut (grid2.coords t) ((dat2 V c).after 11 t) = _
  rw [after2_11]
  unfold out2_11
  rw [View.canon_unit_zero region2_hz]
  simp only [View.ld_unit_zero (S := S8000x32) region2_hz, View.ld_unit_zero (S := S8000x64) region2_hz,
    View.ld_unit_zero (S := S64x32) region2_hz, View.ld_unit_zero (S := S32x32) region2_hz, View.ld_unit_zero (S := S1x32) region2_hz]
  obtain ⟨-, -, -, -, -, -, -, -, -, -, -, ⟨fa, fb⟩⟩ := region2_idx_facts t
  have hN : t.val < 50 := lt_of_lt_of_eq t.isLt N_2
  funext j
  obtain ⟨p, q, rfl⟩ : ∃ (p : Fin 8000) (q : Fin 32), j = ix2 p q :=
    ⟨⟨(j 0).val, idx2_lt0 j⟩, ⟨(j 1).val, idx2_lt1 j⟩, by funext a; match a with | ⟨0, _⟩ => rfl | ⟨1, _⟩ => rfl⟩
  have hr : t.val * 8000 + p.val < 400000 := by have := p.isLt; omega
  show k2_pay1 (F := Ideal) (k2_pay2 (iblk2 V c 2 t) (iblk2 V c 3 t) (iblk2 V c 0 t) (iblk2 V c 4 t) (iblk2 V c 1 t) (iblk2 V c 5 t)
      (iblk2 V c 6 t) (iblk2 V c 7 t) (iblk2 V c 8 t)) (iblk2 V c 9 t) (iblk2 V c 10 t) (ix2 p q)
    = G3 xr xc e2 e1 w30 b30 w31 b31 (((cfg2.win 11).blk t).view.emb (ix2 p q))
  have ei : ((cfg2.win 11).blk t).view.emb (ix2 p q) = (ix2 ⟨t.val * 8000 + p.val, hr⟩ q : S400000x32.Idx) :=
    funext fun a => Fin.ext (by
      match a with
      | ⟨0, _⟩ => show win2_11.index t (0 : Fin 2) * 8000 + 1 * p.val = t.val * 8000 + p.val; rw [fa]; omega
      | ⟨1, _⟩ => show win2_11.index t (1 : Fin 2) * 32 + 1 * q.val = q.val; rw [fb]; omega)
  rw [ei]
  show _ = rowL (H3 xr xc e2 e1 w30 b30 ⟨t.val * 8000 + p.val, hr⟩) w31 (vec1 b31) q
  exact region2_point _ _ _ _ _ _ _ _ _ _ _ xr xc e2 e1 w30 b30 w31 b31 p q ⟨t.val * 8000 + p.val, hr⟩
    (fun k => (region2_blk0 V c t p k hr).trans (congrFun h0 _))
    (fun k => (region2_blk1 V c t p k hr).trans (congrFun h1 _))
    (fun k => (region2_blk2 V c t p k hr).trans (congrFun h2 _))
    (fun k => (region2_blk3 V c t p k hr).trans (congrFun h3 _))
    ((region2_blk4 V c t).trans h4) ((region2_blk5 V c t).trans h5)
    ((region2_blk6 V c t).trans h6) ((region2_blk7 V c t).trans h7)
    (fun k => (congrFun (region2_blk8 V c t) _).trans (h8 k))
    ((region2_blk9 V c t).trans h9)
    (fun k => (congrFun (region2_blk10 V c t) _).trans (h10 k))

/-- An index of the array is in point `t`'s block iff each coordinate is in the block's range on its axis. -/
theorem region2_mem_blk (t : Fin cfg2.N) (i : S400000x32.Idx) :
    i ∈ ((cfg2.win 11).blk t).view.set ↔ ∀ a : Fin 2, win2_11.index t a * S8000x32.size a ≤ (i a).val
      ∧ (i a).val < win2_11.index t a * S8000x32.size a + S8000x32.size a := by
  show i ∈ ((View.whole main_v43).slice (win2_11.rect t)).set ↔ _
  rw [View.set_slice_whole, Rect.mem_set_unit]
  exact Iff.rfl

/-- Every row `r` of the output lies in the block of point `r / 8000`, whose column range is whole: the fifty blocks
    cover the array. -/
theorem region2_cover (i : S400000x32.Idx) :
    ∃ t : Fin cfg2.N, (cfg2.win 11).flush t = true ∧ i ∈ ((cfg2.win 11).blk t).view.set := by
  have hi0 : (i 0).val < 400000 := idx2_lt0 i
  have hi1 : (i 1).val < 32 := idx2_lt1 i
  obtain ⟨t, ht⟩ : ∃ t : Fin cfg2.N, t.val = (i 0).val / 8000 :=
    ⟨⟨(i 0).val / 8000, lt_of_lt_of_eq (by omega : (i 0).val / 8000 < 50) N_2.symm⟩, rfl⟩
  obtain ⟨-, -, -, -, -, -, -, -, -, -, -, ⟨fa, fb⟩⟩ := region2_idx_facts t
  refine ⟨t, flush2_11 t, ?_⟩
  rw [region2_mem_blk]
  intro a
  match a with
  | ⟨0, _⟩ =>
    show win2_11.index t (0 : Fin 2) * 8000 ≤ (i 0).val ∧ (i 0).val < win2_11.index t (0 : Fin 2) * 8000 + 8000
    rw [fa]; omega
  | ⟨1, _⟩ =>
    show win2_11.index t (1 : Fin 2) * 32 ≤ (i 1).val ∧ (i 1).val < win2_11.index t (1 : Fin 2) * 32 + 32
    rw [fb]; omega

end R2aux

open R2aux

/-- After the run, the output array of region 2 is layer 3 of the region's input arrays, entry by entry. The four weight
    windows hold rows 0–63, 64–127, 128–159 and 160–191 of `w30`; the bias windows hold `b30`, `b31` as one row. -/
theorem region2_value (c : Dev nD)
    (xr xc : A2 400000 64) (e2 e1 : A2 400000 32) (w30 : A2 192 32) (b30 : A1 32) (w31 : A2 32 32) (b31 : A1 32)
    (h0 : (V c main_v35 : S400000x64.Idx → EReal) = xr)
    (h1 : (V c main_v36 : S400000x64.Idx → EReal) = xc)
    (h2 : (V c main_v27 : S400000x32.Idx → EReal) = e2)
    (h3 : (V c main_v6 : S400000x32.Idx → EReal) = e1)
    (h4 : (V c main_v37 : S64x32.Idx → EReal) = rows w30 0 64 (by omega))
    (h5 : (V c main_v38 : S64x32.Idx → EReal) = rows w30 64 64 (by omega))
    (h6 : (V c main_v39 : S32x32.Idx → EReal) = rows w30 128 32 (by omega))
    (h7 : (V c main_v40 : S32x32.Idx → EReal) = rows w30 160 32 (by omega))
    (h8 : ∀ k : Fin 32, (V c main_v41 : S1x32.Idx → EReal) (ix2 0 k) = b30 (ix1 k))
    (h9 : (V c main_arg14 : S32x32.Idx → EReal) = w31)
    (h10 : ∀ k : Fin 32, (V c main_v42 : S1x32.Idx → EReal) (ix2 0 k) = b31 (ix1 k)) :
    ((dat2 (F := Ideal) V c).arrAt 11 cfg2.N : S400000x32.Idx → EReal) = G3 xr xc e2 e1 w30 b30 w31 b31 := by
  exact (dat2 (F := Ideal) V c).arrAt_eq_of_cover 11 (G3 xr xc e2 e1 w30 b30 w31 b31)
    (fun t _ => region2_flushed V c xr xc e2 e1 w30 b30 w31 b31 h0 h1 h2 h3 h4 h5 h6 h7 h8 h9 h10 t)
    region2_cover

end Cert.KernelIdeal.Regions

end
-- ==== Proof.WalkC.lean ====
/-
  The buffer contents from region 1's exit to region 2's exit. Between the second and third kernels @main averages the
  layer-2 rows over each target node and clamps, sets those node means beside layer 1's, gathers the 64-wide node rows at
  each edge's two endpoints, cuts the 192-row weight matrix into its four row ranges and reshapes two bias vectors. The
  third kernel then leaves the layer-3 rows in its output array, and every other buffer as it was.
-/
import proofs.«411902_j85581518340249_3_alg».proof.Proof.Gen.KernelIdeal.Frame
import proofs.«411902_j85581518340249_3_alg».proof.Proof.Keep
import proofs.«411902_j85581518340249_3_alg».proof.Proof.KChain
import proofs.«411902_j85581518340249_3_alg».proof.Proof.Region2
import proofs.«411902_j85581518340249_3_alg».proof.Proof.WalkA
import proofs.«411902_j85581518340249_3_alg».proof.Proof.WalkB
import Idealize.ShloMosaic.PureOps.Ideal
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Walk

open Cert.KernelIdeal Cert.KernelIdeal.Gen Cert.KernelIdeal.Regions Cert.Spec
open Idealize.ShloMosaic Idealize.ShloMosaic.TcCoe Idealize.ShloMosaic.Tactic Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-! ## Carried across region 1's exit and the stretches after it -/

theorem W8_v1 : W8 m ρ c (Proc.devRef .tc main_v1) = Chain.row (argOf m c main_arg1) :=
  (W8_of_ne m ρ c main_v1 (by decide)).trans ((keep_2_7 m ρ c main_v1 (by decide)).trans (W2_v1 m ρ c))
theorem W8_v3 : W8 m ρ c (Proc.devRef .tc main_v3) = Chain.col (argOf m c main_arg1) :=
  (W8_of_ne m ρ c main_v3 (by decide)).trans ((keep_2_7 m ρ c main_v3 (by decide)).trans (W2_v3 m ρ c))
theorem W8_v12 : W8 m ρ c (Proc.devRef .tc main_v12) = Chain.cnt (Chain.row (argOf m c main_arg1)) :=
  (W8_of_ne m ρ c main_v12 (by decide)).trans (W7_v12 m ρ c)
theorem W8_v18 : W8 m ρ c (Proc.devRef .tc main_v18) = Chain.X1 (argOf m c main_arg1) (argOf m c main_arg2) (argOf m c main_arg4) (argOf m c main_arg5) (argOf m c main_arg6) (argOf m c main_arg7) :=
  (W8_of_ne m ρ c main_v18 (by decide)).trans (W7_v18 m ρ c)
theorem W14_v6 : W14 m ρ c (Proc.devRef .tc main_v6) = Chain.E1 (argOf m c main_arg2) (argOf m c main_arg4) (argOf m c main_arg5) (argOf m c main_arg6) (argOf m c main_arg7) :=
  (keep_8_14 m ρ c main_v6 (by decide)).trans ((thru1 m ρ c 3 rfl).trans (W7_v6 m ρ c))
theorem W14_v27 : W14 m ρ c (Proc.devRef .tc main_v27) = Chain.E2 (argOf m c main_arg1) (argOf m c main_arg2) (argOf m c main_arg4) (argOf m c main_arg5) (argOf m c main_arg6) (argOf m c main_arg7) (argOf m c main_arg8) (argOf m c main_arg9) (argOf m c main_arg10) (argOf m c main_arg11) :=
  (keep_8_14 m ρ c main_v27 (by decide)).trans (W8_v27 m ρ c)

/-! ## Computed between the regions, one stretch at a time

Each lemma opens only the stretches since the previous named boundary, whose contents are a variable while they are
opened: what the stretch computes is then one operation applied to buffers whose contents the earlier lemmas name. -/

/-- Across the first two stretches after region 1 a buffer they do not define keeps its contents. -/
theorem keep_8_10 (b : Ref sig .tc) (hb : b ∉ wr2) : W10 m ρ c (Proc.devRef .tc b) = W8 m ρ c (Proc.devRef .tc b) :=
  (StableHlo.after_of_writes_sub hostOps2_1 _ hW_hostOps2_1 hb).trans (StableHlo.after_of_writes_sub hostOps2 _ hW_hostOps2 hb)
/-- And across the first three. -/
theorem keep_8_11 (b : Ref sig .tc) (hb : b ∉ wr2) : W11 m ρ c (Proc.devRef .tc b) = W8 m ρ c (Proc.devRef .tc b) :=
  (StableHlo.after_of_writes_sub hostOps2_2 _ hW_hostOps2_2 hb).trans (keep_8_10 m ρ c b hb)
/-- And across the first four. -/
theorem keep_8_12 (b : Ref sig .tc) (hb : b ∉ wr2) : W12 m ρ c (Proc.devRef .tc b) = W8 m ρ c (Proc.devRef .tc b) :=
  (StableHlo.after_of_writes_sub hostOps2_3 _ hW_hostOps2_3 hb).trans (keep_8_11 m ρ c b hb)

set_option maxHeartbeats 2000000 in
/-- The node means of layer 2. -/
theorem W10_v33 : W10 m ρ c (Proc.devRef .tc main_v33) = Chain.X2 (argOf m c main_arg1) (argOf m c main_arg2) (argOf m c main_arg4) (argOf m c main_arg5) (argOf m c main_arg6) (argOf m c main_arg7) (argOf m c main_arg8) (argOf m c main_arg9) (argOf m c main_arg10) (argOf m c main_arg11) := by
  show StableHlo.after hostOps2_1 (StableHlo.after hostOps2 (W8 m ρ c)) _ = _
  simp only [hostOps2_1, hostOps2]
  after_results
  simp only [W8_v1 m ρ c, W8_v12 m ρ c, W8_v27 m ρ c]
  rfl
/-- Layer 2's node means beside layer 1's. -/
theorem W11_v34 : W11 m ρ c (Proc.devRef .tc main_v34) = Chain.X21 (argOf m c main_arg1) (argOf m c main_arg2) (argOf m c main_arg4) (argOf m c main_arg5) (argOf m c main_arg6) (argOf m c main_arg7) (argOf m c main_arg8) (argOf m c main_arg9) (argOf m c main_arg10) (argOf m c main_arg11) := by
  show StableHlo.after hostOps2_2 (W10 m ρ c) _ = _
  generalize hW : W10 m ρ c = Wv
  simp only [hostOps2_2]
  after_results
  subst hW
  rw [W10_v33 m ρ c, keep_8_10 m ρ c main_v18 (by decide), W8_v18 m ρ c]
  rfl
/-- Layer 3's gathered rows at each edge's target node. -/
theorem W12_v35 : W12 m ρ c (Proc.devRef .tc main_v35) = Chain.take64 (Chain.X21 (argOf m c main_arg1) (argOf m c main_arg2) (argOf m c main_arg4) (argOf m c main_arg5) (argOf m c main_arg6) (argOf m c main_arg7) (argOf m c main_arg8) (argOf m c main_arg9) (argOf m c main_arg10) (argOf m c main_arg11)) (Chain.row (argOf m c main_arg1)) := by
  show StableHlo.after hostOps2_3 (W11 m ρ c) _ = _
  generalize hW : W11 m ρ c = Wv
  simp only [hostOps2_3]
  after_results
  subst hW
  simp only [W11_v34 m ρ c, keep_8_11 m ρ c main_v1 (by decide), W8_v1 m ρ c]
  rfl
theorem W12_v34 : W12 m ρ c (Proc.devRef .tc main_v34) = Chain.X21 (argOf m c main_arg1) (argOf m c main_arg2) (argOf m c main_arg4) (argOf m c main_arg5) (argOf m c main_arg6) (argOf m c main_arg7) (argOf m c main_arg8) (argOf m c main_arg9) (argOf m c main_arg10) (argOf m c main_arg11) := by
  show StableHlo.after hostOps2_3 (W11 m ρ c) _ = _
  generalize hW : W11 m ρ c = Wv
  simp only [hostOps2_3]
  after_results
  subst hW
  exact W11_v34 m ρ c
/-- Layer 3's gathered rows at each edge's source node. -/
theorem W13_v36 : W13 m ρ c (Proc.devRef .tc main_v36) = Chain.take64 (Chain.X21 (argOf m c main_arg1) (argOf m c main_arg2) (argOf m c main_arg4) (argOf m c main_arg5) (argOf m c main_arg6) (argOf m c main_arg7) (argOf m c main_arg8) (argOf m c main_arg9) (argOf m c main_arg10) (argOf m c main_arg11)) (Chain.col (argOf m c main_arg1)) := by
  show StableHlo.after hostOps2_4 (W12 m ρ c) _ = _
  generalize hW : W12 m ρ c = Wv
  simp only [hostOps2_4]
  after_results
  subst hW
  simp only [W12_v34 m ρ c, keep_8_12 m ρ c main_v3 (by decide), W8_v3 m ρ c]
  rfl
theorem W14_v35 : W14 m ρ c (Proc.devRef .tc main_v35) = Chain.take64 (Chain.X21 (argOf m c main_arg1) (argOf m c main_arg2) (argOf m c main_arg4) (argOf m c main_arg5) (argOf m c main_arg6) (argOf m c main_arg7) (argOf m c main_arg8) (argOf m c main_arg9) (argOf m c main_arg10) (argOf m c main_arg11)) (Chain.row (argOf m c main_arg1)) := by
  show StableHlo.after hostOps2_5 (StableHlo.after hostOps2_4 (W12 m ρ c)) _ = _
  generalize hW : W12 m ρ c = Wv
  simp only [hostOps2_5, hostOps2_4]
  after_results
  subst hW
  exact W12_v35 m ρ c
theorem W14_v36 : W14 m ρ c (Proc.devRef .tc main_v36) = Chain.take64 (Chain.X21 (argOf m c main_arg1) (argOf m c main_arg2) (argOf m c main_arg4) (argOf m c main_arg5) (argOf m c main_arg6) (argOf m c main_arg7) (argOf m c main_arg8) (argOf m c main_arg9) (argOf m c main_arg10) (argOf m c main_arg11)) (Chain.col (argOf m c main_arg1)) := by
  show StableHlo.after hostOps2_5 (W13 m ρ c) _ = _
  generalize hW : W13 m ρ c = Wv
  simp only [hostOps2_5]
  after_results
  subst hW
  exact W13_v36 m ρ c
theorem W14_v33 : W14 m ρ c (Proc.devRef .tc main_v33) = Chain.X2 (argOf m c main_arg1) (argOf m c main_arg2) (argOf m c main_arg4) (argOf m c main_arg5) (argOf m c main_arg6) (argOf m c main_arg7) (argOf m c main_arg8) (argOf m c main_arg9) (argOf m c main_arg10) (argOf m c main_arg11) := by
  show StableHlo.after hostOps2_5 (StableHlo.after hostOps2_4 (StableHlo.after hostOps2_3 (StableHlo.after hostOps2_2 (W10 m ρ c)))) _ = _
  generalize hW : W10 m ρ c = Wv
  simp only [hostOps2_5, hostOps2_4, hostOps2_3, hostOps2_2]
  after_results
  subst hW
  exact W10_v33 m ρ c

/-! ## The weight row ranges and the bias rows -/

theorem W14_v37 : (W14 m ρ c (Proc.devRef .tc main_v37) : S64x32.Idx → EReal) = rows (argOf m c main_arg12) 0 64 (by omega) := by
  have e : (W14 m ρ c (Proc.devRef .tc main_v37) : S64x32.Idx → EReal)
      = extractStridedSlice S64x32 ![0, 0] ((argOf m c main_arg12)) slices_S192x32_S64x32_0_0 := by
    show StableHlo.after hostOps2_5 (W13 m ρ c) (Proc.devRef .tc main_v37) = _
    simp only [hostOps2_5]
    after_results
    rw [at8 m ρ c main_arg12 (by decide) (by decide) (by decide) (by decide)]
  rw [e]
  exact slice_rows 0 64 _ _ _
theorem W14_v38 : (W14 m ρ c (Proc.devRef .tc main_v38) : S64x32.Idx → EReal) = rows (argOf m c main_arg12) 64 64 (by omega) := by
  have e : (W14 m ρ c (Proc.devRef .tc main_v38) : S64x32.Idx → EReal)
      = extractStridedSlice S64x32 ![64, 0] ((argOf m c main_arg12)) slices_S192x32_S64x32_64_0 := by
    show StableHlo.after hostOps2_5 (W13 m ρ c) (Proc.devRef .tc main_v38) = _
    simp only [hostOps2_5]
    after_results
    rw [at8 m ρ c main_arg12 (by decide) (by decide) (by decide) (by decide)]
  rw [e]
  exact slice_rows 64 64 _ _ _
theorem W14_v39 : (W14 m ρ c (Proc.devRef .tc main_v39) : S32x32.Idx → EReal) = rows (argOf m c main_arg12) 128 32 (by omega) := by
  have e : (W14 m ρ c (Proc.devRef .tc main_v39) : S32x32.Idx → EReal)
      = extractStridedSlice S32x32 ![128, 0] ((argOf m c main_arg12)) slices_S192x32_S32x32_128_0 := by
    show StableHlo.after hostOps2_5 (W13 m ρ c) (Proc.devRef .tc main_v39) = _
    simp only [hostOps2_5]
    after_results
    rw [at8 m ρ c main_arg12 (by decide) (by decide) (by decide) (by decide)]
  rw [e]
  exact slice_rows 128 32 _ _ _
theorem W14_v40 : (W14 m ρ c (Proc.devRef .tc main_v40) : S32x32.Idx → EReal) = rows (argOf m c main_arg12) 160 32 (by omega) := by
  have e : (W14 m ρ c (Proc.devRef .tc main_v40) : S32x32.Idx → EReal)
      = extractStridedSlice S32x32 ![160, 0] ((argOf m c main_arg12)) slices_S192x32_S32x32_160_0 := by
    show StableHlo.after hostOps2_5 (W13 m ρ c) (Proc.devRef .tc main_v40) = _
    simp only [hostOps2_5]
    after_results
    rw [at8 m ρ c main_arg12 (by decide) (by decide) (by decide) (by decide)]
  rw [e]
  exact slice_rows 160 32 _ _ _
theorem W14_v41 (k : Fin 32) :
    (W14 m ρ c (Proc.devRef .tc main_v41) : S1x32.Idx → EReal) (ix2 0 k) = ((argOf m c main_arg13) : S32.Idx → EReal) (ix1 k) := by
  have e : (W14 m ρ c (Proc.devRef .tc main_v41) : S1x32.Idx → EReal)
      = shapeCast S1x32 ((argOf m c main_arg13) : S32.Idx → EReal) shapeCasts_S32_S1x32 := by
    show StableHlo.after hostOps2_5 (W13 m ρ c) (Proc.devRef .tc main_v41) = _
    simp only [hostOps2_5]
    after_results
    rw [at8 m ρ c main_arg13 (by decide) (by decide) (by decide) (by decide)]
    rfl
  rw [e]
  exact shapeCast_a_1a_apply _ _ 0 k
theorem W14_v42 (k : Fin 32) :
    (W14 m ρ c (Proc.devRef .tc main_v42) : S1x32.Idx → EReal) (ix2 0 k) = ((argOf m c main_arg15) : S32.Idx → EReal) (ix1 k) := by
  have e : (W14 m ρ c (Proc.devRef .tc main_v42) : S1x32.Idx → EReal)
      = shapeCast S1x32 ((argOf m c main_arg15) : S32.Idx → EReal) shapeCasts_S32_S1x32 := by
    show StableHlo.after hostOps2_5 (W13 m ρ c) (Proc.devRef .tc main_v42) = _
    simp only [hostOps2_5]
    after_results
    rw [at8 m ρ c main_arg15 (by decide) (by decide) (by decide) (by decide)]
    rfl
  rw [e]
  exact shapeCast_a_1a_apply _ _ 0 k

/-! ## Region 2 -/

/-- Region 2 leaves the layer-3 rows in its output array. -/
theorem W15_v43 : W15 m ρ c (Proc.devRef .tc main_v43) = Chain.E3 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) :=
  (W15_arr m ρ c 11).trans (region2_value (V14 m ρ) c _ _ _ _ _ _ _ _
    (W14_v35 m ρ c) (W14_v36 m ρ c) (W14_v27 m ρ c) (W14_v6 m ρ c)
    (W14_v37 m ρ c) (W14_v38 m ρ c) (W14_v39 m ρ c) (W14_v40 m ρ c) (W14_v41 m ρ c)
    (at14 m ρ c main_arg14 (by decide) (by decide) (by decide) (by decide) (by decide)) (W14_v42 m ρ c))

end Cert.KernelIdeal.Walk

end
-- ==== Proof.WalkD.lean ====
/-
  The buffer contents from region 2's exit to the return. Between the third and fourth kernels @main averages the
  layer-3 rows over each target node and clamps, sets those node means beside layer 2's, gathers the 64-wide node rows at
  each edge's two endpoints, cuts the second 192-row weight matrix into its four row ranges and reshapes six bias vectors.
  The last kernel leaves an eight-column array; @main returns its columns 0 to 3 and its column 4.
-/
import proofs.«411902_j85581518340249_3_alg».proof.Proof.Gen.KernelIdeal.Frame
import proofs.«411902_j85581518340249_3_alg».proof.Proof.Keep
import proofs.«411902_j85581518340249_3_alg».proof.Proof.KChain
import proofs.«411902_j85581518340249_3_alg».proof.Proof.Region3
import proofs.«411902_j85581518340249_3_alg».proof.Proof.WalkA
import proofs.«411902_j85581518340249_3_alg».proof.Proof.WalkB
import proofs.«411902_j85581518340249_3_alg».proof.Proof.WalkC
import Idealize.ShloMosaic.PureOps.Ideal
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Walk

open Cert.KernelIdeal Cert.KernelIdeal.Gen Cert.KernelIdeal.Regions Cert.Spec
open Idealize.ShloMosaic Idealize.ShloMosaic.TcCoe Idealize.ShloMosaic.Tactic Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-! ## Carried across region 2's exit and the stretches after it -/

theorem W15_v1 : W15 m ρ c (Proc.devRef .tc main_v1) = Chain.row (argOf m c main_arg1) :=
  (W15_of_ne m ρ c main_v1 (by decide)).trans ((keep_8_14 m ρ c main_v1 (by decide)).trans (W8_v1 m ρ c))
theorem W15_v3 : W15 m ρ c (Proc.devRef .tc main_v3) = Chain.col (argOf m c main_arg1) :=
  (W15_of_ne m ρ c main_v3 (by decide)).trans ((keep_8_14 m ρ c main_v3 (by decide)).trans (W8_v3 m ρ c))
theorem W15_v12 : W15 m ρ c (Proc.devRef .tc main_v12) = Chain.cnt (Chain.row (argOf m c main_arg1)) :=
  (W15_of_ne m ρ c main_v12 (by decide)).trans ((keep_8_14 m ρ c main_v12 (by decide)).trans (W8_v12 m ρ c))
theorem W15_v33 : W15 m ρ c (Proc.devRef .tc main_v33) = Chain.X2 (argOf m c main_arg1) (argOf m c main_arg2) (argOf m c main_arg4) (argOf m c main_arg5) (argOf m c main_arg6) (argOf m c main_arg7) (argOf m c main_arg8) (argOf m c main_arg9) (argOf m c main_arg10) (argOf m c main_arg11) :=
  (W15_of_ne m ρ c main_v33 (by decide)).trans (W14_v33 m ρ c)
theorem W21_v27 : W21 m ρ c (Proc.devRef .tc main_v27) = Chain.E2 (argOf m c main_arg1) (argOf m c main_arg2) (argOf m c main_arg4) (argOf m c main_arg5) (argOf m c main_arg6) (argOf m c main_arg7) (argOf m c main_arg8) (argOf m c main_arg9) (argOf m c main_arg10) (argOf m c main_arg11) :=
  (keep_15_21 m ρ c main_v27 (by decide)).trans ((thru2 m ρ c 2 rfl).trans (W14_v27 m ρ c))
theorem W21_v43 : W21 m ρ c (Proc.devRef .tc main_v43) = Chain.E3 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) :=
  (keep_15_21 m ρ c main_v43 (by decide)).trans (W15_v43 m ρ c)

/-! ## Computed between the regions, one stretch at a time -/

/-- Across the first two stretches after region 2 a buffer they do not define keeps its contents. -/
theorem keep_15_17 (b : Ref sig .tc) (hb : b ∉ wr3) : W17 m ρ c (Proc.devRef .tc b) = W15 m ρ c (Proc.devRef .tc b) :=
  (StableHlo.after_of_writes_sub hostOps3_1 _ hW_hostOps3_1 hb).trans (StableHlo.after_of_writes_sub hostOps3 _ hW_hostOps3 hb)
/-- And across the first three. -/
theorem keep_15_18 (b : Ref sig .tc) (hb : b ∉ wr3) : W18 m ρ c (Proc.devRef .tc b) = W15 m ρ c (Proc.devRef .tc b) :=
  (StableHlo.after_of_writes_sub hostOps3_2 _ hW_hostOps3_2 hb).trans (keep_15_17 m ρ c b hb)
/-- And across the first four. -/
theorem keep_15_19 (b : Ref sig .tc) (hb : b ∉ wr3) : W19 m ρ c (Proc.devRef .tc b) = W15 m ρ c (Proc.devRef .tc b) :=
  (StableHlo.after_of_writes_sub hostOps3_3 _ hW_hostOps3_3 hb).trans (keep_15_18 m ρ c b hb)

set_option maxHeartbeats 2000000 in
/-- The node means of layer 3. -/
theorem W17_v49 : W17 m ρ c (Proc.devRef .tc main_v49) = Chain.X3 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) := by
  show StableHlo.after hostOps3_1 (StableHlo.after hostOps3 (W15 m ρ c)) _ = _
  simp only [hostOps3_1, hostOps3]
  after_results
  simp only [W15_v1 m ρ c, W15_v12 m ρ c, W15_v43 m ρ c]
  rfl
/-- Layer 3's node means beside layer 2's. -/
theorem W18_v50 : W18 m ρ c (Proc.devRef .tc main_v50) = Chain.X32 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) := by
  show StableHlo.after hostOps3_2 (W17 m ρ c) _ = _
  generalize hW : W17 m ρ c = Wv
  simp only [hostOps3_2]
  after_results
  subst hW
  rw [W17_v49 m ρ c, keep_15_17 m ρ c main_v33 (by decide), W15_v33 m ρ c]
  rfl
/-- Layer 4's gathered rows at each edge's target node. -/
theorem W19_v51 : W19 m ρ c (Proc.devRef .tc main_v51) = Chain.take64 (Chain.X32 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15)) (Chain.row (argOf m c main_arg1)) := by
  show StableHlo.after hostOps3_3 (W18 m ρ c) _ = _
  generalize hW : W18 m ρ c = Wv
  simp only [hostOps3_3]
  after_results
  subst hW
  simp only [W18_v50 m ρ c, keep_15_18 m ρ c main_v1 (by decide), W15_v1 m ρ c]
  rfl
theorem W19_v50 : W19 m ρ c (Proc.devRef .tc main_v50) = Chain.X32 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) := by
  show StableHlo.after hostOps3_3 (W18 m ρ c) _ = _
  generalize hW : W18 m ρ c = Wv
  simp only [hostOps3_3]
  after_results
  subst hW
  exact W18_v50 m ρ c
/-- Layer 4's gathered rows at each edge's source node. -/
theorem W20_v52 : W20 m ρ c (Proc.devRef .tc main_v52) = Chain.take64 (Chain.X32 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15)) (Chain.col (argOf m c main_arg1)) := by
  show StableHlo.after hostOps3_4 (W19 m ρ c) _ = _
  generalize hW : W19 m ρ c = Wv
  simp only [hostOps3_4]
  after_results
  subst hW
  simp only [W19_v50 m ρ c, keep_15_19 m ρ c main_v3 (by decide), W15_v3 m ρ c]
  rfl
theorem W21_v51 : W21 m ρ c (Proc.devRef .tc main_v51) = Chain.take64 (Chain.X32 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15)) (Chain.row (argOf m c main_arg1)) := by
  show StableHlo.after hostOps3_5 (StableHlo.after hostOps3_4 (W19 m ρ c)) _ = _
  generalize hW : W19 m ρ c = Wv
  simp only [hostOps3_5, hostOps3_4]
  after_results
  subst hW
  exact W19_v51 m ρ c
theorem W21_v52 : W21 m ρ c (Proc.devRef .tc main_v52) = Chain.take64 (Chain.X32 (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15)) (Chain.col (argOf m c main_arg1)) := by
  show StableHlo.after hostOps3_5 (W20 m ρ c) _ = _
  generalize hW : W20 m ρ c = Wv
  simp only [hostOps3_5]
  after_results
  subst hW
  exact W20_v52 m ρ c

/-! ## The weight row ranges and the bias rows -/

theorem W21_v53 : (W21 m ρ c (Proc.devRef .tc main_v53) : S64x32.Idx → EReal) = rows (argOf m c main_arg16) 0 64 (by omega) := by
  have e : (W21 m ρ c (Proc.devRef .tc main_v53) : S64x32.Idx → EReal)
      = extractStridedSlice S64x32 ![0, 0] ((argOf m c main_arg16)) slices_S192x32_S64x32_0_0 := by
    show StableHlo.after hostOps3_5 (W20 m ρ c) (Proc.devRef .tc main_v53) = _
    simp only [hostOps3_5]
    after_results
    rw [at15 m ρ c main_arg16 (by decide) (by decide) (by decide) (by decide) (by decide) (by decide)]
  rw [e]
  exact slice_rows 0 64 _ _ _
theorem W21_v54 : (W21 m ρ c (Proc.devRef .tc main_v54) : S64x32.Idx → EReal) = rows (argOf m c main_arg16) 64 64 (by omega) := by
  have e : (W21 m ρ c (Proc.devRef .tc main_v54) : S64x32.Idx → EReal)
      = extractStridedSlice S64x32 ![64, 0] ((argOf m c main_arg16)) slices_S192x32_S64x32_64_0 := by
    show StableHlo.after hostOps3_5 (W20 m ρ c) (Proc.devRef .tc main_v54) = _
    simp only [hostOps3_5]
    after_results
    rw [at15 m ρ c main_arg16 (by decide) (by decide) (by decide) (by decide) (by decide) (by decide)]
  rw [e]
  exact slice_rows 64 64 _ _ _
theorem W21_v55 : (W21 m ρ c (Proc.devRef .tc main_v55) : S32x32.Idx → EReal) = rows (argOf m c main_arg16) 128 32 (by omega) := by
  have e : (W21 m ρ c (Proc.devRef .tc main_v55) : S32x32.Idx → EReal)
      = extractStridedSlice S32x32 ![128, 0] ((argOf m c main_arg16)) slices_S192x32_S32x32_128_0 := by
    show StableHlo.after hostOps3_5 (W20 m ρ c) (Proc.devRef .tc main_v55) = _
    simp only [hostOps3_5]
    after_results
    rw [at15 m ρ c main_arg16 (by decide) (by decide) (by decide) (by decide) (by decide) (by decide)]
  rw [e]
  exact slice_rows 128 32 _ _ _
theorem W21_v56 : (W21 m ρ c (Proc.devRef .tc main_v56) : S32x32.Idx → EReal) = rows (argOf m c main_arg16) 160 32 (by omega) := by
  have e : (W21 m ρ c (Proc.devRef .tc main_v56) : S32x32.Idx → EReal)
      = extractStridedSlice S32x32 ![160, 0] ((argOf m c main_arg16)) slices_S192x32_S32x32_160_0 := by
    show StableHlo.after hostOps3_5 (W20 m ρ c) (Proc.devRef .tc main_v56) = _
    simp only [hostOps3_5]
    after_results
    rw [at15 m ρ c main_arg16 (by decide) (by decide) (by decide) (by decide) (by decide) (by decide)]
  rw [e]
  exact slice_rows 160 32 _ _ _
theorem W21_v57 (k : Fin 32) :
    (W21 m ρ c (Proc.devRef .tc main_v57) : S1x32.Idx → EReal) (ix2 0 k) = ((argOf m c main_arg17) : S32.Idx → EReal) (ix1 k) := by
  have e : (W21 m ρ c (Proc.devRef .tc main_v57) : S1x32.Idx → EReal)
      = shapeCast S1x32 ((argOf m c main_arg17) : S32.Idx → EReal) shapeCasts_S32_S1x32 := by
    show StableHlo.after hostOps3_5 (W20 m ρ c) (Proc.devRef .tc main_v57) = _
    simp only [hostOps3_5]
    after_results
    rw [at15 m ρ c main_arg17 (by decide) (by decide) (by decide) (by decide) (by decide) (by decide)]
    rfl
  rw [e]
  exact shapeCast_a_1a_apply _ _ 0 k
theorem W21_v58 (k : Fin 32) :
    (W21 m ρ c (Proc.devRef .tc main_v58) : S1x32.Idx → EReal) (ix2 0 k) = ((argOf m c main_arg19) : S32.Idx → EReal) (ix1 k) := by
  have e : (W21 m ρ c (Proc.devRef .tc main_v58) : S1x32.Idx → EReal)
      = shapeCast S1x32 ((argOf m c main_arg19) : S32.Idx → EReal) shapeCasts_S32_S1x32 := by
    show StableHlo.after hostOps3_5 (W20 m ρ c) (Proc.devRef .tc main_v58) = _
    simp only [hostOps3_5]
    after_results
    rw [at15 m ρ c main_arg19 (by decide) (by decide) (by decide) (by decide) (by decide) (by decide)]
    rfl
  rw [e]
  exact shapeCast_a_1a_apply _ _ 0 k
theorem W21_v59 (k : Fin 32) :
    (W21 m ρ c (Proc.devRef .tc main_v59) : S1x32.Idx → EReal) (ix2 0 k) = ((argOf m c main_arg21) : S32.Idx → EReal) (ix1 k) := by
  have e : (W21 m ρ c (Proc.devRef .tc main_v59) : S1x32.Idx → EReal)
      = shapeCast S1x32 ((argOf m c main_arg21) : S32.Idx → EReal) shapeCasts_S32_S1x32 := by
    show StableHlo.after hostOps3_5 (W20 m ρ c) (Proc.devRef .tc main_v59) = _
    simp only [hostOps3_5]
    after_results
    rw [at15 m ρ c main_arg21 (by decide) (by decide) (by decide) (by decide) (by decide) (by decide)]
    rfl
  rw [e]
  exact shapeCast_a_1a_apply _ _ 0 k
theorem W21_v60 (k : Fin 32) :
    (W21 m ρ c (Proc.devRef .tc main_v60) : S1x32.Idx → EReal) (ix2 0 k) = ((argOf m c main_arg23) : S32.Idx → EReal) (ix1 k) := by
  have e : (W21 m ρ c (Proc.devRef .tc main_v60) : S1x32.Idx → EReal)
      = shapeCast S1x32 ((argOf m c main_arg23) : S32.Idx → EReal) shapeCasts_S32_S1x32 := by
    show StableHlo.after hostOps3_5 (W20 m ρ c) (Proc.devRef .tc main_v60) = _
    simp only [hostOps3_5]
    after_results
    rw [at15 m ρ c main_arg23 (by decide) (by decide) (by decide) (by decide) (by decide) (by decide)]
    rfl
  rw [e]
  exact shapeCast_a_1a_apply _ _ 0 k
theorem W21_v61 (k : Fin 4) :
    (W21 m ρ c (Proc.devRef .tc main_v61) : S1x4.Idx → EReal) (ix2 0 k) = ((argOf m c main_arg25) : S4.Idx → EReal) (ix1 k) := by
  have e : (W21 m ρ c (Proc.devRef .tc main_v61) : S1x4.Idx → EReal)
      = shapeCast S1x4 ((argOf m c main_arg25) : S4.Idx → EReal) shapeCasts_S4_S1x4 := by
    show StableHlo.after hostOps3_5 (W20 m ρ c) (Proc.devRef .tc main_v61) = _
    simp only [hostOps3_5]
    after_results
    rw [at15 m ρ c main_arg25 (by decide) (by decide) (by decide) (by decide) (by decide) (by decide)]
    rfl
  rw [e]
  exact shapeCast_a_1a_apply _ _ 0 k
theorem W21_v62 (k : Fin 1) :
    (W21 m ρ c (Proc.devRef .tc main_v62) : S1x1.Idx → EReal) (ix2 0 k) = ((argOf m c main_arg27) : S1.Idx → EReal) (ix1 k) := by
  have e : (W21 m ρ c (Proc.devRef .tc main_v62) : S1x1.Idx → EReal)
      = shapeCast S1x1 ((argOf m c main_arg27) : S1.Idx → EReal) shapeCasts_S1_S1x1 := by
    show StableHlo.after hostOps3_5 (W20 m ρ c) (Proc.devRef .tc main_v62) = _
    simp only [hostOps3_5]
    after_results
    rw [at15 m ρ c main_arg27 (by decide) (by decide) (by decide) (by decide) (by decide) (by decide)]
    rfl
  rw [e]
  exact shapeCast_a_1a_apply _ _ 0 k

/-! ## Region 3 and the two results -/

/-- Region 3's output array, entry by entry: columns 0 to 3 are the normalised four-vector head, column 4 the logistic
    head, of the chain's arrays. -/
theorem W22_v63 :
    (∀ (e : Fin 400000) (a : Fin 4),
        (W22 m ρ c (Proc.devRef .tc main_v63) : S400000x8.Idx → EReal) (ix2 e ⟨a.val, by omega⟩)
          = Chain.Edge (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17) (argOf m c main_arg18) (argOf m c main_arg19) (argOf m c main_arg20) (argOf m c main_arg21) (argOf m c main_arg24) (argOf m c main_arg25) (ix2 e a))
    ∧ (∀ e : Fin 400000,
        (W22 m ρ c (Proc.devRef .tc main_v63) : S400000x8.Idx → EReal) (ix2 e ⟨4, by omega⟩)
          = Chain.Prob (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17) (argOf m c main_arg18) (argOf m c main_arg19) (argOf m c main_arg22) (argOf m c main_arg23) (argOf m c main_arg26) (argOf m c main_arg27) (ix2 e 0)) := by
  have R := region3_value (V21 m ρ) c _ _ _ _ _ _ _ _ _ _ _ _ _ _ _ _ _
    (W21_v51 m ρ c) (W21_v52 m ρ c) (W21_v43 m ρ c) (W21_v27 m ρ c) (arg2_W21 m ρ c)
    (W21_v53 m ρ c) (W21_v54 m ρ c) (W21_v55 m ρ c) (W21_v56 m ρ c) (W21_v57 m ρ c)
    (at21 m ρ c main_arg18 (by decide) (by decide) (by decide) (by decide) (by decide) (by decide) (by decide)) (W21_v58 m ρ c)
    (at21 m ρ c main_arg20 (by decide) (by decide) (by decide) (by decide) (by decide) (by decide) (by decide)) (W21_v59 m ρ c)
    (at21 m ρ c main_arg22 (by decide) (by decide) (by decide) (by decide) (by decide) (by decide) (by decide)) (W21_v60 m ρ c)
    (at21 m ρ c main_arg24 (by decide) (by decide) (by decide) (by decide) (by decide) (by decide) (by decide)) (W21_v61 m ρ c)
    (at21 m ρ c main_arg26 (by decide) (by decide) (by decide) (by decide) (by decide) (by decide) (by decide)) (W21_v62 m ρ c)
  rw [W22_arr m ρ c 20]
  exact R

/-- The returned four-vector array: columns 0 to 3 of region 3's output. -/
theorem walk_edge (e : Fin 400000) (a : Fin 4) :
    (W23 m ρ c (Proc.devRef .tc main_v64) : S400000x4.Idx → EReal) (ix2 e a)
      = Chain.Edge (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17) (argOf m c main_arg18) (argOf m c main_arg19) (argOf m c main_arg20) (argOf m c main_arg21) (argOf m c main_arg24) (argOf m c main_arg25) (ix2 e a) := by
  have e64 : (W23 m ρ c (Proc.devRef .tc main_v64) : S400000x4.Idx → EReal)
      = extractStridedSlice S400000x4 ![0, 0] (W22 m ρ c (Proc.devRef .tc main_v63) : S400000x8.Idx → EReal)
          slices_S400000x8_S400000x4_0_0 := by
    show StableHlo.after hostOps4 (W22 m ρ c) (Proc.devRef .tc main_v64) = _
    simp only [hostOps4]
    after_results
  rw [e64]
  exact (slice2_axis1_apply 0 (W22 m ρ c (Proc.devRef .tc main_v63) : S400000x8.Idx → EReal) slices_S400000x8_S400000x4_0_0 e a
    ⟨a.val, by have := a.isLt; omega⟩ (Nat.zero_add _).symm).trans ((W22_v63 m ρ c).1 e a)

/-- The returned one-column array: column 4 of region 3's output. -/
theorem walk_prob (e : Fin 400000) :
    (W23 m ρ c (Proc.devRef .tc main_v65) : S400000x1.Idx → EReal) (ix2 e 0)
      = Chain.Prob (argOf m c main_arg1) (argOf m c main_arg2) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17) (argOf m c main_arg18) (argOf m c main_arg19) (argOf m c main_arg22) (argOf m c main_arg23) (argOf m c main_arg26) (argOf m c main_arg27) (ix2 e 0) := by
  have e65 : (W23 m ρ c (Proc.devRef .tc main_v65) : S400000x1.Idx → EReal)
      = extractStridedSlice S400000x1 ![0, 4] (W22 m ρ c (Proc.devRef .tc main_v63) : S400000x8.Idx → EReal)
          slices_S400000x8_S400000x1_0_4 := by
    show StableHlo.after hostOps4 (W22 m ρ c) (Proc.devRef .tc main_v65) = _
    simp only [hostOps4]
    after_results
  rw [e65]
  exact (slice2_axis1_apply 4 (W22 m ρ c (Proc.devRef .tc main_v63) : S400000x8.Idx → EReal) slices_S400000x8_S400000x1_0_4 e 0
    ⟨4, by omega⟩ rfl).trans ((W22_v63 m ρ c).2 e)

end Cert.KernelIdeal.Walk

end
-- ==== Proof.Layer1.lean ====
/-
  The reference's layer 1 is the specification's. The reference multiplies the whole attribute array by `w10`, adds the
  bias broadcast over the rows, clamps at zero, multiplies by `w11` and adds the second bias: read at entry (e, j), each
  product is a sum over the contracted coordinate of row e, which is the row function of the specification.
-/
import proofs.«411902_j85581518340249_3_alg».proof.Proof.ReadP
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Layers

open Cert.ReferenceIdeal Cert.ReferenceIdeal.Gen Cert.ReferenceIdeal.ReadP Cert.Spec
open Idealize.ShloMosaic Idealize.ShloMosaic.TcCoe Idealize.ShloMosaic.ValueIdx Idealize.SL.Sem

namespace L1aux

/-- The specification's layer 1 at entry (e, j): the sum over the hidden coordinate k of the clamped first half at k
    times `w11[k, j]`, plus the second bias at j. -/
theorem G1_apply (ea : A2 400000 4) (w10 : A2 4 32) (b10 : A1 32) (w11 : A2 32 32) (b11 : A1 32) (e : Fin 400000) (j : Fin 32) :
    G1 ea w10 b10 w11 b11 (ix2 e j)
      = (∑ k : Fin 32, relu (aff (rowOf ea e) w10 (vec1 b10) k) * w11 (ix2 k j)) + b11 (ix1 j) := rfl

/-- The reference's clamped first half at entry (e, k): the sum over the four attributes of row e against column k of
    `w10`, plus the bias at k, clamped at zero; this is the clamp of the row function's affine map. -/
theorem hidden1_apply (x2 : (⟨S400000x4, .f32⟩ : BufTy).Contents (Elt Ideal)) (x4 : (⟨S4x32, .f32⟩ : BufTy).Contents (Elt Ideal)) (x5 : (⟨S32, .f32⟩ : BufTy).Contents (Elt Ideal)) (e : Fin 400000) (k : Fin 32) :
    val_main_v8 (F := Ideal) x2 x4 x5 (ix2 e k) = relu (aff (rowOf x2 e) x4 (vec1 x5) k) := by
  have el : ∀ a : Fin 4, lidx_main_v4 (ix2 e k) a = ix2 e a := fun a =>
    funext fun d => match d with | ⟨0, _⟩ => rfl | ⟨1, _⟩ => rfl
  have er : ∀ a : Fin 4, ridx_main_v4 (ix2 e k) a = ix2 a k := fun a =>
    funext fun d => match d with | ⟨0, _⟩ => rfl | ⟨1, _⟩ => rfl
  have eb : idx_main_v5 (idx_main_v6 (ix2 e k)) = ix1 k :=
    funext fun d => match d with | ⟨0, _⟩ => rfl
  rw [val_main_v8_apply, val_main_v7_apply, val_main_v4_apply, val_main_v6_apply, val_main_v5_apply,
    val_main_call0_v0_apply, val_main_call0_cst_apply, eb]
  simp only [el, er]
  rfl

end L1aux

open L1aux

/-- The reference's layer-1 stage (before its clamp) is `G1` of the same arguments. -/
theorem layer1_eq (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) :
    G1 x2 x4 x5 x6 x7 = val_main_v12 (F := Ideal) x2 x4 x5 x6 x7 := by
  funext i
  obtain ⟨e, j, rfl⟩ : ∃ (e : Fin 400000) (j : Fin 32), i = ix2 e j :=
    ⟨⟨(i 0).val, idx2_lt0 i⟩, ⟨(i 1).val, idx2_lt1 i⟩, by funext a; match a with | ⟨0, _⟩ => rfl | ⟨1, _⟩ => rfl⟩
  have el : ∀ k : Fin 32, lidx_main_v9 (ix2 e j) k = ix2 e k := fun k =>
    funext fun d => match d with | ⟨0, _⟩ => rfl | ⟨1, _⟩ => rfl
  have er : ∀ k : Fin 32, ridx_main_v9 (ix2 e j) k = ix2 k j := fun k =>
    funext fun d => match d with | ⟨0, _⟩ => rfl | ⟨1, _⟩ => rfl
  have eb : idx_main_v10 (idx_main_v11 (ix2 e j)) = ix1 j :=
    funext fun d => match d with | ⟨0, _⟩ => rfl
  refine (G1_apply x2 x4 x5 x6 x7 e j).trans ?_
  rw [val_main_v12_apply, val_main_v9_apply, val_main_v11_apply, val_main_v10_apply, eb]
  simp only [el, er, hidden1_apply]
  rfl

end Cert.ReferenceIdeal.Layers

end
-- ==== Proof.Layer2.lean ====
/-
  The reference's layer 2 is the specification's. The reference concatenates, per edge, the two gathered node rows, the
  attribute row and the clamped layer-1 row into one row of 100 entries and multiplies it by the 100-row matrix `w20`.
  A sum over 100 contracted coordinates splits into the four sums over the coordinate ranges of the four pieces
  (addition on the extended reals is commutative and associative, so no finiteness is needed), and on each range the
  concatenated row is its piece and the matrix is the matching range of its rows.
-/
import proofs.«411902_j85581518340249_3_alg».proof.Proof.ReadP
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Layers

open Cert.ReferenceIdeal Cert.ReferenceIdeal.Gen Cert.ReferenceIdeal.ReadP Cert.Spec
open Idealize.ShloMosaic Idealize.ShloMosaic.TcCoe Idealize.ShloMosaic.ValueIdx Idealize.SL.Sem

namespace Layer2

/-- A sum over 100 coordinates is the left-to-right sum of the sums over the ranges 0–31, 32–63, 64–67, 68–99
    (addition on the extended reals is commutative and associative; nothing else is used). -/
theorem sum100_split (f : Fin 100 → EReal) :
    ∑ k : Fin 100, f k =
      ((∑ k : Fin 32, f ⟨k.val, by omega⟩ + ∑ k : Fin 32, f ⟨32 + k.val, by omega⟩)
        + ∑ k : Fin 4, f ⟨64 + k.val, by omega⟩) + ∑ k : Fin 32, f ⟨68 + k.val, by omega⟩ := by
  have h1 : ∑ k : Fin 100, f k = ∑ i : Fin 68, f (Fin.castAdd 32 i) + ∑ i : Fin 32, f (Fin.natAdd 68 i) :=
    Fin.sum_univ_add (a := 68) (b := 32) f
  have h2 : ∑ i : Fin 68, f (Fin.castAdd 32 i)
      = ∑ i : Fin 64, f (Fin.castAdd 32 (Fin.castAdd 4 i)) + ∑ i : Fin 4, f (Fin.castAdd 32 (Fin.natAdd 64 i)) :=
    Fin.sum_univ_add (a := 64) (b := 4) (fun i => f (Fin.castAdd 32 i))
  have h3 : ∑ i : Fin 64, f (Fin.castAdd 32 (Fin.castAdd 4 i))
      = ∑ i : Fin 32, f (Fin.castAdd 32 (Fin.castAdd 4 (Fin.castAdd 32 i)))
        + ∑ i : Fin 32, f (Fin.castAdd 32 (Fin.castAdd 4 (Fin.natAdd 32 i))) :=
    Fin.sum_univ_add (a := 32) (b := 32) (fun i => f (Fin.castAdd 32 (Fin.castAdd 4 i)))
  rw [h1, h2, h3]
  rfl

section Cat
variable {α : Type}

/-- Three pieces of 32, 32 and 36 columns laid side by side: at a column below 32 the row is the first piece's. -/
theorem cat3_at0 (y0 y1 : (⟨2, ![400000, 32]⟩ : Shape).Idx → α) (y2 : (⟨2, ![400000, 36]⟩ : Shape).Idx → α)
    (h : Shape.Concatenates [(⟨2, ![400000, 32]⟩ : Shape), ⟨2, ![400000, 32]⟩, ⟨2, ![400000, 36]⟩] ⟨2, ![400000, 100]⟩ 1)
    (e : Fin 400000) (c : Fin 100) (k : Fin 32) (hc : 0 + k.val = c.val) :
    concatenate (⟨2, ![400000, 100]⟩ : Shape) 1 [⟨⟨2, ![400000, 32]⟩, y0⟩, ⟨⟨2, ![400000, 32]⟩, y1⟩, ⟨⟨2, ![400000, 36]⟩, y2⟩] h (ix2 e c) = y0 (ix2 e k) := by
  refine concatenate_apply_piece (t := ⟨2, ![400000, 100]⟩) 1 [⟨⟨2, ![400000, 32]⟩, y0⟩, ⟨⟨2, ![400000, 32]⟩, y1⟩, ⟨⟨2, ![400000, 36]⟩, y2⟩] h _ 0 (by show 0 < 3; omega) ⟨2, ![400000, 32]⟩ y0 rfl rfl 0 rfl (ix2 e k) ?_ hc
  · intro b hb
    match b with
    | ⟨0, _⟩ => rfl
    | ⟨1, _⟩ => exact absurd rfl hb

/-- At a column from 32 to 63 the row is the second piece's, 32 columns to the left. -/
theorem cat3_at1 (y0 y1 : (⟨2, ![400000, 32]⟩ : Shape).Idx → α) (y2 : (⟨2, ![400000, 36]⟩ : Shape).Idx → α)
    (h : Shape.Concatenates [(⟨2, ![400000, 32]⟩ : Shape), ⟨2, ![400000, 32]⟩, ⟨2, ![400000, 36]⟩] ⟨2, ![400000, 100]⟩ 1)
    (e : Fin 400000) (c : Fin 100) (k : Fin 32) (hc : 32 + k.val = c.val) :
    concatenate (⟨2, ![400000, 100]⟩ : Shape) 1 [⟨⟨2, ![400000, 32]⟩, y0⟩, ⟨⟨2, ![400000, 32]⟩, y1⟩, ⟨⟨2, ![400000, 36]⟩, y2⟩] h (ix2 e c) = y1 (ix2 e k) := by
  refine concatenate_apply_piece (t := ⟨2, ![400000, 100]⟩) 1 [⟨⟨2, ![400000, 32]⟩, y0⟩, ⟨⟨2, ![400000, 32]⟩, y1⟩, ⟨⟨2, ![400000, 36]⟩, y2⟩] h _ 1 (by show 1 < 3; omega) ⟨2, ![400000, 32]⟩ y1 rfl rfl 32 rfl (ix2 e k) ?_ hc
  · intro b hb
    match b with
    | ⟨0, _⟩ => rfl
    | ⟨1, _⟩ => exact absurd rfl hb

/-- At a column from 64 on the row is the third piece's, 64 columns to the left. -/
theorem cat3_at2 (y0 y1 : (⟨2, ![400000, 32]⟩ : Shape).Idx → α) (y2 : (⟨2, ![400000, 36]⟩ : Shape).Idx → α)
    (h : Shape.Concatenates [(⟨2, ![400000, 32]⟩ : Shape), ⟨2, ![400000, 32]⟩, ⟨2, ![400000, 36]⟩] ⟨2, ![400000, 100]⟩ 1)
    (e : Fin 400000) (c : Fin 100) (k : Fin 36) (hc : 64 + k.val = c.val) :
    concatenate (⟨2, ![400000, 100]⟩ : Shape) 1 [⟨⟨2, ![400000, 32]⟩, y0⟩, ⟨⟨2, ![400000, 32]⟩, y1⟩, ⟨⟨2, ![400000, 36]⟩, y2⟩] h (ix2 e c) = y2 (ix2 e k) := by
  refine concatenate_apply_piece (t := ⟨2, ![400000, 100]⟩) 1 [⟨⟨2, ![400000, 32]⟩, y0⟩, ⟨⟨2, ![400000, 32]⟩, y1⟩, ⟨⟨2, ![400000, 36]⟩, y2⟩] h _ 2 (by show 2 < 3; omega) ⟨2, ![400000, 36]⟩ y2 rfl rfl 64 rfl (ix2 e k) ?_ hc
  · intro b hb
    match b with
    | ⟨0, _⟩ => rfl
    | ⟨1, _⟩ => exact absurd rfl hb

/-- Two pieces of 4 and 32 columns laid side by side: at a column below 4 the row is the first piece's. -/
theorem cat2_left (z0 : (⟨2, ![400000, 4]⟩ : Shape).Idx → α) (z1 : (⟨2, ![400000, 32]⟩ : Shape).Idx → α)
    (h : Shape.Concatenates [(⟨2, ![400000, 4]⟩ : Shape), ⟨2, ![400000, 32]⟩] ⟨2, ![400000, 36]⟩ 1)
    (e : Fin 400000) (c : Fin 36) (k : Fin 4) (hc : k.val = c.val) :
    concatenate (⟨2, ![400000, 36]⟩ : Shape) 1 [⟨⟨2, ![400000, 4]⟩, z0⟩, ⟨⟨2, ![400000, 32]⟩, z1⟩] h (ix2 e c) = z0 (ix2 e k) := by
  refine concatenate_pair_apply_left 1 z0 z1 h _ rfl (ix2 e k) ?_
  intro b
  match b with
  | ⟨0, _⟩ => rfl
  | ⟨1, _⟩ => exact hc

/-- At a column from 4 on the row is the second piece's, 4 columns to the left. -/
theorem cat2_right (z0 : (⟨2, ![400000, 4]⟩ : Shape).Idx → α) (z1 : (⟨2, ![400000, 32]⟩ : Shape).Idx → α)
    (h : Shape.Concatenates [(⟨2, ![400000, 4]⟩ : Shape), ⟨2, ![400000, 32]⟩] ⟨2, ![400000, 36]⟩ 1)
    (e : Fin 400000) (c : Fin 36) (k : Fin 32) (hc : k.val + 4 = c.val) :
    concatenate (⟨2, ![400000, 36]⟩ : Shape) 1 [⟨⟨2, ![400000, 4]⟩, z0⟩, ⟨⟨2, ![400000, 32]⟩, z1⟩] h (ix2 e c) = z1 (ix2 e k) := by
  refine concatenate_pair_apply_right 1 z0 z1 h _ rfl rfl (ix2 e k) ?_ hc
  intro b hb
  match b with
  | ⟨0, _⟩ => rfl
  | ⟨1, _⟩ => exact absurd rfl hb

end Cat

/-! ## The reference's index maps at an index given by its coordinates -/

/-- The contracted row's index of the first product: edge `e`, column `c`. -/
theorem lidx42_eq (e : Fin 400000) (k : Fin 32) (c : Fin 100) : lidx_main_v42 (ix2 e k) c = ix2 e c :=
  funext fun d => Fin.ext (by match d with | ⟨0, _⟩ => rfl | ⟨1, _⟩ => rfl)

/-- The contracted row's index of the second product: edge `e`, column `c`. -/
theorem lidx47_eq (e : Fin 400000) (j : Fin 32) (c : Fin 32) : lidx_main_v47 (ix2 e j) c = ix2 e c :=
  funext fun d => Fin.ext (by match d with | ⟨0, _⟩ => rfl | ⟨1, _⟩ => rfl)

/-- The second matrix's index: row `c`, column `j`. -/
theorem ridx47_eq (e : Fin 400000) (j : Fin 32) (c : Fin 32) : ridx_main_v47 (ix2 e j) c = ix2 c j :=
  funext fun d => Fin.ext (by match d with | ⟨0, _⟩ => rfl | ⟨1, _⟩ => rfl)

/-- The first bias, broadcast over the edges, is read by its column. -/
theorem bias44_eq (e : Fin 400000) (k : Fin 32) : idx_main_v43 (idx_main_v44 (ix2 e k)) = ix1 k :=
  funext fun d => Fin.ext (by match d with | ⟨0, _⟩ => rfl)

/-- The second bias, broadcast over the edges, is read by its column. -/
theorem bias49_eq (e : Fin 400000) (j : Fin 32) : idx_main_v48 (idx_main_v49 (ix2 e j)) = ix1 j :=
  funext fun d => Fin.ext (by match d with | ⟨0, _⟩ => rfl)

/-- The tall matrix at row `off + a`, column `k`, is its row range `off … off + K - 1` at row `a`, column `k`. -/
theorem w_block (W : A2 100 32) (off K : Nat) (h : off + K ≤ 100) (e : Fin 400000) (k : Fin 32) (a : Fin K) (c : Fin 100)
    (hc : off + a.val = c.val) : W (ridx_main_v42 (ix2 e k) c) = rows W off K h (ix2 a k) := by
  unfold rows
  refine congrArg W (funext fun d => Fin.ext ?_)
  match d with
  | ⟨0, _⟩ => exact hc.symm
  | ⟨1, _⟩ => rfl

/-! ## The concatenated row of edge `e`, range by range

Columns 0–31 are the first gathered node row, 32–63 the second, 64–67 the attributes, 68–99 the clamped layer-1 row
(the third piece of the outer concatenation is itself the concatenation of the last two). -/

section Stages
variable (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))

/-- Columns 0–31 of the concatenated row are the first gathered node row. -/
theorem row_at0 (e : Fin 400000) (a : Fin 32) :
    val_main_v41 (F := Ideal) x1 x2 x4 x5 x6 x7 (ix2 e (⟨a.val, by omega⟩ : Fin 100)) = val_main_v33 (F := Ideal) x1 x2 x4 x5 x6 x7 (ix2 e a) := by
  unfold val_main_v41
  exact cat3_at0 _ _ _ _ e _ a (Nat.zero_add _)

/-- Columns 32–63 are the second gathered node row. -/
theorem row_at1 (e : Fin 400000) (a : Fin 32) :
    val_main_v41 (F := Ideal) x1 x2 x4 x5 x6 x7 (ix2 e (⟨32 + a.val, by omega⟩ : Fin 100)) = val_main_v40 (F := Ideal) x1 x2 x4 x5 x6 x7 (ix2 e a) := by
  unfold val_main_v41
  exact cat3_at1 _ _ _ _ e _ a rfl

/-- Columns 64–67 are the attribute row (the first four columns of the inner concatenation). -/
theorem row_at2 (e : Fin 400000) (a : Fin 4) :
    val_main_v41 (F := Ideal) x1 x2 x4 x5 x6 x7 (ix2 e (⟨64 + a.val, by omega⟩ : Fin 100)) = x2 (ix2 e a) := by
  unfold val_main_v41
  refine (cat3_at2 _ _ _ _ e _ (⟨a.val, by omega⟩ : Fin 36) rfl).trans ?_
  unfold val_main_v26
  exact cat2_left _ _ _ e _ a rfl

/-- Columns 68–99 are the layer-1 row clamped at zero (columns 4–35 of the inner concatenation; the clamp is the
    maximum with the broadcast zero word). -/
theorem row_at3 (e : Fin 400000) (a : Fin 32) :
    val_main_v41 (F := Ideal) x1 x2 x4 x5 x6 x7 (ix2 e (⟨68 + a.val, by omega⟩ : Fin 100)) = relu (val_main_v12 (F := Ideal) x2 x4 x5 x6 x7 (ix2 e a)) := by
  unfold val_main_v41
  refine (cat3_at2 _ _ _ _ e _ (⟨4 + a.val, by omega⟩ : Fin 36) (by show 64 + (4 + a.val) = 68 + a.val; omega)).trans ?_
  unfold val_main_v26
  refine (cat2_right _ _ _ e _ a (by show a.val + 4 = 4 + a.val; omega)).trans ?_
  rw [val_main_v25_apply, val_main_call2_v0_apply, val_main_call2_cst_apply]
  rfl

/-! ## The first product: one sum over 100 columns is the four block sums, left to right -/

/-- The concatenated row times the 100-row matrix at column `k`: on each of the four column ranges the row is its piece
    and the matrix is the matching range of its rows, so the one sum is the four block products added left to right. -/
theorem stage42_eq (x8 : (⟨S100x32, .f32⟩ : BufTy).Contents (Elt Ideal)) (e : Fin 400000) (k : Fin 32) :
    val_main_v42 (F := Ideal) x1 x2 x4 x5 x6 x7 x8 (ix2 e k)
      = ((dot (rowOf (val_main_v33 (F := Ideal) x1 x2 x4 x5 x6 x7) e) (rows x8 0 32 (by omega)) k
          + dot (rowOf (val_main_v40 (F := Ideal) x1 x2 x4 x5 x6 x7) e) (rows x8 32 32 (by omega)) k)
          + dot (rowOf x2 e) (rows x8 64 4 (by omega)) k)
          + dot (fun a => relu (rowOf (val_main_v12 (F := Ideal) x2 x4 x5 x6 x7) e a)) (rows x8 68 32 (by omega)) k := by
  refine (val_main_v42_apply x1 x2 x4 x5 x6 x7 x8 (ix2 e k)).trans ?_
  refine (sum100_split _).trans ?_
  unfold dot rowOf
  refine congrArg₂ (· + ·) (congrArg₂ (· + ·) (congrArg₂ (· + ·) ?_ ?_) ?_) ?_
  · refine Finset.sum_congr rfl fun a _ => congrArg₂ (· * ·) ?_ ?_
    · exact (congrArg (val_main_v41 (F := Ideal) x1 x2 x4 x5 x6 x7) (lidx42_eq e k _)).trans (row_at0 x1 x2 x4 x5 x6 x7 e a)
    · exact w_block x8 0 32 (by omega) e k a _ (Nat.zero_add _)
  · refine Finset.sum_congr rfl fun a _ => congrArg₂ (· * ·) ?_ ?_
    · exact (congrArg (val_main_v41 (F := Ideal) x1 x2 x4 x5 x6 x7) (lidx42_eq e k _)).trans (row_at1 x1 x2 x4 x5 x6 x7 e a)
    · exact w_block x8 32 32 (by omega) e k a _ rfl
  · refine Finset.sum_congr rfl fun a _ => congrArg₂ (· * ·) ?_ ?_
    · exact (congrArg (val_main_v41 (F := Ideal) x1 x2 x4 x5 x6 x7) (lidx42_eq e k _)).trans (row_at2 x1 x2 x4 x5 x6 x7 e a)
    · exact w_block x8 64 4 (by omega) e k a _ rfl
  · refine Finset.sum_congr rfl fun a _ => congrArg₂ (· * ·) ?_ ?_
    · exact (congrArg (val_main_v41 (F := Ideal) x1 x2 x4 x5 x6 x7) (lidx42_eq e k _)).trans (row_at3 x1 x2 x4 x5 x6 x7 e a)
    · exact w_block x8 68 32 (by omega) e k a _ rfl

/-- The reference's hidden row (the first product plus the broadcast bias) is the specification's. -/
theorem hidden_eq (x8 : (⟨S100x32, .f32⟩ : BufTy).Contents (Elt Ideal)) (x9 : (⟨S32, .f32⟩ : BufTy).Contents (Elt Ideal))
    (e : Fin 400000) (k : Fin 32) :
    val_main_v45 (F := Ideal) x1 x2 x4 x5 x6 x7 x8 x9 (ix2 e k)
      = H2 (val_main_v33 (F := Ideal) x1 x2 x4 x5 x6 x7) (val_main_v40 (F := Ideal) x1 x2 x4 x5 x6 x7) x2 (val_main_v12 (F := Ideal) x2 x4 x5 x6 x7) x8 x9 e k := by
  rw [val_main_v45_apply, val_main_v44_apply, val_main_v43_apply, bias44_eq, stage42_eq]
  rfl

/-- The reference's layer-2 stage at edge `e`, column `j`: the clamped hidden row through the second affine map. -/
theorem out_eq (x8 : (⟨S100x32, .f32⟩ : BufTy).Contents (Elt Ideal)) (x9 : (⟨S32, .f32⟩ : BufTy).Contents (Elt Ideal))
    (x10 : (⟨S32x32, .f32⟩ : BufTy).Contents (Elt Ideal)) (x11 : (⟨S32, .f32⟩ : BufTy).Contents (Elt Ideal))
    (e : Fin 400000) (j : Fin 32) :
    val_main_v50 (F := Ideal) x1 x2 x4 x5 x6 x7 x8 x9 x10 x11 (ix2 e j)
      = rowL (H2 (val_main_v33 (F := Ideal) x1 x2 x4 x5 x6 x7) (val_main_v40 (F := Ideal) x1 x2 x4 x5 x6 x7) x2 (val_main_v12 (F := Ideal) x2 x4 x5 x6 x7) x8 x9 e) x10 (vec1 x11) j := by
  rw [val_main_v50_apply, val_main_v49_apply, val_main_v48_apply, bias49_eq, val_main_v47_apply]
  unfold rowL aff dot vec1
  refine congrArg₂ (· + ·) (Finset.sum_congr rfl fun c _ => congrArg₂ (· * ·) ?_ ?_) rfl
  · rw [lidx47_eq, val_main_v46_apply, val_main_call3_v0_apply, val_main_call3_cst_apply, hidden_eq]
    rfl
  · exact congrArg x10 (ridx47_eq e j c)

end Stages

end Layer2

/-- The reference's layer-2 stage (before its clamp) is `G2` of the two gathered stages, the attributes, the layer-1
    stage and the layer's weights. -/
theorem layer2_eq (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) :
    G2 (val_main_v33 (F := Ideal) x1 x2 x4 x5 x6 x7) (val_main_v40 (F := Ideal) x1 x2 x4 x5 x6 x7) x2 (val_main_v12 (F := Ideal) x2 x4 x5 x6 x7) x8 x9 x10 x11
      = val_main_v50 (F := Ideal) x1 x2 x4 x5 x6 x7 x8 x9 x10 x11 := by
  funext i
  obtain ⟨e, j, rfl⟩ : ∃ (e : Fin 400000) (j : Fin 32), i = ix2 e j :=
    ⟨⟨(i 0).val, idx2_lt0 i⟩, ⟨(i 1).val, idx2_lt1 i⟩, by funext a; match a with | ⟨0, _⟩ => rfl | ⟨1, _⟩ => rfl⟩
  exact (Layer2.out_eq x1 x2 x4 x5 x6 x7 x8 x9 x10 x11 e j).symm

end Cert.ReferenceIdeal.Layers

end
-- ==== Proof.Layer3.lean ====
/-
  The reference's layer 3 is the specification's. Per edge the reference concatenates the two gathered 64-wide node rows
  with the clamped layer-2 and layer-1 rows into one row of 192 entries and multiplies it by the 192-row matrix `w30`.
  The sum over 192 contracted coordinates splits into the four sums over the coordinate ranges 0–63, 64–127, 128–159,
  160–191 (no finiteness is needed for that), and on each range the row is its piece and the matrix its rows.
-/
import proofs.«411902_j85581518340249_3_alg».proof.Proof.ReadP
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Layers

open Cert.ReferenceIdeal Cert.ReferenceIdeal.Gen Cert.ReferenceIdeal.ReadP Cert.Spec
open Idealize.ShloMosaic Idealize.ShloMosaic.TcCoe Idealize.ShloMosaic.ValueIdx Idealize.SL.Sem

namespace L3aux

/-- A sum over `a + b` coordinates is the sum over the first `a` plus the sum over the last `b`. -/
theorem sum_split (a b : Nat) (f : Fin (a + b) → EReal) :
    ∑ k, f k = ∑ k : Fin a, f ⟨k.val, by have := k.isLt; omega⟩ + ∑ k : Fin b, f ⟨a + k.val, by have := k.isLt; omega⟩ :=
  Fin.sum_univ_add f

/-- A sum over 192 coordinates, split left to right into the ranges 0–63, 64–127, 128–159, 160–191. -/
theorem sum_split4 (f : Fin 192 → EReal) :
    ∑ k, f k = ((∑ k : Fin 64, f ⟨k.val, by have := k.isLt; omega⟩ + ∑ k : Fin 64, f ⟨64 + k.val, by have := k.isLt; omega⟩)
      + ∑ k : Fin 32, f ⟨128 + k.val, by have := k.isLt; omega⟩) + ∑ k : Fin 32, f ⟨160 + k.val, by have := k.isLt; omega⟩ := by
  have s1 := sum_split 160 32 f
  have s2 := sum_split 128 32 (fun k => f ⟨k.val, by have := k.isLt; omega⟩)
  have s3 := sum_split 64 64 (fun k => f ⟨k.val, by have := k.isLt; omega⟩)
  exact s1.trans (congrArg (· + _) (s2.trans (congrArg (· + _) s3)))

section Cat
variable {α : Type}

/-- The row of 192 entries on its first range is the first piece. -/
theorem cat_piece0 (a b : S400000x64.Idx → α) (cd : S400000x64.Idx → α)
    (h3 : Shape.Concatenates [S400000x64, S400000x64, S400000x64] S400000x192 1) (e : Fin 400000) (k : Fin 64) :
    concatenate S400000x192 1 [⟨S400000x64, a⟩, ⟨S400000x64, b⟩, ⟨S400000x64, cd⟩] h3
      (ix2 e (⟨k.val, by have := k.isLt; omega⟩ : Fin 192)) = a (ix2 e k) := by
  refine concatenate_apply_piece (1 : Fin S400000x192.rank) [⟨S400000x64, a⟩, ⟨S400000x64, b⟩, ⟨S400000x64, cd⟩] h3 _ 0 (by show (0 : Nat) < 3; omega) S400000x64 a rfl rfl 0 rfl (ix2 e k) ?_ ?_
  · intro b hb
    match b with
    | ⟨0, _⟩ => rfl
    | ⟨1, _⟩ => exact absurd rfl hb
  · show 0 + k.val = k.val
    omega

/-- On its second range it is the second piece. -/
theorem cat_piece1 (a b : S400000x64.Idx → α) (cd : S400000x64.Idx → α)
    (h3 : Shape.Concatenates [S400000x64, S400000x64, S400000x64] S400000x192 1) (e : Fin 400000) (k : Fin 64) :
    concatenate S400000x192 1 [⟨S400000x64, a⟩, ⟨S400000x64, b⟩, ⟨S400000x64, cd⟩] h3
      (ix2 e (⟨64 + k.val, by have := k.isLt; omega⟩ : Fin 192)) = b (ix2 e k) := by
  refine concatenate_apply_piece (1 : Fin S400000x192.rank) [⟨S400000x64, a⟩, ⟨S400000x64, b⟩, ⟨S400000x64, cd⟩] h3 _ 1 (by show (1 : Nat) < 3; omega) S400000x64 b rfl rfl 64 rfl (ix2 e k) ?_ ?_
  · intro b hb
    match b with
    | ⟨0, _⟩ => rfl
    | ⟨1, _⟩ => exact absurd rfl hb
  · rfl

/-- On its last 64 coordinates it is the third piece. -/
theorem cat_piece2 (a b : S400000x64.Idx → α) (cd : S400000x64.Idx → α)
    (h3 : Shape.Concatenates [S400000x64, S400000x64, S400000x64] S400000x192 1) (e : Fin 400000) (k : Fin 64) :
    concatenate S400000x192 1 [⟨S400000x64, a⟩, ⟨S400000x64, b⟩, ⟨S400000x64, cd⟩] h3
      (ix2 e (⟨128 + k.val, by have := k.isLt; omega⟩ : Fin 192)) = cd (ix2 e k) := by
  refine concatenate_apply_piece (1 : Fin S400000x192.rank) [⟨S400000x64, a⟩, ⟨S400000x64, b⟩, ⟨S400000x64, cd⟩] h3 _ 2 (by show (2 : Nat) < 3; omega) S400000x64 cd rfl rfl 128 rfl (ix2 e k) ?_ ?_
  · intro b hb
    match b with
    | ⟨0, _⟩ => rfl
    | ⟨1, _⟩ => exact absurd rfl hb
  · rfl

/-- The two-piece row of 64 entries on its first half. -/
theorem cat_pair0 (c d : S400000x32.Idx → α)
    (h2 : Shape.Concatenates [S400000x32, S400000x32] S400000x64 1) (e : Fin 400000) (k : Fin 32) :
    concatenate S400000x64 1 [⟨S400000x32, c⟩, ⟨S400000x32, d⟩] h2
      (ix2 e (⟨k.val, by have := k.isLt; omega⟩ : Fin 64)) = c (ix2 e k) := by
  refine concatenate_pair_apply_left (1 : Fin S400000x64.rank) c d h2 _ rfl (ix2 e k) ?_
  intro b
  match b with
  | ⟨0, _⟩ => rfl
  | ⟨1, _⟩ => rfl

/-- The two-piece row of 64 entries on its second half. -/
theorem cat_pair1 (c d : S400000x32.Idx → α)
    (h2 : Shape.Concatenates [S400000x32, S400000x32] S400000x64 1) (e : Fin 400000) (k : Fin 32) :
    concatenate S400000x64 1 [⟨S400000x32, c⟩, ⟨S400000x32, d⟩] h2
      (ix2 e (⟨32 + k.val, by have := k.isLt; omega⟩ : Fin 64)) = d (ix2 e k) := by
  refine concatenate_pair_apply_right (1 : Fin S400000x64.rank) c d h2 _ rfl rfl (ix2 e k) ?_ ?_
  · intro b hb
    match b with
    | ⟨0, _⟩ => rfl
    | ⟨1, _⟩ => exact absurd rfl hb
  · show k.val + 32 = 32 + k.val
    omega

/-- The nested row of 192 entries on the range 128–159: the first half of its third piece. -/
theorem cat4_2 (a b : S400000x64.Idx → α) (c d : S400000x32.Idx → α)
    (h3 : Shape.Concatenates [S400000x64, S400000x64, S400000x64] S400000x192 1)
    (h2 : Shape.Concatenates [S400000x32, S400000x32] S400000x64 1) (e : Fin 400000) (k : Fin 32) :
    concatenate S400000x192 1 [⟨S400000x64, a⟩, ⟨S400000x64, b⟩,
        ⟨S400000x64, concatenate S400000x64 1 [⟨S400000x32, c⟩, ⟨S400000x32, d⟩] h2⟩] h3
      (ix2 e (⟨128 + k.val, by have := k.isLt; omega⟩ : Fin 192)) = c (ix2 e k) :=
  (cat_piece2 a b _ h3 e ⟨k.val, by have := k.isLt; omega⟩).trans (cat_pair0 c d h2 e k)

/-- The nested row of 192 entries on the range 160–191: the second half of its third piece (160 + k = 128 + (32 + k)). -/
theorem cat4_3 (a b : S400000x64.Idx → α) (c d : S400000x32.Idx → α)
    (h3 : Shape.Concatenates [S400000x64, S400000x64, S400000x64] S400000x192 1)
    (h2 : Shape.Concatenates [S400000x32, S400000x32] S400000x64 1) (e : Fin 400000) (k : Fin 32) :
    concatenate S400000x192 1 [⟨S400000x64, a⟩, ⟨S400000x64, b⟩,
        ⟨S400000x64, concatenate S400000x64 1 [⟨S400000x32, c⟩, ⟨S400000x32, d⟩] h2⟩] h3
      (ix2 e (⟨160 + k.val, by have := k.isLt; omega⟩ : Fin 192)) = d (ix2 e k) :=
  (congrArg _ (congrArg (ix2 e) (Fin.ext (by show 160 + k.val = 128 + (32 + k.val); omega)))).trans
    ((cat_piece2 a b _ h3 e ⟨32 + k.val, by have := k.isLt; omega⟩).trans (cat_pair1 c d h2 e k))

end Cat

/-- A row range of a matrix at an entry: the matrix at the row moved by the offset. -/
theorem rows_apply {R J : Nat} (W : A2 R J) (off K : Nat) (h : off + K ≤ R) (k : Fin K) (j : Fin J) :
    rows W off K h (ix2 k j) = W (ix2 ⟨off + k.val, by have := k.isLt; omega⟩ j) := rfl

/-- The row range that starts at row 0. -/
theorem rows_zero_apply {R J : Nat} (W : A2 R J) (K : Nat) (h : 0 + K ≤ R) (k : Fin K) (j : Fin J) :
    rows W 0 K h (ix2 k j) = W (ix2 ⟨k.val, by have := k.isLt; omega⟩ j) :=
  congrArg W (funext fun a => Fin.ext (by
    match a with
    | ⟨0, _⟩ => exact Nat.zero_add _
    | ⟨1, _⟩ => rfl))

/-- The law of the layer's first half: if a row of 192 entries is, range by range, the two node rows and the two clamped
    edge rows, its product with the 192-row matrix plus the bias is the specification's hidden row. The sum over the 192
    coordinates splits into the four ranges' sums, left to right; on each range the matrix is its row range. -/
theorem hidden_law (a b : A2 400000 64) (c d : A2 400000 32) (W : A2 192 32) (bias : A1 32)
    (X : A2 400000 192) (e : Fin 400000)
    (h0 : ∀ k : Fin 64, X (ix2 e (⟨k.val, by have := k.isLt; omega⟩ : Fin 192)) = a (ix2 e k))
    (h1 : ∀ k : Fin 64, X (ix2 e (⟨64 + k.val, by have := k.isLt; omega⟩ : Fin 192)) = b (ix2 e k))
    (h2 : ∀ k : Fin 32, X (ix2 e (⟨128 + k.val, by have := k.isLt; omega⟩ : Fin 192)) = relu (c (ix2 e k)))
    (h3 : ∀ k : Fin 32, X (ix2 e (⟨160 + k.val, by have := k.isLt; omega⟩ : Fin 192)) = relu (d (ix2 e k)))
    (j : Fin 32) :
    H3 a b c d W bias e j = (∑ k : Fin 192, X (ix2 e k) * W (ix2 k j)) + bias (ix1 j) := by
  rw [sum_split4 (fun k => X (ix2 e k) * W (ix2 k j))]
  unfold H3 hid4 dot
  refine congrArg₂ (· + ·) (congrArg₂ (· + ·) (congrArg₂ (· + ·) (congrArg₂ (· + ·) ?_ ?_) ?_) ?_) rfl
  · refine Finset.sum_congr rfl fun k _ => ?_
    rw [rows_zero_apply]
    exact congrArg (· * _) (h0 k).symm
  · refine Finset.sum_congr rfl fun k _ => ?_
    rw [rows_apply]
    exact congrArg (· * _) (h1 k).symm
  · refine Finset.sum_congr rfl fun k _ => ?_
    rw [rows_apply]
    exact congrArg (· * _) (h2 k).symm
  · refine Finset.sum_congr rfl fun k _ => ?_
    rw [rows_apply]
    exact congrArg (· * _) (h3 k).symm

section Stages
variable (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal))

/-- The reference's clamp of the layer-2 stage at an entry is the specification's clamp of that entry. -/
theorem clamp2_apply (e : Fin 400000) (k : Fin 32) :
    val_main_v63 (F := Ideal) x1 x2 x4 x5 x6 x7 x8 x9 x10 x11 (ix2 e k) = relu (val_main_v50 (F := Ideal) x1 x2 x4 x5 x6 x7 x8 x9 x10 x11 (ix2 e k)) := by
  rw [val_main_v63_apply, val_main_call5_v0_apply, val_main_call5_cst_apply]
  rfl

/-- The reference's clamp of the layer-1 stage at an entry is the specification's clamp of that entry. -/
theorem clamp1_apply (e : Fin 400000) (k : Fin 32) :
    val_main_v25 (F := Ideal) x2 x4 x5 x6 x7 (ix2 e k) = relu (val_main_v12 (F := Ideal) x2 x4 x5 x6 x7 (ix2 e k)) := by
  rw [val_main_v25_apply, val_main_call2_v0_apply, val_main_call2_cst_apply]
  rfl

variable (x12 : (⟨S192x32, .f32⟩ : BufTy).Contents (Elt Ideal)) (x13 : (⟨S32, .f32⟩ : BufTy).Contents (Elt Ideal))

/-- The reference's hidden stage of layer 3 (the product of the concatenated row with the 192-row matrix, plus the bias)
    is the specification's hidden row: the concatenated row is, range by range, the two gathered rows and the two clamped
    rows, so the law of the first half applies. -/
theorem hidden_stage (e : Fin 400000) (k : Fin 32) :
    val_main_v84 (F := Ideal) x1 x2 x4 x5 x6 x7 x8 x9 x10 x11 x12 x13 (ix2 e k)
      = H3 (val_main_v72 (F := Ideal) x1 x2 x4 x5 x6 x7 x8 x9 x10 x11) (val_main_v79 (F := Ideal) x1 x2 x4 x5 x6 x7 x8 x9 x10 x11)
          (val_main_v50 (F := Ideal) x1 x2 x4 x5 x6 x7 x8 x9 x10 x11) (val_main_v12 (F := Ideal) x2 x4 x5 x6 x7) x12 x13 e k := by
  rw [hidden_law (val_main_v72 (F := Ideal) x1 x2 x4 x5 x6 x7 x8 x9 x10 x11) (val_main_v79 (F := Ideal) x1 x2 x4 x5 x6 x7 x8 x9 x10 x11)
        (val_main_v50 (F := Ideal) x1 x2 x4 x5 x6 x7 x8 x9 x10 x11) (val_main_v12 (F := Ideal) x2 x4 x5 x6 x7) x12 x13
        (val_main_v80 (F := Ideal) x1 x2 x4 x5 x6 x7 x8 x9 x10 x11) e
        (fun q => cat_piece0 _ _ _ _ e q) (fun q => cat_piece1 _ _ _ _ e q)
        (fun q => (cat4_2 _ _ _ _ _ _ e q).trans (clamp2_apply x1 x2 x4 x5 x6 x7 x8 x9 x10 x11 e q))
        (fun q => (cat4_3 _ _ _ _ _ _ e q).trans (clamp1_apply x2 x4 x5 x6 x7 e q)) k]
  rw [val_main_v84_apply, val_main_v81_apply, val_main_v83_apply, val_main_v82_apply]
  refine congrArg₂ (· + ·) (Finset.sum_congr rfl fun q _ => congrArg₂ (· * ·) (congrArg _ ?_) (congrArg _ ?_)) (congrArg _ ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

end Stages

end L3aux

open L3aux

/-- The reference's layer-3 stage (before its clamp) is `G3` of the two gathered stages, the layer-2 and layer-1 stages
    and the layer's weights. -/
theorem layer3_eq (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) :
    G3 (val_main_v72 (F := Ideal) x1 x2 x4 x5 x6 x7 x8 x9 x10 x11) (val_main_v79 (F := Ideal) x1 x2 x4 x5 x6 x7 x8 x9 x10 x11) (val_main_v50 (F := Ideal) x1 x2 x4 x5 x6 x7 x8 x9 x10 x11) (val_main_v12 (F := Ideal) x2 x4 x5 x6 x7) x12 x13 x14 x15
      = val_main_v89 (F := Ideal) x1 x2 x4 x5 x6 x7 x8 x9 x10 x11 x12 x13 x14 x15 := by
  -- entry (e, j): both sides are a sum over the 32 hidden coordinates plus the bias at column j
  funext i
  obtain ⟨e, j, rfl⟩ : ∃ (e : Fin 400000) (j : Fin 32), i = ix2 e j :=
    ⟨⟨(i 0).val, idx2_lt0 i⟩, ⟨(i 1).val, idx2_lt1 i⟩, by funext a; match a with | ⟨0, _⟩ => rfl | ⟨1, _⟩ => rfl⟩
  rw [val_main_v89_apply, val_main_v86_apply, val_main_v88_apply, val_main_v87_apply]
  show rowL (H3 (val_main_v72 (F := Ideal) x1 x2 x4 x5 x6 x7 x8 x9 x10 x11) (val_main_v79 (F := Ideal) x1 x2 x4 x5 x6 x7 x8 x9 x10 x11)
    (val_main_v50 (F := Ideal) x1 x2 x4 x5 x6 x7 x8 x9 x10 x11) (val_main_v12 (F := Ideal) x2 x4 x5 x6 x7) x12 x13 e) x14 (vec1 x15) j = _
  unfold rowL aff dot vec1
  refine congrArg₂ (· + ·) (Finset.sum_congr rfl fun k _ => congrArg₂ (· * ·) ?_ (congrArg _ ?_)) (congrArg _ ?_)
  · -- the clamped hidden entry (e, k): the reference's hidden stage is the specification's hidden row
    rw [val_main_v85_apply, val_main_call6_v0_apply, val_main_call6_cst_apply]
    have hl : lidx_main_v86 (ix2 e j) k = ix2 e k :=
      funext fun a => Fin.ext (by match a with | ⟨0, _⟩ => rfl | ⟨1, _⟩ => rfl)
    rw [hl, hidden_stage]
    rfl
  · -- the second matrix is read at row k, column j
    exact funext fun a => Fin.ext (by match a with | ⟨0, _⟩ => rfl | ⟨1, _⟩ => rfl)
  · -- the bias is read at column j
    exact funext fun a => Fin.ext (by match a with | ⟨0, _⟩ => rfl)

end Cert.ReferenceIdeal.Layers

end
-- ==== Proof.Layer4.lean ====
/-
  The reference's layer 4 and its two heads are the specification's. Layer 4's hidden row is layer 3's with the 192-row
  matrix `w40` over the next pair of gathered rows and the clamped layer-3 and layer-2 rows; its clamped result row feeds
  two affine heads. The first head adds the attribute row and divides by `max ‖·‖ ε`, the norm being the square root of
  the host's sum of squares over the four columns; the second is `1 / (1 + exp (−z))` written out in host operations,
  which on the extended reals is the logistic function (the word `0x3F800000` denotes 1).

  The module has two parts. The first is about arbitrary arrays: a sum over 192 coordinates splits, left to right, into
  the sums over the ranges 0–63, 64–127, 128–159, 160–191 (addition on the extended reals is commutative and associative;
  nothing else is used); arrays laid side by side are read piece by piece; and each stage of the layer, written as the
  sum the reference computes over a row of an array, is the specification's row function once that row is known. The
  second part reads the reference's stages at an entry `(e, j)`, one stage from the one before: the concatenated row on
  its four ranges, the hidden row, the clamped result row, the two heads.
-/
import proofs.«411902_j85581518340249_3_alg».proof.Proof.ReadP
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Layers

open Cert.ReferenceIdeal Cert.ReferenceIdeal.Gen Cert.ReferenceIdeal.ReadP Cert.Spec
open Idealize.ShloMosaic Idealize.ShloMosaic.TcCoe Idealize.ShloMosaic.ValueIdx Idealize.SL.Sem

namespace L4aux

/-! ## Sums, pieces and rows of arbitrary arrays -/

/-- A sum over `a + b` coordinates is the sum over the first `a` plus the sum over the last `b`. -/
theorem sum_fin_split {M : Type} [AddCommMonoid M] (a b n : Nat) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over 192 coordinates, split left to right into the ranges 0–63, 64–127, 128–159, 160–191. -/
theorem sum_split4 {M : Type} [AddCommMonoid M] (f : Fin 192 → M) :
    ∑ k : Fin 192, f k =
      ((∑ k : Fin 64, f ⟨k.val, by omega⟩ + ∑ k : Fin 64, f ⟨64 + k.val, by omega⟩)
        + ∑ k : Fin 32, f ⟨128 + k.val, by omega⟩) + ∑ k : Fin 32, f ⟨160 + k.val, by omega⟩ := by
  rw [sum_fin_split 160 32 192 rfl f, sum_fin_split 128 32 160 rfl, sum_fin_split 64 64 128 rfl]

section Pieces
variable {α : Type}

/-- Two 32-wide arrays laid side by side: a column below 32 reads the first. -/
theorem cat2_left (h : Shape.Concatenates [(⟨2, ![400000, 32]⟩ : Shape), ⟨2, ![400000, 32]⟩] ⟨2, ![400000, 64]⟩ 1)
    (a b : (⟨2, ![400000, 32]⟩ : Shape).Idx → α) (e : Fin 400000) (col : Fin 64) (k : Fin 32) (hk : k.val = col.val) :
    concatenate (⟨2, ![400000, 64]⟩ : Shape) 1 [⟨⟨2, ![400000, 32]⟩, a⟩, ⟨⟨2, ![400000, 32]⟩, b⟩] h (ix2 e col)
      = a (ix2 e k) :=
  concatenate_pair_apply_left (t := ⟨2, ![400000, 64]⟩) (s₁ := ⟨2, ![400000, 32]⟩) (s₂ := ⟨2, ![400000, 32]⟩) 1 a b h _ rfl (ix2 e k)
    (fun c => by
      match c with
      | ⟨0, _⟩ => rfl
      | ⟨1, _⟩ => exact hk)

/-- Two 32-wide arrays laid side by side: a column from 32 on reads the second, 32 less. -/
theorem cat2_right (h : Shape.Concatenates [(⟨2, ![400000, 32]⟩ : Shape), ⟨2, ![400000, 32]⟩] ⟨2, ![400000, 64]⟩ 1)
    (a b : (⟨2, ![400000, 32]⟩ : Shape).Idx → α) (e : Fin 400000) (col : Fin 64) (k : Fin 32) (hk : k.val + 32 = col.val) :
    concatenate (⟨2, ![400000, 64]⟩ : Shape) 1 [⟨⟨2, ![400000, 32]⟩, a⟩, ⟨⟨2, ![400000, 32]⟩, b⟩] h (ix2 e col)
      = b (ix2 e k) :=
  concatenate_pair_apply_right (t := ⟨2, ![400000, 64]⟩) (s₁ := ⟨2, ![400000, 32]⟩) (s₂ := ⟨2, ![400000, 32]⟩) 1 a b h _ rfl rfl (ix2 e k)
    (fun c hc => by
      match c with
      | ⟨0, _⟩ => rfl
      | ⟨1, _⟩ => exact absurd rfl hc)
    hk

/-- Three 64-wide arrays laid side by side: columns 0–63 read the first. -/
theorem cat3_p0 (h : Shape.Concatenates [(⟨2, ![400000, 64]⟩ : Shape), ⟨2, ![400000, 64]⟩, ⟨2, ![400000, 64]⟩] ⟨2, ![400000, 192]⟩ 1)
    (a b c : (⟨2, ![400000, 64]⟩ : Shape).Idx → α) (e : Fin 400000) (col : Fin 192) (k : Fin 64) (hk : 0 + k.val = col.val) :
    concatenate (⟨2, ![400000, 192]⟩ : Shape) 1 [⟨⟨2, ![400000, 64]⟩, a⟩, ⟨⟨2, ![400000, 64]⟩, b⟩, ⟨⟨2, ![400000, 64]⟩, c⟩] h (ix2 e col)
      = a (ix2 e k) :=
  concatenate_apply_piece (t := ⟨2, ![400000, 192]⟩) 1 [⟨⟨2, ![400000, 64]⟩, a⟩, ⟨⟨2, ![400000, 64]⟩, b⟩, ⟨⟨2, ![400000, 64]⟩, c⟩] h _ 0 (by simp)
    ⟨2, ![400000, 64]⟩ a rfl rfl 0 rfl (ix2 e k)
    (fun d hd => by
      match d with
      | ⟨0, _⟩ => rfl
      | ⟨1, _⟩ => exact absurd rfl hd)
    hk

/-- Three 64-wide arrays laid side by side: columns 64–127 read the second, 64 less. -/
theorem cat3_p1 (h : Shape.Concatenates [(⟨2, ![400000, 64]⟩ : Shape), ⟨2, ![400000, 64]⟩, ⟨2, ![400000, 64]⟩] ⟨2, ![400000, 192]⟩ 1)
    (a b c : (⟨2, ![400000, 64]⟩ : Shape).Idx → α) (e : Fin 400000) (col : Fin 192) (k : Fin 64) (hk : 64 + k.val = col.val) :
    concatenate (⟨2, ![400000, 192]⟩ : Shape) 1 [⟨⟨2, ![400000, 64]⟩, a⟩, ⟨⟨2, ![400000, 64]⟩, b⟩, ⟨⟨2, ![400000, 64]⟩, c⟩] h (ix2 e col)
      = b (ix2 e k) :=
  concatenate_apply_piece (t := ⟨2, ![400000, 192]⟩) 1 [⟨⟨2, ![400000, 64]⟩, a⟩, ⟨⟨2, ![400000, 64]⟩, b⟩, ⟨⟨2, ![400000, 64]⟩, c⟩] h _ 1 (by simp)
    ⟨2, ![400000, 64]⟩ b rfl rfl 64 rfl (ix2 e k)
    (fun d hd => by
      match d with
      | ⟨0, _⟩ => rfl
      | ⟨1, _⟩ => exact absurd rfl hd)
    hk

/-- Three 64-wide arrays laid side by side: columns 128–191 read the third, 128 less. -/
theorem cat3_p2 (h : Shape.Concatenates [(⟨2, ![400000, 64]⟩ : Shape), ⟨2, ![400000, 64]⟩, ⟨2, ![400000, 64]⟩] ⟨2, ![400000, 192]⟩ 1)
    (a b c : (⟨2, ![400000, 64]⟩ : Shape).Idx → α) (e : Fin 400000) (col : Fin 192) (k : Fin 64) (hk : 128 + k.val = col.val) :
    concatenate (⟨2, ![400000, 192]⟩ : Shape) 1 [⟨⟨2, ![400000, 64]⟩, a⟩, ⟨⟨2, ![400000, 64]⟩, b⟩, ⟨⟨2, ![400000, 64]⟩, c⟩] h (ix2 e col)
      = c (ix2 e k) :=
  concatenate_apply_piece (t := ⟨2, ![400000, 192]⟩) 1 [⟨⟨2, ![400000, 64]⟩, a⟩, ⟨⟨2, ![400000, 64]⟩, b⟩, ⟨⟨2, ![400000, 64]⟩, c⟩] h _ 2 (by simp)
    ⟨2, ![400000, 64]⟩ c rfl rfl 128 rfl (ix2 e k)
    (fun d hd => by
      match d with
      | ⟨0, _⟩ => rfl
      | ⟨1, _⟩ => exact absurd rfl hd)
    hk

end Pieces

/-- The word `0x3F800000` denotes 1. -/
theorem one_word : Ideal.ofBits .f32 0x3F800000#32 = 1 := by
  simp [Ideal.ofBits, Ideal.ieee, -EReal.coe_mul]
  norm_num

/-- The hidden row of a 192-wide layer: when the concatenated row `c` is, on the four coordinate ranges, the two
    gathered rows and the two clamped edge rows, its product with the tall matrix plus the bias is `H3`. The sum over
    192 coordinates is split into the four ranges; on each the row is its piece and the matrix its block of rows. -/
theorem hid_abs (c : A2 400000 192) (a b : A2 400000 64) (p q : A2 400000 32) (w : A2 192 32) (bias : A1 32)
    (e : Fin 400000) (j : Fin 32)
    (h0 : ∀ k : Fin 64, c (ix2 e ⟨k.val, by omega⟩) = a (ix2 e k))
    (h1 : ∀ k : Fin 64, c (ix2 e ⟨64 + k.val, by omega⟩) = b (ix2 e k))
    (h2 : ∀ k : Fin 32, c (ix2 e ⟨128 + k.val, by omega⟩) = relu (p (ix2 e k)))
    (h3 : ∀ k : Fin 32, c (ix2 e ⟨160 + k.val, by omega⟩) = relu (q (ix2 e k))) :
    (∑ k : Fin 192, c (ix2 e k) * w (ix2 k j)) + bias (ix1 j) = H3 a b p q w bias e j := by
  rw [sum_split4]
  unfold H3 hid4 dot rowOf rows vec1
  refine congrArg₂ (· + ·) (congrArg₂ (· + ·) (congrArg₂ (· + ·) (congrArg₂ (· + ·) ?_ ?_) ?_) ?_) rfl
  · refine Finset.sum_congr rfl fun k _ => congrArg₂ (· * ·) (h0 k) (congrArg w ?_)
    exact funext fun d => by
      match d with
      | ⟨0, _⟩ => exact Fin.ext (by show k.val = 0 + k.val; omega)
      | ⟨1, _⟩ => rfl
  · refine Finset.sum_congr rfl fun k _ => congrArg₂ (· * ·) (h1 k) (congrArg w ?_)
    exact funext fun d => by
      match d with
      | ⟨0, _⟩ => rfl
      | ⟨1, _⟩ => rfl
  · refine Finset.sum_congr rfl fun k _ => congrArg₂ (· * ·) (h2 k) (congrArg w ?_)
    exact funext fun d => by
      match d with
      | ⟨0, _⟩ => rfl
      | ⟨1, _⟩ => rfl
  · refine Finset.sum_congr rfl fun k _ => congrArg₂ (· * ·) (h3 k) (congrArg w ?_)
    exact funext fun d => by
      match d with
      | ⟨0, _⟩ => rfl
      | ⟨1, _⟩ => rfl

/-- An affine map of a row read off an array: when row `e` of `c` is `r`, the sum over the contracted coordinate plus
    the bias is `aff r w b`. -/
theorem aff_abs {K J : Nat} (c : A2 400000 K) (w : A2 K J) (b : A1 J) (r : Fin K → EReal) (e : Fin 400000) (j : Fin J)
    (hc : ∀ k, c (ix2 e k) = r k) :
    (∑ k : Fin K, c (ix2 e k) * w (ix2 k j)) + b (ix1 j) = aff r w (vec1 b) j := by
  unfold aff dot vec1
  exact congrArg₂ (· + ·) (Finset.sum_congr rfl fun k _ => congrArg₂ (· * ·) (hc k) rfl) rfl

/-- The clamped result row of the last layer: when row `e` of `c` is the clamped hidden row, the clamp of its affine
    image is `rowE4`. -/
theorem e4_abs (hidden : Fin 32 → EReal) (c : A2 400000 32) (w : A2 32 32) (b : A1 32) (e : Fin 400000) (k : Fin 32)
    (hc : ∀ k', c (ix2 e k') = relu (hidden k')) :
    max ((∑ k' : Fin 32, c (ix2 e k') * w (ix2 k' k)) + b (ix1 k)) (Ideal.ofBits .f32 0x00000000#32)
      = rowE4 hidden w (vec1 b) k := by
  unfold rowE4 rowL
  exact congrArg (fun t => max t (Ideal.ofBits .f32 0x00000000#32)) (aff_abs c w b (fun k' => relu (hidden k')) e k hc)

/-- The four-vector before normalisation: the second affine map of the first head plus the attribute row. -/
theorem ex_abs (c : A2 400000 32) (w : A2 32 4) (b : A1 4) (attr : A2 400000 4) (e4 : Fin 32 → EReal) (w0 : A2 32 32)
    (b0 : Fin 32 → EReal) (e : Fin 400000) (a : Fin 4) (hc : ∀ k, c (ix2 e k) = aff e4 w0 b0 k) :
    ((∑ k : Fin 32, c (ix2 e k) * w (ix2 k a)) + b (ix1 a)) + attr (ix2 e a)
      = rowEX e4 w0 b0 w (vec1 b) (rowOf attr e) a := by
  unfold rowEX rowOf
  exact congrArg₂ (· + ·) (aff_abs c w b (aff e4 w0 b0) e a hc) rfl

/-- The normalised four-vector: the sum of squares starts from the zero word, which denotes 0. -/
theorem norm_abs (ex : Fin 4 → EReal) (c : A2 400000 4) (e : Fin 400000) (a : Fin 4) (hc : ∀ k, c (ix2 e k) = ex k) :
    Ideal.div (c (ix2 e a))
        (max (Ideal.sqrt (Ideal.ofBits .f32 0x00000000#32 + ∑ k : Fin 4, c (ix2 e k) * c (ix2 e k)))
          (Ideal.ofBits .f32 0x2B8CBCCC#32))
      = normalise ex a := by
  unfold normalise
  rw [Ideal.ofBits_zero_f32, zero_add, hc a]
  exact congrArg (fun t => Ideal.div (ex a) (max (Ideal.sqrt t) (Ideal.ofBits .f32 0x2B8CBCCC#32)))
    (Finset.sum_congr rfl fun k _ => congrArg₂ (· * ·) (hc k) (hc k))

/-- `1 / (1 + exp (−z))` with both ones the word `0x3F800000` is the logistic function. -/
theorem prob_abs (z : EReal) :
    Ideal.div (Ideal.ofBits .f32 0x3F800000#32) (Ideal.ofBits .f32 0x3F800000#32 + Ideal.exp (-z)) = Ideal.logistic z := by
  rw [one_word]
  rfl

/-! ## The index functions of the reference's contractions and bias broadcasts at `(e, j)` -/

theorem lidx120 (e : Fin 400000) (j : Fin 32) (k : Fin 192) :
    lidx_main_v120 (ix2 e j : S400000x32.Idx) k = ix2 e k :=
  funext fun a => by
    match a with
    | ⟨0, _⟩ => rfl
    | ⟨1, _⟩ => rfl
theorem ridx120 (e : Fin 400000) (j : Fin 32) (k : Fin 192) :
    ridx_main_v120 (ix2 e j : S400000x32.Idx) k = ix2 k j :=
  funext fun a => by
    match a with
    | ⟨0, _⟩ => rfl
    | ⟨1, _⟩ => rfl
theorem lidx125 (e : Fin 400000) (j : Fin 32) (k : Fin 32) :
    lidx_main_v125 (ix2 e j : S400000x32.Idx) k = ix2 e k :=
  funext fun a => by
    match a with
    | ⟨0, _⟩ => rfl
    | ⟨1, _⟩ => rfl
theorem ridx125 (e : Fin 400000) (j : Fin 32) (k : Fin 32) :
    ridx_main_v125 (ix2 e j : S400000x32.Idx) k = ix2 k j :=
  funext fun a => by
    match a with
    | ⟨0, _⟩ => rfl
    | ⟨1, _⟩ => rfl
theorem lidx130 (e : Fin 400000) (j : Fin 32) (k : Fin 32) :
    lidx_main_v130 (ix2 e j : S400000x32.Idx) k = ix2 e k :=
  funext fun a => by
    match a with
    | ⟨0, _⟩ => rfl
    | ⟨1, _⟩ => rfl
theorem ridx130 (e : Fin 400000) (j : Fin 32) (k : Fin 32) :
    ridx_main_v130 (ix2 e j : S400000x32.Idx) k = ix2 k j :=
  funext fun a => by
    match a with
    | ⟨0, _⟩ => rfl
    | ⟨1, _⟩ => rfl
theorem lidx134 (e : Fin 400000) (j : Fin 32) (k : Fin 32) :
    lidx_main_v134 (ix2 e j : S400000x32.Idx) k = ix2 e k :=
  funext fun a => by
    match a with
    | ⟨0, _⟩ => rfl
    | ⟨1, _⟩ => rfl
theorem ridx134 (e : Fin 400000) (j : Fin 32) (k : Fin 32) :
    ridx_main_v134 (ix2 e j : S400000x32.Idx) k = ix2 k j :=
  funext fun a => by
    match a with
    | ⟨0, _⟩ => rfl
    | ⟨1, _⟩ => rfl
theorem lidx138 (e : Fin 400000) (j : Fin 4) (k : Fin 32) :
    lidx_main_v138 (ix2 e j : S400000x4.Idx) k = ix2 e k :=
  funext fun a => by
    match a with
    | ⟨0, _⟩ => rfl
    | ⟨1, _⟩ => rfl
theorem ridx138 (e : Fin 400000) (j : Fin 4) (k : Fin 32) :
    ridx_main_v138 (ix2 e j : S400000x4.Idx) k = ix2 k j :=
  funext fun a => by
    match a with
    | ⟨0, _⟩ => rfl
    | ⟨1, _⟩ => rfl
theorem lidx148 (e : Fin 400000) (j : Fin 1) (k : Fin 32) :
    lidx_main_v148 (ix2 e j : S400000x1.Idx) k = ix2 e k :=
  funext fun a => by
    match a with
    | ⟨0, _⟩ => rfl
    | ⟨1, _⟩ => rfl
theorem ridx148 (e : Fin 400000) (j : Fin 1) (k : Fin 32) :
    ridx_main_v148 (ix2 e j : S400000x1.Idx) k = ix2 k j :=
  funext fun a => by
    match a with
    | ⟨0, _⟩ => rfl
    | ⟨1, _⟩ => rfl
theorem bias122 (e : Fin 400000) (j : Fin 32) :
    idx_main_v121 (idx_main_v122 (ix2 e j : S400000x32.Idx)) = ix1 j :=
  funext fun a => by
    match a with
    | ⟨0, _⟩ => rfl
theorem bias127 (e : Fin 400000) (j : Fin 32) :
    idx_main_v126 (idx_main_v127 (ix2 e j : S400000x32.Idx)) = ix1 j :=
  funext fun a => by
    match a with
    | ⟨0, _⟩ => rfl
theorem bias132 (e : Fin 400000) (j : Fin 32) :
    idx_main_v131 (idx_main_v132 (ix2 e j : S400000x32.Idx)) = ix1 j :=
  funext fun a => by
    match a with
    | ⟨0, _⟩ => rfl
theorem bias136 (e : Fin 400000) (j : Fin 32) :
    idx_main_v135 (idx_main_v136 (ix2 e j : S400000x32.Idx)) = ix1 j :=
  funext fun a => by
    match a with
    | ⟨0, _⟩ => rfl
theorem bias140 (e : Fin 400000) (j : Fin 4) :
    idx_main_v139 (idx_main_v140 (ix2 e j : S400000x4.Idx)) = ix1 j :=
  funext fun a => by
    match a with
    | ⟨0, _⟩ => rfl
theorem bias150 (e : Fin 400000) :
    idx_main_v149 (idx_main_v150 (ix2 e (0 : Fin 1) : S400000x1.Idx)) = ix1 (0 : Fin 1) :=
  funext fun a => by
    match a with
    | ⟨0, _⟩ => rfl

/-! ## The clamped layer-3 and layer-2 stages, and the concatenated row on its four ranges -/

/-- The reference's clamp of the layer-3 stage is `relu` entry by entry. -/
theorem clamp3 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (e : Fin 400000) (a : Fin 32) :
    val_main_v102 (F := Ideal) x1 x2 x4 x5 x6 x7 x8 x9 x10 x11 x12 x13 x14 x15 (ix2 e a) = relu (val_main_v89 (F := Ideal) x1 x2 x4 x5 x6 x7 x8 x9 x10 x11 x12 x13 x14 x15 (ix2 e a)) := by
  rw [val_main_v102_apply, val_main_call8_v0_apply, val_main_call8_cst_apply]
  rfl

/-- The reference's clamp of the layer-2 stage is `relu` entry by entry. -/
theorem clamp2 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (e : Fin 400000) (a : Fin 32) :
    val_main_v63 (F := Ideal) x1 x2 x4 x5 x6 x7 x8 x9 x10 x11 (ix2 e a) = relu (val_main_v50 (F := Ideal) x1 x2 x4 x5 x6 x7 x8 x9 x10 x11 (ix2 e a)) := by
  rw [val_main_v63_apply, val_main_call5_v0_apply, val_main_call5_cst_apply]
  rfl

/-- Columns 0–63 of the concatenated row are the first gathered row. -/
theorem row119_0 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (e : Fin 400000) (k : Fin 64) :
    val_main_v119 (F := Ideal) x1 x2 x4 x5 x6 x7 x8 x9 x10 x11 x12 x13 x14 x15 (ix2 e (⟨k.val, by omega⟩ : Fin 192)) = val_main_v111 (F := Ideal) x1 x2 x4 x5 x6 x7 x8 x9 x10 x11 x12 x13 x14 x15 (ix2 e k) := by
  unfold val_main_v119
  exact cat3_p0 _ _ _ _ e _ k (by show 0 + k.val = k.val; omega)

/-- Columns 64–127 of the concatenated row are the second gathered row. -/
theorem row119_1 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (e : Fin 400000) (k : Fin 64) :
    val_main_v119 (F := Ideal) x1 x2 x4 x5 x6 x7 x8 x9 x10 x11 x12 x13 x14 x15 (ix2 e (⟨64 + k.val, by omega⟩ : Fin 192)) = val_main_v118 (F := Ideal) x1 x2 x4 x5 x6 x7 x8 x9 x10 x11 x12 x13 x14 x15 (ix2 e k) := by
  unfold val_main_v119
  exact cat3_p1 _ _ _ _ e _ k rfl

/-- Columns 128–159 of the concatenated row are the clamped layer-3 row. -/
theorem row119_2 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (e : Fin 400000) (k : Fin 32) :
    val_main_v119 (F := Ideal) x1 x2 x4 x5 x6 x7 x8 x9 x10 x11 x12 x13 x14 x15 (ix2 e (⟨128 + k.val, by omega⟩ : Fin 192)) = relu (val_main_v89 (F := Ideal) x1 x2 x4 x5 x6 x7 x8 x9 x10 x11 x12 x13 x14 x15 (ix2 e k)) := by
  unfold val_main_v119
  refine (cat3_p2 _ _ _ _ e _ (⟨k.val, by omega⟩ : Fin 64) rfl).trans ?_
  unfold val_main_v104
  refine (cat2_left _ _ _ e _ k rfl).trans ?_
  exact clamp3 x1 x2 x4 x5 x6 x7 x8 x9 x10 x11 x12 x13 x14 x15 e k

/-- Columns 160–191 of the concatenated row are the clamped layer-2 row. -/
theorem row119_3 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (e : Fin 400000) (k : Fin 32) :
    val_main_v119 (F := Ideal) x1 x2 x4 x5 x6 x7 x8 x9 x10 x11 x12 x13 x14 x15 (ix2 e (⟨160 + k.val, by omega⟩ : Fin 192)) = relu (val_main_v50 (F := Ideal) x1 x2 x4 x5 x6 x7 x8 x9 x10 x11 (ix2 e k)) := by
  unfold val_main_v119
  refine (cat3_p2 _ _ _ _ e _ (⟨32 + k.val, by omega⟩ : Fin 64) (by show 128 + (32 + k.val) = 160 + k.val; omega)).trans ?_
  unfold val_main_v104
  refine (cat2_right _ _ _ e _ k (by show k.val + 32 = 32 + k.val; omega)).trans ?_
  exact clamp2 x1 x2 x4 x5 x6 x7 x8 x9 x10 x11 e k

/-! ## The hidden row and the clamped result row -/

/-- The reference's hidden stage of layer 4 at `(e, j)` is `H3`. -/
theorem hidden_eq (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (e : Fin 400000) (j : Fin 32) :
    val_main_v123 (F := Ideal) x1 x2 x4 x5 x6 x7 x8 x9 x10 x11 x12 x13 x14 x15 x16 x17 (ix2 e j) = H3 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 e j := by
  rw [val_main_v123_apply, val_main_v120_apply, val_main_v122_apply, val_main_v121_apply, Ideal.addf_def]
  refine Eq.trans ?_ (hid_abs (val_main_v119 (F := Ideal) x1 x2 x4 x5 x6 x7 x8 x9 x10 x11 x12 x13 x14 x15) (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 e j
    (row119_0 x1 x2 x4 x5 x6 x7 x8 x9 x10 x11 x12 x13 x14 x15 e) (row119_1 x1 x2 x4 x5 x6 x7 x8 x9 x10 x11 x12 x13 x14 x15 e) (row119_2 x1 x2 x4 x5 x6 x7 x8 x9 x10 x11 x12 x13 x14 x15 e) (row119_3 x1 x2 x4 x5 x6 x7 x8 x9 x10 x11 x12 x13 x14 x15 e))
  refine congrArg₂ (· + ·) (Finset.sum_congr rfl fun k _ => ?_) (congrArg x17 (bias122 e j))
  rw [lidx120, ridx120]

/-- The reference's clamp of the hidden stage is `relu` of `H3`. -/
theorem clamp_hidden (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (e : Fin 400000) (k : Fin 32) :
    val_main_v124 (F := Ideal) x1 x2 x4 x5 x6 x7 x8 x9 x10 x11 x12 x13 x14 x15 x16 x17 (ix2 e k) = relu (H3 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 e k) := by
  rw [val_main_v124_apply, val_main_call9_v0_apply, val_main_call9_cst_apply, hidden_eq]
  rfl

/-- The row both heads read: the reference's clamped layer-4 stage at `(e, k)` is `E4`. -/
theorem row_e4 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (e : Fin 400000) (k : Fin 32) :
    val_main_v129 (F := Ideal) x1 x2 x4 x5 x6 x7 x8 x9 x10 x11 x12 x13 x14 x15 x16 x17 x18 x19 (ix2 e k) = E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e k := by
  rw [val_main_v129_apply, val_main_call10_v0_apply, val_main_call10_cst_apply, val_main_v128_apply,
    val_main_v125_apply, val_main_v127_apply, val_main_v126_apply, Ideal.addf_def, Ideal.maximumf_def, Ideal.ofBits_def]
  refine Eq.trans ?_ (e4_abs (H3 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 e) (val_main_v124 (F := Ideal) x1 x2 x4 x5 x6 x7 x8 x9 x10 x11 x12 x13 x14 x15 x16 x17) x18 x19 e k (clamp_hidden x1 x2 x4 x5 x6 x7 x8 x9 x10 x11 x12 x13 x14 x15 x16 x17 e))
  refine congrArg (fun t => max t (Ideal.ofBits .f32 0x00000000#32)) ?_
  refine congrArg₂ (· + ·) (Finset.sum_congr rfl fun k' _ => ?_) (congrArg x19 (bias127 e k))
  rw [lidx125, ridx125]

/-! ## The first head -/

/-- The first head's first affine map. -/
theorem row_133 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x20 : (⟨S32x32, .f32⟩ : BufTy).Contents (Elt Ideal)) (x21 : (⟨S32, .f32⟩ : BufTy).Contents (Elt Ideal)) (e : Fin 400000) (k : Fin 32) :
    val_main_v133 (F := Ideal) x1 x2 x4 x5 x6 x7 x8 x9 x10 x11 x12 x13 x14 x15 x16 x17 x18 x19 x20 x21 (ix2 e k) = aff (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x20 (vec1 x21) k := by
  rw [val_main_v133_apply, val_main_v130_apply, val_main_v132_apply, val_main_v131_apply, Ideal.addf_def]
  refine Eq.trans ?_ (aff_abs (val_main_v129 (F := Ideal) x1 x2 x4 x5 x6 x7 x8 x9 x10 x11 x12 x13 x14 x15 x16 x17 x18 x19) x20 x21 (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) e k (row_e4 x1 x2 x4 x5 x6 x7 x8 x9 x10 x11 x12 x13 x14 x15 x16 x17 x18 x19 e))
  refine congrArg₂ (· + ·) (Finset.sum_congr rfl fun k' _ => ?_) (congrArg x21 (bias132 e k))
  rw [lidx130, ridx130]

/-- The four-vector before normalisation. -/
theorem row_ex (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x20 : (⟨S32x32, .f32⟩ : BufTy).Contents (Elt Ideal)) (x21 : (⟨S32, .f32⟩ : BufTy).Contents (Elt Ideal)) (x24 : (⟨S32x4, .f32⟩ : BufTy).Contents (Elt Ideal)) (x25 : (⟨S4, .f32⟩ : BufTy).Contents (Elt Ideal)) (e : Fin 400000) (a : Fin 4) :
    val_main_v142 (F := Ideal) x1 x2 x4 x5 x6 x7 x8 x9 x10 x11 x12 x13 x14 x15 x16 x17 x18 x19 x20 x21 x24 x25 (ix2 e a) = rowEX (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x20 (vec1 x21) x24 (vec1 x25) (rowOf x2 e) a := by
  rw [val_main_v142_apply, val_main_v141_apply, val_main_v138_apply, val_main_v140_apply, val_main_v139_apply,
    Ideal.addf_def, Ideal.addf_def]
  refine Eq.trans ?_ (ex_abs (val_main_v133 (F := Ideal) x1 x2 x4 x5 x6 x7 x8 x9 x10 x11 x12 x13 x14 x15 x16 x17 x18 x19 x20 x21) x24 x25 x2 (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x20 (vec1 x21) e a (row_133 x1 x2 x4 x5 x6 x7 x8 x9 x10 x11 x12 x13 x14 x15 x16 x17 x18 x19 x20 x21 e))
  refine congrArg₂ (· + ·) (congrArg₂ (· + ·) (Finset.sum_congr rfl fun k' _ => ?_) (congrArg x25 (bias140 e a))) rfl
  rw [lidx138, ridx138]

/-- The index of the summed squares: column `k` of row `e`. -/
theorem idx_squares (e : Fin 400000) (a : Fin 4) (k : Fin 4) :
    idx_main_call11_v1 (idx_main_call11_v2 (idx_main_v146 (ix2 e a : S400000x4.Idx))) k = ix2 e k :=
  funext fun d => by
    match d with
    | ⟨0, _⟩ => rfl
    | ⟨1, _⟩ => rfl

/-- The reference's normalised four-vector at `(e, a)`. -/
theorem edge_at (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x20 : (⟨S32x32, .f32⟩ : BufTy).Contents (Elt Ideal)) (x21 : (⟨S32, .f32⟩ : BufTy).Contents (Elt Ideal)) (x24 : (⟨S32x4, .f32⟩ : BufTy).Contents (Elt Ideal)) (x25 : (⟨S4, .f32⟩ : BufTy).Contents (Elt Ideal)) (e : Fin 400000) (a : Fin 4) :
    val_main_v147 (F := Ideal) x1 x2 x4 x5 x6 x7 x8 x9 x10 x11 x12 x13 x14 x15 x16 x17 x18 x19 x20 x21 x24 x25 (ix2 e a)
      = normalise (rowEX (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x20 (vec1 x21) x24 (vec1 x25) (rowOf x2 e)) a := by
  rw [val_main_v147_apply, val_main_v146_apply, val_main_v145_apply, val_main_v143_apply, val_main_v144_apply,
    val_main_cst_22_apply, val_main_call11_v2_apply, val_main_call11_v1_apply, val_main_call11_cst_apply]
  simp only [Ideal.hostDivf_def, Ideal.maximumf_def, Ideal.hostUnary_sqrt_def, Ideal.ofBits_def]
  refine Eq.trans ?_ (norm_abs (rowEX (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x20 (vec1 x21) x24 (vec1 x25) (rowOf x2 e)) (val_main_v142 (F := Ideal) x1 x2 x4 x5 x6 x7 x8 x9 x10 x11 x12 x13 x14 x15 x16 x17 x18 x19 x20 x21 x24 x25) e a
    (row_ex x1 x2 x4 x5 x6 x7 x8 x9 x10 x11 x12 x13 x14 x15 x16 x17 x18 x19 x20 x21 x24 x25 e))
  refine congrArg (fun t => Ideal.div (val_main_v142 (F := Ideal) x1 x2 x4 x5 x6 x7 x8 x9 x10 x11 x12 x13 x14 x15 x16 x17 x18 x19 x20 x21 x24 x25 (ix2 e a))
    (max (Ideal.sqrt (Ideal.ofBits .f32 0x00000000#32 + t)) (Ideal.ofBits .f32 0x2B8CBCCC#32))) ?_
  refine Finset.sum_congr rfl fun k _ => ?_
  rw [idx_squares, val_main_call11_v0_apply, Ideal.mulf_def]

/-! ## The second head -/

/-- The second head's first affine map. -/
theorem row_137 (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x22 : (⟨S32x32, .f32⟩ : BufTy).Contents (Elt Ideal)) (x23 : (⟨S32, .f32⟩ : BufTy).Contents (Elt Ideal)) (e : Fin 400000) (k : Fin 32) :
    val_main_v137 (F := Ideal) x1 x2 x4 x5 x6 x7 x8 x9 x10 x11 x12 x13 x14 x15 x16 x17 x18 x19 x22 x23 (ix2 e k) = aff (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x22 (vec1 x23) k := by
  rw [val_main_v137_apply, val_main_v134_apply, val_main_v136_apply, val_main_v135_apply, Ideal.addf_def]
  refine Eq.trans ?_ (aff_abs (val_main_v129 (F := Ideal) x1 x2 x4 x5 x6 x7 x8 x9 x10 x11 x12 x13 x14 x15 x16 x17 x18 x19) x22 x23 (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) e k (row_e4 x1 x2 x4 x5 x6 x7 x8 x9 x10 x11 x12 x13 x14 x15 x16 x17 x18 x19 e))
  refine congrArg₂ (· + ·) (Finset.sum_congr rfl fun k' _ => ?_) (congrArg x23 (bias136 e k))
  rw [lidx134, ridx134]

/-- The scalar the logistic function is applied to. -/
theorem row_pz (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x22 : (⟨S32x32, .f32⟩ : BufTy).Contents (Elt Ideal)) (x23 : (⟨S32, .f32⟩ : BufTy).Contents (Elt Ideal)) (x26 : (⟨S32x1, .f32⟩ : BufTy).Contents (Elt Ideal)) (x27 : (⟨S1, .f32⟩ : BufTy).Contents (Elt Ideal)) (e : Fin 400000) :
    val_main_v151 (F := Ideal) x1 x2 x4 x5 x6 x7 x8 x9 x10 x11 x12 x13 x14 x15 x16 x17 x18 x19 x22 x23 x26 x27 (ix2 e (0 : Fin 1)) = rowPZ (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x22 (vec1 x23) x26 (vec1 x27) := by
  rw [val_main_v151_apply, val_main_v148_apply, val_main_v150_apply, val_main_v149_apply, Ideal.addf_def]
  refine Eq.trans ?_ (aff_abs (val_main_v137 (F := Ideal) x1 x2 x4 x5 x6 x7 x8 x9 x10 x11 x12 x13 x14 x15 x16 x17 x18 x19 x22 x23) x26 x27 (aff (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x22 (vec1 x23)) e (0 : Fin 1) (row_137 x1 x2 x4 x5 x6 x7 x8 x9 x10 x11 x12 x13 x14 x15 x16 x17 x18 x19 x22 x23 e))
  refine congrArg₂ (· + ·) (Finset.sum_congr rfl fun k' _ => ?_) (congrArg x27 (bias150 e))
  rw [lidx148, ridx148]

/-- The reference's logistic result at row `e`. -/
theorem prob_at (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x22 : (⟨S32x32, .f32⟩ : BufTy).Contents (Elt Ideal)) (x23 : (⟨S32, .f32⟩ : BufTy).Contents (Elt Ideal)) (x26 : (⟨S32x1, .f32⟩ : BufTy).Contents (Elt Ideal)) (x27 : (⟨S1, .f32⟩ : BufTy).Contents (Elt Ideal)) (e : Fin 400000) :
    val_main_v157 (F := Ideal) x1 x2 x4 x5 x6 x7 x8 x9 x10 x11 x12 x13 x14 x15 x16 x17 x18 x19 x22 x23 x26 x27 (ix2 e (0 : Fin 1))
      = Ideal.logistic (rowPZ (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x22 (vec1 x23) x26 (vec1 x27)) := by
  rw [val_main_v157_apply, val_main_v156_apply, val_main_cst_24_apply, val_main_v155_apply, val_main_v154_apply,
    val_main_cst_23_apply, val_main_v153_apply, val_main_v152_apply, row_pz]
  simp only [Ideal.hostDivf_def, Ideal.addf_def, Ideal.hostUnary_exp_def, Ideal.hostNegf_def, Ideal.negf_def, Ideal.ofBits_def]
  exact prob_abs _

end L4aux

open L4aux

/-! ## The two results as whole arrays -/

/-- The reference's normalised four-vector result is `EdgeX` of the gathered stages, the layer-3 and layer-2 stages, the
    attributes and the weights. -/
theorem layer4_edge_eq (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x20 : (⟨S32x32, .f32⟩ : BufTy).Contents (Elt Ideal)) (x21 : (⟨S32, .f32⟩ : BufTy).Contents (Elt Ideal)) (x24 : (⟨S32x4, .f32⟩ : BufTy).Contents (Elt Ideal)) (x25 : (⟨S4, .f32⟩ : BufTy).Contents (Elt Ideal)) :
    EdgeX (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x2
        x16 x17 x18 x19 x20 x21 x24 x25
      = val_main_v147 (F := Ideal) x1 x2 x4 x5 x6 x7 x8 x9 x10 x11 x12 x13 x14 x15 x16 x17 x18 x19 x20 x21 x24 x25 := by
  funext i
  obtain ⟨e, a, rfl⟩ : ∃ (e : Fin 400000) (a : Fin 4), i = ix2 e a :=
    ⟨⟨(i 0).val, idx2_lt0 i⟩, ⟨(i 1).val, idx2_lt1 i⟩, by funext d; match d with | ⟨0, _⟩ => rfl | ⟨1, _⟩ => rfl⟩
  show normalise (rowEX (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x20 (vec1 x21) x24 (vec1 x25) (rowOf x2 e)) a = _
  exact (edge_at x1 x2 x4 x5 x6 x7 x8 x9 x10 x11 x12 x13 x14 x15 x16 x17 x18 x19 x20 x21 x24 x25 e a).symm

/-- The reference's logistic result is `Probs` of the same stages and the second head's weights. -/
theorem layer4_prob_eq (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x22 : (⟨S32x32, .f32⟩ : BufTy).Contents (Elt Ideal)) (x23 : (⟨S32, .f32⟩ : BufTy).Contents (Elt Ideal)) (x26 : (⟨S32x1, .f32⟩ : BufTy).Contents (Elt Ideal)) (x27 : (⟨S1, .f32⟩ : BufTy).Contents (Elt Ideal)) :
    Probs (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11)
        x16 x17 x18 x19 x22 x23 x26 x27
      = val_main_v157 (F := Ideal) x1 x2 x4 x5 x6 x7 x8 x9 x10 x11 x12 x13 x14 x15 x16 x17 x18 x19 x22 x23 x26 x27 := by
  funext i
  obtain ⟨e, z, rfl⟩ : ∃ (e : Fin 400000) (z : Fin 1), i = ix2 e z :=
    ⟨⟨(i 0).val, idx2_lt0 i⟩, ⟨(i 1).val, idx2_lt1 i⟩, by funext d; match d with | ⟨0, _⟩ => rfl | ⟨1, _⟩ => rfl⟩
  obtain rfl : z = 0 := Subsingleton.elim _ _
  show Ideal.logistic (rowPZ (E4 (val_main_v111 (F := Ideal) x1 x2 x4 x5 x6 x7 x8 x9 x10 x11 x12 x13 x14 x15) (val_main_v118 (F := Ideal) x1 x2 x4 x5 x6 x7 x8 x9 x10 x11 x12 x13 x14 x15) (val_main_v89 (F := Ideal) x1 x2 x4 x5 x6 x7 x8 x9 x10 x11 x12 x13 x14 x15) (val_main_v50 (F := Ideal) x1 x2 x4 x5 x6 x7 x8 x9 x10 x11) x16 x17 x18 x19 e) x22 (vec1 x23) x26 (vec1 x27)) = _
  exact (prob_at x1 x2 x4 x5 x6 x7 x8 x9 x10 x11 x12 x13 x14 x15 x16 x17 x18 x19 x22 x23 x26 x27 e).symm

end Cert.ReferenceIdeal.Layers

end
-- ==== Proof.IdxNorm.lean ====
/-
  Negative-index normalisation is the identity on node numbers. Before each gather the reference replaces an index `r`
  by `r + 50000` where `r < 0` (a signed compare, a word addition and a select). On an index array whose entries are all
  at least 0 the compare is the bit 0 at every entry and the select returns the index itself, so the normalised index
  stage is the index stage.
-/
import proofs.«411902_j85581518340249_3_alg».proof.Proof.ReadP
import proofs.«411902_j85581518340249_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Layers

open Cert.ReferenceIdeal Cert.ReferenceIdeal.Gen Cert.ReferenceIdeal.ReadP Cert.Spec
open Idealize.ShloMosaic Idealize.ShloMosaic.TcCoe Idealize.ShloMosaic.ValueIdx Idealize.SL.Sem

namespace IdxAux

/-- A signed word that is at least 0 is not below the word 0, so a select on "r < 0" returns its last operand. -/
theorem select_below_zero_of_nonneg {r y : BitVec 32} (hr : 0 ≤ r.toInt) :
    Scalar.select (IntOp.cmpi .slt r 0#32) y r = r := by
  have hs : r.slt 0#32 = false := by
    cases hc : r.slt 0#32 with
    | false => rfl
    | true =>
      have hlt : r.toInt < (0#32 : BitVec 32).toInt := BitVec.slt_iff_toInt_lt.1 hc
      have e0 : (0#32 : BitVec 32).toInt = 0 := by decide
      rw [e0] at hlt
      omega
  have hb : IntOp.cmpi .slt r 0#32 = 0#1 := by
    show BitVec.ofBool (r.slt 0#32) = 0#1
    rw [hs]
    rfl
  rw [hb]
  exact select_zero _ _

/-- Entry i of the target-node index stage is entry (0, i) of the index array, so it is at least 0. -/
theorem row_nonneg (x1 : (⟨S2x400000, .i32⟩ : BufTy).Contents (Elt Ideal)) (h : InRange x1) (i : S400000.Idx) :
    0 ≤ BitVec.toInt (val_main_v1 (F := Ideal) x1 i) := by
  rw [val_main_v1_apply, val_main_v0_apply]
  exact (h _).1

/-- Entry i of the source-node index stage is entry (1, i) of the index array, so it is at least 0. -/
theorem col_nonneg (x1 : (⟨S2x400000, .i32⟩ : BufTy).Contents (Elt Ideal)) (h : InRange x1) (i : S400000.Idx) :
    0 ≤ BitVec.toInt (val_main_v3 (F := Ideal) x1 i) := by
  rw [val_main_v3_apply, val_main_v2_apply]
  exact (h _).1

end IdxAux

open IdxAux

/-- The target-node indices after normalisation are the target-node indices (first gather of layer 2). -/
theorem row_norm_31 (x1 : (⟨S2x400000, .i32⟩ : BufTy).Contents (Elt Ideal)) (h : InRange x1) : val_main_v31 (F := Ideal) x1 = val_main_v1 (F := Ideal) x1 := by
  funext i
  rw [val_main_v31_apply, val_main_v28_apply, val_main_v27_apply, val_main_c_apply]
  exact select_below_zero_of_nonneg (row_nonneg x1 h i)
/-- The source-node indices after normalisation are the source-node indices (second gather of layer 2). -/
theorem col_norm_38 (x1 : (⟨S2x400000, .i32⟩ : BufTy).Contents (Elt Ideal)) (h : InRange x1) : val_main_v38 (F := Ideal) x1 = val_main_v3 (F := Ideal) x1 := by
  funext i
  rw [val_main_v38_apply, val_main_v35_apply, val_main_v34_apply, val_main_c_4_apply]
  exact select_below_zero_of_nonneg (col_nonneg x1 h i)
/-- The same for layer 3's two gathers. -/
theorem row_norm_70 (x1 : (⟨S2x400000, .i32⟩ : BufTy).Contents (Elt Ideal)) (h : InRange x1) : val_main_v70 (F := Ideal) x1 = val_main_v1 (F := Ideal) x1 := by
  funext i
  rw [val_main_v70_apply, val_main_v67_apply, val_main_v66_apply, val_main_c_10_apply]
  exact select_below_zero_of_nonneg (row_nonneg x1 h i)
theorem col_norm_77 (x1 : (⟨S2x400000, .i32⟩ : BufTy).Contents (Elt Ideal)) (h : InRange x1) : val_main_v77 (F := Ideal) x1 = val_main_v3 (F := Ideal) x1 := by
  funext i
  rw [val_main_v77_apply, val_main_v74_apply, val_main_v73_apply, val_main_c_12_apply]
  exact select_below_zero_of_nonneg (col_nonneg x1 h i)
/-- The same for layer 4's two gathers. -/
theorem row_norm_109 (x1 : (⟨S2x400000, .i32⟩ : BufTy).Contents (Elt Ideal)) (h : InRange x1) : val_main_v109 (F := Ideal) x1 = val_main_v1 (F := Ideal) x1 := by
  funext i
  rw [val_main_v109_apply, val_main_v106_apply, val_main_v105_apply, val_main_c_18_apply]
  exact select_below_zero_of_nonneg (row_nonneg x1 h i)
theorem col_norm_116 (x1 : (⟨S2x400000, .i32⟩ : BufTy).Contents (Elt Ideal)) (h : InRange x1) : val_main_v116 (F := Ideal) x1 = val_main_v3 (F := Ideal) x1 := by
  funext i
  rw [val_main_v116_apply, val_main_v113_apply, val_main_v112_apply, val_main_c_20_apply]
  exact select_below_zero_of_nonneg (col_nonneg x1 h i)

end Cert.ReferenceIdeal.Layers

end
-- ==== Proof.Bridge.lean ====
/-
  The reference's stages are the kernel chain's. Both programs run the same host operations around the four layers:
  the two rows of the index array, the edge counts per node, the node means of a layer's edge rows, the gathers at the
  edges' endpoints, the side-by-side node tables. Stage by stage the reference's value is the chain's: the shared host
  operations by unfolding both definitions, each layer by its layer equation, and each gather because on node numbers
  the reference's negative-index normalisation changes nothing (this is where the index range is used, and the only
  place).
-/
import proofs.«411902_j85581518340249_3_alg».proof.Proof.ReadP
import proofs.«411902_j85581518340249_3_alg».proof.Proof.KChain
import proofs.«411902_j85581518340249_3_alg».proof.Proof.Layer1
import proofs.«411902_j85581518340249_3_alg».proof.Proof.Layer2
import proofs.«411902_j85581518340249_3_alg».proof.Proof.Layer3
import proofs.«411902_j85581518340249_3_alg».proof.Proof.Layer4
import proofs.«411902_j85581518340249_3_alg».proof.Proof.IdxNorm

set_option maxRecDepth 16384

noncomputable section

namespace Cert.Bridge

open Cert.ReferenceIdeal Cert.ReferenceIdeal.ReadP Cert.ReferenceIdeal.Layers Cert.Spec
open Idealize.ShloMosaic Idealize.ShloMosaic.TcCoe

variable (x1 : (⟨S2x400000, .i32⟩ : BufTy).Contents (Elt Ideal)) (x2 : (⟨S400000x4, .f32⟩ : BufTy).Contents (Elt Ideal)) (x4 : (⟨S4x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S100x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S192x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal)) (x16 : (⟨S192x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal)) (x20 : (⟨S32x32, .f32⟩ : BufTy).Contents (Elt Ideal)) (x21 : (⟨S32, .f32⟩ : BufTy).Contents (Elt Ideal)) (x22 : (⟨S32x32, .f32⟩ : BufTy).Contents (Elt Ideal)) (x23 : (⟨S32, .f32⟩ : BufTy).Contents (Elt Ideal)) (x24 : (⟨S32x4, .f32⟩ : BufTy).Contents (Elt Ideal)) (x25 : (⟨S4, .f32⟩ : BufTy).Contents (Elt Ideal)) (x26 : (⟨S32x1, .f32⟩ : BufTy).Contents (Elt Ideal)) (x27 : (⟨S1, .f32⟩ : BufTy).Contents (Elt Ideal))

/-! ## The index rows, the counts, layer 1 -/

theorem b_row : val_main_v1 (F := Ideal) x1 = Cert.KernelIdeal.Chain.row x1 := by
  unfold val_main_v1 val_main_v0; rfl
theorem b_col : val_main_v3 (F := Ideal) x1 = Cert.KernelIdeal.Chain.col x1 := by
  unfold val_main_v3 val_main_v2; rfl
theorem b_E1 : val_main_v12 (F := Ideal) x2 x4 x5 x6 x7 = Cert.KernelIdeal.Chain.E1 x2 x4 x5 x6 x7 :=
  (layer1_eq x2 x4 x5 x6 x7).symm

/-- The node means of layer 1. -/
theorem b_X1 : val_main_v24 (F := Ideal) x1 x2 x4 x5 x6 x7 = Cert.KernelIdeal.Chain.X1 x1 x2 x4 x5 x6 x7 := by
  unfold val_main_v24 val_main_v23 val_main_v15 val_main_v14 val_main_v22 val_main_v21 val_main_v19 val_main_v18
  rw [b_row x1, b_E1 x2 x4 x5 x6 x7]
  rfl

/-! ## Layer 2 -/

variable (hR : InRange x1)
include hR

theorem b_v33 : val_main_v33 (F := Ideal) x1 x2 x4 x5 x6 x7 = Cert.KernelIdeal.Chain.take32 (Cert.KernelIdeal.Chain.X1 x1 x2 x4 x5 x6 x7) (Cert.KernelIdeal.Chain.row x1) := by
  unfold val_main_v33 val_main_v32
  rw [row_norm_31 x1 hR, b_row x1, b_X1 x1 x2 x4 x5 x6 x7]
  rfl
theorem b_v40 : val_main_v40 (F := Ideal) x1 x2 x4 x5 x6 x7 = Cert.KernelIdeal.Chain.take32 (Cert.KernelIdeal.Chain.X1 x1 x2 x4 x5 x6 x7) (Cert.KernelIdeal.Chain.col x1) := by
  unfold val_main_v40 val_main_v39
  rw [col_norm_38 x1 hR, b_col x1, b_X1 x1 x2 x4 x5 x6 x7]
  rfl
theorem b_E2 : val_main_v50 (F := Ideal) x1 x2 x4 x5 x6 x7 x8 x9 x10 x11 = Cert.KernelIdeal.Chain.E2 x1 x2 x4 x5 x6 x7 x8 x9 x10 x11 := by
  rw [← layer2_eq x1 x2 x4 x5 x6 x7 x8 x9 x10 x11, b_v33 x1 x2 x4 x5 x6 x7 hR, b_v40 x1 x2 x4 x5 x6 x7 hR, b_E1 x2 x4 x5 x6 x7]
  rfl
/-- The node means of layer 2. -/
theorem b_X2 : val_main_v62 (F := Ideal) x1 x2 x4 x5 x6 x7 x8 x9 x10 x11 = Cert.KernelIdeal.Chain.X2 x1 x2 x4 x5 x6 x7 x8 x9 x10 x11 := by
  unfold val_main_v62 val_main_v61 val_main_v53 val_main_v52 val_main_v60 val_main_v59 val_main_v57 val_main_v56
  rw [b_row x1, b_E2 x1 x2 x4 x5 x6 x7 x8 x9 x10 x11 hR]
  rfl
theorem b_X21 : val_main_v64 (F := Ideal) x1 x2 x4 x5 x6 x7 x8 x9 x10 x11 = Cert.KernelIdeal.Chain.X21 x1 x2 x4 x5 x6 x7 x8 x9 x10 x11 := by
  unfold val_main_v64
  rw [b_X2 x1 x2 x4 x5 x6 x7 x8 x9 x10 x11 hR, b_X1 x1 x2 x4 x5 x6 x7]
  rfl

/-! ## Layer 3 -/

theorem b_v72 : val_main_v72 (F := Ideal) x1 x2 x4 x5 x6 x7 x8 x9 x10 x11 = Cert.KernelIdeal.Chain.take64 (Cert.KernelIdeal.Chain.X21 x1 x2 x4 x5 x6 x7 x8 x9 x10 x11) (Cert.KernelIdeal.Chain.row x1) := by
  unfold val_main_v72 val_main_v71
  rw [row_norm_70 x1 hR, b_row x1, b_X21 x1 x2 x4 x5 x6 x7 x8 x9 x10 x11 hR]
  rfl
theorem b_v79 : val_main_v79 (F := Ideal) x1 x2 x4 x5 x6 x7 x8 x9 x10 x11 = Cert.KernelIdeal.Chain.take64 (Cert.KernelIdeal.Chain.X21 x1 x2 x4 x5 x6 x7 x8 x9 x10 x11) (Cert.KernelIdeal.Chain.col x1) := by
  unfold val_main_v79 val_main_v78
  rw [col_norm_77 x1 hR, b_col x1, b_X21 x1 x2 x4 x5 x6 x7 x8 x9 x10 x11 hR]
  rfl
theorem b_E3 : val_main_v89 (F := Ideal) x1 x2 x4 x5 x6 x7 x8 x9 x10 x11 x12 x13 x14 x15 = Cert.KernelIdeal.Chain.E3 x1 x2 x4 x5 x6 x7 x8 x9 x10 x11 x12 x13 x14 x15 := by
  rw [← layer3_eq x1 x2 x4 x5 x6 x7 x8 x9 x10 x11 x12 x13 x14 x15, b_v72 x1 x2 x4 x5 x6 x7 x8 x9 x10 x11 hR, b_v79 x1 x2 x4 x5 x6 x7 x8 x9 x10 x11 hR, b_E2 x1 x2 x4 x5 x6 x7 x8 x9 x10 x11 hR, b_E1 x2 x4 x5 x6 x7]
  rfl
/-- The node means of layer 3. -/
theorem b_X3 : val_main_v101 (F := Ideal) x1 x2 x4 x5 x6 x7 x8 x9 x10 x11 x12 x13 x14 x15 = Cert.KernelIdeal.Chain.X3 x1 x2 x4 x5 x6 x7 x8 x9 x10 x11 x12 x13 x14 x15 := by
  unfold val_main_v101 val_main_v100 val_main_v92 val_main_v91 val_main_v99 val_main_v98 val_main_v96 val_main_v95
  rw [b_row x1, b_E3 x1 x2 x4 x5 x6 x7 x8 x9 x10 x11 x12 x13 x14 x15 hR]
  rfl
theorem b_X32 : val_main_v103 (F := Ideal) x1 x2 x4 x5 x6 x7 x8 x9 x10 x11 x12 x13 x14 x15 = Cert.KernelIdeal.Chain.X32 x1 x2 x4 x5 x6 x7 x8 x9 x10 x11 x12 x13 x14 x15 := by
  unfold val_main_v103
  rw [b_X3 x1 x2 x4 x5 x6 x7 x8 x9 x10 x11 x12 x13 x14 x15 hR, b_X2 x1 x2 x4 x5 x6 x7 x8 x9 x10 x11 hR]
  rfl

/-! ## Layer 4 and the two results -/

theorem b_v111 : val_main_v111 (F := Ideal) x1 x2 x4 x5 x6 x7 x8 x9 x10 x11 x12 x13 x14 x15 = Cert.KernelIdeal.Chain.take64 (Cert.KernelIdeal.Chain.X32 x1 x2 x4 x5 x6 x7 x8 x9 x10 x11 x12 x13 x14 x15) (Cert.KernelIdeal.Chain.row x1) := by
  unfold val_main_v111 val_main_v110
  rw [row_norm_109 x1 hR, b_row x1, b_X32 x1 x2 x4 x5 x6 x7 x8 x9 x10 x11 x12 x13 x14 x15 hR]
  rfl
theorem b_v118 : val_main_v118 (F := Ideal) x1 x2 x4 x5 x6 x7 x8 x9 x10 x11 x12 x13 x14 x15 = Cert.KernelIdeal.Chain.take64 (Cert.KernelIdeal.Chain.X32 x1 x2 x4 x5 x6 x7 x8 x9 x10 x11 x12 x13 x14 x15) (Cert.KernelIdeal.Chain.col x1) := by
  unfold val_main_v118 val_main_v117
  rw [col_norm_116 x1 hR, b_col x1, b_X32 x1 x2 x4 x5 x6 x7 x8 x9 x10 x11 x12 x13 x14 x15 hR]
  rfl

/-- The reference's normalised four-vector result is the chain's. -/
theorem bridge_edge : val_main_v147 (F := Ideal) x1 x2 x4 x5 x6 x7 x8 x9 x10 x11 x12 x13 x14 x15 x16 x17 x18 x19 x20 x21 x24 x25 = Cert.KernelIdeal.Chain.Edge x1 x2 x4 x5 x6 x7 x8 x9 x10 x11 x12 x13 x14 x15 x16 x17 x18 x19 x20 x21 x24 x25 := by
  rw [← layer4_edge_eq x1 x2 x4 x5 x6 x7 x8 x9 x10 x11 x12 x13 x14 x15 x16 x17 x18 x19 x20 x21 x24 x25, b_v111 x1 x2 x4 x5 x6 x7 x8 x9 x10 x11 x12 x13 x14 x15 hR, b_v118 x1 x2 x4 x5 x6 x7 x8 x9 x10 x11 x12 x13 x14 x15 hR, b_E3 x1 x2 x4 x5 x6 x7 x8 x9 x10 x11 x12 x13 x14 x15 hR, b_E2 x1 x2 x4 x5 x6 x7 x8 x9 x10 x11 hR]
  rfl
/-- The reference's logistic result is the chain's. -/
theorem bridge_prob : val_main_v157 (F := Ideal) x1 x2 x4 x5 x6 x7 x8 x9 x10 x11 x12 x13 x14 x15 x16 x17 x18 x19 x22 x23 x26 x27 = Cert.KernelIdeal.Chain.Prob x1 x2 x4 x5 x6 x7 x8 x9 x10 x11 x12 x13 x14 x15 x16 x17 x18 x19 x22 x23 x26 x27 := by
  rw [← layer4_prob_eq x1 x2 x4 x5 x6 x7 x8 x9 x10 x11 x12 x13 x14 x15 x16 x17 x18 x19 x22 x23 x26 x27, b_v111 x1 x2 x4 x5 x6 x7 x8 x9 x10 x11 x12 x13 x14 x15 hR, b_v118 x1 x2 x4 x5 x6 x7 x8 x9 x10 x11 x12 x13 x14 x15 hR, b_E3 x1 x2 x4 x5 x6 x7 x8 x9 x10 x11 x12 x13 x14 x15 hR, b_E2 x1 x2 x4 x5 x6 x7 x8 x9 x10 x11 hR]
  rfl

end Cert.Bridge

end
-- ==== Proof.PreRange.lean ====
/-
  The index range, read out of the precondition. The printed precondition is a conjunction (a chain of one-bit `and`s)
  of "every entry of this float input is finite", one per float input, and of one last conjunct: the reduction by `and`
  over every entry of the edge index array of "the entry is at least 0 and below 50000" (two signed word compares). If
  the whole predicate is the bit 1, so is its last conjunct, and a reduction by `and` that is 1 is 1 at every entry.
-/
import proofs.«411902_j85581518340249_3_alg».proof.Pre_finite_inputs
import proofs.«411902_j85581518340249_3_alg».proof.Proof.Gen.Pre_finite_inputs
import proofs.«411902_j85581518340249_3_alg».proof.Proof.Spec
import Idealize.ShloMosaic.PureOps.Ideal
import Idealize.ShloMosaic.Lib.ReduceAll
import Idealize.ShloMosaic.Lib.StableHlo.Predicate
import Idealize.ShloMosaic.Lib.ValueIdx

set_option maxRecDepth 16384

noncomputable section

namespace Cert.Pre_finite_inputs.Range

open Cert.Pre_finite_inputs Cert.Spec
open Idealize.ShloMosaic Idealize.ShloMosaic.ValueIdx

/-- Where the precondition holds of the arguments, the edge index array is in range. -/
theorem inRange_of_fn (a0 : FVec Ideal S50000x4 .f32) (a1 : IVec S2x400000 32) (a2 : FVec Ideal S400000x4 .f32) (a3 : FVec Ideal S50000x3 .f32) (a4 : FVec Ideal S4x32 .f32) (a5 : FVec Ideal S32 .f32) (a6 : FVec Ideal S32x32 .f32) (a7 : FVec Ideal S32 .f32) (a8 : FVec Ideal S100x32 .f32) (a9 : FVec Ideal S32 .f32) (a10 : FVec Ideal S32x32 .f32) (a11 : FVec Ideal S32 .f32) (a12 : FVec Ideal S192x32 .f32) (a13 : FVec Ideal S32 .f32) (a14 : FVec Ideal S32x32 .f32) (a15 : FVec Ideal S32 .f32) (a16 : FVec Ideal S192x32 .f32) (a17 : FVec Ideal S32 .f32) (a18 : FVec Ideal S32x32 .f32) (a19 : FVec Ideal S32 .f32) (a20 : FVec Ideal S32x32 .f32) (a21 : FVec Ideal S32 .f32) (a22 : FVec Ideal S32x32 .f32) (a23 : FVec Ideal S32 .f32) (a24 : FVec Ideal S32x4 .f32) (a25 : FVec Ideal S4 .f32) (a26 : FVec Ideal S32x1 .f32) (a27 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 = (fun _ => 1#1)) :
    InRange a1 := by
  -- the whole predicate at its one index; only the last conjunct is kept
  have h0 := congrFun h ValueIdx.ix0
  dsimp only [fn, fn_part1, fn_part2, fn_part3, fn_part4, fn_part5, fn_part6, fn_part7, fn_part8] at h0
  have hall := (IntOp.andi_eq_one.1 h0).2
  clear h0 h
  haveI : Subsingleton S_.Idx := ⟨fun a b => funext fun d => d.elim0⟩
  intro i
  -- a reduction by `and` that is 1 is 1 at every entry
  have hi := Host.reduce_andi_all _ _ _ _ _ hall i
  obtain ⟨hge, hlt⟩ := IntOp.andi_eq_one.1 hi
  -- the two signed compares against the broadcast words 0 and 50000
  have hge' : (0#32 : BitVec 32).toInt ≤ (a1 i).toInt := IntOp.cmpi_sge.1 hge
  have hlt' : (a1 i).toInt < (50000#32 : BitVec 32).toInt := IntOp.cmpi_slt.1 hlt
  have e0 : (0#32 : BitVec 32).toInt = 0 := by decide
  have e5 : (50000#32 : BitVec 32).toInt = 50000 := by decide
  rw [e0] at hge'
  rw [e5] at hlt'
  exact ⟨hge', hlt'⟩

end Cert.Pre_finite_inputs.Range

end
-- ==== Proof.lean ====
/-
  The certificate's five claims, assembled.

  Both frames of the kernel are its generated frame certificates. The reference has no kernel: its frame is its run, a
  straight line of host operations, with the results dropped. The idealization rewrote nothing, so there is nothing to
  preserve.

  The equivalence: on every device the idealized kernel ends with its two result buffers at the last boundary's contents
  (the run with its results named), and walking @main's buffer contents back through the four kernel regions and the
  host operations between them gives those contents as the chain of whole-array functions of the arguments: layer 1 of
  the attributes; the node means; layer 2 of the gathered means; and so on to the two heads. The reference's run, read one
  chunk of its host operations at a time, ends with its results at its own stages, which are the same chain of the same
  arguments: the host operations are the same, each layer's matrix product over a concatenated row is the sum of the
  kernel's four products over the pieces, and the reference's treatment of a negative index never applies, because the
  precondition says the edge index array holds node numbers. The arguments agree, so the results do.
-/
import proofs.«411902_j85581518340249_3_alg».proof.Defs
import proofs.«411902_j85581518340249_3_alg».proof.Proof.Gen.Kernel
import proofs.«411902_j85581518340249_3_alg».proof.Proof.Gen.Kernel.Frame
import proofs.«411902_j85581518340249_3_alg».proof.Proof.Gen.KernelIdeal
import proofs.«411902_j85581518340249_3_alg».proof.Proof.Gen.KernelIdeal.Frame
import proofs.«411902_j85581518340249_3_alg».proof.Proof.Gen.ReferenceIdeal
import proofs.«411902_j85581518340249_3_alg».proof.Proof.Gen.Pre_finite_inputs
import proofs.«411902_j85581518340249_3_alg».proof.Proof.RefTop
import proofs.«411902_j85581518340249_3_alg».proof.Proof.KRun
import proofs.«411902_j85581518340249_3_alg».proof.Proof.WalkD
import proofs.«411902_j85581518340249_3_alg».proof.Proof.Bridge
import proofs.«411902_j85581518340249_3_alg».proof.Proof.PreRange
import Idealize.ShloMosaic.Adequacy
import Idealize.ShloMosaic.Init

set_option maxRecDepth 16384

noncomputable section

namespace Cert.Proof

open Idealize.ShloMosaic Idealize.SL.Sem Idealize.ShloMosaic.ValueIdx

/-- The kernel terminates without a fault and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference terminates without a fault and leaves its arguments as launched: its run with the results dropped. -/
theorem frame_ri : Cert.frame_ReferenceIdeal := fun m ρ _ =>
  (θ_run Cert.ReferenceIdeal.defs _ _).mono (fun _ h c => (h c).2.2.2) (Cert.ReferenceIdeal.RefWalk.run (F := Ideal) m ρ)
/-- The idealization rewrote no operation. -/
theorem preserves : Cert.preserves_Kernel_KernelIdeal := trivial

/-- A rank-2 index is its two coordinates. -/
theorem split2 {n0 n1 : Nat} (i : (⟨2, ![n0, n1]⟩ : Shape).Idx) : ∃ (e : Fin n0) (a : Fin n1), i = ix2 e a :=
  ⟨⟨(i 0).val, idx2_lt0 i⟩, ⟨(i 1).val, idx2_lt1 i⟩, by funext d; match d with | ⟨0, _⟩ => rfl | ⟨1, _⟩ => rfl⟩

set_option maxHeartbeats 2000000 in
/-- From memories that agree on the arguments, under the precondition, the idealized kernel and the idealized
    reference both run and end with equal results. -/
theorem algebraic : Cert.algebraic_KernelIdeal_ReferenceIdeal := by
  intro m ρ m' ρ' hpre hagree
  have hR : ∀ c : Dev Cert.KernelIdeal.nD, Cert.Spec.InRange (m ((c.tc : Thread Cert.KernelIdeal.nD Cert.KernelIdeal.τ).loc Cert.KernelIdeal.main_arg1)) := fun c =>
    Cert.Pre_finite_inputs.Range.inRange_of_fn _ _ _ _ _ _ _ _ _ _ _ _ _ _ _ _ _ _ _ _ _ _ _ _ _ _ _ _ (hpre c)
  refine ⟨fun c => Cert.KernelIdeal.Chain.Prob (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)),
    fun c => Cert.KernelIdeal.Chain.Edge (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    fun c => (m ((c.tc : Thread Cert.KernelIdeal.nD Cert.KernelIdeal.τ).loc Cert.KernelIdeal.main_arg3)), ?_, ?_⟩
  · -- the kernel: its results are the last boundary's contents, which the walk reads as the chain
    refine (θ_run Cert.KernelIdeal.defs _ _).mono (fun r h c => ⟨(h c).1.trans ?_, (h c).2.1.trans ?_, (h c).2.2⟩)
      (Cert.KernelIdeal.RunValues.run_values (F := Ideal) m ρ)
    · funext i
      obtain ⟨e, z, rfl⟩ := split2 i
      obtain rfl : z = 0 := Subsingleton.elim _ _
      exact Cert.KernelIdeal.Walk.walk_prob m ρ c e
    · funext i
      obtain ⟨e, a, rfl⟩ := split2 i
      exact Cert.KernelIdeal.Walk.walk_edge m ρ c e a
  · -- the reference: its results are its stages, which are the chain of ITS arguments, which are the kernel's
    refine (θ_run Cert.ReferenceIdeal.defs _ _).mono
      (fun r h c => ⟨(h c).1.trans ?_, (h c).2.1.trans ?_, (h c).2.2.1.trans ?_, (h c).2.2.2⟩)
      (Cert.ReferenceIdeal.RefWalk.run (F := Ideal) m' ρ')
    · obtain ⟨g0, g1, g2, g3, g4, g5, g6, g7, g8, g9, g10, g11, g12, g13, g14, g15, g16, g17, g18, g19, g20, g21, g22, g23, g24, g25, g26, g27⟩ := hagree c
      have hR' : Cert.Spec.InRange (m' ((c.tc : Thread Cert.ReferenceIdeal.nD Cert.ReferenceIdeal.τ).loc Cert.ReferenceIdeal.main_arg1)) := by
        rw [g1]; exact hR c
      rw [Cert.Bridge.bridge_prob _ _ _ _ _ _ _ _ _ _ _ _ _ _ _ _ _ _ _ _ _ _ hR']
      rw [g1, g2, g4, g5, g6, g7, g8, g9, g10, g11, g12, g13, g14, g15, g16, g17, g18, g19, g22, g23, g26, g27]
    · obtain ⟨g0, g1, g2, g3, g4, g5, g6, g7, g8, g9, g10, g11, g12, g13, g14, g15, g16, g17, g18, g19, g20, g21, g22, g23, g24, g25, g26, g27⟩ := hagree c
      have hR' : Cert.Spec.InRange (m' ((c.tc : Thread Cert.ReferenceIdeal.nD Cert.ReferenceIdeal.τ).loc Cert.ReferenceIdeal.main_arg1)) := by
        rw [g1]; exact hR c
      rw [Cert.Bridge.bridge_edge _ _ _ _ _ _ _ _ _ _ _ _ _ _ _ _ _ _ _ _ _ _ hR']
      rw [g1, g2, g4, g5, g6, g7, g8, g9, g10, g11, g12, g13, g14, g15, g16, g17, g18, g19, g20, g21, g24, g25]
    · exact (hagree c).2.2.2.1

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
